-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20000x11 : Shape := ⟨3, ![16, 20000, 11]⟩
abbrev S2x160000 : Shape := ⟨2, ![2, 160000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x20000 : Shape := ⟨2, ![1, 20000]⟩
abbrev S_ : Shape := ⟨0, ![]⟩

class Facts : Prop where
  bcast_S_S16x20000x11 : S_.BroadcastsInDim S16x20000x11 (![] : Fin 0 → Fin S16x20000x11.rank)
  reducesTo_S16x20000x11_S_d0_1_2 : S16x20000x11.ReducesTo [0, 1, 2] S_
  h_S_ : 0 < S_.numel
  bcast_S_S32x11 : S_.BroadcastsInDim S32x11 (![] : Fin 0 → Fin S32x11.rank)
  reducesTo_S32x11_S_d0_1 : S32x11.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S1x20000 : S_.BroadcastsInDim S1x20000 (![] : Fin 0 → Fin S1x20000.rank)
  reducesTo_S1x20000_S_d0_1 : S1x20000.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part4 {F : FTy → Type} [FloatOps F] (main_arg1 : IVec S2x160000 32) (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S2x160000 32 := broadcastInDim S2x160000 ![] bcast_S_S2x160000 main_c_28
  let main_v75 : IVec S2x160000 1 := cmpi .sge main_arg1 main_v74
  let main_c_29 : IVec S_ 1 := constantI S_ 1 1#1
  let main_v76 : IVec S_ 1 := (fun x v => Host.reduce IntOp.andi x v reducesTo_S2x160000_S_d0_1 h_S_) main_v75 main_c_29
  let main_v77 : IVec S_ 1 := andi main_v73 main_v76
  let main_c_30 : IVec S_ 32 := constantI S_ 32 20000#32
  let main_v78 : IVec S2x160000 32 := broadcastInDim S2x160000 ![] bcast_S_S2x160000 main_c_30
  let main_v79 : IVec S2x160000 1 := cmpi .slt main_arg1 main_v78
  let main_c_31 : IVec S_ 1 := constantI S_ 1 1#1
  let main_v80 : IVec S_ 1 := (fun x v => Host.reduce IntOp.andi x v reducesTo_S2x160000_S_d0_1 h_S_) main_v79 main_c_31
  let main_v81 : IVec S_ 1 := andi main_v77 main_v80
  main_v81

def fn_part3 {F : FTy → Type} [FloatOps F] (main_arg1 : IVec S2x160000 32) (main_arg12 : FVec F S1x32 .f32) (main_arg13 : FVec F S1 .f32) (main_arg14 : FVec F S1x20000 .f32) (main_arg15 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg12
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x20000 .f32 := Host.absf main_arg14
  let main_cst_24 : FVec F S_ .f32 := constant S_ .f32 0x7F800000#32
  let main_v65 : FVec F S1x20000 .f32 := broadcastInDim S1x20000 ![] bcast_S_S1x20000 main_cst_24
  let main_v66 : IVec S1x20000 1 := cmpf .olt main_v64 main_v65
  let main_c_25 : IVec S_ 1 := constantI S_ 1 1#1
  let main_v67 : IVec S_ 1 := (fun x v => Host.reduce IntOp.andi x v reducesTo_S1x20000_S_d0_1 h_S_) main_v66 main_c_25
  fn_part4 (F := F) main_arg1 main_arg15 main_v63 main_v67

def fn_part2 {F : FTy → Type} [FloatOps F] (main_arg1 : IVec S2x160000 32) (main_arg8 : FVec F S32x32 .f32) (main_arg9 : FVec F S32 .f32) (main_arg10 : FVec F S32x32 .f32) (main_arg11 : FVec F S32 .f32) (main_arg12 : FVec F S1x32 .f32) (main_arg13 : FVec F S1 .f32) (main_arg14 : FVec F S1x20000 .f32) (main_arg15 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg1 main_arg12 main_arg13 main_arg14 main_arg15 main_v48 main_v49 main_v50

def fn_part1 {F : FTy → Type} [FloatOps F] (main_arg1 : IVec S2x160000 32) (main_arg5 : FVec F S32 .f32) (main_arg6 : FVec F S32x64 .f32) (main_arg7 : FVec F S32 .f32) (main_arg8 : FVec F S32x32 .f32) (main_arg9 : FVec F S32 .f32) (main_arg10 : FVec F S32x32 .f32) (main_arg11 : FVec F S32 .f32) (main_arg12 : FVec F S1x32 .f32) (main_arg13 : FVec F S1 .f32) (main_arg14 : FVec F S1x20000 .f32) (main_arg15 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S16x20000x11 .f32) (main_arg1 : IVec S2x160000 32) (main_arg2 : FVec F S32x11 .f32) (main_arg3 : FVec F S32 .f32) (main_arg4 : FVec F S32x32 .f32) (main_arg5 : FVec F S32 .f32) (main_arg6 : FVec F S32x64 .f32) (main_arg7 : FVec F S32 .f32) (main_arg8 : FVec F S32x32 .f32) (main_arg9 : FVec F S32 .f32) (main_arg10 : FVec F S32x32 .f32) (main_arg11 : FVec F S32 .f32) (main_arg12 : FVec F S1x32 .f32) (main_arg13 : FVec F S1 .f32) (main_arg14 : FVec F S1x20000 .f32) (main_arg15 : FVec F S1 .f32) : IVec S_ 1 :=
  let main_v0 : FVec F S16x20000x11 .f32 := Host.absf main_arg0
  let main_cst : FVec F S_ .f32 := constant S_ .f32 0x7F800000#32
  let main_v1 : FVec F S16x20000x11 .f32 := broadcastInDim S16x20000x11 ![] bcast_S_S16x20000x11 main_cst
  let main_v2 : IVec S16x20000x11 1 := cmpf .olt main_v0 main_v1
  let main_c : IVec S_ 1 := constantI S_ 1 1#1
  let main_v3 : IVec S_ 1 := (fun x v => Host.reduce IntOp.andi x v reducesTo_S16x20000x11_S_d0_1_2 h_S_) main_v2 main_c
  let main_v4 : FVec F S32x11 .f32 := Host.absf main_arg2
  let main_cst_0 : FVec F S_ .f32 := constant S_ .f32 0x7F800000#32
  let main_v5 : FVec F S32x11 .f32 := broadcastInDim S32x11 ![] bcast_S_S32x11 main_cst_0
  let main_v6 : IVec S32x11 1 := cmpf .olt main_v4 main_v5
  let main_c_1 : IVec S_ 1 := constantI S_ 1 1#1
  let main_v7 : IVec S_ 1 := (fun x v => Host.reduce IntOp.andi x v reducesTo_S32x11_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S16x20000x11 : Shape := ⟨3, ![16, 20000, 11]⟩
abbrev S2x160000 : Shape := ⟨2, ![2, 160000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x20000 : Shape := ⟨2, ![1, 20000]⟩
abbrev S320000x11 : Shape := ⟨2, ![320000, 11]⟩
abbrev S11x32 : Shape := ⟨2, ![11, 32]⟩
abbrev S320000x32 : Shape := ⟨2, ![320000, 32]⟩
abbrev S8000x11 : Shape := ⟨2, ![8000, 11]⟩
abbrev S8000x32 : Shape := ⟨2, ![8000, 32]⟩
abbrev S16x20000x32 : Shape := ⟨3, ![16, 20000, 32]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1x1 : Shape := ⟨2, ![1, 1]⟩
abbrev S16x160000x32 : Shape := ⟨3, ![16, 160000, 32]⟩
abbrev S2560000x32 : Shape := ⟨2, ![2560000, 32]⟩
abbrev S160000x16x32 : Shape := ⟨3, ![160000, 16, 32]⟩
abbrev S20000x16x32 : Shape := ⟨3, ![20000, 16, 32]⟩
abbrev S20000 : Shape := ⟨1, ![20000]⟩
abbrev S20000x1x1 : Shape := ⟨3, ![20000, 1, 1]⟩
abbrev S32x1 : Shape := ⟨2, ![32, 1]⟩
abbrev S320000x1 : Shape := ⟨2, ![320000, 1]⟩
abbrev S8000x1 : Shape := ⟨2, ![8000, 1]⟩
abbrev S16x20000 : Shape := ⟨2, ![16, 20000]⟩
abbrev S20000x1 : Shape := ⟨2, ![20000, 1]⟩
abbrev S16x1 : Shape := ⟨2, ![16, 1]⟩

abbrev nBuf : Space → Nat
  | .hbm => 149
  | .vmem => 27
  | .smem => 0
  | _ => 0

abbrev hbmTy0_0 (i : Nat) : BufTy := match i % 128 with
  | 0 => ⟨S16x20000x11, .f32⟩
  | 1 => ⟨S2x160000, .i32⟩
  | 2 => ⟨S32x11, .f32⟩
  | 3 => ⟨S32, .f32⟩
  | 4 => ⟨S32x32, .f32⟩
  | 5 => ⟨S32, .f32⟩
  | 6 => ⟨S32x64, .f32⟩
  | 7 => ⟨S32, .f32⟩
  | 8 => ⟨S32x32, .f32⟩
  | 9 => ⟨S32, .f32⟩
  | 10 => ⟨S32x32, .f32⟩
  | 11 => ⟨S32, .f32⟩
  | 12 => ⟨S1x32, .f32⟩
  | 13 => ⟨S1, .f32⟩
  | 14 => ⟨S1x20000, .f32⟩
  | 15 => ⟨S1, .f32⟩
  | 16 => ⟨S320000x11, .f32⟩
  | 17 => ⟨S11x32, .f32⟩
  | 18 => ⟨S1x32, .f32⟩
  | 19 => ⟨S32x32, .f32⟩
  | 20 => ⟨S1x32, .f32⟩
  | 21 => ⟨S320000x32, .f32⟩
  | 22 => ⟨S16x20000x32, .f32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S1, .i32⟩
  | 34 => ⟨S_, .i32⟩
  | 35 => ⟨S160000x1, .i32⟩
  | 36 => ⟨S160000x1, .i1⟩
  | 37 => ⟨S1x1, .i32⟩
  | 38 => ⟨S160000x1, .i32⟩
  | 39 => ⟨S160000x1, .i1⟩
  | 40 => ⟨S160000x1, .i1⟩
  | 41 => ⟨S_, .i1⟩
  | 42 => ⟨S160000, .i1⟩
  | 43 => ⟨S16x160000x32, .f32⟩
  | 44 => ⟨S16x160000x32, .i1⟩
  | 45 => ⟨S_, .f32⟩
  | 46 => ⟨S16x160000x32, .f32⟩
  | 47 => ⟨S16x160000x32, .f32⟩
  | 48 => ⟨S2560000x32, .f32⟩
  | 49 => ⟨S1x160000, .i32⟩
  | 50 => ⟨S160000, .i32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S1, .i32⟩
  | 60 => ⟨S_, .i32⟩
  | 61 => ⟨S160000x1, .i32⟩
  | 62 => ⟨S160000x1, .i1⟩
  | 63 => ⟨S1x1, .i32⟩
  | 64 => ⟨S160000x1, .i32⟩
  | 65 => ⟨S160000x1, .i1⟩
  | 66 => ⟨S160000x1, .i1⟩
  | 67 => ⟨S_, .i1⟩
  | 68 => ⟨S160000, .i1⟩
  | 69 => ⟨S16x160000x32, .f32⟩
  | 70 => ⟨S16x160000x32, .i1⟩
  | 71 => ⟨S_, .f32⟩
  | 72 => ⟨S16x160000x32, .f32⟩
  | 73 => ⟨S16x160000x32, .f32⟩
  | 74 => ⟨S2560000x32, .f32⟩
  | 75 => ⟨S32x32, .f32⟩
  | 76 => ⟨S32x32, .f32⟩
  | 77 => ⟨S32x32, .f32⟩
  | 78 => ⟨S32x32, .f32⟩
  | 79 => ⟨S1x32, .f32⟩
  | 80 => ⟨S32x32, .f32⟩
  | 81 => ⟨S1x32, .f32⟩
  | 82 => ⟨S2560000x32, .f32⟩
  | 83 => ⟨S16x160000x32, .f32⟩
  | 84 => ⟨S160000x16x32, .f32⟩
  | 85 => ⟨S1x160000, .i32⟩
  | 86 => ⟨S160000, .i32⟩
  | 87 => ⟨S_, .f32⟩
  | 88 => ⟨S20000x16x32, .f32⟩
  | 89 => ⟨S160000x1, .i32⟩
  | 90 => ⟨S20000x16x32, .f32⟩
  | 91 => ⟨S1x160000, .i32⟩
  | 92 => ⟨S160000, .i32⟩
  | 93 => ⟨S_, .f32⟩
  | 94 => ⟨S20000x16x32, .f32⟩
  | 95 => ⟨S160000x1, .i32⟩
  | 96 => ⟨S20000x16x32, .f32⟩
  | 97 => ⟨S20000x16x32, .f32⟩
  | 98 => ⟨S_, .f32⟩
  | 99 => ⟨S160000, .f32⟩
  | 100 => ⟨S1x160000, .i32⟩
  | 101 => ⟨S160000, .i32⟩
  | 102 => ⟨S_, .f32⟩
  | 103 => ⟨S20000, .f32⟩
  | 104 => ⟨S160000x1, .i32⟩
  | 105 => ⟨S20000, .f32⟩
  | 106 => ⟨S1x160000, .i32⟩
  | 107 => ⟨S160000, .i32⟩
  | 108 => ⟨S_, .f32⟩
  | 109 => ⟨S20000, .f32⟩
  | 110 => ⟨S160000x1, .i32⟩
  | 111 => ⟨S20000, .f32⟩
  | 112 => ⟨S20000, .f32⟩
  | 113 => ⟨S20000x1x1, .f32⟩
  | 114 => ⟨S_, .f32⟩
  | 115 => ⟨S20000x1x1, .f32⟩
  | 116 => ⟨S20000x1x1, .i1⟩
  | 117 => ⟨S_, .f32⟩
  | 118 => ⟨S20000, .f32⟩
  | 119 => ⟨S20000, .f32⟩
  | 120 => ⟨S20000x1x1, .f32⟩
  | 121 => ⟨S20000x16x32, .f32⟩
  | 122 => ⟨S20000x16x32, .f32⟩
  | 123 => ⟨S_, .f32⟩
  | 124 => ⟨S_, .f32⟩
  | 125 => ⟨S20000x16x32, .i1⟩
  | 126 => ⟨S20000x16x32, .f32⟩
  | 127 => ⟨S20000x16x32, .f32⟩
  | _ => ⟨S16x20000x11, .f32⟩

abbrev hbmTy0_1 (i : Nat) : BufTy := match i % 128 with
  | 0 => ⟨S16x20000x32, .f32⟩
  | 1 => ⟨S320000x32, .f32⟩
  | 2 => ⟨S32x32, .f32⟩
  | 3 => ⟨S1x32, .f32⟩
  | 4 => ⟨S32x1, .f32⟩
  | 5 => ⟨S1x1, .f32⟩
  | 6 => ⟨S320000x1, .f32⟩
  | 7 => ⟨S16x20000, .f32⟩
  | 8 => ⟨S20000x1, .f32⟩
  | 9 => ⟨S16x1, .f32⟩
  | 10 => ⟨S1x1, .f32⟩
  | 11 => ⟨S16x1, .f32⟩
  | 12 => ⟨S16x1, .f32⟩
  | 13 => ⟨S16x1, .f32⟩
  | 14 => ⟨S16x1, .f32⟩
  | 15 => ⟨S_, .f32⟩
  | 16 => ⟨S16x1, .f32⟩
  | 17 => ⟨S16x1, .f32⟩
  | 18 => ⟨S_, .f32⟩
  | 19 => ⟨S16x1, .f32⟩
  | 20 => ⟨S16x1, .f32⟩
  | _ => ⟨S16x20000x11, .f32⟩

abbrev hbmTy (i : Nat) : BufTy := match i / 128 with
  | 0 => hbmTy0_0 i
  | 1 => hbmTy0_1 i
  | _ => ⟨S16x20000x11, .f32⟩

abbrev bufTy : (tb : Table) → Fin (tcTables nBuf tb) → BufTy
  | .hbm, ⟨i, _⟩ => hbmTy i
  | .local _ .vmem, ⟨0, _⟩ => ⟨S8000x11, .f32⟩
  | .local _ .vmem, ⟨1, _⟩ => ⟨S8000x11, .f32⟩
  | .local _ .vmem, ⟨2, _⟩ => ⟨S11x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S8000x32, .f32⟩
  | .local _ .vmem, ⟨11, _⟩ => ⟨S8000x32, .f32⟩
  | .local _ .vmem, ⟨12, _⟩ => ⟨S32x32, .f32⟩
  | .local _ .vmem, ⟨13, _⟩ => ⟨S32x32, .f32⟩
  | .local _ .vmem, ⟨14, _⟩ => ⟨S1x32, .f32⟩
  | .local _ .vmem, ⟨15, _⟩ => ⟨S32x32, .f32⟩
  | .local _ .vmem, ⟨16, _⟩ => ⟨S1x32, .f32⟩
  | .local _ .vmem, ⟨17, _⟩ => ⟨S8000x32, .f32⟩
  | .local _ .vmem, ⟨18, _⟩ => ⟨S8000x32, .f32⟩
  | .local _ .vmem, ⟨19, _⟩ => ⟨S8000x32, .f32⟩
  | .local _ .vmem, ⟨20, _⟩ => ⟨S8000x32, .f32⟩
  | .local _ .vmem, ⟨21, _⟩ => ⟨S32x32, .f32⟩
  | .local _ .vmem, ⟨22, _⟩ => ⟨S1x32, .f32⟩
  | .local _ .vmem, ⟨23, _⟩ => ⟨S32x1, .f32⟩
  | .local _ .vmem, ⟨24, _⟩ => ⟨S1x1, .f32⟩
  | .local _ .vmem, ⟨25, _⟩ => ⟨S8000x1, .f32⟩
  | .local _ .vmem, ⟨26, _⟩ => ⟨S8000x1, .f32⟩
  | _, _ => ⟨S16x20000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_cst_0 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_cst_1 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_cst_2 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_3 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_cst_4 : Ref sig .tc := ⟨.hbm, 114, rfl⟩
abbrev main_v49 : Ref sig .tc := ⟨.hbm, 115, rfl⟩
abbrev main_v50 : Ref sig .tc := ⟨.hbm, 116, rfl⟩
abbrev main_cst_5 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_cst_6 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_7 : Ref sig .tc := ⟨.hbm, 143, rfl⟩
abbrev main_v72 : Ref sig .tc := ⟨.hbm, 144, rfl⟩
abbrev main_v73 : Ref sig .tc := ⟨.hbm, 145, rfl⟩
abbrev main_cst_8 : Ref sig .tc := ⟨.hbm, 146, rfl⟩
abbrev main_v74 : Ref sig .tc := ⟨.hbm, 147, rfl⟩
abbrev main_v75 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S16x20000x11_S320000x11 : S16x20000x11.ShapeCasts S320000x11
  transposes_S32x11_S11x32_1_0 : S32x11.Transposes [1, 0] S11x32
  shapeCasts_S32_S1x32 : S32.ShapeCasts S1x32
  transposes_S32x32_S32x32_1_0 : S32x32.Transposes [1, 0] S32x32
  inb_S8000x11_S8000x11_0_0 : ∀ a, (![0, 0] : Fin 2 → Nat) a + S8000x11.size a ≤ S8000x11.size a
  h_S8000x11 : 0 < S8000x11.numel
  shapeCasts_S8000x11_S8000x11 : S8000x11.ShapeCasts S8000x11
  bitsLt_bf16_f32 : FTy.bits .bf16 < FTy.bits .f32
  inb_S11x32_S11x32_0_0 : ∀ a, (![0, 0] : Fin 2 → Nat) a + S11x32.size a ≤ S11x32.size a
  h_S11x32 : 0 < S11x32.numel
  shapeCasts_S11x32_S11x32 : S11x32.ShapeCasts S11x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S8000x32_S8000x32_0_0 : ∀ a, (![0, 0] : Fin 2 → Nat) a + S8000x32.size a ≤ S8000x32.size a
  h_S8000x32 : 0 < S8000x32.numel
  shapeCasts_S320000x32_S16x20000x32 : S320000x32.ShapeCasts S16x20000x32
  slices_S2x160000_S1x160000_0_0 : S2x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S16x160000x32_1 : S160000.BroadcastsInDim S16x160000x32 (![1] : Fin 1 → Fin S16x160000x32.rank)
  bcast_S_S16x160000x32 : S_.BroadcastsInDim S16x160000x32 (![] : Fin 0 → Fin S16x160000x32.rank)
  shapeCasts_S16x160000x32_S2560000x32 : S16x160000x32.ShapeCasts S2560000x32
  slices_S2x160000_S1x160000_1_0 : S2x160000.Slices ![1, 0] S1x160000
  slices_S32x64_S32x32_0_0 : S32x64.Slices ![0, 0] S32x32
  slices_S32x64_S32x32_0_32 : S32x64.Slices ![0, 32] S32x32
  shapeCasts_S8000x32_S8000x32 : S8000x32.ShapeCasts S8000x32
  shapeCasts_S2560000x32_S16x160000x32 : S2560000x32.ShapeCasts S16x160000x32
  transposes_S16x160000x32_S160000x16x32_1_0_2 : S16x160000x32.Transposes [1, 0, 2] S160000x16x32
  bcast_S_S20000x16x32 : S_.BroadcastsInDim S20000x16x32 (![] : Fin 0 → Fin S20000x16x32.rank)
  bcast_S_S20000 : S_.BroadcastsInDim S20000 (![] : Fin 0 → Fin S20000.rank)
  bcast_S20000_S20000x1x1_0 : S20000.BroadcastsInDim S20000x1x1 (![0] : Fin 1 → Fin S20000x1x1.rank)
  bcast_S_S20000x1x1 : S_.BroadcastsInDim S20000x1x1 (![] : Fin 0 → Fin S20000x1x1.rank)
  bcast_S20000x1x1_S20000x16x32_0_1_2 : S20000x1x1.BroadcastsInDim S20000x16x32 (![0, 1, 2] : Fin 3 → Fin S20000x16x32.rank)
  transposes_S20000x16x32_S16x20000x32_1_0_2 : S20000x16x32.Transposes [1, 0, 2] S16x20000x32
  shapeCasts_S16x20000x32_S320000x32 : S16x20000x32.ShapeCasts S320000x32
  transposes_S1x32_S32x1_1_0 : S1x32.Transposes [1, 0] S32x1
  shapeCasts_S1_S1x1 : S1.ShapeCasts S1x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S320000x1_S16x20000 : S320000x1.ShapeCasts S16x20000
  transposes_S1x20000_S20000x1_1_0 : S1x20000.Transposes [1, 0] S20000x1
  bcast_S1x1_S16x1_0_1 : S1x1.BroadcastsInDim S16x1 (![0, 1] : Fin 2 → Fin S16x1.rank)
  bcast_S_S16x1 : S_.BroadcastsInDim S16x1 (![] : Fin 0 → Fin S16x1.rank)
  dot_S8000x11_S11x32_S8000x32_1_0_0_1_n_n_wf : DotDims.WF S8000x11 S11x32 S8000x32 [1] [0] [0] [1] [] []
  dot_S8000x32_S32x32_S8000x32_1_0_0_1_n_n_wf : DotDims.WF S8000x32 S32x32 S8000x32 [1] [0] [0] [1] [] []
  gather_S16x20000x32_S160000x1_S16x160000x32_02_1_n_n_1_1_16132_wf : GatherDims.WF S16x20000x32 S160000x1 S16x160000x32 [0, 2] [1] [] [1] [] 1 ![16, 1, 32]
  scatter_S20000x16x32_S160000x1_S160000x16x32_12_0_0_1_wf : ScatterDims.WF S20000x16x32 S160000x1 S160000x16x32 [1, 2] [0] [0] 1
  scatter_S20000_S160000x1_S160000_n_0_0_1_wf : ScatterDims.WF S20000 S160000x1 S160000 [] [0] [0] 1
  dot_S8000x32_S32x1_S8000x1_1_0_0_1_n_n_wf : DotDims.WF S8000x32 S32x1 S8000x1 [1] [0] [0] [1] [] []
  dot_S16x20000_S20000x1_S16x1_1_0_0_1_n_n_wf : DotDims.WF S16x20000 S20000x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x11.size a ≤ S320000x11.size a
  hwx0_0 : ∀ i : grid0.Coords, EltTy.bits .f32 = 32 ∨ (Rect.block (s := S320000x11) S8000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x32.size a ≤ S11x32.size a
  hwx0_1 : ∀ i : grid0.Coords, EltTy.bits .f32 = 32 ∨ (Rect.block (s := S11x32) S11x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x32.size a ≤ S320000x32.size a
  hwx0_5 : ∀ i : grid0.Coords, EltTy.bits .f32 = 32 ∨ (Rect.block (s := S320000x32) S8000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S2560000x32.size a
  hwx1_0 : ∀ i : grid1.Coords, EltTy.bits .f32 = 32 ∨ (Rect.block (s := S2560000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S2560000x32.size a
  hwx1_1 : ∀ i : grid1.Coords, EltTy.bits .f32 = 32 ∨ (Rect.block (s := S2560000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x32.size a ≤ S2560000x32.size a
  hwx1_7 : ∀ i : grid1.Coords, EltTy.bits .f32 = 32 ∨ (Rect.block (s := S2560000x32) S8000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S320000x32.size a
  hwx2_0 : ∀ i : grid2.Coords, EltTy.bits .f32 = 32 ∨ (Rect.block (s := S320000x32) S8000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x1.size a ≤ S320000x1.size a
  hwx2_5 : ∀ i : grid2.Coords, EltTy.bits .f32 = 32 ∨ (Rect.block (s := S320000x1) S8000x1.size (cc2_transform_5 i) (hinb2_5 i)).WholeWords (EltTy.packing .f32)

variable [Facts₀]

def dot_S8000x11_S11x32_S8000x32_1_0_0_1_n_n : DotDims S8000x11 S11x32 S8000x32 where
  lhsContracting := [1]
  rhsContracting := [0]
  lhsNonContracting := [0]
  rhsNonContracting := [1]
  lhsBatch := []
  rhsBatch := []
  wf := dot_S8000x11_S11x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def gather_S16x20000x32_S160000x1_S16x160000x32_02_1_n_n_1_1_16132 : GatherDims S16x20000x32 S160000x1 S16x160000x32 where
  offsetDims := [0, 2]
  collapsedSliceDims := [1]
  operandBatchingDims := []
  startIndicesBatchingDims := []
  startIndexMap := [1]
  indexVectorDim := 1
  sliceSizes := ![16, 1, 32]
  wf := gather_S16x20000x32_S160000x1_S16x160000x32_02_1_n_n_1_1_16132_wf
def scatter_S20000x16x32_S160000x1_S160000x16x32_12_0_0_1 : ScatterDims S20000x16x32 S160000x1 S160000x16x32 where
  updateWindowDims := [1, 2]
  insertedWindowDims := [0]
  scatterDimsToOperandDims := [0]
  indexVectorDim := 1
  wf := scatter_S20000x16x32_S160000x1_S160000x16x32_12_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S8000x32_S32x1_S8000x1_1_0_0_1_n_n : DotDims S8000x32 S32x1 S8000x1 where
  lhsContracting := [1]
  rhsContracting := [0]
  lhsNonContracting := [0]
  rhsNonContracting := [1]
  lhsBatch := []
  rhsBatch := []
  wf := dot_S8000x32_S32x1_S8000x1_1_0_0_1_n_n_wf
def dot_S16x20000_S20000x1_S16x1_1_0_0_1_n_n : DotDims S16x20000 S20000x1 S16x1 where
  lhsContracting := [1]
  rhsContracting := [0]
  lhsNonContracting := [0]
  rhsNonContracting := [1]
  lhsBatch := []
  rhsBatch := []
  wf := dot_S16x20000_S20000x1_S16x1_1_0_0_1_n_n_wf

abbrev win0_0 : Pipeline.Window sig grid0 :=
  Pipeline.Window.ofSpec (Memref.whole main_v0) S8000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S11x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S8000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v58) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S8000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x20000x11 : Shape := ⟨3, ![16, 20000, 11]⟩
abbrev S2x160000 : Shape := ⟨2, ![2, 160000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x20000 : Shape := ⟨2, ![1, 20000]⟩
abbrev S16x20000x32 : Shape := ⟨3, ![16, 20000, 32]⟩
abbrev S1x1x32 : Shape := ⟨3, ![1, 1, 32]⟩
abbrev S_ : Shape := ⟨0, ![]⟩
abbrev S1x160000 : Shape := ⟨2, ![1, 160000]⟩
abbrev S160000 : Shape := ⟨1, ![160000]⟩
abbrev S160000x1 : Shape := ⟨2, ![160000, 1]⟩
abbrev S16x160000x32 : Shape := ⟨3, ![16, 160000, 32]⟩
abbrev S16x160000x64 : Shape := ⟨3, ![16, 160000, 64]⟩
abbrev S16x320000x32 : Shape := ⟨3, ![16, 320000, 32]⟩
abbrev S320000 : Shape := ⟨1, ![320000]⟩
abbrev S320000x16x32 : Shape := ⟨3, ![320000, 16, 32]⟩
abbrev S20000x16x32 : Shape := ⟨3, ![20000, 16, 32]⟩
abbrev S320000x1 : Shape := ⟨2, ![320000, 1]⟩
abbrev S20000 : Shape := ⟨1, ![20000]⟩
abbrev S20000x1x1 : Shape := ⟨3, ![20000, 1, 1]⟩
abbrev S16x20000x1 : Shape := ⟨3, ![16, 20000, 1]⟩
abbrev S1x1x1 : Shape := ⟨3, ![1, 1, 1]⟩
abbrev S16x20000 : Shape := ⟨2, ![16, 20000]⟩
abbrev S16x1 : Shape := ⟨2, ![16, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S16x20000x11, .f32⟩
  | 1 => ⟨S2x160000, .i32⟩
  | 2 => ⟨S32x11, .f32⟩
  | 3 => ⟨S32, .f32⟩
  | 4 => ⟨S32x32, .f32⟩
  | 5 => ⟨S32, .f32⟩
  | 6 => ⟨S32x64, .f32⟩
  | 7 => ⟨S32, .f32⟩
  | 8 => ⟨S32x32, .f32⟩
  | 9 => ⟨S32, .f32⟩
  | 10 => ⟨S32x32, .f32⟩
  | 11 => ⟨S32, .f32⟩
  | 12 => ⟨S1x32, .f32⟩
  | 13 => ⟨S1, .f32⟩
  | 14 => ⟨S1x20000, .f32⟩
  | 15 => ⟨S1, .f32⟩
  | 16 => ⟨S16x20000x32, .f32⟩
  | 17 => ⟨S1x1x32, .f32⟩
  | 18 => ⟨S16x20000x32, .f32⟩
  | 19 => ⟨S16x20000x32, .f32⟩
  | 20 => ⟨S_, .f32⟩
  | 21 => ⟨S16x20000x32, .f32⟩
  | 22 => ⟨S16x20000x32, .f32⟩
  | 23 => ⟨S16x20000x32, .f32⟩
  | 24 => ⟨S1x1x32, .f32⟩
  | 25 => ⟨S16x20000x32, .f32⟩
  | 26 => ⟨S16x20000x32, .f32⟩
  | 27 => ⟨S_, .f32⟩
  | 28 => ⟨S16x20000x32, .f32⟩
  | 29 => ⟨S16x20000x32, .i1⟩
  | 30 => ⟨S_, .f32⟩
  | 31 => ⟨S16x20000x32, .f32⟩
  | 32 => ⟨S16x20000x32, .f32⟩
  | 33 => ⟨S16x20000x32, .f32⟩
  | 34 => ⟨S1x160000, .i32⟩
  | 35 => ⟨S160000, .i32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S16x160000x32, .f32⟩
  | 45 => ⟨S1x160000, .i32⟩
  | 46 => ⟨S160000, .i32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S16x160000x32, .f32⟩
  | 56 => ⟨S16x160000x64, .f32⟩
  | 57 => ⟨S16x160000x32, .f32⟩
  | 58 => ⟨S1x1x32, .f32⟩
  | 59 => ⟨S16x160000x32, .f32⟩
  | 60 => ⟨S16x160000x32, .f32⟩
  | 61 => ⟨S_, .f32⟩
  | 62 => ⟨S16x160000x32, .f32⟩
  | 63 => ⟨S16x160000x32, .f32⟩
  | 64 => ⟨S16x160000x32, .f32⟩
  | 65 => ⟨S1x1x32, .f32⟩
  | 66 => ⟨S16x160000x32, .f32⟩
  | 67 => ⟨S16x160000x32, .f32⟩
  | 68 => ⟨S_, .f32⟩
  | 69 => ⟨S16x160000x32, .f32⟩
  | 70 => ⟨S16x160000x32, .i1⟩
  | 71 => ⟨S_, .f32⟩
  | 72 => ⟨S16x160000x32, .f32⟩
  | 73 => ⟨S16x160000x32, .f32⟩
  | 74 => ⟨S16x160000x32, .f32⟩
  | 75 => ⟨S16x320000x32, .f32⟩
  | 76 => ⟨S1x160000, .i32⟩
  | 77 => ⟨S160000, .i32⟩
  | 78 => ⟨S1x160000, .i32⟩
  | 79 => ⟨S160000, .i32⟩
  | 80 => ⟨S320000, .i32⟩
  | 81 => ⟨S320000x16x32, .f32⟩
  | 82 => ⟨S_, .f32⟩
  | 83 => ⟨S20000x16x32, .f32⟩
  | 84 => ⟨S320000x1, .i32⟩
  | 85 => ⟨S20000x16x32, .f32⟩
  | 86 => ⟨S_, .f32⟩
  | 87 => ⟨S320000, .f32⟩
  | 88 => ⟨S_, .f32⟩
  | 89 => ⟨S20000, .f32⟩
  | 90 => ⟨S320000x1, .i32⟩
  | 91 => ⟨S20000, .f32⟩
  | 92 => ⟨S20000x1x1, .f32⟩
  | 93 => ⟨S_, .f32⟩
  | 94 => ⟨S20000x1x1, .f32⟩
  | 95 => ⟨S20000x1x1, .i1⟩
  | 96 => ⟨S_, .f32⟩
  | 97 => ⟨S20000, .f32⟩
  | 98 => ⟨S20000, .f32⟩
  | 99 => ⟨S20000x1x1, .f32⟩
  | 100 => ⟨S20000x16x32, .f32⟩
  | 101 => ⟨S20000x16x32, .f32⟩
  | 102 => ⟨S_, .f32⟩
  | 103 => ⟨S_, .f32⟩
  | 104 => ⟨S20000x16x32, .i1⟩
  | 105 => ⟨S20000x16x32, .f32⟩
  | 106 => ⟨S20000x16x32, .f32⟩
  | 107 => ⟨S16x20000x32, .f32⟩
  | 108 => ⟨S16x20000x32, .f32⟩
  | 109 => ⟨S1x1x32, .f32⟩
  | 110 => ⟨S16x20000x32, .f32⟩
  | 111 => ⟨S16x20000x32, .f32⟩
  | 112 => ⟨S_, .f32⟩
  | 113 => ⟨S16x20000x32, .f32⟩
  | 114 => ⟨S16x20000x32, .f32⟩
  | 115 => ⟨S16x20000x1, .f32⟩
  | 116 => ⟨S1x1x1, .f32⟩
  | 117 => ⟨S16x20000x1, .f32⟩
  | 118 => ⟨S16x20000x1, .f32⟩
  | 119 => ⟨S_, .f32⟩
  | 120 => ⟨S16x20000x1, .f32⟩
  | 121 => ⟨S16x20000x1, .i1⟩
  | 122 => ⟨S_, .f32⟩
  | 123 => ⟨S16x20000x1, .f32⟩
  | 124 => ⟨S16x20000x1, .f32⟩
  | 125 => ⟨S16x20000x1, .f32⟩
  | 126 => ⟨S16x20000, .f32⟩
  | 127 => ⟨S16x1, .f32⟩
  | _ => ⟨S16x20000x11, .f32⟩

abbrev hbmTy0_1 (i : Nat) : BufTy := match i % 128 with
  | 0 => ⟨S1x1, .f32⟩
  | 1 => ⟨S16x1, .f32⟩
  | 2 => ⟨S16x1, .f32⟩
  | 3 => ⟨S16x1, .f32⟩
  | 4 => ⟨S16x1, .f32⟩
  | 5 => ⟨S_, .f32⟩
  | 6 => ⟨S16x1, .f32⟩
  | 7 => ⟨S16x1, .f32⟩
  | 8 => ⟨S_, .f32⟩
  | 9 => ⟨S16x1, .f32⟩
  | 10 => ⟨S16x1, .f32⟩
  | _ => ⟨S16x20000x11, .f32⟩

abbrev hbmTy (i : Nat) : BufTy := match i / 128 with
  | 0 => hbmTy0_0 i
  | 1 => hbmTy0_1 i
  | _ => ⟨S16x20000x11, .f32⟩

abbrev bufTy : (tb : Table) → Fin (tcTables nBuf tb) → BufTy
  | .hbm, ⟨i, _⟩ => hbmTy i
  | _, _ => ⟨S16x20000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_cst_0 : Ref sig .tc := ⟨.hbm, 30, rfl⟩
abbrev main_call1_v2 : Ref sig .tc := ⟨.hbm, 31, rfl⟩
abbrev main_call1_v3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call2_cst : Ref sig .tc := ⟨.hbm, 61, rfl⟩
abbrev main_call2_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call3_cst : Ref sig .tc := ⟨.hbm, 68, rfl⟩
abbrev main_call3_v0 : Ref sig .tc := ⟨.hbm, 69, rfl⟩
abbrev main_call3_v1 : Ref sig .tc := ⟨.hbm, 70, rfl⟩
abbrev main_call3_cst_0 : Ref sig .tc := ⟨.hbm, 71, rfl⟩
abbrev main_call3_v2 : Ref sig .tc := ⟨.hbm, 72, rfl⟩
abbrev main_call3_v3 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_3 : Ref sig .tc := ⟨.hbm, 86, rfl⟩
abbrev main_v49 : Ref sig .tc := ⟨.hbm, 87, rfl⟩
abbrev main_cst_4 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_5 : Ref sig .tc := ⟨.hbm, 93, rfl⟩
abbrev main_v54 : Ref sig .tc := ⟨.hbm, 94, rfl⟩
abbrev main_v55 : Ref sig .tc := ⟨.hbm, 95, rfl⟩
abbrev main_cst_6 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_7 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call5_cst : Ref sig .tc := ⟨.hbm, 112, rfl⟩
abbrev main_call5_v0 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call6_cst : Ref sig .tc := ⟨.hbm, 119, rfl⟩
abbrev main_call6_v0 : Ref sig .tc := ⟨.hbm, 120, rfl⟩
abbrev main_call6_v1 : Ref sig .tc := ⟨.hbm, 121, rfl⟩
abbrev main_call6_cst_0 : Ref sig .tc := ⟨.hbm, 122, rfl⟩
abbrev main_call6_v2 : Ref sig .tc := ⟨.hbm, 123, rfl⟩
abbrev main_call6_v3 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_8 : Ref sig .tc := ⟨.hbm, 133, rfl⟩
abbrev main_v80 : Ref sig .tc := ⟨.hbm, 134, rfl⟩
abbrev main_v81 : Ref sig .tc := ⟨.hbm, 135, rfl⟩
abbrev main_cst_9 : Ref sig .tc := ⟨.hbm, 136, rfl⟩
abbrev main_v82 : Ref sig .tc := ⟨.hbm, 137, rfl⟩
abbrev main_v83 : Ref sig .tc := ⟨.hbm, 138, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x20000x32_0_1_2 : S1x1x32.BroadcastsInDim S16x20000x32 (![0, 1, 2] : Fin 3 → Fin S16x20000x32.rank)
  bcast_S_S16x20000x32 : S_.BroadcastsInDim S16x20000x32 (![] : Fin 0 → Fin S16x20000x32.rank)
  slices_S2x160000_S1x160000_0_0 : S2x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  slices_S2x160000_S1x160000_1_0 : S2x160000.Slices ![1, 0] S1x160000
  concatenates_S16x160000x32_S16x160000x32_S16x160000x64_d2 : Shape.Concatenates [S16x160000x32, S16x160000x32] S16x160000x64 2
  bcast_S1x1x32_S16x160000x32_0_1_2 : S1x1x32.BroadcastsInDim S16x160000x32 (![0, 1, 2] : Fin 3 → Fin S16x160000x32.rank)
  bcast_S_S16x160000x32 : S_.BroadcastsInDim S16x160000x32 (![] : Fin 0 → Fin S16x160000x32.rank)
  concatenates_S16x160000x32_S16x160000x32_S16x320000x32_d1 : Shape.Concatenates [S16x160000x32, S16x160000x32] S16x320000x32 1
  concatenates_S160000_S160000_S320000_d0 : Shape.Concatenates [S160000, S160000] S320000 0
  transposes_S16x320000x32_S320000x16x32_1_0_2 : S16x320000x32.Transposes [1, 0, 2] S320000x16x32
  bcast_S_S20000x16x32 : S_.BroadcastsInDim S20000x16x32 (![] : Fin 0 → Fin S20000x16x32.rank)
  bcast_S320000_S320000x1_0 : S320000.BroadcastsInDim S320000x1 (![0] : Fin 1 → Fin S320000x1.rank)
  bcast_S_S320000 : S_.BroadcastsInDim S320000 (![] : Fin 0 → Fin S320000.rank)
  bcast_S_S20000 : S_.BroadcastsInDim S20000 (![] : Fin 0 → Fin S20000.rank)
  bcast_S20000_S20000x1x1_0 : S20000.BroadcastsInDim S20000x1x1 (![0] : Fin 1 → Fin S20000x1x1.rank)
  bcast_S_S20000x1x1 : S_.BroadcastsInDim S20000x1x1 (![] : Fin 0 → Fin S20000x1x1.rank)
  bcast_S20000x1x1_S20000x16x32_0_1_2 : S20000x1x1.BroadcastsInDim S20000x16x32 (![0, 1, 2] : Fin 3 → Fin S20000x16x32.rank)
  transposes_S20000x16x32_S16x20000x32_1_0_2 : S20000x16x32.Transposes [1, 0, 2] S16x20000x32
  bcast_S1_S1x1x1_2 : S1.BroadcastsInDim S1x1x1 (![2] : Fin 1 → Fin S1x1x1.rank)
  bcast_S1x1x1_S16x20000x1_0_1_2 : S1x1x1.BroadcastsInDim S16x20000x1 (![0, 1, 2] : Fin 3 → Fin S16x20000x1.rank)
  bcast_S_S16x20000x1 : S_.BroadcastsInDim S16x20000x1 (![] : Fin 0 → Fin S16x20000x1.rank)
  shapeCasts_S16x20000x1_S16x20000 : S16x20000x1.ShapeCasts S16x20000
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  bcast_S_S16x1 : S_.BroadcastsInDim S16x1 (![] : Fin 0 → Fin S16x1.rank)
  dot_S16x20000x11_S32x11_S16x20000x32_2_1_01_0_n_n_wf : DotDims.WF S16x20000x11 S32x11 S16x20000x32 [2] [1] [0, 1] [0] [] []
  dot_S16x20000x32_S32x32_S16x20000x32_2_1_01_0_n_n_wf : DotDims.WF S16x20000x32 S32x32 S16x20000x32 [2] [1] [0, 1] [0] [] []
  gather_S16x20000x32_S160000x1_S16x160000x32_02_1_n_n_1_1_16132_wf : GatherDims.WF S16x20000x32 S160000x1 S16x160000x32 [0, 2] [1] [] [1] [] 1 ![16, 1, 32]
  dot_S16x160000x64_S32x64_S16x160000x32_2_1_01_0_n_n_wf : DotDims.WF S16x160000x64 S32x64 S16x160000x32 [2] [1] [0, 1] [0] [] []
  dot_S16x160000x32_S32x32_S16x160000x32_2_1_01_0_n_n_wf : DotDims.WF S16x160000x32 S32x32 S16x160000x32 [2] [1] [0, 1] [0] [] []
  scatter_S20000x16x32_S320000x1_S320000x16x32_12_0_0_1_wf : ScatterDims.WF S20000x16x32 S320000x1 S320000x16x32 [1, 2] [0] [0] 1
  scatter_S20000_S320000x1_S320000_n_0_0_1_wf : ScatterDims.WF S20000 S320000x1 S320000 [] [0] [0] 1
  dot_S16x20000x32_S1x32_S16x20000x1_2_1_01_0_n_n_wf : DotDims.WF S16x20000x32 S1x32 S16x20000x1 [2] [1] [0, 1] [0] [] []
  dot_S16x20000_S1x20000_S16x1_1_1_0_0_n_n_wf : DotDims.WF S16x20000 S1x20000 S16x1 [1] [1] [0] [0] [] []

variable [Facts₀]

def dot_S16x20000x11_S32x11_S16x20000x32_2_1_01_0_n_n : DotDims S16x20000x11 S32x11 S16x20000x32 where
  lhsContracting := [2]
  rhsContracting := [1]
  lhsNonContracting := [0, 1]
  rhsNonContracting := [0]
  lhsBatch := []
  rhsBatch := []
  wf := dot_S16x20000x11_S32x11_S16x20000x32_2_1_01_0_n_n_wf
def dot_S16x20000x32_S32x32_S16x20000x32_2_1_01_0_n_n : DotDims S16x20000x32 S32x32 S16x20000x32 where
  lhsContracting := [2]
  rhsContracting := [1]
  lhsNonContracting := [0, 1]
  rhsNonContracting := [0]
  lhsBatch := []
  rhsBatch := []
  wf := dot_S16x20000x32_S32x32_S16x20000x32_2_1_01_0_n_n_wf
def gather_S16x20000x32_S160000x1_S16x160000x32_02_1_n_n_1_1_16132 : GatherDims S16x20000x32 S160000x1 S16x160000x32 where
  offsetDims := [0, 2]
  collapsedSliceDims := [1]
  operandBatchingDims := []
  startIndicesBatchingDims := []
  startIndexMap := [1]
  indexVectorDim := 1
  sliceSizes := ![16, 1, 32]
  wf := gather_S16x20000x32_S160000x1_S16x160000x32_02_1_n_n_1_1_16132_wf
def dot_S16x160000x64_S32x64_S16x160000x32_2_1_01_0_n_n : DotDims S16x160000x64 S32x64 S16x160000x32 where
  lhsContracting := [2]
  rhsContracting := [1]
  lhsNonContracting := [0, 1]
  rhsNonContracting := [0]
  lhsBatch := []
  rhsBatch := []
  wf := dot_S16x160000x64_S32x64_S16x160000x32_2_1_01_0_n_n_wf
def dot_S16x160000x32_S32x32_S16x160000x32_2_1_01_0_n_n : DotDims S16x160000x32 S32x32 S16x160000x32 where
  lhsContracting := [2]
  rhsContracting := [1]
  lhsNonContracting := [0, 1]
  rhsNonContracting := [0]
  lhsBatch := []
  rhsBatch := []
  wf := dot_S16x160000x32_S32x32_S16x160000x32_2_1_01_0_n_n_wf
def scatter_S20000x16x32_S320000x1_S320000x16x32_12_0_0_1 : ScatterDims S20000x16x32 S320000x1 S320000x16x32 where
  updateWindowDims := [1, 2]
  insertedWindowDims := [0]
  scatterDimsToOperandDims := [0]
  indexVectorDim := 1
  wf := scatter_S20000x16x32_S320000x1_S320000x16x32_12_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S16x20000x32_S1x32_S16x20000x1_2_1_01_0_n_n : DotDims S16x20000x32 S1x32 S16x20000x1 where
  lhsContracting := [2]
  rhsContracting := [1]
  lhsNonContracting := [0, 1]
  rhsNonContracting := [0]
  lhsBatch := []
  rhsBatch := []
  wf := dot_S16x20000x32_S1x32_S16x20000x1_2_1_01_0_n_n_wf
def dot_S16x20000_S1x20000_S16x1_1_1_0_0_n_n : DotDims S16x20000 S1x20000 S16x1 where
  lhsContracting := [1]
  rhsContracting := [1]
  lhsNonContracting := [0]
  rhsNonContracting := [0]
  lhsBatch := []
  rhsBatch := []
  wf := dot_S16x20000_S1x20000_S16x1_1_1_0_0_n_n_wf

class Facts : Prop extends Facts₀ where

variable [Facts]
-- ==== Proof.Spec.lean ====
/-
  The mathematics both programs compute, as plain formulas over the argument arrays at the extended reals.

  A node's features go through a two-layer perceptron (a ReLU layer, then a leaky-ReLU layer); every edge gathers its two
  endpoints' features and passes the pair through a second perceptron; each node averages the messages of the edges
  that touch it (each edge counted once per endpoint); the averages go through a third perceptron to one number per
  node, and a weighted sum over the nodes followed by the logistic function gives one number per graph.
  Nothing here mentions a program: the two programs are each shown to compute `Result`.
-/
import Idealize.ShloMosaic.PureOps.Ideal
import Idealize.ShloMosaic.Lib.ValueIdx

noncomputable section

open scoped BigOperators

namespace Cert.Spec

open Idealize.ShloMosaic Idealize.ShloMosaic.ValueIdx

/-- The three float words the programs carry: 0, 1 and the leaky slope (the f32 nearest 1/100), each read as the
    extended real its bits denote. -/
abbrev zero : EReal := Ideal.ofBits .f32 0x00000000#32
abbrev one : EReal := Ideal.ofBits .f32 0x3F800000#32
abbrev slope : EReal := Ideal.ofBits .f32 0x3C23D70A#32

/-- max(a, 0). -/
def relu (a : EReal) : EReal := max a zero
/-- a where a ≥ 0, slope · a elsewhere. -/
def leaky (a : EReal) : EReal := Scalar.select (Ideal.cmp .oge a zero) a (slope * a)

abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal
abbrev I2 (a b : Nat) := (⟨2, ![a, b]⟩ : Shape).Idx → BitVec 32

/-- One row through a two-layer perceptron whose weight matrices are stored input-major (`W1 i c`, `W2 c o`):
    leaky(Σ_c relu(Σ_i x_i · W1_ic + b1_c) · W2_co + b2_o). -/
def mlp2 {k h n : Nat} (x : Fin k → EReal) (W1 : Fin k → Fin h → EReal) (b1 : Fin h → EReal)
    (W2 : Fin h → Fin n → EReal) (b2 : Fin n → EReal) (o : Fin n) : EReal :=
  leaky ((∑ c : Fin h, relu ((∑ i : Fin k, x i * W1 i c) + b1 c) * W2 c o) + b2 o)

/-- The same with the first layer fed by two rows through two weight matrices (the two endpoints of an edge). -/
def mlp2pair {k h n : Nat} (xs xd : Fin k → EReal) (W1s W1d : Fin k → Fin h → EReal) (b1 : Fin h → EReal)
    (W2 : Fin h → Fin n → EReal) (b2 : Fin n → EReal) (o : Fin n) : EReal :=
  leaky ((∑ c : Fin h, relu (((∑ i : Fin k, xs i * W1s i c) + (∑ i : Fin k, xd i * W1d i c)) + b1 c) * W2 c o) + b2 o)

/-- A flat row index of a [16·20000]-row array as (graph, node), and of a [16·160000]-row array as (graph, edge). -/
def rb (r : Fin 320000) : Fin 16 := ⟨r.val / 20000, by have := r.isLt; omega⟩
def rn (r : Fin 320000) : Fin 20000 := ⟨r.val % 20000, Nat.mod_lt _ (by norm_num)⟩
def eb (r : Fin 2560000) : Fin 16 := ⟨r.val / 160000, by have := r.isLt; omega⟩
def ee (r : Fin 2560000) : Fin 160000 := ⟨r.val % 160000, Nat.mod_lt _ (by norm_num)⟩

/-- The first and the second half of a 64-long feature axis. -/
def lo (k : Fin 32) : Fin 64 := ⟨k.val, by have := k.isLt; omega⟩
def hi (k : Fin 32) : Fin 64 := ⟨32 + k.val, by have := k.isLt; omega⟩

/-- The node an edge's endpoint names (row `r` of the edge list), as a node index; the word is read modulo the node
    count only to make the definition total: the precondition keeps it below 20000. -/
def node (E : I2 2 160000) (r : Fin 2) (e : Fin 160000) : Fin 20000 :=
  ⟨(E (ix2 r e)).toNat % 20000, Nat.mod_lt _ (by norm_num)⟩

/-- Node features: the first perceptron on a node's 11 inputs. -/
def Hval (x : A3 16 20000 11) (W1 : A2 32 11) (b1 : A1 32) (W2 : A2 32 32) (b2 : A1 32)
    (b : Fin 16) (n : Fin 20000) (o : Fin 32) : EReal :=
  mlp2 (fun i => x (ix3 b n i)) (fun i c => W1 (ix2 c i)) (fun c => b1 (ix1 c)) (fun c o => W2 (ix2 o c))
    (fun o => b2 (ix1 o)) o

/-- The message of an edge: the second perceptron on the two endpoints' features, the first 32 input columns of its
    first matrix meeting endpoint 0 and the last 32 endpoint 1. -/
def Mval (h : Fin 16 → Fin 20000 → Fin 32 → EReal) (E : I2 2 160000) (W1 : A2 32 64) (b1 : A1 32) (W2 : A2 32 32)
    (b2 : A1 32) (b : Fin 16) (e : Fin 160000) (o : Fin 32) : EReal :=
  mlp2pair (fun k => h b (node E 0 e) k) (fun k => h b (node E 1 e) k) (fun k c => W1 (ix2 c (lo k)))
    (fun k c => W1 (ix2 c (hi k))) (fun c => b1 (ix1 c)) (fun c o => W2 (ix2 o c)) (fun o => b2 (ix1 o)) o

/-- The sum of the messages of the edges touching node `n`: those whose endpoint 1 is `n`, then those whose endpoint 0 is. -/
def Sval (m : Fin 16 → Fin 160000 → Fin 32 → EReal) (E : I2 2 160000) (n : Fin 20000) (b : Fin 16) (o : Fin 32) : EReal :=
  (∑ e : Fin 160000, if node E 1 e = n then m b e o else 0) + (∑ e : Fin 160000, if node E 0 e = n then m b e o else 0)

/-- How many edge endpoints name node `n`. -/
def Cval (E : I2 2 160000) (n : Fin 20000) : EReal :=
  (∑ e : Fin 160000, if node E 1 e = n then one else 0) + (∑ e : Fin 160000, if node E 0 e = n then one else 0)

/-- The mean message at a node: the sum over max(count, 1) where the count is positive, 0 elsewhere. -/
def Aval (S : Fin 20000 → Fin 16 → Fin 32 → EReal) (C : Fin 20000 → EReal) (b : Fin 16) (n : Fin 20000) (k : Fin 32) : EReal :=
  Scalar.select (Ideal.cmp .ogt (C n) zero) (Ideal.div (S n b k) (max (C n) one)) zero

/-- A node's output: the third perceptron on its mean message. -/
def Vval (a : Fin 16 → Fin 20000 → Fin 32 → EReal) (W1 : A2 32 32) (b1 : A1 32) (W2 : A2 1 32) (b2 : A1 1)
    (b : Fin 16) (n : Fin 20000) : EReal :=
  mlp2 (fun k => a b n k) (fun k c => W1 (ix2 c k)) (fun c => b1 (ix1 c)) (fun c (_ : Fin 1) => W2 (ix2 0 c))
    (fun (_ : Fin 1) => b2 (ix1 0)) 0

/-- A graph's output: the logistic function of the weighted sum of its nodes' outputs plus the bias. -/
def Oval (v : Fin 16 → Fin 20000 → EReal) (Wg : A2 1 20000) (bg : A1 1) (b : Fin 16) : EReal :=
  Ideal.div one (one + Ideal.exp (-((∑ n : Fin 20000, v b n * Wg (ix2 0 n)) + bg (ix1 0))))

/-- The sixteen argument arrays. -/
structure Args where
  x : A3 16 20000 11
  E : I2 2 160000
  Wx1 : A2 32 11
  bx1 : A1 32
  Wx2 : A2 32 32
  bx2 : A1 32
  We1 : A2 32 64
  be1 : A1 32
  We2 : A2 32 32
  be2 : A1 32
  Wv1 : A2 32 32
  bv1 : A1 32
  Wv2 : A2 1 32
  bv2 : A1 1
  Wg : A2 1 20000
  bg : A1 1

/-- Every edge endpoint names a node. -/
def Args.InRange (a : Args) : Prop := ∀ (r : Fin 2) (e : Fin 160000), (a.E (ix2 r e)).toNat < 20000

def H (a : Args) : Fin 16 → Fin 20000 → Fin 32 → EReal := Hval a.x a.Wx1 a.bx1 a.Wx2 a.bx2
def M (a : Args) : Fin 16 → Fin 160000 → Fin 32 → EReal := Mval (H a) a.E a.We1 a.be1 a.We2 a.be2
def S (a : Args) : Fin 20000 → Fin 16 → Fin 32 → EReal := Sval (M a) a.E
def C (a : Args) : Fin 20000 → EReal := Cval a.E
def A (a : Args) : Fin 16 → Fin 20000 → Fin 32 → EReal := Aval (S a) (C a)
def V (a : Args) : Fin 16 → Fin 20000 → EReal := Vval (A a) a.Wv1 a.bv1 a.Wv2 a.bv2
/-- What both programs return: one number per graph, as a [16, 1] array. -/
def Result (a : Args) : A2 16 1 := fun j => Oval (V a) a.Wg a.bg (j 0)

end Cert.Spec

end
-- ==== Proof.KRegion0.lean ====
import proofs.«401352_j13305808683173_1_alg».proof.Proof.Gen.KernelIdeal.Frame
import proofs.«401352_j13305808683173_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

/-- The index maps of the six windows, decided over the 40 grid points: at point `t` the row window and the output window
    sit at block `t` of the rows (and block 0 of the columns); each of the four weight windows sits at its one block. -/
theorem index_maps_decided : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable [Cert.KernelIdeal.Facts]
variable (V : (c : Dev nD) → (b : Ref sig .tc) → Buf (Elt Ideal) ((c : Thread nD τ).loc b))

/-- The same index-map facts, for whichever proof of the program's facts is at hand (any two are equal). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  index_maps_decided

/-! ## The body's two matrix products, read at an index

Each product contracts axis 1 of its left operand with axis 0 of its right operand and has no batch axis, so at output
index (p, q) and contraction index k the left operand is read at (p, k) and the right at (k, q). -/

theorem lhs_first_0 (i : S8000x32.Idx) (q : dot_S8000x11_S11x32_S8000x32_1_0_0_1_n_n.contr.Idx) :
    (dot_S8000x11_S11x32_S8000x32_1_0_0_1_n_n.lhsIdx i q 0).val = (i 0).val := by
  unfold DotDims.lhsIdx
  rw [dif_neg (show ¬(0 : Fin S8000x11.rank) ∈ dot_S8000x11_S11x32_S8000x32_1_0_0_1_n_n.lhsBatch by decide), dif_pos (show (0 : Fin S8000x11.rank) ∈ dot_S8000x11_S11x32_S8000x32_1_0_0_1_n_n.lhsNonContracting by decide)]
  rfl
theorem lhs_first_1 (i : S8000x32.Idx) (q : dot_S8000x11_S11x32_S8000x32_1_0_0_1_n_n.contr.Idx) :
    (dot_S8000x11_S11x32_S8000x32_1_0_0_1_n_n.lhsIdx i q 1).val = (q ⟨0, by decide⟩).val :=
  dot_S8000x11_S11x32_S8000x32_1_0_0_1_n_n.lhsIdx_val_of_single rfl i q
theorem rhs_first_0 (i : S8000x32.Idx) (q : dot_S8000x11_S11x32_S8000x32_1_0_0_1_n_n.contr.Idx) :
    (dot_S8000x11_S11x32_S8000x32_1_0_0_1_n_n.rhsIdx i q 0).val = (q ⟨0, by decide⟩).val :=
  dot_S8000x11_S11x32_S8000x32_1_0_0_1_n_n.rhsIdx_val_of_single rfl i q
theorem rhs_first_1 (i : S8000x32.Idx) (q : dot_S8000x11_S11x32_S8000x32_1_0_0_1_n_n.contr.Idx) :
    (dot_S8000x11_S11x32_S8000x32_1_0_0_1_n_n.rhsIdx i q 1).val = (i 1).val := by
  unfold DotDims.rhsIdx
  rw [dif_neg (show ¬(1 : Fin S11x32.rank) ∈ dot_S8000x11_S11x32_S8000x32_1_0_0_1_n_n.rhsBatch by decide), dif_pos (show (1 : Fin S11x32.rank) ∈ dot_S8000x11_S11x32_S8000x32_1_0_0_1_n_n.rhsNonContracting by decide)]
  rfl

/-- The first product into the zero accumulator, at row `p` and hidden unit `q`: Σ_k a(p, k) · b(k, q) over the 11 inputs. -/
theorem firstProduct_apply (a : FVec Ideal S8000x11 .bf16) (b : FVec Ideal S11x32 .bf16) (p : Fin 8000) (q : Fin 32) :
    matmul dot_S8000x11_S11x32_S8000x32_1_0_0_1_n_n none a b (constant S8000x32 .f32 0x00000000#32) (ix2 p q)
      = ∑ k : Fin 11, a (ix2 p k) * b (ix2 k q) := by
  simp only [matmul]
  rw [Ideal.matmul_constant_zero_apply, ← Equiv.sum_comp (contrEquiv1 dot_S8000x11_S11x32_S8000x32_1_0_0_1_n_n 11 rfl rfl).symm]
  refine Finset.sum_congr rfl fun k _ => ?_
  have hk := contrEquiv1_symm_val dot_S8000x11_S11x32_S8000x32_1_0_0_1_n_n 11 rfl rfl k
  have el : dot_S8000x11_S11x32_S8000x32_1_0_0_1_n_n.lhsIdx (ix2 p q) ((contrEquiv1 dot_S8000x11_S11x32_S8000x32_1_0_0_1_n_n 11 rfl rfl).symm k) = ix2 p k := funext fun a => Fin.ext (by
    match a with
    | ⟨0, _⟩ => exact lhs_first_0 _ _
    | ⟨1, _⟩ => exact (lhs_first_1 _ _).trans hk)
  have er : dot_S8000x11_S11x32_S8000x32_1_0_0_1_n_n.rhsIdx (ix2 p q) ((contrEquiv1 dot_S8000x11_S11x32_S8000x32_1_0_0_1_n_n 11 rfl rfl).symm k) = ix2 k q := funext fun a => Fin.ext (by
    match a with
    | ⟨0, _⟩ => exact (rhs_first_0 _ _).trans hk
    | ⟨1, _⟩ => exact rhs_first_1 _ _)
  rw [el, er]

theorem lhs_second_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem lhs_second_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
theorem rhs_second_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
theorem rhs_second_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- The second product into the zero accumulator, at row `p` and output `q`: Σ_k a(p, k) · b(k, q) over the 32 hidden units. -/
theorem secondProduct_apply (a : FVec Ideal S8000x32 .bf16) (b : FVec Ideal S32x32 .bf16) (p : Fin 8000) (q : Fin 32) :
    matmul dot_S8000x32_S32x32_S8000x32_1_0_0_1_n_n none a b (constant S8000x32 .f32 0x00000000#32) (ix2 p q)
      = ∑ k : Fin 32, a (ix2 p k) * b (ix2 k q) := by
  simp only [matmul]
  rw [Ideal.matmul_constant_zero_apply, ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p q) ((contrEquiv1 dot_S8000x32_S32x32_S8000x32_1_0_0_1_n_n 32 rfl rfl).symm k) = ix2 p k := funext fun a => Fin.ext (by
    match a with
    | ⟨0, _⟩ => exact lhs_second_0 _ _
    | ⟨1, _⟩ => exact (lhs_second_1 _ _).trans hk)
  have er : dot_S8000x32_S32x32_S8000x32_1_0_0_1_n_n.rhsIdx (ix2 p q) ((contrEquiv1 dot_S8000x32_S32x32_S8000x32_1_0_0_1_n_n 32 rfl rfl).symm k) = ix2 k q := funext fun a => Fin.ext (by
    match a with
    | ⟨0, _⟩ => exact (rhs_second_0 _ _).trans hk
    | ⟨1, _⟩ => exact rhs_second_1 _ _)
  rw [el, er]

/-! ## The body's stored value at an index -/

/-- A [1,32] row broadcast over the 8000 rows reads, at row `r` and column `c`, the row's entry `c`. -/
theorem biasRow_apply (x : Vec Ideal S1x32 .f32) (r : Fin 8000) (c : Fin 32) :
    broadcastTo S8000x32 x broadcasts_S1x32_S8000x32 (ix2 r c) = x (ix2 0 c) :=
  broadcastTo_apply x _ (ix2 r c) (ix2 0 c) (fun a => by match a with | ⟨0, _⟩ => rfl | ⟨1, _⟩ => rfl)

/-- The hidden layer at row `p`, unit `c`: max(Σ_i x0(p, i) · x1(i, c) + x2(0, c), 0). The format changes on the way into
    the product are the identity on extended reals. -/
theorem hidden_apply (x0 : Vec Ideal S8000x11 .f32) (x1 : Vec Ideal S11x32 .f32) (x2 : Vec Ideal S1x32 .f32) (p : Fin 8000) (c : Fin 32) :
    maximumf (addf (matmul dot_S8000x11_S11x32_S8000x32_1_0_0_1_n_n none (truncf .bf16 x0 bitsLt_bf16_f32) (truncf .bf16 x1 bitsLt_bf16_f32) (constant S8000x32 .f32 0x00000000#32)) (broadcastTo S8000x32 x2 broadcasts_S1x32_S8000x32)) (broadcast S8000x32 (Scalar.ofBits (F := Ideal) .f32 0x00000000#32)) (ix2 p c)
      = Cert.Spec.relu ((∑ i : Fin 11, x0 (ix2 p i) * x1 (ix2 i c)) + x2 (ix2 0 c)) := by
  show max (_ + _) _ = _
  rw [firstProduct_apply, biasRow_apply]
  rfl

/-- The second layer before its activation, at row `p` and output `q`, over any hidden layer `h`:
    Σ_c h(p, c) · x3(c, q) + x4(0, q). -/
theorem preactivation_apply (h : FVec Ideal S8000x32 .f32) (x3 : Vec Ideal S32x32 .f32) (x4 : Vec Ideal S1x32 .f32) (p : Fin 8000) (q : Fin 32) :
    addf (matmul dot_S8000x32_S32x32_S8000x32_1_0_0_1_n_n none (truncf .bf16 h bitsLt_bf16_f32) (truncf .bf16 x3 bitsLt_bf16_f32) (constant S8000x32 .f32 0x00000000#32)) (broadcastTo S8000x32 x4 broadcasts_S1x32_S8000x32) (ix2 p q)
      = (∑ c : Fin 32, h (ix2 p c) * x3 (ix2 c q)) + x4 (ix2 0 q) := by
  show _ + _ = _
  rw [secondProduct_apply, biasRow_apply]
  rfl

/-- THE STORED VALUE at row `p`, column `q` of the block is the two-layer perceptron of row `p` of the row block: the select
    between the pre-activation and the slope times it, on the comparison with zero, is the leaky activation. -/
theorem payload_apply (x0 : Vec Ideal S8000x11 .f32) (x1 : Vec Ideal S11x32 .f32) (x2 : Vec Ideal S1x32 .f32)
    (x3 : Vec Ideal S32x32 .f32) (x4 : Vec Ideal S1x32 .f32) (p : Fin 8000) (q : Fin 32) :
    k0_pay1 x0 x1 x2 x3 x4 (ix2 p q)
      = Cert.Spec.mlp2 (fun i : Fin 11 => x0 (ix2 p i)) (fun (i : Fin 11) (c : Fin 32) => x1 (ix2 i c)) (fun c : Fin 32 => x2 (ix2 0 c))
          (fun (c : Fin 32) (o : Fin 32) => x3 (ix2 c o)) (fun o : Fin 32 => x4 (ix2 0 o)) q := by
  unfold k0_pay1
  simp only [shapeCast_self]
  rw [select_apply, cmpf_apply, mulf_apply, broadcast_apply, broadcast_apply, preactivation_apply]
  simp only [hidden_apply]
  rfl

/-- The stored value at an element `y` of the block, when row `y 0` of the row block is row `i 0` of an array `a0` and
    `y`'s column is `i`'s: the perceptron of that row of `a0`, at column `i 1`. -/
theorem payload_of_row (a0 : S320000x11.Idx → EReal) (x0 : Vec Ideal S8000x11 .f32) (x1 : Vec Ideal S11x32 .f32) (x2 : Vec Ideal S1x32 .f32)
    (x3 : Vec Ideal S32x32 .f32) (x4 : Vec Ideal S1x32 .f32) (y : S8000x32.Idx) (i : S320000x32.Idx)
    (h0 : ∀ k : Fin 11, x0 (ix2 (y 0) k) = a0 (ix2 (i 0) k)) (h1 : (y 1).val = (i 1).val) :
    k0_pay1 x0 x1 x2 x3 x4 y
      = Cert.Spec.mlp2 (fun k : Fin 11 => a0 (ix2 (i 0) k)) (fun (k : Fin 11) (c : Fin 32) => x1 (ix2 k c)) (fun c : Fin 32 => x2 (ix2 0 c))
          (fun (c : Fin 32) (o : Fin 32) => x3 (ix2 c o)) (fun o : Fin 32 => x4 (ix2 0 o)) (i 1) := by
  obtain ⟨p, q, rfl⟩ : ∃ (p : Fin 8000) (q : Fin 32), y = ix2 p q := ⟨y 0, y 1, eq_ix2 y⟩
  rw [payload_apply]
  have hq : q = i 1 := Fin.ext h1
  rw [hq]
  exact congrArg (fun f => Cert.Spec.mlp2 f (fun (k : Fin 11) (c : Fin 32) => x1 (ix2 k c)) (fun c : Fin 32 => x2 (ix2 0 c))
          (fun (c : Fin 32) (o : Fin 32) => x3 (ix2 c o)) (fun o : Fin 32 => x4 (ix2 0 o)) (i 1)) (funext h0)

/-! ## The windows' blocks as parts of their arrays

An element of a block sits in its array, on each axis, at the block index times the block's extent plus its own
coordinate. -/

theorem zero_offsets : (![0, 0] : Fin 2 → Nat) = fun _ => 0 := funext fun a => by fin_cases a <;> rfl

/-- The first weight matrix's block at any point is the whole matrix. -/
theorem weights1_block (c : Dev nD) (t : Fin cfg0.N) : (iblk0 (F := Ideal) V c 1 t : Vec Ideal S11x32 .f32) = V c main_v1 := by
  obtain ⟨-, -, e0, e1, -⟩ := index_maps t
  funext y
  show V c main_v1 (((cfg0.win 1).blk t).view.emb y) = V c main_v1 y
  refine congrArg (V c main_v1) (funext fun a => Fin.ext ?_)
  match a with
  | ⟨0, _⟩ => show win0_1.index t (0 : Fin 2) * 11 + 1 * (y 0).val = (y 0).val; omega
  | ⟨1, _⟩ => show win0_1.index t (1 : Fin 2) * 32 + 1 * (y 1).val = (y 1).val; omega

/-- The first bias row's block at any point is the whole row. -/
theorem bias1_block (c : Dev nD) (t : Fin cfg0.N) : (iblk0 (F := Ideal) V c 2 t : Vec Ideal S1x32 .f32) = V c main_v2 := by
  obtain ⟨-, -, -, -, e0, e1, -⟩ := index_maps t
  funext y
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The second weight matrix's block at any point is the whole matrix. -/
theorem weights2_block (c : Dev nD) (t : Fin cfg0.N) : (iblk0 (F := Ideal) V c 3 t : Vec Ideal S32x32 .f32) = V c main_v3 := by
  obtain ⟨-, -, -, -, -, -, e0, e1, -⟩ := index_maps t
  funext y
  show V c main_v3 (((cfg0.win 3).blk t).view.emb y) = V c main_v3 y
  refine congrArg (V c main_v3) (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- The second bias row's block at any point is the whole row. -/
theorem bias2_block (c : Dev nD) (t : Fin cfg0.N) : (iblk0 (F := Ideal) V c 4 t : Vec Ideal S1x32 .f32) = V c main_v4 := by
  obtain ⟨-, -, -, -, -, -, -, -, e0, e1, -⟩ := index_maps t
  funext y
  show V c main_v4 (((cfg0.win 4).blk t).view.emb y) = V c main_v4 y
  refine congrArg (V c main_v4) (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Row `y 0` of the row window's block at point `t` is row `8000 · t + y 0` of the array. -/
theorem rows_block_apply (c : Dev nD) (t : Fin cfg0.N) (y : S8000x11.Idx) (i : S320000x11.Idx)
    (h0 : (i 0).val = t.val * 8000 + (y 0).val) (h1 : (i 1).val = (y 1).val) :
    (iblk0 (F := Ideal) V c 0 t : Vec Ideal S8000x11 .f32) y = (V c main_v0 : S320000x11.Idx → EReal) i := by
  obtain ⟨e0, e1, -⟩ := index_maps t
  show V c main_v0 (((cfg0.win 0).blk t).view.emb y) = V c main_v0 i
  refine congrArg (V c main_v0) (funext fun a => Fin.ext ?_)
  match a with
  | ⟨0, _⟩ => show win0_0.index t (0 : Fin 2) * 8000 + 1 * (y 0).val = (i 0).val; omega
  | ⟨1, _⟩ => show win0_0.index t (1 : Fin 2) * 11 + 1 * (y 1).val = (i 1).val; omega

/-! ## From the blocks to the array -/

/-- What the output array ends holding: row by row, the perceptron of the input row. -/
abbrev perceptronRows (c : Dev nD) : S320000x32.Idx → EReal :=
  fun j => Cert.Spec.mlp2 (fun i : Fin 11 => (V c main_v0 : S320000x11.Idx → EReal) (ix2 (j 0) i))
    (fun (i : Fin 11) (c' : Fin 32) => (V c main_v1 : S11x32.Idx → EReal) (ix2 i c'))
    (fun c' : Fin 32 => (V c main_v2 : S1x32.Idx → EReal) (ix2 0 c'))
    (fun (c' : Fin 32) (o : Fin 32) => (V c main_v3 : S32x32.Idx → EReal) (ix2 c' o))
    (fun o : Fin 32 => (V c main_v4 : S1x32.Idx → EReal) (ix2 0 o)) (j 1)

/-- WHAT POINT `t` WRITES BACK is block `t` of `perceptronRows`: the body's one store covers the staging buffer, its loads read
    the whole input blocks, and element (r, q) of the stored value is the perceptron of row `8000 · t + r` at column `q`. -/
theorem writeback_eq (c : Dev nD) (t : Fin cfg0.N) :
    (dat0 (F := Ideal) V c).flushed 5 t = ((cfg0.win 5).blk t).view.read (Elt Ideal) (perceptronRows V c) := by
  show (cfg0.win 5).cut (grid0.coords t) ((dat0 (F := Ideal) V c).after 5 t) = _
  rw [after0_5]
  unfold out0_5
  rw [View.canon_unit_zero zero_offsets]
  simp only [View.ld_unit_zero (S := S8000x11) zero_offsets, View.ld_unit_zero (S := S11x32) zero_offsets,
    View.ld_unit_zero (S := S1x32) zero_offsets, View.ld_unit_zero (S := S32x32) zero_offsets]
  rw [weights1_block, bias1_block, weights2_block, bias2_block]
  obtain ⟨-, -, -, -, -, -, -, -, -, -, e0, e1⟩ := index_maps t
  refine funext fun (j : S8000x32.Idx) => ?_
  show k0_pay1 (iblk0 (F := Ideal) V c 0 t) (V c main_v1) (V c main_v2) (V c main_v3) (V c main_v4) j
    = perceptronRows V c (((cfg0.win 5).blk t).view.emb j)
  refine payload_of_row (V c main_v0) _ _ _ _ _ j _ (fun k => rows_block_apply V c t _ _ ?_ ?_) ?_
  · show win0_5.index t (0 : Fin 2) * 8000 + 1 * (j 0).val = t.val * 8000 + (j 0).val; omega
  · rfl
  · show (j 1).val = win0_5.index t (1 : Fin 2) * 32 + 1 * (j 1).val; omega

/-- An index of the array is in point `t`'s output block iff each coordinate is in the block's range on its axis. -/
theorem mem_block (t : Fin cfg0.N) (i : S320000x32.Idx) :
    i ∈ ((cfg0.win 5).blk t).view.set ↔ ∀ a : Fin 2, win0_5.index t a * S8000x32.size a ≤ (i a).val ∧ (i a).val < win0_5.index t a * S8000x32.size a + S8000x32.size a := by
  show i ∈ ((View.whole main_v5).slice (win0_5.rect t)).set ↔ _
  rw [View.set_slice_whole, Rect.mem_set_unit]
  exact Iff.rfl

/-- Row `r` of the array is in the block of point `r / 8000`, which writes back: the 40 blocks of 8000 rows tile the
    320000 rows. -/
theorem rows_covered (i : S320000x32.Idx) : ∃ t : Fin cfg0.N, (cfg0.win 5).flush t = true ∧ i ∈ ((cfg0.win 5).blk t).view.set := by
  have hi0 : (i 0).val < 320000 := (i 0).isLt
  have hi1 : (i 1).val < 32 := (i 1).isLt
  obtain ⟨t, ht⟩ : ∃ t : Fin cfg0.N, t.val = (i 0).val / 8000 :=
    ⟨⟨(i 0).val / 8000, by show (i 0).val / 8000 < grid0.N; rw [N_0]; omega⟩, rfl⟩
  obtain ⟨-, -, -, -, -, -, -, -, -, -, e0, e1⟩ := index_maps t
  refine ⟨t, flush0_5 t, ?_⟩
  rw [mem_block]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 32 ≤ (i 1).val ∧ (i 1).val < win0_5.index t (1 : Fin 2) * 32 + 32; omega

/-! ## The first kernel region as one function of its arrays: row `r` of the output is the perceptron of row `r` of the
    input (the grid walks the rows 8000 at a time; the weights are the same block at every point) -/

theorem out (c : Dev nD) :
    (dat0 (F := Ideal) V c).arrAt 5 cfg0.N =
      (fun j => Cert.Spec.mlp2 (fun i : Fin 11 => (V c main_v0 : S320000x11.Idx → EReal) (ix2 (j 0) i))
        (fun (i : Fin 11) (c' : Fin 32) => (V c main_v1 : S11x32.Idx → EReal) (ix2 i c'))
        (fun c' : Fin 32 => (V c main_v2 : S1x32.Idx → EReal) (ix2 0 c'))
        (fun (c' : Fin 32) (o : Fin 32) => (V c main_v3 : S32x32.Idx → EReal) (ix2 c' o))
        (fun o : Fin 32 => (V c main_v4 : S1x32.Idx → EReal) (ix2 0 o)) (j 1) : S320000x32.Idx → EReal) :=
  (dat0 (F := Ideal) V c).arrAt_eq_of_cover 5 (perceptronRows V c) (fun t _ => writeback_eq V c t) rows_covered

end Cert.KernelIdeal.Region0

end
-- ==== Proof.KRegion1.lean ====
import proofs.«401352_j13305808683173_1_alg».proof.Proof.Gen.KernelIdeal.Frame
import proofs.«401352_j13305808683173_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

/-! ## A product of a block of rows with a 32 × 32 matrix, read at an entry -/

/-- The left operand's row coordinate is the output's. -/
theorem lhs_axis0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide),
    dif_pos (show (0 : Fin S8000x32.rank) ∈ dot_S8000x32_S32x32_S8000x32_1_0_0_1_n_n.lhsNonContracting by decide)]
  rfl
/-- The left operand's column coordinate is the summation index. -/
theorem lhs_axis1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
/-- The right operand's row coordinate is the summation index. -/
theorem rhs_axis0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
/-- The right operand's column coordinate is the output's. -/
theorem rhs_axis1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide),
    dif_pos (show (1 : Fin S32x32.rank) ∈ dot_S8000x32_S32x32_S8000x32_1_0_0_1_n_n.rhsNonContracting by decide)]
  rfl

/-- Entry (p, q) of the product into a zero accumulator: Σ_k x[p, k] · w[k, q]. -/
theorem matmul_entry {φ₁ φ₂ : FTy} (x : FVec Ideal S8000x32 φ₁) (w : FVec Ideal S32x32 φ₂) (p : Fin 8000) (q : Fin 32) :
    matmul dot_S8000x32_S32x32_S8000x32_1_0_0_1_n_n none x w (constant S8000x32 .f32 0x00000000#32) (ix2 p q)
      = ∑ k : Fin 32, x (ix2 p k) * w (ix2 k q) := by
  simp only [matmul]
  rw [Ideal.matmul_constant_zero_apply,
    ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p q)
      ((contrEquiv1 dot_S8000x32_S32x32_S8000x32_1_0_0_1_n_n 32 rfl rfl).symm k) = ix2 p k :=
    funext fun a => Fin.ext (by
      match a with
      | ⟨0, _⟩ => exact lhs_axis0 _ _
      | ⟨1, _⟩ => exact (lhs_axis1 _ _).trans hk)
  have er : dot_S8000x32_S32x32_S8000x32_1_0_0_1_n_n.rhsIdx (ix2 p q)
      ((contrEquiv1 dot_S8000x32_S32x32_S8000x32_1_0_0_1_n_n 32 rfl rfl).symm k) = ix2 k q :=
    funext fun a => Fin.ext (by
      match a with
      | ⟨0, _⟩ => exact (rhs_axis0 _ _).trans hk
      | ⟨1, _⟩ => exact rhs_axis1 _ _)
  rw [el, er]

/-- A bias row spread over the block's rows reads its own column. -/
theorem bias_entry (b : FVec Ideal S1x32 .f32) (p : Fin 8000) (q : Fin 32) :
    broadcastTo S8000x32 b broadcasts_S1x32_S8000x32 (ix2 p q) = b (ix2 0 q) :=
  broadcastTo_apply b broadcasts_S1x32_S8000x32 (ix2 p q) (ix2 0 q) (fun a => by
    match a with
    | ⟨0, _⟩ => rfl
    | ⟨1, _⟩ => rfl)

/-- THE BODY'S STORED VALUE AT ENTRY (p, q): the pair perceptron of rows p of the two row blocks, the weights read
    input-major and the biases from their one row. The format changes and same-shape casts are the identity on the
    extended reals; the three products are sums over the 32 middle indices; the rest is entrywise. -/
theorem pay_entry (x0 x1 : Vec Ideal S8000x32 .f32) (x2 x3 : Vec Ideal S32x32 .f32) (x4 : Vec Ideal S1x32 .f32)
    (x5 : Vec Ideal S32x32 .f32) (x6 : Vec Ideal S1x32 .f32) (p : Fin 8000) (q : Fin 32) :
    k1_pay1 (F := Ideal) x0 x1 x2 x3 x4 x5 x6 (ix2 p q)
      = Cert.Spec.mlp2pair (fun k : Fin 32 => x0 (ix2 p k)) (fun k : Fin 32 => x1 (ix2 p k))
          (fun (k c : Fin 32) => x2 (ix2 k c)) (fun (k c : Fin 32) => x3 (ix2 k c)) (fun c : Fin 32 => x4 (ix2 0 c))
          (fun (c o : Fin 32) => x5 (ix2 c o)) (fun o : Fin 32 => x6 (ix2 0 o)) q := by
  unfold k1_pay1
  simp only [shapeCast_self, select_apply, cmpf_apply, mulf_apply, addf_apply, maximumf_apply, broadcast_apply,
    truncf_apply, matmul_entry, bias_entry]
  rfl

/-! ## The windows' blocks, read off their arrays -/

/-- The zero offsets of a whole-block access, as a constant function. -/
theorem hz : (![0, 0] : Fin 2 → Nat) = fun _ => 0 := funext fun a => by fin_cases a <;> rfl

/-- The index maps over the 320 grid points: the two row inputs and the output sit at block row `t` at point `t`; each
    weight and bias window stays at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable [Cert.KernelIdeal.Facts]
variable (V : (c : Dev nD) → (b : Ref sig .tc) → Buf (Elt Ideal) ((c : Thread nD τ).loc b))

/-- The first row input's block at point `t` is rows 8000·t … 8000·t + 7999 of its array. -/
theorem rows_src (c : Dev nD) (t : Fin cfg1.N) (y : S8000x32.Idx) (i : S2560000x32.Idx)
    (h0 : (i 0).val = t.val * 8000 + (y 0).val) (h1 : (i 1).val = (y 1).val) :
    (iblk1 (F := Ideal) V c 0 t : Vec Ideal S8000x32 .f32) y = (V c main_v10 : S2560000x32.Idx → EReal) i := by
  obtain ⟨e0, e1, -⟩ := idx_facts t
  unfold iblk1
  rw [View.read_apply]
  show V c main_v10 _ = V c main_v10 _
  congr 1
  funext a
  apply Fin.ext
  match a with
  | ⟨0, _⟩ => show win1_0.index t (0 : Fin 2) * 8000 + 1 * (y 0).val = (i 0).val; rw [e0, h0]; omega
  | ⟨1, _⟩ => show win1_0.index t (1 : Fin 2) * 32 + 1 * (y 1).val = (i 1).val; rw [e1, h1]; omega

/-- The second row input's block likewise. -/
theorem rows_dst (c : Dev nD) (t : Fin cfg1.N) (y : S8000x32.Idx) (i : S2560000x32.Idx)
    (h0 : (i 0).val = t.val * 8000 + (y 0).val) (h1 : (i 1).val = (y 1).val) :
    (iblk1 (F := Ideal) V c 1 t : Vec Ideal S8000x32 .f32) y = (V c main_v14 : S2560000x32.Idx → EReal) i := by
  obtain ⟨-, -, e0, e1, -⟩ := idx_facts t
  unfold iblk1
  rw [View.read_apply]
  show V c main_v14 _ = V c main_v14 _
  congr 1
  funext a
  apply Fin.ext
  match a with
  | ⟨0, _⟩ => show win1_1.index t (0 : Fin 2) * 8000 + 1 * (y 0).val = (i 0).val; rw [e0, h0]; omega
  | ⟨1, _⟩ => show win1_1.index t (1 : Fin 2) * 32 + 1 * (y 1).val = (i 1).val; rw [e1, h1]; omega

/-- Each weight or bias window's block is its whole array, at every point. -/
theorem whole_W1s (c : Dev nD) (t : Fin cfg1.N) :
    (iblk1 (F := Ideal) V c 2 t : Vec Ideal S32x32 .f32) = (V c main_v16 : S32x32.Idx → EReal) := by
  obtain ⟨-, -, -, -, e0, e1, -⟩ := idx_facts t
  funext y
  unfold iblk1
  rw [View.read_apply]
  show V c main_v16 _ = V c main_v16 y
  congr 1
  funext a
  apply Fin.ext
  match a with
  | ⟨0, _⟩ => show win1_2.index t (0 : Fin 2) * 32 + 1 * (y 0).val = (y 0).val; rw [e0]; omega
  | ⟨1, _⟩ => show win1_2.index t (1 : Fin 2) * 32 + 1 * (y 1).val = (y 1).val; rw [e1]; omega
theorem whole_W1d (c : Dev nD) (t : Fin cfg1.N) :
    (iblk1 (F := Ideal) V c 3 t : Vec Ideal S32x32 .f32) = (V c main_v18 : S32x32.Idx → EReal) := by
  obtain ⟨-, -, -, -, -, -, e0, e1, -⟩ := idx_facts t
  funext y
  unfold iblk1
  rw [View.read_apply]
  show V c main_v18 _ = V c main_v18 y
  congr 1
  funext a
  apply Fin.ext
  match a with
  | ⟨0, _⟩ => show win1_3.index t (0 : Fin 2) * 32 + 1 * (y 0).val = (y 0).val; rw [e0]; omega
  | ⟨1, _⟩ => show win1_3.index t (1 : Fin 2) * 32 + 1 * (y 1).val = (y 1).val; rw [e1]; omega
theorem whole_b1 (c : Dev nD) (t : Fin cfg1.N) :
    (iblk1 (F := Ideal) V c 4 t : Vec Ideal S1x32 .f32) = (V c main_v19 : S1x32.Idx → EReal) := by
  obtain ⟨-, -, -, -, -, -, -, -, e0, e1, -⟩ := idx_facts t
  funext y
  unfold iblk1
  rw [View.read_apply]
  show V c main_v19 _ = V c main_v19 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 32 + 1 * (y 1).val = (y 1).val; rw [e1]; omega
theorem whole_W2 (c : Dev nD) (t : Fin cfg1.N) :
    (iblk1 (F := Ideal) V c 5 t : Vec Ideal S32x32 .f32) = (V c main_v20 : S32x32.Idx → EReal) := by
  obtain ⟨-, -, -, -, -, -, -, -, -, -, e0, e1, -⟩ := idx_facts t
  funext y
  unfold iblk1
  rw [View.read_apply]
  show V c main_v20 _ = V c main_v20 y
  congr 1
  funext a
  apply Fin.ext
  match a with
  | ⟨0, _⟩ => show win1_5.index t (0 : Fin 2) * 32 + 1 * (y 0).val = (y 0).val; rw [e0]; omega
  | ⟨1, _⟩ => show win1_5.index t (1 : Fin 2) * 32 + 1 * (y 1).val = (y 1).val; rw [e1]; omega
theorem whole_b2 (c : Dev nD) (t : Fin cfg1.N) :
    (iblk1 (F := Ideal) V c 6 t : Vec Ideal S1x32 .f32) = (V c main_v21 : S1x32.Idx → EReal) := by
  obtain ⟨-, -, -, -, -, -, -, -, -, -, -, -, e0, e1, -⟩ := idx_facts t
  funext y
  unfold iblk1
  rw [View.read_apply]
  show V c main_v21 _ = V c main_v21 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 32 + 1 * (y 1).val = (y 1).val; rw [e1]; omega

/-! ## From blocks to the array -/

/-- What the region leaves in its output array: row `r` is the pair perceptron of rows `r` of the two row arrays. -/
abbrev G (c : Dev nD) : S2560000x32.Idx → EReal := fun j =>
  Cert.Spec.mlp2pair (fun k : Fin 32 => (V c main_v10 : S2560000x32.Idx → EReal) (ix2 (j 0) k))
    (fun k : Fin 32 => (V c main_v14 : S2560000x32.Idx → EReal) (ix2 (j 0) k))
    (fun (k : Fin 32) (c' : Fin 32) => (V c main_v16 : S32x32.Idx → EReal) (ix2 k c'))
    (fun (k : Fin 32) (c' : Fin 32) => (V c main_v18 : S32x32.Idx → EReal) (ix2 k c'))
    (fun c' : Fin 32 => (V c main_v19 : S1x32.Idx → EReal) (ix2 0 c'))
    (fun (c' : Fin 32) (o : Fin 32) => (V c main_v20 : S32x32.Idx → EReal) (ix2 c' o))
    (fun o : Fin 32 => (V c main_v21 : S1x32.Idx → EReal) (ix2 0 o)) (j 1)

/-- The pair perceptron depends on its two rows and its output column only through their values. -/
theorem mlp2pair_rows {xs xs' xd xd' : Fin 32 → EReal} (W1s W1d : Fin 32 → Fin 32 → EReal) (b1 : Fin 32 → EReal)
    (W2 : Fin 32 → Fin 32 → EReal) (b2 : Fin 32 → EReal) {o o' : Fin 32} (hs : xs = xs') (hd : xd = xd') (ho : o = o') :
    Cert.Spec.mlp2pair xs xd W1s W1d b1 W2 b2 o = Cert.Spec.mlp2pair xs' xd' W1s W1d b1 W2 b2 o' := by
  subst hs hd ho; rfl

/-- WHAT POINT `t` WRITES BACK is block `t` of `G`: rows 8000·t … of the output, each the pair perceptron of the
    same rows of the two inputs. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S8000x32) hz, View.ld_unit_zero (S := S32x32) hz, View.ld_unit_zero (S := S1x32) hz]
  rw [whole_W1s V c t, whole_W1d V c t, whole_b1 V c t, whole_W2 V c t, whole_b2 V c t]
  obtain ⟨-, -, -, -, -, -, -, -, -, -, -, -, -, -, e0, e1⟩ := idx_facts t
  refine funext fun (j : S8000x32.Idx) => ?_
  obtain ⟨p, q, rfl⟩ : ∃ (p : Fin 8000) (q : Fin 32), j = ix2 p q := ⟨j 0, j 1, eq_ix2 j⟩
  show k1_pay1 (F := Ideal) (iblk1 V c 0 t) (iblk1 V c 1 t) (V c main_v16) (V c main_v18) (V c main_v19) (V c main_v20)
      (V c main_v21) (ix2 p q) = G V c (((cfg1.win 7).blk t).view.emb (ix2 p q))
  refine (pay_entry (iblk1 V c 0 t) (iblk1 V c 1 t) (V c main_v16) (V c main_v18) (V c main_v19) (V c main_v20)
    (V c main_v21) p q).trans ?_
  have hE0 : (((cfg1.win 7).blk t).view.emb (ix2 p q) (0 : Fin 2)).val = t.val * 8000 + p.val := by
    show win1_7.index t (0 : Fin 2) * 8000 + 1 * p.val = t.val * 8000 + p.val
    rw [e0]; omega
  have hE1 : q = ((cfg1.win 7).blk t).view.emb (ix2 p q) (1 : Fin 2) := Fin.ext (by
    show q.val = win1_7.index t (1 : Fin 2) * 32 + 1 * q.val
    rw [e1]; omega)
  exact mlp2pair_rows _ _ _ _ _
    (funext fun k => rows_src V c t (ix2 p k)
      (ix2 (((cfg1.win 7).blk t).view.emb (ix2 p q) (0 : Fin 2)) k) hE0 rfl)
    (funext fun k => rows_dst V c t (ix2 p k)
      (ix2 (((cfg1.win 7).blk t).view.emb (ix2 p q) (0 : Fin 2)) k) hE0 rfl)
    hE1

/-- An index of the output array is in point `t`'s block iff each coordinate is in the block's range on its axis. -/
theorem mem_blk (t : Fin cfg1.N) (i : S2560000x32.Idx) :
    i ∈ ((cfg1.win 7).blk t).view.set ↔ ∀ a : Fin 2, win1_7.index t a * S8000x32.size a ≤ (i a).val
      ∧ (i a).val < win1_7.index t a * S8000x32.size a + S8000x32.size a := by
  show i ∈ ((View.whole main_v22).slice (win1_7.rect t)).set ↔ _
  rw [View.set_slice_whole, Rect.mem_set_unit]
  exact Iff.rfl

/-- Row `r` of the output lies in the block of point `r / 8000`, which writes back: the 320 blocks tile the array. -/
theorem cover (i : S2560000x32.Idx) :
    ∃ t : Fin cfg1.N, (cfg1.win 7).flush t = true ∧ i ∈ ((cfg1.win 7).blk t).view.set := by
  have h0 : (i 0).val < 2560000 := (i 0).isLt
  have h1 : (i 1).val < 32 := (i 1).isLt
  have hN : cfg1.N = 320 := N_1
  obtain ⟨t, ht⟩ : ∃ t : Fin cfg1.N, t.val = (i 0).val / 8000 := ⟨⟨(i 0).val / 8000, by rw [hN]; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ =>
    show win1_7.index t (0 : Fin 2) * 8000 ≤ (i 0).val ∧ (i 0).val < win1_7.index t (0 : Fin 2) * 8000 + 8000
    rw [e0, ht]; omega
  | ⟨1, _⟩ =>
    show win1_7.index t (1 : Fin 2) * 32 ≤ (i 1).val ∧ (i 1).val < win1_7.index t (1 : Fin 2) * 32 + 32
    rw [e1]; omega

/-! ## The second kernel region as one function of its arrays: row `r` of the output is the pair perceptron of rows `r`
    of the two inputs -/

theorem out (c : Dev nD) :
    (dat1 (F := Ideal) V c).arrAt 7 cfg1.N =
      (fun j => Cert.Spec.mlp2pair (fun k : Fin 32 => (V c main_v10 : S2560000x32.Idx → EReal) (ix2 (j 0) k))
        (fun k : Fin 32 => (V c main_v14 : S2560000x32.Idx → EReal) (ix2 (j 0) k))
        (fun (k : Fin 32) (c' : Fin 32) => (V c main_v16 : S32x32.Idx → EReal) (ix2 k c'))
        (fun (k : Fin 32) (c' : Fin 32) => (V c main_v18 : S32x32.Idx → EReal) (ix2 k c'))
        (fun c' : Fin 32 => (V c main_v19 : S1x32.Idx → EReal) (ix2 0 c'))
        (fun (c' : Fin 32) (o : Fin 32) => (V c main_v20 : S32x32.Idx → EReal) (ix2 c' o))
        (fun o : Fin 32 => (V c main_v21 : S1x32.Idx → EReal) (ix2 0 o)) (j 1) : S2560000x32.Idx → EReal) :=
  (dat1 (F := Ideal) V c).arrAt_eq_of_cover 7 (G V c) (fun t _ => flushed_eq V c t) (fun i => cover i)

end Cert.KernelIdeal.Region1

end
-- ==== Proof.KRegion2.lean ====
import proofs.«401352_j13305808683173_1_alg».proof.Proof.Gen.KernelIdeal.Frame
import proofs.«401352_j13305808683173_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen

/-- The index maps of the six windows, decided over the 40 grid points: at point `t` the row window and the output window
    sit at block `t` of the rows (and block 0 of the columns); each of the four weight windows sits at its one block. -/
theorem index_maps_decided : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable [Cert.KernelIdeal.Facts]
variable (V : (c : Dev nD) → (b : Ref sig .tc) → Buf (Elt Ideal) ((c : Thread nD τ).loc b))

/-- The same index-map facts, for whichever proof of the program's facts is at hand (any two are equal). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  index_maps_decided

/-! ## The body's two matrix products, read at an index

Each product contracts axis 1 of its left operand with axis 0 of its right operand and has no batch axis, so at output
index (p, q) and contraction index k the left operand is read at (p, k) and the right at (k, q). The first maps the 32
input columns to the 32 hidden units, the second the hidden units to the one output column. -/

theorem lhs_first_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem lhs_first_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
theorem rhs_first_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
theorem rhs_first_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- The first product into the zero accumulator, at row `p` and hidden unit `q`: Σ_k a(p, k) · b(k, q) over the 32 inputs. -/
theorem firstProduct_apply (a : FVec Ideal S8000x32 .bf16) (b : FVec Ideal S32x32 .bf16) (p : Fin 8000) (q : Fin 32) :
    matmul dot_S8000x32_S32x32_S8000x32_1_0_0_1_n_n none a b (constant S8000x32 .f32 0x00000000#32) (ix2 p q)
      = ∑ k : Fin 32, a (ix2 p k) * b (ix2 k q) := by
  simp only [matmul]
  rw [Ideal.matmul_constant_zero_apply, ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p q) ((contrEquiv1 dot_S8000x32_S32x32_S8000x32_1_0_0_1_n_n 32 rfl rfl).symm k) = ix2 p k := funext fun a => Fin.ext (by
    match a with
    | ⟨0, _⟩ => exact lhs_first_0 _ _
    | ⟨1, _⟩ => exact (lhs_first_1 _ _).trans hk)
  have er : dot_S8000x32_S32x32_S8000x32_1_0_0_1_n_n.rhsIdx (ix2 p q) ((contrEquiv1 dot_S8000x32_S32x32_S8000x32_1_0_0_1_n_n 32 rfl rfl).symm k) = ix2 k q := funext fun a => Fin.ext (by
    match a with
    | ⟨0, _⟩ => exact (rhs_first_0 _ _).trans hk
    | ⟨1, _⟩ => exact rhs_first_1 _ _)
  rw [el, er]

theorem lhs_second_0 (i : S8000x1.Idx) (q : dot_S8000x32_S32x1_S8000x1_1_0_0_1_n_n.contr.Idx) :
    (dot_S8000x32_S32x1_S8000x1_1_0_0_1_n_n.lhsIdx i q 0).val = (i 0).val := by
  unfold DotDims.lhsIdx
  rw [dif_neg (show ¬(0 : Fin S8000x32.rank) ∈ dot_S8000x32_S32x1_S8000x1_1_0_0_1_n_n.lhsBatch by decide), dif_pos (show (0 : Fin S8000x32.rank) ∈ dot_S8000x32_S32x1_S8000x1_1_0_0_1_n_n.lhsNonContracting by decide)]
  rfl
theorem lhs_second_1 (i : S8000x1.Idx) (q : dot_S8000x32_S32x1_S8000x1_1_0_0_1_n_n.contr.Idx) :
    (dot_S8000x32_S32x1_S8000x1_1_0_0_1_n_n.lhsIdx i q 1).val = (q ⟨0, by decide⟩).val :=
  dot_S8000x32_S32x1_S8000x1_1_0_0_1_n_n.lhsIdx_val_of_single rfl i q
theorem rhs_second_0 (i : S8000x1.Idx) (q : dot_S8000x32_S32x1_S8000x1_1_0_0_1_n_n.contr.Idx) :
    (dot_S8000x32_S32x1_S8000x1_1_0_0_1_n_n.rhsIdx i q 0).val = (q ⟨0, by decide⟩).val :=
  dot_S8000x32_S32x1_S8000x1_1_0_0_1_n_n.rhsIdx_val_of_single rfl i q
theorem rhs_second_1 (i : S8000x1.Idx) (q : dot_S8000x32_S32x1_S8000x1_1_0_0_1_n_n.contr.Idx) :
    (dot_S8000x32_S32x1_S8000x1_1_0_0_1_n_n.rhsIdx i q 1).val = (i 1).val := by
  unfold DotDims.rhsIdx
  rw [dif_neg (show ¬(1 : Fin S32x1.rank) ∈ dot_S8000x32_S32x1_S8000x1_1_0_0_1_n_n.rhsBatch by decide), dif_pos (show (1 : Fin S32x1.rank) ∈ dot_S8000x32_S32x1_S8000x1_1_0_0_1_n_n.rhsNonContracting by decide)]
  rfl

/-- The second product into the zero accumulator, at row `p` and the output column `q`: Σ_k a(p, k) · b(k, q) over the 32 hidden
    units. -/
theorem secondProduct_apply (a : FVec Ideal S8000x32 .bf16) (b : FVec Ideal S32x1 .bf16) (p : Fin 8000) (q : Fin 1) :
    matmul dot_S8000x32_S32x1_S8000x1_1_0_0_1_n_n none a b (constant S8000x1 .f32 0x00000000#32) (ix2 p q)
      = ∑ k : Fin 32, a (ix2 p k) * b (ix2 k q) := by
  simp only [matmul]
  rw [Ideal.matmul_constant_zero_apply, ← Equiv.sum_comp (contrEquiv1 dot_S8000x32_S32x1_S8000x1_1_0_0_1_n_n 32 rfl rfl).symm]
  refine Finset.sum_congr rfl fun k _ => ?_
  have hk := contrEquiv1_symm_val dot_S8000x32_S32x1_S8000x1_1_0_0_1_n_n 32 rfl rfl k
  have el : dot_S8000x32_S32x1_S8000x1_1_0_0_1_n_n.lhsIdx (ix2 p q) ((contrEquiv1 dot_S8000x32_S32x1_S8000x1_1_0_0_1_n_n 32 rfl rfl).symm k) = ix2 p k := funext fun a => Fin.ext (by
    match a with
    | ⟨0, _⟩ => exact lhs_second_0 _ _
    | ⟨1, _⟩ => exact (lhs_second_1 _ _).trans hk)
  have er : dot_S8000x32_S32x1_S8000x1_1_0_0_1_n_n.rhsIdx (ix2 p q) ((contrEquiv1 dot_S8000x32_S32x1_S8000x1_1_0_0_1_n_n 32 rfl rfl).symm k) = ix2 k q := funext fun a => Fin.ext (by
    match a with
    | ⟨0, _⟩ => exact (rhs_second_0 _ _).trans hk
    | ⟨1, _⟩ => exact rhs_second_1 _ _)
  rw [el, er]

/-! ## The body's stored value at an index -/

/-- A [1,32] row broadcast over the 8000 rows reads, at row `r` and column `c`, the row's entry `c`. -/
theorem biasRow_apply (x : Vec Ideal S1x32 .f32) (r : Fin 8000) (c : Fin 32) :
    broadcastTo S8000x32 x broadcasts_S1x32_S8000x32 (ix2 r c) = x (ix2 0 c) :=
  broadcastTo_apply x _ (ix2 r c) (ix2 0 c) (fun a => by match a with | ⟨0, _⟩ => rfl | ⟨1, _⟩ => rfl)

/-- A [1,1] array broadcast over the 8000 rows of one column reads its one entry everywhere. -/
theorem biasOne_apply (x : Vec Ideal S1x1 .f32) (r : Fin 8000) (c : Fin 1) :
    broadcastTo S8000x1 x broadcasts_S1x1_S8000x1 (ix2 r c) = x (ix2 0 c) :=
  broadcastTo_apply x _ (ix2 r c) (ix2 0 c) (fun a => by
    match a with
    | ⟨0, _⟩ => rfl
    | ⟨1, _⟩ => show c.val = 0; omega)

/-- The hidden layer at row `p`, unit `c`: max(Σ_i x0(p, i) · x1(i, c) + x2(0, c), 0). The format changes on the way into
    the product are the identity on extended reals. -/
theorem hidden_apply (x0 : Vec Ideal S8000x32 .f32) (x1 : Vec Ideal S32x32 .f32) (x2 : Vec Ideal S1x32 .f32) (p : Fin 8000) (c : Fin 32) :
    maximumf (addf (matmul dot_S8000x32_S32x32_S8000x32_1_0_0_1_n_n none (truncf .bf16 x0 bitsLt_bf16_f32) (truncf .bf16 x1 bitsLt_bf16_f32) (constant S8000x32 .f32 0x00000000#32)) (broadcastTo S8000x32 x2 broadcasts_S1x32_S8000x32)) (broadcast S8000x32 (Scalar.ofBits (F := Ideal) .f32 0x00000000#32)) (ix2 p c)
      = Cert.Spec.relu ((∑ i : Fin 32, x0 (ix2 p i) * x1 (ix2 i c)) + x2 (ix2 0 c)) := by
  show max (_ + _) _ = _
  rw [firstProduct_apply, biasRow_apply]
  rfl

/-- The second layer before its activation, at row `p` and the output column `q`, over any hidden layer `h`:
    Σ_c h(p, c) · x3(c, q) + x4(0, q). -/
theorem preactivation_apply (h : FVec Ideal S8000x32 .f32) (x3 : Vec Ideal S32x1 .f32) (x4 : Vec Ideal S1x1 .f32) (p : Fin 8000) (q : Fin 1) :
    addf (matmul dot_S8000x32_S32x1_S8000x1_1_0_0_1_n_n none (truncf .bf16 h bitsLt_bf16_f32) (truncf .bf16 x3 bitsLt_bf16_f32) (constant S8000x1 .f32 0x00000000#32)) (broadcastTo S8000x1 x4 broadcasts_S1x1_S8000x1) (ix2 p q)
      = (∑ c : Fin 32, h (ix2 p c) * x3 (ix2 c q)) + x4 (ix2 0 q) := by
  show _ + _ = _
  rw [secondProduct_apply, biasOne_apply]
  rfl

/-- THE STORED VALUE at row `p`, column `q` of the block is the two-layer perceptron of row `p` of the row block: the select
    between the pre-activation and the slope times it, on the comparison with zero, is the leaky activation. -/
theorem payload_apply (x0 : Vec Ideal S8000x32 .f32) (x1 : Vec Ideal S32x32 .f32) (x2 : Vec Ideal S1x32 .f32)
    (x3 : Vec Ideal S32x1 .f32) (x4 : Vec Ideal S1x1 .f32) (p : Fin 8000) (q : Fin 1) :
    k2_pay1 x0 x1 x2 x3 x4 (ix2 p q)
      = Cert.Spec.mlp2 (fun k : Fin 32 => x0 (ix2 p k)) (fun (k : Fin 32) (c : Fin 32) => x1 (ix2 k c)) (fun c : Fin 32 => x2 (ix2 0 c))
          (fun (c : Fin 32) (o : Fin 1) => x3 (ix2 c o)) (fun o : Fin 1 => x4 (ix2 0 o)) q := by
  unfold k2_pay1
  simp only [shapeCast_self]
  rw [select_apply, cmpf_apply, mulf_apply, broadcast_apply, broadcast_apply, preactivation_apply]
  simp only [hidden_apply]
  rfl

/-- The stored value at an element `y` of the block, when row `y 0` of the row block is row `i 0` of an array `a0` and
    `y`'s column is `i`'s: the perceptron of that row of `a0`, at column `i 1`. -/
theorem payload_of_row (a0 : S320000x32.Idx → EReal) (x0 : Vec Ideal S8000x32 .f32) (x1 : Vec Ideal S32x32 .f32) (x2 : Vec Ideal S1x32 .f32)
    (x3 : Vec Ideal S32x1 .f32) (x4 : Vec Ideal S1x1 .f32) (y : S8000x1.Idx) (i : S320000x1.Idx)
    (h0 : ∀ k : Fin 32, x0 (ix2 (y 0) k) = a0 (ix2 (i 0) k)) (h1 : (y 1).val = (i 1).val) :
    k2_pay1 x0 x1 x2 x3 x4 y
      = Cert.Spec.mlp2 (fun k : Fin 32 => a0 (ix2 (i 0) k)) (fun (k : Fin 32) (c : Fin 32) => x1 (ix2 k c)) (fun c : Fin 32 => x2 (ix2 0 c))
          (fun (c : Fin 32) (o : Fin 1) => x3 (ix2 c o)) (fun o : Fin 1 => x4 (ix2 0 o)) (i 1) := by
  obtain ⟨p, q, rfl⟩ : ∃ (p : Fin 8000) (q : Fin 1), y = ix2 p q := ⟨y 0, y 1, eq_ix2 y⟩
  rw [payload_apply]
  have hq : q = i 1 := Fin.ext h1
  rw [hq]
  exact congrArg (fun f => Cert.Spec.mlp2 f (fun (k : Fin 32) (c : Fin 32) => x1 (ix2 k c)) (fun c : Fin 32 => x2 (ix2 0 c))
          (fun (c : Fin 32) (o : Fin 1) => x3 (ix2 c o)) (fun o : Fin 1 => x4 (ix2 0 o)) (i 1)) (funext h0)

/-! ## The windows' blocks as parts of their arrays

An element of a block sits in its array, on each axis, at the block index times the block's extent plus its own
coordinate. -/

theorem zero_offsets : (![0, 0] : Fin 2 → Nat) = fun _ => 0 := funext fun a => by fin_cases a <;> rfl

/-- The first weight matrix's block at any point is the whole matrix. -/
theorem weights1_block (c : Dev nD) (t : Fin cfg2.N) : (iblk2 (F := Ideal) V c 1 t : Vec Ideal S32x32 .f32) = V c main_v59 := by
  obtain ⟨-, -, e0, e1, -⟩ := index_maps t
  funext y
  show V c main_v59 (((cfg2.win 1).blk t).view.emb y) = V c main_v59 y
  refine congrArg (V c main_v59) (funext fun a => Fin.ext ?_)
  match a with
  | ⟨0, _⟩ => show win2_1.index t (0 : Fin 2) * 32 + 1 * (y 0).val = (y 0).val; omega
  | ⟨1, _⟩ => show win2_1.index t (1 : Fin 2) * 32 + 1 * (y 1).val = (y 1).val; omega

/-- The first bias row's block at any point is the whole row. -/
theorem bias1_block (c : Dev nD) (t : Fin cfg2.N) : (iblk2 (F := Ideal) V c 2 t : Vec Ideal S1x32 .f32) = V c main_v60 := by
  obtain ⟨-, -, -, -, e0, e1, -⟩ := index_maps t
  funext y
  show V c main_v60 (((cfg2.win 2).blk t).view.emb y) = V c main_v60 y
  refine congrArg (V c main_v60) (funext fun a => Fin.ext ?_)
  match a with
  | ⟨0, _⟩ => show win2_2.index t (0 : Fin 2) * 1 + 1 * (y 0).val = (y 0).val; omega
  | ⟨1, _⟩ => show win2_2.index t (1 : Fin 2) * 32 + 1 * (y 1).val = (y 1).val; omega

/-- The second weight matrix's block (one column) at any point is the whole matrix. -/
theorem weights2_block (c : Dev nD) (t : Fin cfg2.N) : (iblk2 (F := Ideal) V c 3 t : Vec Ideal S32x1 .f32) = V c main_v61 := by
  obtain ⟨-, -, -, -, -, -, e0, e1, -⟩ := index_maps t
  funext y
  show V c main_v61 (((cfg2.win 3).blk t).view.emb y) = V c main_v61 y
  refine congrArg (V c main_v61) (funext fun a => Fin.ext ?_)
  match a with
  | ⟨0, _⟩ => show win2_3.index t (0 : Fin 2) * 32 + 1 * (y 0).val = (y 0).val; omega
  | ⟨1, _⟩ => show win2_3.index t (1 : Fin 2) * 1 + 1 * (y 1).val = (y 1).val; omega

/-- The second bias's block (one entry) at any point is the whole array. -/
theorem bias2_block (c : Dev nD) (t : Fin cfg2.N) : (iblk2 (F := Ideal) V c 4 t : Vec Ideal S1x1 .f32) = V c main_v62 := by
  obtain ⟨-, -, -, -, -, -, -, -, e0, e1, -⟩ := index_maps t
  funext y
  show V c main_v62 (((cfg2.win 4).blk t).view.emb y) = V c main_v62 y
  refine congrArg (V c main_v62) (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- Row `y 0` of the row window's block at point `t` is row `8000 · t + y 0` of the array. -/
theorem rows_block_apply (c : Dev nD) (t : Fin cfg2.N) (y : S8000x32.Idx) (i : S320000x32.Idx)
    (h0 : (i 0).val = t.val * 8000 + (y 0).val) (h1 : (i 1).val = (y 1).val) :
    (iblk2 (F := Ideal) V c 0 t : Vec Ideal S8000x32 .f32) y = (V c main_v58 : S320000x32.Idx → EReal) i := by
  obtain ⟨e0, e1, -⟩ := index_maps t
  show V c main_v58 (((cfg2.win 0).blk t).view.emb y) = V c main_v58 i
  refine congrArg (V c main_v58) (funext fun a => Fin.ext ?_)
  match a with
  | ⟨0, _⟩ => show win2_0.index t (0 : Fin 2) * 8000 + 1 * (y 0).val = (i 0).val; omega
  | ⟨1, _⟩ => show win2_0.index t (1 : Fin 2) * 32 + 1 * (y 1).val = (i 1).val; omega

/-! ## From the blocks to the array -/

/-- What the one-column output array ends holding: row by row, the perceptron of the input row. -/
abbrev perceptronRows (c : Dev nD) : S320000x1.Idx → EReal :=
  fun j => Cert.Spec.mlp2 (fun k : Fin 32 => (V c main_v58 : S320000x32.Idx → EReal) (ix2 (j 0) k))
    (fun (k : Fin 32) (c' : Fin 32) => (V c main_v59 : S32x32.Idx → EReal) (ix2 k c'))
    (fun c' : Fin 32 => (V c main_v60 : S1x32.Idx → EReal) (ix2 0 c'))
    (fun (c' : Fin 32) (o : Fin 1) => (V c main_v61 : S32x1.Idx → EReal) (ix2 c' o))
    (fun o : Fin 1 => (V c main_v62 : S1x1.Idx → EReal) (ix2 0 o)) (j 1)

/-- WHAT POINT `t` WRITES BACK is block `t` of `perceptronRows`: the body's one store covers the staging buffer, its loads read
    the whole input blocks, and element (r, q) of the stored value is the perceptron of row `8000 · t + r` at column `q`. -/
theorem writeback_eq (c : Dev nD) (t : Fin cfg2.N) :
    (dat2 (F := Ideal) V c).flushed 5 t = ((cfg2.win 5).blk t).view.read (Elt Ideal) (perceptronRows V c) := by
  show (cfg2.win 5).cut (grid2.coords t) ((dat2 (F := Ideal) V c).after 5 t) = _
  rw [after2_5]
  unfold out2_5
  rw [View.canon_unit_zero zero_offsets]
  simp only [View.ld_unit_zero (S := S8000x32) zero_offsets, View.ld_unit_zero (S := S32x32) zero_offsets,
    View.ld_unit_zero (S := S1x32) zero_offsets, View.ld_unit_zero (S := S32x1) zero_offsets,
    View.ld_unit_zero (S := S1x1) zero_offsets]
  rw [weights1_block, bias1_block, weights2_block, bias2_block]
  obtain ⟨-, -, -, -, -, -, -, -, -, -, e0, e1⟩ := index_maps t
  refine funext fun (j : S8000x1.Idx) => ?_
  show k2_pay1 (iblk2 (F := Ideal) V c 0 t) (V c main_v59) (V c main_v60) (V c main_v61) (V c main_v62) j
    = perceptronRows V c (((cfg2.win 5).blk t).view.emb j)
  refine payload_of_row (V c main_v58) _ _ _ _ _ j _ (fun k => rows_block_apply V c t _ _ ?_ ?_) ?_
  · show win2_5.index t (0 : Fin 2) * 8000 + 1 * (j 0).val = t.val * 8000 + (j 0).val; omega
  · rfl
  · show (j 1).val = win2_5.index t (1 : Fin 2) * 1 + 1 * (j 1).val; omega

/-- An index of the array is in point `t`'s output block iff each coordinate is in the block's range on its axis. -/
theorem mem_block (t : Fin cfg2.N) (i : S320000x1.Idx) :
    i ∈ ((cfg2.win 5).blk t).view.set ↔ ∀ a : Fin 2, win2_5.index t a * S8000x1.size a ≤ (i a).val ∧ (i a).val < win2_5.index t a * S8000x1.size a + S8000x1.size a := by
  show i ∈ ((View.whole main_v63).slice (win2_5.rect t)).set ↔ _
  rw [View.set_slice_whole, Rect.mem_set_unit]
  exact Iff.rfl

/-- Row `r` of the array is in the block of point `r / 8000`, which writes back: the 40 blocks of 8000 rows tile the
    320000 rows. -/
theorem rows_covered (i : S320000x1.Idx) : ∃ t : Fin cfg2.N, (cfg2.win 5).flush t = true ∧ i ∈ ((cfg2.win 5).blk t).view.set := by
  have hi0 : (i 0).val < 320000 := (i 0).isLt
  have hi1 : (i 1).val < 1 := (i 1).isLt
  obtain ⟨t, ht⟩ : ∃ t : Fin cfg2.N, t.val = (i 0).val / 8000 :=
    ⟨⟨(i 0).val / 8000, by show (i 0).val / 8000 < grid2.N; rw [N_2]; omega⟩, rfl⟩
  obtain ⟨-, -, -, -, -, -, -, -, -, -, e0, e1⟩ := index_maps t
  refine ⟨t, flush2_5 t, ?_⟩
  rw [mem_block]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 1 ≤ (i 1).val ∧ (i 1).val < win2_5.index t (1 : Fin 2) * 1 + 1; omega

/-! ## The third kernel region as one function of its arrays: row `r` of the one-column output is the perceptron of
    row `r` of the input -/

theorem out (c : Dev nD) :
    (dat2 (F := Ideal) V c).arrAt 5 cfg2.N =
      (fun j => Cert.Spec.mlp2 (fun k : Fin 32 => (V c main_v58 : S320000x32.Idx → EReal) (ix2 (j 0) k))
        (fun (k : Fin 32) (c' : Fin 32) => (V c main_v59 : S32x32.Idx → EReal) (ix2 k c'))
        (fun c' : Fin 32 => (V c main_v60 : S1x32.Idx → EReal) (ix2 0 c'))
        (fun (c' : Fin 32) (o : Fin 1) => (V c main_v61 : S32x1.Idx → EReal) (ix2 c' o))
        (fun o : Fin 1 => (V c main_v62 : S1x1.Idx → EReal) (ix2 0 o)) (j 1) : S320000x1.Idx → EReal) :=
  (dat2 (F := Ideal) V c).arrAt_eq_of_cover 5 (perceptronRows V c) (fun t _ => writeback_eq V c t) rows_covered

end Cert.KernelIdeal.Region2

end
-- ==== Proof.KHostA.lean ====
import proofs.«401352_j13305808683173_1_alg».proof.Proof.Gen.KernelIdeal.Launch
import proofs.«401352_j13305808683173_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.IdealHost

set_option maxRecDepth 16384

noncomputable section

open scoped BigOperators

namespace Cert.KernelIdeal.HostA

open Idealize.ShloMosaic Idealize.ShloMosaic.TcCoe Idealize.ShloMosaic.ValueIdx Idealize.SL.Sem
open Cert.KernelIdeal Cert.KernelIdeal.Gen
open Cert.Spec (rb rn eb ee lo hi node)

variable [Cert.KernelIdeal.Facts]
variable (Vv : Valuation τ sig (Elt Ideal))

/-! ## The host operations before the first kernel region: the node inputs flattened to rows, the weights transposed -/

theorem h0_v0 (r : Fin 320000) (i : Fin 11) :
    (StableHlo.after (hostOps0 (F := Ideal)) Vv (Proc.devRef .tc main_v0) : S320000x11.Idx → EReal) (ix2 r i) = (Vv (Proc.devRef .tc main_arg0) : S16x20000x11.Idx → EReal) (ix3 (rb r) (rn r) i) := by
  after_results
  refine shapeCast_apply _ _ _ _ ?_
  show ((⟨3, ![16, 20000, 11]⟩ : Shape).rowMajor (ix3 (rb r) (rn r) i)).val = ((⟨2, ![320000, 11]⟩ : Shape).rowMajor (ix2 r i)).val
  rw [Shape.rowMajor_val_three, Shape.rowMajor_val_two]
  show ((rb r).val * 20000 + (rn r).val) * 11 + i.val = r.val * 11 + i.val
  have h1 : (rb r).val = r.val / 20000 := rfl
  have h2 : (rn r).val = r.val % 20000 := rfl
  omega
theorem h0_v1 (i : Fin 11) (c' : Fin 32) :
    (StableHlo.after (hostOps0 (F := Ideal)) Vv (Proc.devRef .tc main_v1) : S11x32.Idx → EReal) (ix2 i c') = (Vv (Proc.devRef .tc main_arg2) : S32x11.Idx → EReal) (ix2 c' i) := by
  after_results
  exact transpose_apply _ _ _ _ _ (fun b => match b with | ⟨0, _⟩ => rfl | ⟨1, _⟩ => rfl)
theorem h0_v2 (c' : Fin 32) :
    (StableHlo.after (hostOps0 (F := Ideal)) Vv (Proc.devRef .tc main_v2) : S1x32.Idx → EReal) (ix2 0 c') = (Vv (Proc.devRef .tc main_arg3) : S32.Idx → EReal) (ix1 c') := by
  after_results
  refine shapeCast_apply _ _ _ _ ?_
  show ((⟨1, ![32]⟩ : Shape).rowMajor (ix1 c')).val = ((⟨2, ![1, 32]⟩ : Shape).rowMajor (ix2 (0 : Fin 1) c')).val
  rw [Shape.rowMajor_val_one, Shape.rowMajor_val_two]
  show c'.val = 0 * 32 + c'.val
  omega
theorem h0_v3 (c' o : Fin 32) :
    (StableHlo.after (hostOps0 (F := Ideal)) Vv (Proc.devRef .tc main_v3) : S32x32.Idx → EReal) (ix2 c' o) = (Vv (Proc.devRef .tc main_arg4) : S32x32.Idx → EReal) (ix2 o c') := by
  after_results
  exact transpose_apply _ _ _ _ _ (fun b => match b with | ⟨0, _⟩ => rfl | ⟨1, _⟩ => rfl)
theorem h0_v4 (o : Fin 32) :
    (StableHlo.after (hostOps0 (F := Ideal)) Vv (Proc.devRef .tc main_v4) : S1x32.Idx → EReal) (ix2 0 o) = (Vv (Proc.devRef .tc main_arg5) : S32.Idx → EReal) (ix1 o) := by
  after_results
  refine shapeCast_apply _ _ _ _ ?_
  show ((⟨1, ![32]⟩ : Shape).rowMajor (ix1 o)).val = ((⟨2, ![1, 32]⟩ : Shape).rowMajor (ix2 (0 : Fin 1) o)).val
  rw [Shape.rowMajor_val_one, Shape.rowMajor_val_two]
  show o.val = 0 * 32 + o.val
  omega

/-! ## The host operations after the last kernel region: the weighted sum over the nodes and the logistic function -/

/-! ### The last product read at an index -/

/-- The dimension numbers of the last product: the node axis of the [16, 20000] values against the node axis of the
    [20000, 1] weights. -/
private abbrev Dg := dot_S16x20000_S20000x1_S16x1_1_0_0_1_n_n

/-- One axis is contracted, of extent 20000. -/
private theorem Dg_rank : Dg.contr.rank = 1 := rfl
private theorem Dg_size : Dg.contr.size ⟨0, by rw [Dg_rank]; exact Nat.one_pos⟩ = 20000 := rfl

/-- The left operand is read at (the result's row, the contraction position) … -/
private theorem lhs_axis0 (j : S16x1.Idx) (k : dot_S16x20000_S20000x1_S16x1_1_0_0_1_n_n.contr.Idx) :
    (dot_S16x20000_S20000x1_S16x1_1_0_0_1_n_n.lhsIdx j k 0).val = (j 0).val := by
  simp [DotDims.lhsIdx, dot_S16x20000_S20000x1_S16x1_1_0_0_1_n_n]
  rfl
private theorem lhs_axis1 (j : S16x1.Idx) (k : dot_S16x20000_S20000x1_S16x1_1_0_0_1_n_n.contr.Idx) :
    (dot_S16x20000_S20000x1_S16x1_1_0_0_1_n_n.lhsIdx j k 1).val = (k ⟨0, by rw [Dg_rank]; exact Nat.one_pos⟩).val :=
  dot_S16x20000_S20000x1_S16x1_1_0_0_1_n_n.lhsIdx_val_of_single (cl := 1) rfl j k
/-- … and the right operand at (the contraction position, the result's column). -/
private theorem rhs_axis0 (j : S16x1.Idx) (k : dot_S16x20000_S20000x1_S16x1_1_0_0_1_n_n.contr.Idx) :
    (dot_S16x20000_S20000x1_S16x1_1_0_0_1_n_n.rhsIdx j k 0).val = (k ⟨0, by rw [Dg_rank]; exact Nat.one_pos⟩).val :=
  dot_S16x20000_S20000x1_S16x1_1_0_0_1_n_n.rhsIdx_val_of_single (cr := 0) rfl j k
private theorem rhs_axis1 (j : S16x1.Idx) (k : dot_S16x20000_S20000x1_S16x1_1_0_0_1_n_n.contr.Idx) :
    (dot_S16x20000_S20000x1_S16x1_1_0_0_1_n_n.rhsIdx j k 1).val = 0 := by
  have h := (dot_S16x20000_S20000x1_S16x1_1_0_0_1_n_n.rhsIdx j k 1).isLt
  have h1 : S20000x1.size 1 = 1 := rfl
  omega

/-- The product at row `b` is the sum over the nodes of the left operand's entry (b, n) times the right operand's entry (n, 0). -/
private theorem dot_read (L : S16x20000.Idx → EReal) (R : S20000x1.Idx → EReal) (j : S16x1.Idx) :
    (Host.dotGeneral (F := Ideal) (φ₁ := .f32) (φ₂ := .f32) dot_S16x20000_S20000x1_S16x1_1_0_0_1_n_n none L R : S16x1.Idx → EReal) j
      = ∑ n : Fin 20000, L (ix2 (j 0) n) * R (ix2 n 0) := by
  refine (Ideal.dotGeneral_apply (φ₁ := .f32) (φ₂ := .f32) dot_S16x20000_S20000x1_S16x1_1_0_0_1_n_n none .single L R j).trans ?_
  rw [← Equiv.sum_comp (contrEquiv1 Dg 20000 Dg_rank Dg_size).symm]
  refine Finset.sum_congr rfl fun n _ => ?_
  congr 1
  · refine congrArg L (funext fun a => Fin.ext ?_)
    match a with
    | ⟨0, _⟩ => exact lhs_axis0 _ _
    | ⟨1, _⟩ => exact (lhs_axis1 _ _).trans (contrEquiv1_symm_val Dg 20000 Dg_rank Dg_size n)
  · refine congrArg R (funext fun a => Fin.ext ?_)
    match a with
    | ⟨0, _⟩ => exact (rhs_axis0 _ _).trans (contrEquiv1_symm_val Dg 20000 Dg_rank Dg_size n)
    | ⟨1, _⟩ => exact rhs_axis1 _ _

/-- Row `b · 20000 + n` of the flat node list is node `n` of graph `b`. -/
private def flatRow (b : Fin 16) (n : Fin 20000) : Fin 320000 := ⟨b.val * 20000 + n.val, by have := b.isLt; have := n.isLt; omega⟩
private theorem rb_flatRow (b : Fin 16) (n : Fin 20000) : rb (flatRow b n) = b :=
  Fin.ext (by show (b.val * 20000 + n.val) / 20000 = b.val; have := n.isLt; omega)
private theorem rn_flatRow (b : Fin 16) (n : Fin 20000) : rn (flatRow b n) = n :=
  Fin.ext (by show (b.val * 20000 + n.val) % 20000 = n.val; have := n.isLt; omega)

/-- The end of the stretch read at an index, over any two summands `d` (the product) and `c` (the bias):
    1 / (1 + exp (−(d + c))), the two ones being the float word of 1 broadcast from a scalar. -/
private theorem logistic_read (d c : S16x1.Idx → EReal) (j : S16x1.Idx) :
    (Host.divf (F := Ideal) (φ := .f32) (broadcastInDim S16x1 ![] bcast_S_S16x1 (constant (F := Ideal) S_ .f32 0x3F800000#32))
      (addf (F := Ideal) (φ := .f32) (broadcastInDim S16x1 ![] bcast_S_S16x1 (constant (F := Ideal) S_ .f32 0x3F800000#32))
        (Host.exp (F := Ideal) (φ := .f32) (Host.negf (F := Ideal) (φ := .f32) (addf (F := Ideal) (φ := .f32) d c)))) : S16x1.Idx → EReal) j
    = Ideal.div Cert.Spec.one (Cert.Spec.one + Ideal.exp (-(d j + c j))) := by
  rw [hostDivf_apply, addf_apply, broadcastInDim_scalar_apply, constant_apply]
  rfl

theorem h3_out (v : Fin 16 → Fin 20000 → EReal)
    (hv : ∀ r : Fin 320000, (Vv (Proc.devRef .tc main_v63) : S320000x1.Idx → EReal) (ix2 r 0) = v (rb r) (rn r)) :
    (StableHlo.after (hostOps3 (F := Ideal)) Vv (Proc.devRef .tc main_v75) : S16x1.Idx → EReal) =
      fun j => Cert.Spec.Oval v (Vv (Proc.devRef .tc main_arg14) : S1x20000.Idx → EReal) (Vv (Proc.devRef .tc main_arg15) : S1.Idx → EReal) (j 0) := by
  refine funext fun (j : S16x1.Idx) => ?_
  after_results
  refine (logistic_read _ _ j).trans ?_
  unfold Cert.Spec.Oval
  refine congrArg (fun t => Ideal.div Cert.Spec.one (Cert.Spec.one + Ideal.exp (-t))) (congrArg₂ (· + ·) ?_ ?_)
  · -- the weighted sum over the nodes
    refine (dot_read _ _ j).trans (Finset.sum_congr rfl fun n _ => ?_)
    refine congrArg₂ (· * ·) ?_ ?_
    · -- the values, regrouped [320000, 1] → [16, 20000]
      refine (shapeCast_apply _ _ _ (ix2 (flatRow (j 0) n) 0) ?_).trans ((hv _).trans ?_)
      · show ((⟨2, ![320000, 1]⟩ : Shape).rowMajor (ix2 (flatRow (j 0) n) (0 : Fin 1))).val = ((⟨2, ![16, 20000]⟩ : Shape).rowMajor (ix2 (j 0) n)).val
        rw [Shape.rowMajor_val_two, Shape.rowMajor_val_two]
        show ((j 0).val * 20000 + n.val) * 1 + 0 = (j 0).val * 20000 + n.val
        omega
      · exact congrArg₂ v (rb_flatRow _ _) (rn_flatRow _ _)
    · -- the weights, transposed [1, 20000] → [20000, 1]
      exact transpose_apply _ _ _ _ _ (fun b => match b with | ⟨0, _⟩ => rfl | ⟨1, _⟩ => rfl)
  · -- the bias, broadcast [1] → [1, 1] → [16, 1]
    refine (broadcastInDim_apply _ _ _ j (ix2 0 0) (fun a => match a with | ⟨0, _⟩ => rfl | ⟨1, _⟩ => rfl)).trans ?_
    exact broadcastInDim_apply _ _ _ (ix2 0 0) (ix1 0) (fun a => match a with | ⟨0, _⟩ => rfl)

/-! ## No operation of either stretch writes an argument -/

theorem h0_arg0 : StableHlo.after (hostOps0 (F := Ideal)) Vv (Proc.devRef .tc main_arg0) = Vv (Proc.devRef .tc main_arg0) := by
  after_results
theorem h0_arg1 : StableHlo.after (hostOps0 (F := Ideal)) Vv (Proc.devRef .tc main_arg1) = Vv (Proc.devRef .tc main_arg1) := by
  after_results
theorem h0_arg2 : StableHlo.after (hostOps0 (F := Ideal)) Vv (Proc.devRef .tc main_arg2) = Vv (Proc.devRef .tc main_arg2) := by
  after_results
theorem h0_arg3 : StableHlo.after (hostOps0 (F := Ideal)) Vv (Proc.devRef .tc main_arg3) = Vv (Proc.devRef .tc main_arg3) := by
  after_results
theorem h0_arg4 : StableHlo.after (hostOps0 (F := Ideal)) Vv (Proc.devRef .tc main_arg4) = Vv (Proc.devRef .tc main_arg4) := by
  after_results
theorem h0_arg5 : StableHlo.after (hostOps0 (F := Ideal)) Vv (Proc.devRef .tc main_arg5) = Vv (Proc.devRef .tc main_arg5) := by
  after_results
theorem h0_arg6 : StableHlo.after (hostOps0 (F := Ideal)) Vv (Proc.devRef .tc main_arg6) = Vv (Proc.devRef .tc main_arg6) := by
  after_results
theorem h0_arg7 : StableHlo.after (hostOps0 (F := Ideal)) Vv (Proc.devRef .tc main_arg7) = Vv (Proc.devRef .tc main_arg7) := by
  after_results
theorem h0_arg8 : StableHlo.after (hostOps0 (F := Ideal)) Vv (Proc.devRef .tc main_arg8) = Vv (Proc.devRef .tc main_arg8) := by
  after_results
theorem h0_arg9 : StableHlo.after (hostOps0 (F := Ideal)) Vv (Proc.devRef .tc main_arg9) = Vv (Proc.devRef .tc main_arg9) := by
  after_results
theorem h0_arg10 : StableHlo.after (hostOps0 (F := Ideal)) Vv (Proc.devRef .tc main_arg10) = Vv (Proc.devRef .tc main_arg10) := by
  after_results
theorem h0_arg11 : StableHlo.after (hostOps0 (F := Ideal)) Vv (Proc.devRef .tc main_arg11) = Vv (Proc.devRef .tc main_arg11) := by
  after_results
theorem h0_arg12 : StableHlo.after (hostOps0 (F := Ideal)) Vv (Proc.devRef .tc main_arg12) = Vv (Proc.devRef .tc main_arg12) := by
  after_results
theorem h0_arg13 : StableHlo.after (hostOps0 (F := Ideal)) Vv (Proc.devRef .tc main_arg13) = Vv (Proc.devRef .tc main_arg13) := by
  after_results
theorem h0_arg14 : StableHlo.after (hostOps0 (F := Ideal)) Vv (Proc.devRef .tc main_arg14) = Vv (Proc.devRef .tc main_arg14) := by
  after_results
theorem h0_arg15 : StableHlo.after (hostOps0 (F := Ideal)) Vv (Proc.devRef .tc main_arg15) = Vv (Proc.devRef .tc main_arg15) := by
  after_results
theorem h3_arg0 : StableHlo.after (hostOps3 (F := Ideal)) Vv (Proc.devRef .tc main_arg0) = Vv (Proc.devRef .tc main_arg0) := by
  after_results
theorem h3_arg1 : StableHlo.after (hostOps3 (F := Ideal)) Vv (Proc.devRef .tc main_arg1) = Vv (Proc.devRef .tc main_arg1) := by
  after_results
theorem h3_arg2 : StableHlo.after (hostOps3 (F := Ideal)) Vv (Proc.devRef .tc main_arg2) = Vv (Proc.devRef .tc main_arg2) := by
  after_results
theorem h3_arg3 : StableHlo.after (hostOps3 (F := Ideal)) Vv (Proc.devRef .tc main_arg3) = Vv (Proc.devRef .tc main_arg3) := by
  after_results
theorem h3_arg4 : StableHlo.after (hostOps3 (F := Ideal)) Vv (Proc.devRef .tc main_arg4) = Vv (Proc.devRef .tc main_arg4) := by
  after_results
theorem h3_arg5 : StableHlo.after (hostOps3 (F := Ideal)) Vv (Proc.devRef .tc main_arg5) = Vv (Proc.devRef .tc main_arg5) := by
  after_results
theorem h3_arg6 : StableHlo.after (hostOps3 (F := Ideal)) Vv (Proc.devRef .tc main_arg6) = Vv (Proc.devRef .tc main_arg6) := by
  after_results
theorem h3_arg7 : StableHlo.after (hostOps3 (F := Ideal)) Vv (Proc.devRef .tc main_arg7) = Vv (Proc.devRef .tc main_arg7) := by
  after_results
theorem h3_arg8 : StableHlo.after (hostOps3 (F := Ideal)) Vv (Proc.devRef .tc main_arg8) = Vv (Proc.devRef .tc main_arg8) := by
  after_results
theorem h3_arg9 : StableHlo.after (hostOps3 (F := Ideal)) Vv (Proc.devRef .tc main_arg9) = Vv (Proc.devRef .tc main_arg9) := by
  after_results
theorem h3_arg10 : StableHlo.after (hostOps3 (F := Ideal)) Vv (Proc.devRef .tc main_arg10) = Vv (Proc.devRef .tc main_arg10) := by
  after_results
theorem h3_arg11 : StableHlo.after (hostOps3 (F := Ideal)) Vv (Proc.devRef .tc main_arg11) = Vv (Proc.devRef .tc main_arg11) := by
  after_results
theorem h3_arg12 : StableHlo.after (hostOps3 (F := Ideal)) Vv (Proc.devRef .tc main_arg12) = Vv (Proc.devRef .tc main_arg12) := by
  after_results
theorem h3_arg13 : StableHlo.after (hostOps3 (F := Ideal)) Vv (Proc.devRef .tc main_arg13) = Vv (Proc.devRef .tc main_arg13) := by
  after_results
theorem h3_arg14 : StableHlo.after (hostOps3 (F := Ideal)) Vv (Proc.devRef .tc main_arg14) = Vv (Proc.devRef .tc main_arg14) := by
  after_results
theorem h3_arg15 : StableHlo.after (hostOps3 (F := Ideal)) Vv (Proc.devRef .tc main_arg15) = Vv (Proc.devRef .tc main_arg15) := by
  after_results

end Cert.KernelIdeal.HostA

end
-- ==== Proof.KHost1.lean ====
import proofs.«401352_j13305808683173_1_alg».proof.Proof.Gen.KernelIdeal.Launch
import proofs.«401352_j13305808683173_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StableHlo.Predicate

set_option maxRecDepth 16384

noncomputable section

open scoped BigOperators

namespace Cert.KernelIdeal.Host1

open Idealize.ShloMosaic Idealize.ShloMosaic.TcCoe Idealize.ShloMosaic.ValueIdx Idealize.SL.Sem
open Cert.KernelIdeal Cert.KernelIdeal.Gen
open Cert.Spec (rb rn eb ee lo hi node)

variable [Cert.KernelIdeal.Facts]
variable (Vv : Valuation τ sig (Elt Ideal))

/-! ## Between the first and the second kernel region: each edge endpoint's node features are looked up (an index
    below zero wraps once, an index outside the node range would be filled with a marker — none is, by the
    precondition), the lookups are flattened to rows, and the edge perceptron's weights are sliced and transposed -/

/-- The buffers as the second region finds them, from the buffers `Vv` the first region leaves. -/
abbrev W7of : Valuation τ sig (Elt Ideal) := StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) Vv))))

/-! ## The row lookup as a function of the features and the index vector -/

local notation "GD" => gather_S16x20000x32_S160000x1_S16x160000x32_02_1_n_n_1_1_16132

/-- The gather read at (b, e, k): graph b keeps its place on axis 0 and feature k on axis 2 (the two offset axes, of
    full slice size, start 0), and axis 1 (collapsed, the one the start index names) reads the start index of edge e,
    taken as a signed integer and clamped into [0, 19999]. -/
theorem gather_rows {α : Type} (x : S16x20000x32.Idx → α) (idx : IVec S160000x1 32) (b : Fin 16) (e : Fin 160000) (k : Fin 32) :
    Host.gather GD x idx (ix3 b e k) = x (ix3 b ⟨min (idx (ix2 e 0)).toInt.toNat 19999, by omega⟩ k) := by
  have hob : GatherDims.operandBatchingDims GD = [] := rfl
  have hsim : GatherDims.startIndexMap GD = [1] := rfl
  have hk0 : (⟨0, by decide⟩ : Fin 3) ∈ GatherDims.sKept GD := by decide
  have hk1 : (⟨1, by decide⟩ : Fin 3) ∉ GatherDims.sKept GD := by decide
  have hk2 : (⟨2, by decide⟩ : Fin 3) ∈ GatherDims.sKept GD := by decide
  have hm0 : (⟨0, by decide⟩ : Fin 3) ∉ GatherDims.startIndexMap GD := by decide
  have hm1 : (⟨1, by decide⟩ : Fin 3) ∈ GatherDims.startIndexMap GD := by decide
  have hm2 : (⟨2, by decide⟩ : Fin 3) ∉ GatherDims.startIndexMap GD := by decide
  unfold Host.gather
  congr 1
  funext a
  refine Fin.ext ?_
  have hbz : ∀ a, GatherDims.batchCoord GD (ix3 b e k) a = 0 := fun a =>
    GatherDims.batchCoord_eq_zero _ _ _ (by rw [hob]; exact List.not_mem_nil)
  show GatherDims.start GD (ix3 b e k) idx a + GatherDims.batchCoord GD (ix3 b e k) a + GatherDims.offCoord GD (ix3 b e k) a = _
  rw [hbz, Nat.add_zero]
  match a with
  | ⟨0, _⟩ =>
    have h0 : GatherDims.start GD (ix3 b e k) idx ⟨0, by decide⟩ = 0 := by
      unfold GatherDims.start
      rw [dif_neg hm0]
    rw [h0, Nat.zero_add]
    unfold GatherDims.offCoord
    rw [dif_pos hk0]
    rfl
  | ⟨1, _⟩ =>
    have h0 : GatherDims.offCoord GD (ix3 b e k) ⟨1, by decide⟩ = 0 :=
      GatherDims.offCoord_eq_zero _ _ _ hk1
    rw [h0, Nat.add_zero]
    unfold GatherDims.start
    rw [dif_pos hm1]
    have hsi : GatherDims.siIdx GD (ix3 b e k) ⟨List.idxOf (⟨1, by decide⟩ : Fin 3) (GatherDims.startIndexMap GD),
        List.idxOf_lt_length_iff.2 hm1⟩ = ix2 e 0 := by
      funext c; refine Fin.ext ?_
      match c with
      | ⟨0, _⟩ => rfl
      | ⟨1, _⟩ => rfl
    rw [hsi]
    rfl
  | ⟨2, _⟩ =>
    have h0 : GatherDims.start GD (ix3 b e k) idx ⟨2, by decide⟩ = 0 := by
      unfold GatherDims.start
      rw [dif_neg hm2]
    rw [h0, Nat.zero_add]
    unfold GatherDims.offCoord
    rw [dif_pos hk2]
    rfl

/-- The index vector as the lookup reads it: an index below zero is moved up by the node count once, and the vector is
    laid out as a column. -/
def tkIdx (w : IVec S160000 32) : IVec S160000x1 32 :=
  broadcastInDim S160000x1 ![0] bcast_S160000_S160000x1_0
    (select (cmpi .slt w (broadcastInDim S160000 ![] bcast_S_S160000 (constantI S_ 32 0#32)))
      (addi w (broadcastInDim S160000 ![] bcast_S_S160000 (constantI S_ 32 20000#32))) w)

/-- The validity mask of a column of indices: 0 ≤ index ≤ 19999, conjoined over the column's one entry per row. -/
def tkMask (i5 : IVec S160000x1 32) : IVec S160000 1 :=
  Host.reduce IntOp.andi
    (andi (cmpi .sge i5 (broadcastInDim S160000x1 ![] bcast_S_S160000x1 (constantI S_ 32 0#32)))
      (cmpi .sle i5 (broadcastInDim S160000x1 ![0, 1] bcast_S1x1_S160000x1_0_1
        (broadcastInDim S1x1 ![1] bcast_S1_S1x1_1 (constantI S1 32 19999#32)))))
    (constantI S_ 1 1#1) reducesTo_S160000x1_S160000_d1 h_S_

/-- The lookup: the gathered rows where the mask holds, a marker elsewhere. -/
def tk (x : FVec Ideal S16x20000x32 .f32) (w : IVec S160000 32) : FVec Ideal S16x160000x32 .f32 :=
  select (broadcastInDim S16x160000x32 ![1] bcast_S160000_S16x160000x32_1 (tkMask (tkIdx w)))
    (Host.gather GD x (tkIdx w))
    (broadcastInDim S16x160000x32 ![] bcast_S_S16x160000x32 (constant S_ .f32 0x7FC00000#32))

/-- An index that already names a node is not moved: it is not below zero. -/
theorem tkIdx_apply (w : IVec S160000 32) (e : Fin 160000) (hw : (w (ix1 e)).toNat < 20000) :
    tkIdx w (ix2 e 0) = w (ix1 e) := by
  unfold tkIdx
  refine (broadcastInDim_apply _ _ _ (ix2 e 0) (ix1 e) ?_).trans ?_
  · intro a
    match a with
    | ⟨0, _⟩ =>
      show e.val = if (160000 : Nat) = 1 then 0 else e.val
      rw [if_neg (by decide)]
  rw [select_apply]
  have hc : cmpi .slt w (broadcastInDim S160000 ![] bcast_S_S160000 (constantI S_ 32 0#32)) (ix1 e) = 0#1 := by
    apply eq_zero_of_ne_one
    show ¬ IntOp.cmpi .slt (w (ix1 e)) 0#32 = 1#1
    rw [StableHlo.Predicate.slt_iff_toNat (by omega) (by decide)]
    exact Nat.not_lt_zero _
  rw [hc, select_zero]

/-- A conjunction of ones from one is one. -/
theorem foldl_andi_one {ι : Type} (f : ι → BitVec 1) (hf : ∀ i, f i = 1#1) :
    ∀ l : List ι, l.foldl (fun r n => IntOp.andi r (f n)) 1#1 = 1#1
  | [] => rfl
  | a :: l => by
    have h11 : IntOp.andi (1#1) (1#1) = 1#1 := by decide
    rw [List.foldl_cons, hf a, h11]
    exact foldl_andi_one f hf l

/-- Where every index names a node the mask is all ones. -/
theorem tkMask_one (i5 : IVec S160000x1 32) (h5 : ∀ e : Fin 160000, (i5 (ix2 e 0)).toNat < 20000) (j : S160000.Idx) :
    tkMask i5 j = 1#1 := by
  unfold tkMask
  rw [Host.reduce_eq_foldl]
  refine foldl_andi_one _ (fun i => ?_) _
  have h1 : (i 1).val = 0 := by have := idx2_lt1 i; omega
  have hi : i = ix2 (i 0) 0 := by
    funext a
    match a with
    | ⟨0, _⟩ => rfl
    | ⟨1, _⟩ => exact Fin.ext h1
  rw [hi]
  have hlt := h5 (i 0)
  show IntOp.andi (IntOp.cmpi .sge (i5 (ix2 (i 0) 0)) 0#32) (IntOp.cmpi .sle (i5 (ix2 (i 0) 0)) 19999#32) = 1#1
  have h7 : IntOp.cmpi .sge (i5 (ix2 (i 0) 0)) 0#32 = 1#1 :=
    (StableHlo.Predicate.sge_iff_toNat (by omega) (by decide)).2 (Nat.zero_le _)
  have h10 : IntOp.cmpi .sle (i5 (ix2 (i 0) 0)) 19999#32 = 1#1 :=
    (StableHlo.Predicate.sle_iff_toNat (by omega) (by decide)).2 (by show _ ≤ 19999; omega)
  rw [h7, h10]
  decide

/-- THE LOOKUP READ AT (b, e, k), every index naming a node: the row of graph b's features that index e names. -/
theorem tk_apply (x : FVec Ideal S16x20000x32 .f32) (w : IVec S160000 32) (hw : ∀ e : Fin 160000, (w (ix1 e)).toNat < 20000)
    (b : Fin 16) (e : Fin 160000) (k : Fin 32) :
    tk x w (ix3 b e k) = x (ix3 b ⟨(w (ix1 e)).toNat, hw e⟩ k) := by
  unfold tk
  rw [select_apply]
  have hm : broadcastInDim S16x160000x32 ![1] bcast_S160000_S16x160000x32_1 (tkMask (tkIdx w)) (ix3 b e k) = 1#1 :=
    tkMask_one _ (fun e => by rw [tkIdx_apply w e (hw e)]; exact hw e) _
  rw [hm, select_one]
  refine (gather_rows _ _ b e k).trans ?_
  refine congrArg x (congrArg (fun n => ix3 b n k) (Fin.ext ?_))
  show min (tkIdx w (ix2 e 0)).toInt.toNat 19999 = (w (ix1 e)).toNat
  have hlt := hw e
  rw [tkIdx_apply w e hlt, StableHlo.Predicate.toInt_eq_toNat_of_lt (by omega), Int.toNat_natCast]
  omega

/-- The flat row index b·20000 + n splits back into (b, n). -/
theorem rb_mk (b : Fin 16) (n : Fin 20000) (hlt : b.val * 20000 + n.val < 320000) : rb ⟨b.val * 20000 + n.val, hlt⟩ = b :=
  Fin.ext (by show (b.val * 20000 + n.val) / 20000 = b.val; have := n.isLt; omega)
theorem rn_mk (b : Fin 16) (n : Fin 20000) (hlt : b.val * 20000 + n.val < 320000) : rn ⟨b.val * 20000 + n.val, hlt⟩ = n :=
  Fin.ext (by show (b.val * 20000 + n.val) % 20000 = n.val; have := n.isLt; omega)

/-- The lookup read at (b, e, k) with the node named beforehand. -/
theorem tk_apply' (x : FVec Ideal S16x20000x32 .f32) (w : IVec S160000 32) (hw : ∀ e : Fin 160000, (w (ix1 e)).toNat < 20000)
    (b : Fin 16) (e : Fin 160000) (k : Fin 32) (n : Fin 20000) (hn : (w (ix1 e)).toNat = n.val) :
    tk x w (ix3 b e k) = x (ix3 b n k) :=
  (tk_apply x w hw b e k).trans (congrArg x (congrArg (fun m => ix3 b m k) (Fin.ext hn)))

/-! ## The five stretches, each from any buffers `X` -/

section Stretches
variable (X : Valuation τ sig (Elt Ideal))

/-- First stretch: the features regrouped by graph … -/
theorem ops1_v6_apply (b : Fin 16) (n : Fin 20000) (k : Fin 32) :
    (StableHlo.after (hostOps1 (F := Ideal)) X (Proc.devRef .tc main_v6) : S16x20000x32.Idx → EReal) (ix3 b n k)
      = (X (Proc.devRef .tc main_v5) : S320000x32.Idx → EReal) (ix2 ⟨b.val * 20000 + n.val, by have := b.isLt; have := n.isLt; omega⟩ k) := by
  after_results
  refine shapeCast_apply _ _ (ix3 b n k) (ix2 ⟨b.val * 20000 + n.val, by have := b.isLt; have := n.isLt; omega⟩ k) ?_
  rw [Shape.rowMajor_val_two, Shape.rowMajor_val_three]
  show (b.val * 20000 + n.val) * 32 + k.val = (b.val * 20000 + n.val) * 32 + k.val
  rfl
/-- … and row 0 of the edge list as a vector. -/
theorem ops1_v8_apply (e : Fin 160000) :
    (StableHlo.after (hostOps1 (F := Ideal)) X (Proc.devRef .tc main_v8) : S160000.Idx → BitVec 32) (ix1 e)
      = (X (Proc.devRef .tc main_arg1) : S2x160000.Idx → BitVec 32) (ix2 0 e) := by
  after_results
  refine (shapeCast_apply _ _ (ix1 e) (ix2 0 e) ?_).trans ?_
  · rw [Shape.rowMajor_val_one, Shape.rowMajor_val_two]
    show 0 * 160000 + e.val = e.val
    omega
  refine extractStridedSlice_apply _ _ _ (ix2 0 e) (ix2 0 e) ?_
  intro a
  match a with
  | ⟨0, _⟩ => show (0 : Nat) = 0 + 0; rfl
  | ⟨1, _⟩ => show e.val = 0 + e.val; omega
theorem ops1_arg1 : StableHlo.after (hostOps1 (F := Ideal)) X (Proc.devRef .tc main_arg1) = X (Proc.devRef .tc main_arg1) := by
  after_results

/-- Second stretch: the lookup by row 0. -/
theorem ops1_1_v9 :
    StableHlo.after (hostOps1_1 (F := Ideal)) X (Proc.devRef .tc main_v9)
      = tk (X (Proc.devRef .tc main_v6)) (X (Proc.devRef .tc main_v8)) := by
  after_results_simp
  simp only [StableHlo.TRef.ofBuf, StableHlo.TRef.toBuf, cast_eq]
  rfl
theorem ops1_1_v6 : StableHlo.after (hostOps1_1 (F := Ideal)) X (Proc.devRef .tc main_v6) = X (Proc.devRef .tc main_v6) := by
  after_results_simp
theorem ops1_1_arg1 : StableHlo.after (hostOps1_1 (F := Ideal)) X (Proc.devRef .tc main_arg1) = X (Proc.devRef .tc main_arg1) := by
  after_results_simp

/-- Third stretch: the lookup flattened to rows … -/
theorem ops1_2_v10_apply (r : Fin 2560000) (k : Fin 32) :
    (StableHlo.after (hostOps1_2 (F := Ideal)) X (Proc.devRef .tc main_v10) : S2560000x32.Idx → EReal) (ix2 r k)
      = (X (Proc.devRef .tc main_v9) : S16x160000x32.Idx → EReal) (ix3 (eb r) (ee r) k) := by
  after_results
  refine shapeCast_apply _ _ (ix2 r k) (ix3 (eb r) (ee r) k) ?_
  rw [Shape.rowMajor_val_two, Shape.rowMajor_val_three]
  show (r.val / 160000 * 160000 + r.val % 160000) * 32 + k.val = r.val * 32 + k.val
  omega
/-- … and row 1 of the edge list as a vector. -/
theorem ops1_2_v12_apply (e : Fin 160000) :
    (StableHlo.after (hostOps1_2 (F := Ideal)) X (Proc.devRef .tc main_v12) : S160000.Idx → BitVec 32) (ix1 e)
      = (X (Proc.devRef .tc main_arg1) : S2x160000.Idx → BitVec 32) (ix2 1 e) := by
  after_results
  refine (shapeCast_apply _ _ (ix1 e) (ix2 0 e) ?_).trans ?_
  · rw [Shape.rowMajor_val_one, Shape.rowMajor_val_two]
    show 0 * 160000 + e.val = e.val
    omega
  refine extractStridedSlice_apply _ _ _ (ix2 0 e) (ix2 1 e) ?_
  intro a
  match a with
  | ⟨0, _⟩ => show (1 : Nat) = 1 + 0; rfl
  | ⟨1, _⟩ => show e.val = 0 + e.val; omega
theorem ops1_2_v6 : StableHlo.after (hostOps1_2 (F := Ideal)) X (Proc.devRef .tc main_v6) = X (Proc.devRef .tc main_v6) := by
  after_results

/-- Fourth stretch: the lookup by row 1. -/
theorem ops1_3_v13 :
    StableHlo.after (hostOps1_3 (F := Ideal)) X (Proc.devRef .tc main_v13)
      = tk (X (Proc.devRef .tc main_v6)) (X (Proc.devRef .tc main_v12)) := by
  after_results_simp
  simp only [StableHlo.TRef.ofBuf, StableHlo.TRef.toBuf, cast_eq]
  rfl
theorem ops1_3_v10 : StableHlo.after (hostOps1_3 (F := Ideal)) X (Proc.devRef .tc main_v10) = X (Proc.devRef .tc main_v10) := by
  after_results_simp

/-- Fifth stretch: the second lookup flattened to rows. -/
theorem ops1_4_v14_apply (r : Fin 2560000) (k : Fin 32) :
    (StableHlo.after (hostOps1_4 (F := Ideal)) X (Proc.devRef .tc main_v14) : S2560000x32.Idx → EReal) (ix2 r k)
      = (X (Proc.devRef .tc main_v13) : S16x160000x32.Idx → EReal) (ix3 (eb r) (ee r) k) := by
  after_results
  refine shapeCast_apply _ _ (ix2 r k) (ix3 (eb r) (ee r) k) ?_
  rw [Shape.rowMajor_val_two, Shape.rowMajor_val_three]
  show (r.val / 160000 * 160000 + r.val % 160000) * 32 + k.val = r.val * 32 + k.val
  omega
theorem ops1_4_v10 : StableHlo.after (hostOps1_4 (F := Ideal)) X (Proc.devRef .tc main_v10) = X (Proc.devRef .tc main_v10) := by
  after_results

end Stretches

theorem h1_v10 (h : Fin 16 → Fin 20000 → Fin 32 → EReal)
    (hv5 : ∀ (r : Fin 320000) (o : Fin 32), (Vv (Proc.devRef .tc main_v5) : S320000x32.Idx → EReal) (ix2 r o) = h (rb r) (rn r) o)
    (hE : ∀ (r : Fin 2) (e : Fin 160000), ((Vv (Proc.devRef .tc main_arg1) : S2x160000.Idx → BitVec 32) (ix2 r e)).toNat < 20000) (r : Fin 2560000) (k : Fin 32) :
    (W7of Vv (Proc.devRef .tc main_v10) : S2560000x32.Idx → EReal) (ix2 r k) = h (eb r) (node (Vv (Proc.devRef .tc main_arg1) : S2x160000.Idx → BitVec 32) 0 (ee r)) k := by
  refine (congrFun (ops1_4_v10 _) (ix2 r k)).trans ?_
  refine (congrFun (ops1_3_v10 _) (ix2 r k)).trans ?_
  refine (ops1_2_v10_apply _ r k).trans ?_
  refine (congrFun (ops1_1_v9 _) _).trans ?_
  refine (tk_apply' _ _ ?hw (eb r) (ee r) k (node (Vv (Proc.devRef .tc main_arg1) : S2x160000.Idx → BitVec 32) 0 (ee r)) ?hn).trans ?_
  case hw => intro e; rw [ops1_v8_apply]; exact hE 0 e
  case hn => rw [ops1_v8_apply]; exact (Nat.mod_eq_of_lt (hE 0 _)).symm
  refine (ops1_v6_apply _ _ _ _).trans ?_
  rw [hv5, rb_mk, rn_mk]
theorem h1_v14 (h : Fin 16 → Fin 20000 → Fin 32 → EReal)
    (hv5 : ∀ (r : Fin 320000) (o : Fin 32), (Vv (Proc.devRef .tc main_v5) : S320000x32.Idx → EReal) (ix2 r o) = h (rb r) (rn r) o)
    (hE : ∀ (r : Fin 2) (e : Fin 160000), ((Vv (Proc.devRef .tc main_arg1) : S2x160000.Idx → BitVec 32) (ix2 r e)).toNat < 20000) (r : Fin 2560000) (k : Fin 32) :
    (W7of Vv (Proc.devRef .tc main_v14) : S2560000x32.Idx → EReal) (ix2 r k) = h (eb r) (node (Vv (Proc.devRef .tc main_arg1) : S2x160000.Idx → BitVec 32) 1 (ee r)) k := by
  have h12 : ∀ e : Fin 160000, (StableHlo.after (hostOps1_2 (F := Ideal)) (StableHlo.after (hostOps1_1 (F := Ideal)) (StableHlo.after (hostOps1 (F := Ideal)) Vv)) (Proc.devRef .tc main_v12) : S160000.Idx → BitVec 32) (ix1 e)
      = (Vv (Proc.devRef .tc main_arg1) : S2x160000.Idx → BitVec 32) (ix2 1 e) := fun e => by
    rw [ops1_2_v12_apply, ops1_1_arg1, ops1_arg1]
  refine (ops1_4_v14_apply _ r k).trans ?_
  refine (congrFun (ops1_3_v13 _) _).trans ?_
  refine (tk_apply' _ _ ?hw (eb r) (ee r) k (node (Vv (Proc.devRef .tc main_arg1) : S2x160000.Idx → BitVec 32) 1 (ee r)) ?hn).trans ?_
  case hw => intro e; rw [h12]; exact hE 1 e
  case hn => rw [h12]; exact (Nat.mod_eq_of_lt (hE 1 _)).symm
  rw [ops1_2_v6, ops1_1_v6]
  refine (ops1_v6_apply _ _ _ _).trans ?_
  rw [hv5, rb_mk, rn_mk]
theorem h1_v16 (k c' : Fin 32) :
    (W7of Vv (Proc.devRef .tc main_v16) : S32x32.Idx → EReal) (ix2 k c') = (Vv (Proc.devRef .tc main_arg6) : S32x64.Idx → EReal) (ix2 c' (lo k)) := by
  after_results
  refine (transpose_apply _ _ _ (ix2 k c') (ix2 c' k) ?_).trans ?_
  · intro b; match b with | ⟨0, _⟩ => rfl | ⟨1, _⟩ => rfl
  refine extractStridedSlice_apply _ _ _ (ix2 c' k) (ix2 c' (lo k)) ?_
  intro a
  match a with
  | ⟨0, _⟩ => show c'.val = 0 + c'.val; omega
  | ⟨1, _⟩ => show (lo k).val = 0 + k.val; simp [lo]
theorem h1_v18 (k c' : Fin 32) :
    (W7of Vv (Proc.devRef .tc main_v18) : S32x32.Idx → EReal) (ix2 k c') = (Vv (Proc.devRef .tc main_arg6) : S32x64.Idx → EReal) (ix2 c' (hi k)) := by
  after_results
  refine (transpose_apply _ _ _ (ix2 k c') (ix2 c' k) ?_).trans ?_
  · intro b; match b with | ⟨0, _⟩ => rfl | ⟨1, _⟩ => rfl
  refine extractStridedSlice_apply _ _ _ (ix2 c' k) (ix2 c' (hi k)) ?_
  intro a
  match a with
  | ⟨0, _⟩ => show c'.val = 0 + c'.val; omega
  | ⟨1, _⟩ => show (hi k).val = 32 + k.val; simp [hi]
theorem h1_v19 (c' : Fin 32) :
    (W7of Vv (Proc.devRef .tc main_v19) : S1x32.Idx → EReal) (ix2 0 c') = (Vv (Proc.devRef .tc main_arg7) : S32.Idx → EReal) (ix1 c') := by
  after_results
  refine shapeCast_apply _ _ (ix2 0 c') (ix1 c') ?_
  rw [Shape.rowMajor_val_one, Shape.rowMajor_val_two]
  show c'.val = 0 * 32 + c'.val
  omega
theorem h1_v20 (c' o : Fin 32) :
    (W7of Vv (Proc.devRef .tc main_v20) : S32x32.Idx → EReal) (ix2 c' o) = (Vv (Proc.devRef .tc main_arg8) : S32x32.Idx → EReal) (ix2 o c') := by
  after_results
  refine transpose_apply _ _ _ (ix2 c' o) (ix2 o c') ?_
  intro b; match b with | ⟨0, _⟩ => rfl | ⟨1, _⟩ => rfl
theorem h1_v21 (o : Fin 32) :
    (W7of Vv (Proc.devRef .tc main_v21) : S1x32.Idx → EReal) (ix2 0 o) = (Vv (Proc.devRef .tc main_arg9) : S32.Idx → EReal) (ix1 o) := by
  after_results
  refine shapeCast_apply _ _ (ix2 0 o) (ix1 o) ?_
  rw [Shape.rowMajor_val_one, Shape.rowMajor_val_two]
  show o.val = 0 * 32 + o.val
  omega

/-! ## None of these operations writes an argument -/

theorem h1_arg0 : W7of Vv (Proc.devRef .tc main_arg0) = Vv (Proc.devRef .tc main_arg0) := by
  after_results
theorem h1_arg1 : W7of Vv (Proc.devRef .tc main_arg1) = Vv (Proc.devRef .tc main_arg1) := by
  after_results
theorem h1_arg2 : W7of Vv (Proc.devRef .tc main_arg2) = Vv (Proc.devRef .tc main_arg2) := by
  after_results
theorem h1_arg3 : W7of Vv (Proc.devRef .tc main_arg3) = Vv (Proc.devRef .tc main_arg3) := by
  after_results
theorem h1_arg4 : W7of Vv (Proc.devRef .tc main_arg4) = Vv (Proc.devRef .tc main_arg4) := by
  after_results
theorem h1_arg5 : W7of Vv (Proc.devRef .tc main_arg5) = Vv (Proc.devRef .tc main_arg5) := by
  after_results
theorem h1_arg6 : W7of Vv (Proc.devRef .tc main_arg6) = Vv (Proc.devRef .tc main_arg6) := by
  after_results
theorem h1_arg7 : W7of Vv (Proc.devRef .tc main_arg7) = Vv (Proc.devRef .tc main_arg7) := by
  after_results
theorem h1_arg8 : W7of Vv (Proc.devRef .tc main_arg8) = Vv (Proc.devRef .tc main_arg8) := by
  after_results
theorem h1_arg9 : W7of Vv (Proc.devRef .tc main_arg9) = Vv (Proc.devRef .tc main_arg9) := by
  after_results
theorem h1_arg10 : W7of Vv (Proc.devRef .tc main_arg10) = Vv (Proc.devRef .tc main_arg10) := by
  after_results
theorem h1_arg11 : W7of Vv (Proc.devRef .tc main_arg11) = Vv (Proc.devRef .tc main_arg11) := by
  after_results
theorem h1_arg12 : W7of Vv (Proc.devRef .tc main_arg12) = Vv (Proc.devRef .tc main_arg12) := by
  after_results
theorem h1_arg13 : W7of Vv (Proc.devRef .tc main_arg13) = Vv (Proc.devRef .tc main_arg13) := by
  after_results
theorem h1_arg14 : W7of Vv (Proc.devRef .tc main_arg14) = Vv (Proc.devRef .tc main_arg14) := by
  after_results
theorem h1_arg15 : W7of Vv (Proc.devRef .tc main_arg15) = Vv (Proc.devRef .tc main_arg15) := by
  after_results

end Cert.KernelIdeal.Host1

end
-- ==== Proof.KScatter.lean ====
import proofs.«401352_j13305808683173_1_alg».proof.Proof.Gen.KernelIdeal
import proofs.«401352_j13305808683173_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.ScatterRead

open Idealize.ShloMosaic Idealize.ShloMosaic.TcCoe Idealize.ShloMosaic.ValueIdx Idealize.SL.Sem
open Cert.KernelIdeal

variable [Cert.KernelIdeal.Facts]

/-! ## An accumulating scatter of rows read at one element: the element it started from plus the updates of the rows
    whose index word, read signed, names that row (a word naming no row lands nowhere) -/

/-! ### Sums over an index set by coordinates -/

/-- A rank-1 index set is its one coordinate's range … -/
private def idxEquiv1 {n0 : Nat} : (⟨1, ![n0]⟩ : Shape).Idx ≃ Fin n0 where
  toFun i := i 0
  invFun a := ix1 a
  left_inv i := (eq_ix1 i).symm
  right_inv _ := rfl

/-- … so a sum over it is the sum over the coordinate. -/
private theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### The row scatter's dimension numbers: update `(e, b, o)` lands at `(idx[e, 0], b, o)`

    The operand's axis 0 is the scattered one (its start is the index word of row `e`, read signed; the window
    coordinate there is 0), and the axes 1 and 2 are window axes (start 0, window coordinate the update's own). -/

local notation "D3" => scatter_S20000x16x32_S160000x1_S160000x16x32_12_0_0_1

/-- Update `j` reads its start index at `[j₀, 0]` of the index array. -/
private theorem siIdx3 (j : S160000x16x32.Idx) (c : Fin (D3).scatterDimsToOperandDims.length) :
    (D3).siIdx j c = ix2 (j 0) 0 := by
  funext b
  match b with
  | ⟨0, _⟩ => rfl
  | ⟨1, _⟩ => exact Fin.ext (Nat.lt_one_iff.mp (Fin.isLt _))

private theorem start3_0 (j : S160000x16x32.Idx) (idx : IVec S160000x1 32) :
    (D3).start j idx 0 = (idx (ix2 (j 0) 0)).toInt := by
  unfold ScatterDims.start
  have h0 : (0 : Fin 3) ∈ (D3).scatterDimsToOperandDims := show (0 : Fin 3) ∈ [(0 : Fin 3)] by decide
  rw [dif_pos h0, siIdx3]
  rfl

private theorem start3_1 (j : S160000x16x32.Idx) (idx : IVec S160000x1 32) :
    (D3).start j idx 1 = 0 := by
  unfold ScatterDims.start
  have h1 : ¬ (1 : Fin 3) ∈ (D3).scatterDimsToOperandDims := show ¬ (1 : Fin 3) ∈ [(0 : Fin 3)] by decide
  rw [dif_neg h1]

private theorem start3_2 (j : S160000x16x32.Idx) (idx : IVec S160000x1 32) :
    (D3).start j idx 2 = 0 := by
  unfold ScatterDims.start
  have h2 : ¬ (2 : Fin 3) ∈ (D3).scatterDimsToOperandDims := show ¬ (2 : Fin 3) ∈ [(0 : Fin 3)] by decide
  rw [dif_neg h2]

private theorem window3_0 (j : S160000x16x32.Idx) : (D3).window j 0 = 0 := by
  unfold ScatterDims.window
  have h0 : ¬ (0 : Fin 3) ∈ (D3).sKept := show ¬ (0 : Fin 3) ∈ S20000x16x32.kept [(0 : Fin 3)] by decide
  rw [dif_neg h0]

private theorem window3_1 (j : S160000x16x32.Idx) : (D3).window j 1 = (j 1).val := by
  unfold ScatterDims.window
  have h1 : (1 : Fin 3) ∈ (D3).sKept := show (1 : Fin 3) ∈ S20000x16x32.kept [(0 : Fin 3)] by decide
  rw [dif_pos h1]
  rfl

private theorem window3_2 (j : S160000x16x32.Idx) : (D3).window j 2 = (j 2).val := by
  unfold ScatterDims.window
  have h2 : (2 : Fin 3) ∈ (D3).sKept := show (2 : Fin 3) ∈ S20000x16x32.kept [(0 : Fin 3)] by decide
  rw [dif_pos h2]
  rfl

/-- Update `j` lands on element `(n, b, o)` exactly when its row's index word, read signed, is `n` and its two
    window coordinates are `b` and `o`. (A word that is negative or at least 20000 names no row: the update is
    dropped, and then it equals no `n` either.) -/
private theorem resultIdx3_iff (j : S160000x16x32.Idx) (idx : IVec S160000x1 32) (n : Fin 20000) (b : Fin 16) (o : Fin 32) :
    (D3).resultIdx? j idx = some (ix3 n b o) ↔ ((idx (ix2 (j 0) 0)).toInt = (n.val : Int) ∧ j 1 = b ∧ j 2 = o) := by
  unfold ScatterDims.resultIdx?
  constructor
  · intro h
    split at h
    · rename_i H
      have h' := Option.some.inj h
      have e0 := congrArg (fun f => (f 0).val) h'
      have e1 := congrArg (fun f => (f 1).val) h'
      have e2 := congrArg (fun f => (f 2).val) h'
      have H0 := H 0
      simp only [start3_0, start3_1, start3_2, window3_0, window3_1, window3_2] at e0 e1 e2 H0
      refine ⟨?_, Fin.ext ?_, Fin.ext ?_⟩
      · change ((idx (ix2 (j 0) 0)).toInt + ((0 : Nat) : Int)).toNat = n.val at e0
        omega
      · change ((0 : Int) + ((j 1).val : Int)).toNat = b.val at e1
        omega
      · change ((0 : Int) + ((j 2).val : Int)).toNat = o.val at e2
        omega
    · exact absurd h (by simp)
  · rintro ⟨h0, h1, h2⟩
    have hn := n.isLt
    have hb : (j 1).val < 16 := (j 1).isLt
    have ho : (j 2).val < 32 := (j 2).isLt
    have H : ∀ a, 0 ≤ (D3).start j idx a + (D3).window j a ∧
        (D3).start j idx a + (D3).window j a < S20000x16x32.size a := by
      intro a
      match a with
      | ⟨0, _⟩ =>
        show 0 ≤ (D3).start j idx 0 + (((D3).window j 0 : Nat) : Int) ∧
          (D3).start j idx 0 + (((D3).window j 0 : Nat) : Int) < ((20000 : Nat) : Int)
        rw [start3_0, window3_0, h0]; omega
      | ⟨1, _⟩ =>
        show 0 ≤ (D3).start j idx 1 + (((D3).window j 1 : Nat) : Int) ∧
          (D3).start j idx 1 + (((D3).window j 1 : Nat) : Int) < ((16 : Nat) : Int)
        rw [start3_1, window3_1]; omega
      | ⟨2, _⟩ =>
        show 0 ≤ (D3).start j idx 2 + (((D3).window j 2 : Nat) : Int) ∧
          (D3).start j idx 2 + (((D3).window j 2 : Nat) : Int) < ((32 : Nat) : Int)
        rw [start3_2, window3_2]; omega
    rw [dif_pos H]
    refine congrArg some (funext fun a => Fin.ext ?_)
    match a with
    | ⟨0, _⟩ =>
      show ((D3).start j idx 0 + (((D3).window j 0 : Nat) : Int)).toNat = n.val
      rw [start3_0, window3_0, h0]; omega
    | ⟨1, _⟩ =>
      show ((D3).start j idx 1 + (((D3).window j 1 : Nat) : Int)).toNat = b.val
      rw [start3_1, window3_1, ← h1]; omega
    | ⟨2, _⟩ =>
      show ((D3).start j idx 2 + (((D3).window j 2 : Nat) : Int)).toNat = o.val
      rw [start3_2, window3_2, ← h2]; omega

/-- The sum of the updates landing on `(n, b, o)`, taken over all update indices `(e, b', o')`, keeps of each row `e`
    only the term `b' = b`, `o' = o`, and that one only when the row's index word names `n`. -/
theorem scatter3_apply (x : S20000x16x32.Idx → EReal) (idx : IVec S160000x1 32) (upd : S160000x16x32.Idx → EReal)
    (n : Fin 20000) (b : Fin 16) (o : Fin 32) :
    (Host.scatterAdd (F := Ideal) (φ := .f32) scatter_S20000x16x32_S160000x1_S160000x16x32_12_0_0_1 x idx upd : S20000x16x32.Idx → EReal) (ix3 n b o)
      = x (ix3 n b o) + ∑ e : Fin 160000, if (idx (ix2 e 0)).toInt = (n.val : Int) then upd (ix3 e b o) else 0 := by
  show Ideal.hostScatterAdd (D3) x idx upd (ix3 n b o) = _
  unfold Ideal.hostScatterAdd
  refine congrArg (x (ix3 n b o) + ·) ?_
  rw [Finset.sum_filter, sum_idx3]
  refine Finset.sum_congr rfl fun e _ => ?_
  by_cases he : (idx (ix2 e 0)).toInt = (n.val : Int)
  · rw [if_pos he, Finset.sum_eq_single b, Finset.sum_eq_single o]
    · rw [if_pos ((resultIdx3_iff _ idx n b o).2 ⟨he, rfl, rfl⟩)]
    · intro o' _ ho'
      rw [if_neg]
      intro h
      exact ho' ((resultIdx3_iff _ idx n b o).1 h).2.2
    · intro h; exact absurd (Finset.mem_univ _) h
    · intro b' _ hb'
      refine Finset.sum_eq_zero fun o' _ => ?_
      rw [if_neg]
      intro h
      exact hb' ((resultIdx3_iff _ idx n b o).1 h).2.1
    · intro h; exact absurd (Finset.mem_univ _) h
  · rw [if_neg he]
    refine Finset.sum_eq_zero fun b' _ => Finset.sum_eq_zero fun o' _ => ?_
    rw [if_neg]
    intro h
    exact he ((resultIdx3_iff _ idx n b o).1 h).1

/-! ### The scalar scatter's dimension numbers: update `e` lands at `idx[e, 0]`

    No window axes: the operand's one axis is the scattered one, its start the index word of `e` read signed. -/

local notation "D1" => scatter_S20000_S160000x1_S160000_n_0_0_1

/-- Update `j` reads its start index at `[j₀, 0]` of the index array. -/
private theorem siIdx1 (j : S160000.Idx) (c : Fin (D1).scatterDimsToOperandDims.length) :
    (D1).siIdx j c = ix2 (j 0) 0 := by
  funext b
  match b with
  | ⟨0, _⟩ => rfl
  | ⟨1, _⟩ => exact Fin.ext (Nat.lt_one_iff.mp (Fin.isLt _))

private theorem start1_0 (j : S160000.Idx) (idx : IVec S160000x1 32) :
    (D1).start j idx 0 = (idx (ix2 (j 0) 0)).toInt := by
  unfold ScatterDims.start
  have h0 : (0 : Fin 1) ∈ (D1).scatterDimsToOperandDims := show (0 : Fin 1) ∈ [(0 : Fin 1)] by decide
  rw [dif_pos h0, siIdx1]
  rfl

private theorem window1_0 (j : S160000.Idx) : (D1).window j 0 = 0 := by
  unfold ScatterDims.window
  have h0 : ¬ (0 : Fin 1) ∈ (D1).sKept := show ¬ (0 : Fin 1) ∈ S20000.kept [(0 : Fin 1)] by decide
  rw [dif_neg h0]

/-- Update `j` lands on element `n` exactly when its index word, read signed, is `n`. -/
private theorem resultIdx1_iff (j : S160000.Idx) (idx : IVec S160000x1 32) (n : Fin 20000) :
    (D1).resultIdx? j idx = some (ix1 n) ↔ (idx (ix2 (j 0) 0)).toInt = (n.val : Int) := by
  unfold ScatterDims.resultIdx?
  constructor
  · intro h
    split at h
    · rename_i H
      have e0 := congrArg (fun f => (f 0).val) (Option.some.inj h)
      have H0 := H 0
      simp only [start1_0, window1_0] at e0 H0
      change ((idx (ix2 (j 0) 0)).toInt + ((0 : Nat) : Int)).toNat = n.val at e0
      omega
    · exact absurd h (by simp)
  · intro h0
    have hn := n.isLt
    have H : ∀ a, 0 ≤ (D1).start j idx a + (D1).window j a ∧
        (D1).start j idx a + (D1).window j a < S20000.size a := by
      intro a
      match a with
      | ⟨0, _⟩ =>
        show 0 ≤ (D1).start j idx 0 + (((D1).window j 0 : Nat) : Int) ∧
          (D1).start j idx 0 + (((D1).window j 0 : Nat) : Int) < ((20000 : Nat) : Int)
        rw [start1_0, window1_0, h0]; omega
    rw [dif_pos H]
    refine congrArg some (funext fun a => Fin.ext ?_)
    match a with
    | ⟨0, _⟩ =>
      show ((D1).start j idx 0 + (((D1).window j 0 : Nat) : Int)).toNat = n.val
      rw [start1_0, window1_0, h0]; omega

theorem scatter1_apply (x : S20000.Idx → EReal) (idx : IVec S160000x1 32) (upd : S160000.Idx → EReal) (n : Fin 20000) :
    (Host.scatterAdd (F := Ideal) (φ := .f32) scatter_S20000_S160000x1_S160000_n_0_0_1 x idx upd : S20000.Idx → EReal) (ix1 n)
      = x (ix1 n) + ∑ e : Fin 160000, if (idx (ix2 e 0)).toInt = (n.val : Int) then upd (ix1 e) else 0 := by
  show Ideal.hostScatterAdd (D1) x idx upd (ix1 n) = _
  unfold Ideal.hostScatterAdd
  refine congrArg (x (ix1 n) + ·) ?_
  rw [Finset.sum_filter, sum_idx1]
  refine Finset.sum_congr rfl fun e _ => ?_
  by_cases he : (idx (ix2 e 0)).toInt = (n.val : Int)
  · rw [if_pos he, if_pos ((resultIdx1_iff _ idx n).2 he)]
  · rw [if_neg he, if_neg]
    intro h
    exact he ((resultIdx1_iff _ idx n).1 h)

end Cert.KernelIdeal.ScatterRead

end
-- ==== Proof.KHost2.lean ====
import proofs.«401352_j13305808683173_1_alg».proof.Proof.Gen.KernelIdeal.Launch
import proofs.«401352_j13305808683173_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import proofs.«401352_j13305808683173_1_alg».proof.Proof.KScatter
import Idealize.ShloMosaic.Lib.StableHlo.Predicate

set_option maxRecDepth 16384

noncomputable section

open scoped BigOperators

namespace Cert.KernelIdeal.Host2

open Idealize.ShloMosaic Idealize.ShloMosaic.TcCoe Idealize.ShloMosaic.ValueIdx Idealize.SL.Sem
open Cert.KernelIdeal Cert.KernelIdeal.Gen
open Cert.Spec (rb rn eb ee lo hi node)

variable [Cert.KernelIdeal.Facts]
variable (Vv : Valuation τ sig (Elt Ideal))

/-! ## Between the second and the third kernel region: every node sums the messages of the edges that name it (once by
    endpoint 1, once by endpoint 0), counts them, divides where the count is positive, and the means are flattened to
    rows; the node-output perceptron's weights are transposed -/

/-- The buffers as the third region finds them, from the buffers `Vv` the second region leaves. -/
abbrev W11of : Valuation τ sig (Elt Ideal) := StableHlo.after (hostOps2_2 (F := Ideal)) (StableHlo.after (hostOps2_1 (F := Ideal)) (StableHlo.after (hostOps2 (F := Ideal)) Vv))

/-! ### The pieces of the chain, over any second-region output `X` and any edge list `E` -/

/-- The messages regrouped edge-major: row `b·160000 + e` of `X` becomes entry `(e, b)`. -/
private def upd (X : S2560000x32.Idx → EReal) : S160000x16x32.Idx → EReal :=
  transpose S160000x16x32 [1, 0, 2] (fun i => shapeCast S16x160000x32 X shapeCasts_S2560000x32_S16x160000x32 i)
    transposes_S16x160000x32_S160000x16x32_1_0_2

/-- Row 1 of the edge list as a column of index words. -/
private def idxRow1 (E : S2x160000.Idx → BitVec 32) : IVec S160000x1 32 :=
  broadcastInDim S160000x1 ![0] bcast_S160000_S160000x1_0 fun i =>
    shapeCast S160000 (extractStridedSlice S1x160000 ![1, 0] E slices_S2x160000_S1x160000_1_0) shapeCasts_S1x160000_S160000 i

/-- Row 0 of the edge list as a column of index words. -/
private def idxRow0 (E : S2x160000.Idx → BitVec 32) : IVec S160000x1 32 :=
  broadcastInDim S160000x1 ![0] bcast_S160000_S160000x1_0 fun i =>
    shapeCast S160000 (extractStridedSlice S1x160000 ![0, 0] E slices_S2x160000_S1x160000_0_0) shapeCasts_S1x160000_S160000 i

private theorem upd_apply (X : S2560000x32.Idx → EReal) (e : Fin 160000) (b : Fin 16) (o : Fin 32) :
    upd X (ix3 e b o) = X (ix2 ⟨b.val * 160000 + e.val, by have := b.isLt; have := e.isLt; omega⟩ o) := by
  unfold upd
  refine (transpose_apply [1, 0, 2] _ transposes_S16x160000x32_S160000x16x32_1_0_2 (ix3 e b o) (ix3 b e o)
    (fun a => match a with | ⟨0, _⟩ => rfl | ⟨1, _⟩ => rfl | ⟨2, _⟩ => rfl)).trans ?_
  refine shapeCast_apply X shapeCasts_S2560000x32_S16x160000x32 (ix3 b e o) (ix2 ⟨b.val * 160000 + e.val, _⟩ o) ?_
  rw [Shape.rowMajor_val_two, Shape.rowMajor_val_three]
  rfl

private theorem idxRow1_apply (E : S2x160000.Idx → BitVec 32) (e : Fin 160000) : idxRow1 E (ix2 e 0) = E (ix2 1 e) := by
  unfold idxRow1
  refine (broadcastInDim_apply ![0] bcast_S160000_S160000x1_0 _ (ix2 e 0) (ix1 e)
    (fun a => match a with | ⟨0, _⟩ => rfl)).trans ?_
  refine (shapeCast_apply _ shapeCasts_S1x160000_S160000 (ix1 e) (ix2 0 e) ?_).trans ?_
  · rw [Shape.rowMajor_val_one, Shape.rowMajor_val_two]
    show 0 * 160000 + e.val = e.val
    omega
  · exact extractStridedSlice_apply ![1, 0] E slices_S2x160000_S1x160000_1_0 (ix2 0 e) (ix2 1 e)
      (fun a => match a with | ⟨0, _⟩ => rfl | ⟨1, _⟩ => by show e.val = 0 + e.val; omega)

private theorem idxRow0_apply (E : S2x160000.Idx → BitVec 32) (e : Fin 160000) : idxRow0 E (ix2 e 0) = E (ix2 0 e) := by
  unfold idxRow0
  refine (broadcastInDim_apply ![0] bcast_S160000_S160000x1_0 _ (ix2 e 0) (ix1 e)
    (fun a => match a with | ⟨0, _⟩ => rfl)).trans ?_
  refine (shapeCast_apply _ shapeCasts_S1x160000_S160000 (ix1 e) (ix2 0 e) ?_).trans ?_
  · rw [Shape.rowMajor_val_one, Shape.rowMajor_val_two]
    show 0 * 160000 + e.val = e.val
    omega
  · exact extractStridedSlice_apply ![0, 0] E slices_S2x160000_S1x160000_0_0 (ix2 0 e) (ix2 0 e)
      (fun a => match a with | ⟨0, _⟩ => rfl | ⟨1, _⟩ => by show e.val = 0 + e.val; omega)

/-! ### The scatters as sums over the edges -/

/-- Under the range fact an endpoint's word, read signed, is node `n`'s number exactly when the endpoint names `n`. -/
private theorem toInt_eq_iff (E : S2x160000.Idx → BitVec 32)
    (hE : ∀ (r : Fin 2) (e : Fin 160000), (E (ix2 r e)).toNat < 20000) (r : Fin 2) (e : Fin 160000) (n : Fin 20000) :
    ((E (ix2 r e)).toInt = (n.val : Int)) ↔ node E r e = n := by
  have h := hE r e
  rw [StableHlo.Predicate.toInt_eq_toNat_of_lt (by omega)]
  constructor
  · intro h'
    apply Fin.ext
    show (E (ix2 r e)).toNat % 20000 = n.val
    have h2 : (E (ix2 r e)).toNat = n.val := by exact_mod_cast h'
    omega
  · intro h'
    have h1 : (E (ix2 r e)).toNat % 20000 = n.val := congrArg Fin.val h'
    have h2 : (E (ix2 r e)).toNat = n.val := by omega
    exact_mod_cast h2

/-- The zero arrays the scatters start from. -/
private theorem zeros3_apply (j : S20000x16x32.Idx) :
    (broadcastInDim S20000x16x32 ![] bcast_S_S20000x16x32 (constant (F := Ideal) S_ FTy.f32 0x00000000#32) : S20000x16x32.Idx → EReal) j = 0 :=
  (broadcastInDim_apply ![] bcast_S_S20000x16x32 _ j ix0 (fun a => a.elim0)).trans Ideal.ofBits_zero_f32

private theorem zeros1_apply (j : S20000.Idx) :
    (broadcastInDim S20000 ![] bcast_S_S20000 (constant (F := Ideal) S_ FTy.f32 0x00000000#32) : S20000.Idx → EReal) j = 0 :=
  (broadcastInDim_apply ![] bcast_S_S20000 _ j ix0 (fun a => a.elim0)).trans Ideal.ofBits_zero_f32

/-- The ones array the counting scatters add. -/
private theorem ones_apply (j : S160000.Idx) :
    (broadcastInDim S160000 ![] bcast_S_S160000 (constant (F := Ideal) S_ FTy.f32 0x3F800000#32) : S160000.Idx → EReal) j = Cert.Spec.one :=
  broadcastInDim_apply ![] bcast_S_S160000 _ j ix0 (fun a => a.elim0)

/-- The row a flat message row `b·160000 + e` is, split back. -/
private theorem eb_mk (b : Fin 16) (e : Fin 160000) (h : b.val * 160000 + e.val < 2560000) : eb ⟨b.val * 160000 + e.val, h⟩ = b :=
  Fin.ext (by show (b.val * 160000 + e.val) / 160000 = b.val; have := e.isLt; omega)
private theorem ee_mk (b : Fin 16) (e : Fin 160000) (h : b.val * 160000 + e.val < 2560000) : ee ⟨b.val * 160000 + e.val, h⟩ = e :=
  Fin.ext (by show (b.val * 160000 + e.val) % 160000 = e.val; have := e.isLt; omega)

section Sums
variable (X : S2560000x32.Idx → EReal) (E : S2x160000.Idx → BitVec 32) (mm : Fin 16 → Fin 160000 → Fin 32 → EReal)
  (hX : ∀ (r : Fin 2560000) (o : Fin 32), X (ix2 r o) = mm (eb r) (ee r) o)
  (hE : ∀ (r : Fin 2) (e : Fin 160000), (E (ix2 r e)).toNat < 20000)
include hX hE

/-- The message scatter by endpoint 1, from zeros: the sum of the messages of the edges whose endpoint 1 is `n`. -/
private theorem scat3_row1 (n : Fin 20000) (b : Fin 16) (o : Fin 32) :
    (Host.scatterAdd (F := Ideal) (φ := .f32) scatter_S20000x16x32_S160000x1_S160000x16x32_12_0_0_1
        (broadcastInDim S20000x16x32 ![] bcast_S_S20000x16x32 (constant S_ FTy.f32 0x00000000#32)) (idxRow1 E) (upd X) : S20000x16x32.Idx → EReal) (ix3 n b o)
      = ∑ e : Fin 160000, if node E 1 e = n then mm b e o else 0 := by
  rw [ScatterRead.scatter3_apply, zeros3_apply, zero_add]
  refine Finset.sum_congr rfl fun e _ => ?_
  rw [idxRow1_apply, upd_apply, hX, eb_mk, ee_mk]
  exact if_congr (toInt_eq_iff E hE 1 e n) rfl rfl

private theorem scat3_row0 (n : Fin 20000) (b : Fin 16) (o : Fin 32) :
    (Host.scatterAdd (F := Ideal) (φ := .f32) scatter_S20000x16x32_S160000x1_S160000x16x32_12_0_0_1
        (broadcastInDim S20000x16x32 ![] bcast_S_S20000x16x32 (constant S_ FTy.f32 0x00000000#32)) (idxRow0 E) (upd X) : S20000x16x32.Idx → EReal) (ix3 n b o)
      = ∑ e : Fin 160000, if node E 0 e = n then mm b e o else 0 := by
  rw [ScatterRead.scatter3_apply, zeros3_apply, zero_add]
  refine Finset.sum_congr rfl fun e _ => ?_
  rw [idxRow0_apply, upd_apply, hX, eb_mk, ee_mk]
  exact if_congr (toInt_eq_iff E hE 0 e n) rfl rfl

omit hX in
private theorem scat1_row1 (n : Fin 20000) :
    (Host.scatterAdd (F := Ideal) (φ := .f32) scatter_S20000_S160000x1_S160000_n_0_0_1
        (broadcastInDim S20000 ![] bcast_S_S20000 (constant S_ FTy.f32 0x00000000#32)) (idxRow1 E)
        (broadcastInDim S160000 ![] bcast_S_S160000 (constant S_ FTy.f32 0x3F800000#32)) : S20000.Idx → EReal) (ix1 n)
      = ∑ e : Fin 160000, if node E 1 e = n then Cert.Spec.one else 0 := by
  rw [ScatterRead.scatter1_apply, zeros1_apply, zero_add]
  refine Finset.sum_congr rfl fun e _ => ?_
  rw [idxRow1_apply, ones_apply]
  exact if_congr (toInt_eq_iff E hE 1 e n) rfl rfl

omit hX in
private theorem scat1_row0 (n : Fin 20000) :
    (Host.scatterAdd (F := Ideal) (φ := .f32) scatter_S20000_S160000x1_S160000_n_0_0_1
        (broadcastInDim S20000 ![] bcast_S_S20000 (constant S_ FTy.f32 0x00000000#32)) (idxRow0 E)
        (broadcastInDim S160000 ![] bcast_S_S160000 (constant S_ FTy.f32 0x3F800000#32)) : S20000.Idx → EReal) (ix1 n)
      = ∑ e : Fin 160000, if node E 0 e = n then Cert.Spec.one else 0 := by
  rw [ScatterRead.scatter1_apply, zeros1_apply, zero_add]
  refine Finset.sum_congr rfl fun e _ => ?_
  rw [idxRow0_apply, ones_apply]
  exact if_congr (toInt_eq_iff E hE 0 e n) rfl rfl

end Sums

/-! ### The mean at a node, and the rows the third region reads -/

/-- A select whose three arguments are equal to another's is equal to it. -/
private theorem select_congr {α : Type} {c c' : BitVec 1} {a a' b b' : α} (hc : c = c') (ha : a = a') (hb : b = b') :
    Scalar.select c a b = Scalar.select c' a' b' := by
  subst hc ha hb
  rfl

section Mean
variable (X : S2560000x32.Idx → EReal) (E : S2x160000.Idx → BitVec 32)

/-- The summed messages (%35): the scatter by endpoint 1 plus the scatter by endpoint 0. -/
private def sumArr : S20000x16x32.Idx → EReal :=
  addf (F := Ideal) (φ := .f32)
    (Host.scatterAdd scatter_S20000x16x32_S160000x1_S160000x16x32_12_0_0_1
      (broadcastInDim S20000x16x32 ![] bcast_S_S20000x16x32 (constant S_ FTy.f32 0x00000000#32)) (idxRow1 E) (upd X))
    (Host.scatterAdd scatter_S20000x16x32_S160000x1_S160000x16x32_12_0_0_1
      (broadcastInDim S20000x16x32 ![] bcast_S_S20000x16x32 (constant S_ FTy.f32 0x00000000#32)) (idxRow0 E) (upd X))

/-- The counts (%47): the same two scatters of a ones vector. -/
private def cntArr : S20000.Idx → EReal :=
  addf (F := Ideal) (φ := .f32)
    (Host.scatterAdd scatter_S20000_S160000x1_S160000_n_0_0_1
      (broadcastInDim S20000 ![] bcast_S_S20000 (constant S_ FTy.f32 0x00000000#32)) (idxRow1 E)
      (broadcastInDim S160000 ![] bcast_S_S160000 (constant S_ FTy.f32 0x3F800000#32)))
    (Host.scatterAdd scatter_S20000_S160000x1_S160000_n_0_0_1
      (broadcastInDim S20000 ![] bcast_S_S20000 (constant S_ FTy.f32 0x00000000#32)) (idxRow0 E)
      (broadcastInDim S160000 ![] bcast_S_S160000 (constant S_ FTy.f32 0x3F800000#32)))

/-- The means (%56): the quotient by max(count, 1) where the count is positive, zero elsewhere. -/
private def meanArr : S20000x16x32.Idx → EReal :=
  select
    (broadcastInDim S20000x16x32 ![0, 1, 2] bcast_S20000x1x1_S20000x16x32_0_1_2
      (cmpf (F := Ideal) (φ := .f32) CmpFPredicate.ogt
        (broadcastInDim S20000x1x1 ![0] bcast_S20000_S20000x1x1_0 (cntArr E))
        (broadcastInDim S20000x1x1 ![] bcast_S_S20000x1x1 (constant S_ FTy.f32 0x00000000#32))))
    (Host.divf (F := Ideal) (φ := .f32) (sumArr X E)
      (broadcastInDim S20000x16x32 ![0, 1, 2] bcast_S20000x1x1_S20000x16x32_0_1_2
        (broadcastInDim S20000x1x1 ![0] bcast_S20000_S20000x1x1_0
          (maximumf (F := Ideal) (φ := .f32) (cntArr E)
            (broadcastInDim S20000 ![] bcast_S_S20000 (constant S_ FTy.f32 0x3F800000#32))))))
    (broadcastInDim S20000x16x32 ![] bcast_S_S20000x16x32 (id (constant (F := Ideal) S_ FTy.f32 0x00000000#32)))

/-- The means flattened to rows (%58). -/
private def rowsArr : S320000x32.Idx → EReal :=
  shapeCast S320000x32 (transpose S16x20000x32 [1, 0, 2] (meanArr X E) transposes_S20000x16x32_S16x20000x32_1_0_2)
    shapeCasts_S16x20000x32_S320000x32

variable (mm : Fin 16 → Fin 160000 → Fin 32 → EReal)
  (hX : ∀ (r : Fin 2560000) (o : Fin 32), X (ix2 r o) = mm (eb r) (ee r) o)
  (hE : ∀ (r : Fin 2) (e : Fin 160000), (E (ix2 r e)).toNat < 20000)
include hX hE

private theorem sumArr_apply (n : Fin 20000) (b : Fin 16) (o : Fin 32) :
    sumArr X E (ix3 n b o) = Cert.Spec.Sval mm E n b o := by
  unfold sumArr Cert.Spec.Sval
  rw [addf_apply, scat3_row1 X E mm hX hE, scat3_row0 X E mm hX hE]

omit hX in
private theorem cntArr_apply (n : Fin 20000) : cntArr E (ix1 n) = Cert.Spec.Cval E n := by
  unfold cntArr Cert.Spec.Cval
  rw [addf_apply, scat1_row1 E hE, scat1_row0 E hE]

private theorem meanArr_apply (n : Fin 20000) (b : Fin 16) (o : Fin 32) :
    meanArr X E (ix3 n b o) = Cert.Spec.Aval (Cert.Spec.Sval mm E) (Cert.Spec.Cval E) b n o := by
  unfold meanArr Cert.Spec.Aval
  refine (select_apply _ _ _ _).trans ?_
  -- the condition: the count at `n`, compared with zero
  have hc : (broadcastInDim S20000x16x32 ![0, 1, 2] bcast_S20000x1x1_S20000x16x32_0_1_2
      (cmpf (F := Ideal) (φ := .f32) CmpFPredicate.ogt
        (broadcastInDim S20000x1x1 ![0] bcast_S20000_S20000x1x1_0 (cntArr E))
        (broadcastInDim S20000x1x1 ![] bcast_S_S20000x1x1 (constant S_ FTy.f32 0x00000000#32)))) (ix3 n b o)
      = Ideal.cmp .ogt (Cert.Spec.Cval E n) Cert.Spec.zero := by
    refine (broadcastInDim_apply ![0, 1, 2] bcast_S20000x1x1_S20000x16x32_0_1_2 _ (ix3 n b o) (ix3 n 0 0)
      (fun a => match a with | ⟨0, _⟩ => rfl | ⟨1, _⟩ => rfl | ⟨2, _⟩ => rfl)).trans ?_
    refine (cmpf_apply _ _ _ _).trans ((Ideal.cmpf_def _ _ _).trans (congrArg₂ (Ideal.cmp CmpFPredicate.ogt) ?_ ?_))
    · exact (broadcastInDim_apply ![0] bcast_S20000_S20000x1x1_0 _ (ix3 n 0 0) (ix1 n)
        (fun a => match a with | ⟨0, _⟩ => rfl)).trans (cntArr_apply E hE n)
    · exact broadcastInDim_apply ![] bcast_S_S20000x1x1 _ (ix3 n 0 0) ix0 (fun a => a.elim0)
  -- the quotient: the sum at `(n, b, o)` over max(count at `n`, 1)
  have hd : (Host.divf (F := Ideal) (φ := .f32) (sumArr X E)
      (broadcastInDim S20000x16x32 ![0, 1, 2] bcast_S20000x1x1_S20000x16x32_0_1_2
        (broadcastInDim S20000x1x1 ![0] bcast_S20000_S20000x1x1_0
          (maximumf (F := Ideal) (φ := .f32) (cntArr E)
            (broadcastInDim S20000 ![] bcast_S_S20000 (constant S_ FTy.f32 0x3F800000#32)))))) (ix3 n b o)
      = Ideal.div (Cert.Spec.Sval mm E n b o) (max (Cert.Spec.Cval E n) Cert.Spec.one) := by
    refine (Ideal.hostDivf_def _ _).trans (congrArg₂ Ideal.div (sumArr_apply X E mm hX hE n b o) ?_)
    refine (broadcastInDim_apply ![0, 1, 2] bcast_S20000x1x1_S20000x16x32_0_1_2 _ (ix3 n b o) (ix3 n 0 0)
      (fun a => match a with | ⟨0, _⟩ => rfl | ⟨1, _⟩ => rfl | ⟨2, _⟩ => rfl)).trans ?_
    refine (broadcastInDim_apply ![0] bcast_S20000_S20000x1x1_0 _ (ix3 n 0 0) (ix1 n)
      (fun a => match a with | ⟨0, _⟩ => rfl)).trans ?_
    refine (maximumf_apply _ _ _).trans (congrArg₂ max (cntArr_apply E hE n) ?_)
    exact broadcastInDim_apply ![] bcast_S_S20000 _ (ix1 n) ix0 (fun a => a.elim0)
  have hz : (broadcastInDim S20000x16x32 ![] bcast_S_S20000x16x32 (id (constant (F := Ideal) S_ FTy.f32 0x00000000#32)) : S20000x16x32.Idx → EReal) (ix3 n b o)
      = Cert.Spec.zero :=
    broadcastInDim_apply ![] bcast_S_S20000x16x32 _ (ix3 n b o) ix0 (fun a => a.elim0)
  exact select_congr hc hd hz

private theorem rowsArr_apply (r : Fin 320000) (k : Fin 32) :
    rowsArr X E (ix2 r k) = Cert.Spec.Aval (Cert.Spec.Sval mm E) (Cert.Spec.Cval E) (rb r) (rn r) k := by
  unfold rowsArr
  refine (shapeCast_apply _ shapeCasts_S16x20000x32_S320000x32 (ix2 r k) (ix3 (rb r) (rn r) k) ?_).trans ?_
  · rw [Shape.rowMajor_val_two, Shape.rowMajor_val_three]
    show ((r.val / 20000) * 20000 + r.val % 20000) * 32 + k.val = r.val * 32 + k.val
    omega
  refine (transpose_apply [1, 0, 2] _ transposes_S20000x16x32_S16x20000x32_1_0_2 (ix3 (rb r) (rn r) k) (ix3 (rn r) (rb r) k)
    (fun a => match a with | ⟨0, _⟩ => rfl | ⟨1, _⟩ => rfl | ⟨2, _⟩ => rfl)).trans ?_
  exact meanArr_apply X E mm hX hE (rn r) (rb r) k

end Mean

set_option maxHeartbeats 4000000 in
theorem h2_v58 (mm : Fin 16 → Fin 160000 → Fin 32 → EReal)
    (hv22 : ∀ (r : Fin 2560000) (o : Fin 32), (Vv (Proc.devRef .tc main_v22) : S2560000x32.Idx → EReal) (ix2 r o) = mm (eb r) (ee r) o)
    (hE : ∀ (r : Fin 2) (e : Fin 160000), ((Vv (Proc.devRef .tc main_arg1) : S2x160000.Idx → BitVec 32) (ix2 r e)).toNat < 20000) (r : Fin 320000) (k : Fin 32) :
    (W11of Vv (Proc.devRef .tc main_v58) : S320000x32.Idx → EReal) (ix2 r k)
      = Cert.Spec.Aval (Cert.Spec.Sval mm (Vv (Proc.devRef .tc main_arg1) : S2x160000.Idx → BitVec 32)) (Cert.Spec.Cval (Vv (Proc.devRef .tc main_arg1) : S2x160000.Idx → BitVec 32)) (rb r) (rn r) k := by
  after_results_simp
  simp only [StableHlo.TRef.toBuf, StableHlo.TRef.ofBuf, cast_eq]
  exact rowsArr_apply (Vv (Proc.devRef .tc main_v22)) (Vv (Proc.devRef .tc main_arg1)) mm hv22 hE r k
theorem h2_v59 (k c' : Fin 32) :
    (W11of Vv (Proc.devRef .tc main_v59) : S32x32.Idx → EReal) (ix2 k c') = (Vv (Proc.devRef .tc main_arg10) : S32x32.Idx → EReal) (ix2 c' k) := by
  after_results
  exact transpose_apply [1, 0] _ transposes_S32x32_S32x32_1_0 (ix2 k c') (ix2 c' k)
    (fun b => match b with | ⟨0, _⟩ => rfl | ⟨1, _⟩ => rfl)
theorem h2_v60 (c' : Fin 32) :
    (W11of Vv (Proc.devRef .tc main_v60) : S1x32.Idx → EReal) (ix2 0 c') = (Vv (Proc.devRef .tc main_arg11) : S32.Idx → EReal) (ix1 c') := by
  after_results
  refine shapeCast_apply _ shapeCasts_S32_S1x32 (ix2 0 c') (ix1 c') ?_
  rw [Shape.rowMajor_val_one, Shape.rowMajor_val_two]
  show c'.val = 0 * 32 + c'.val
  omega
theorem h2_v61 (c' : Fin 32) :
    (W11of Vv (Proc.devRef .tc main_v61) : S32x1.Idx → EReal) (ix2 c' 0) = (Vv (Proc.devRef .tc main_arg12) : S1x32.Idx → EReal) (ix2 0 c') := by
  after_results
  exact transpose_apply [1, 0] _ transposes_S1x32_S32x1_1_0 (ix2 c' 0) (ix2 0 c')
    (fun b => match b with | ⟨0, _⟩ => rfl | ⟨1, _⟩ => rfl)
theorem h2_v62 :
    (W11of Vv (Proc.devRef .tc main_v62) : S1x1.Idx → EReal) (ix2 0 0) = (Vv (Proc.devRef .tc main_arg13) : S1.Idx → EReal) (ix1 0) := by
  after_results
  refine shapeCast_apply _ shapeCasts_S1_S1x1 (ix2 0 0) (ix1 0) ?_
  rw [Shape.rowMajor_val_one, Shape.rowMajor_val_two]
  rfl

/-! ## None of these operations writes an argument -/

theorem h2_arg0 : W11of Vv (Proc.devRef .tc main_arg0) = Vv (Proc.devRef .tc main_arg0) := by
  after_results
theorem h2_arg1 : W11of Vv (Proc.devRef .tc main_arg1) = Vv (Proc.devRef .tc main_arg1) := by
  after_results
theorem h2_arg2 : W11of Vv (Proc.devRef .tc main_arg2) = Vv (Proc.devRef .tc main_arg2) := by
  after_results
theorem h2_arg3 : W11of Vv (Proc.devRef .tc main_arg3) = Vv (Proc.devRef .tc main_arg3) := by
  after_results
theorem h2_arg4 : W11of Vv (Proc.devRef .tc main_arg4) = Vv (Proc.devRef .tc main_arg4) := by
  after_results
theorem h2_arg5 : W11of Vv (Proc.devRef .tc main_arg5) = Vv (Proc.devRef .tc main_arg5) := by
  after_results
theorem h2_arg6 : W11of Vv (Proc.devRef .tc main_arg6) = Vv (Proc.devRef .tc main_arg6) := by
  after_results
theorem h2_arg7 : W11of Vv (Proc.devRef .tc main_arg7) = Vv (Proc.devRef .tc main_arg7) := by
  after_results
theorem h2_arg8 : W11of Vv (Proc.devRef .tc main_arg8) = Vv (Proc.devRef .tc main_arg8) := by
  after_results
theorem h2_arg9 : W11of Vv (Proc.devRef .tc main_arg9) = Vv (Proc.devRef .tc main_arg9) := by
  after_results
theorem h2_arg10 : W11of Vv (Proc.devRef .tc main_arg10) = Vv (Proc.devRef .tc main_arg10) := by
  after_results
theorem h2_arg11 : W11of Vv (Proc.devRef .tc main_arg11) = Vv (Proc.devRef .tc main_arg11) := by
  after_results
theorem h2_arg12 : W11of Vv (Proc.devRef .tc main_arg12) = Vv (Proc.devRef .tc main_arg12) := by
  after_results
theorem h2_arg13 : W11of Vv (Proc.devRef .tc main_arg13) = Vv (Proc.devRef .tc main_arg13) := by
  after_results
theorem h2_arg14 : W11of Vv (Proc.devRef .tc main_arg14) = Vv (Proc.devRef .tc main_arg14) := by
  after_results
theorem h2_arg15 : W11of Vv (Proc.devRef .tc main_arg15) = Vv (Proc.devRef .tc main_arg15) := by
  after_results

end Cert.KernelIdeal.Host2

end
-- ==== Proof.KValue.lean ====
/-
  The kernel program's result as a function of its arguments: its three kernel regions' closed forms and the host
  operations around them, threaded from the launch to the return along the buffer contents at each boundary.
  The result buffer ends at `Spec.Result` of the argument arrays whenever every edge endpoint names a node.
-/
import proofs.«401352_j13305808683173_1_alg».proof.Proof.KRun
import proofs.«401352_j13305808683173_1_alg».proof.Proof.KRegion0
import proofs.«401352_j13305808683173_1_alg».proof.Proof.KRegion1
import proofs.«401352_j13305808683173_1_alg».proof.Proof.KRegion2
import proofs.«401352_j13305808683173_1_alg».proof.Proof.KHostA
import proofs.«401352_j13305808683173_1_alg».proof.Proof.KHost1
import proofs.«401352_j13305808683173_1_alg».proof.Proof.KHost2
import proofs.«401352_j13305808683173_1_alg».proof.Proof.Spec

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen
open Cert.Spec (rb rn eb ee lo hi node)

variable [Cert.KernelIdeal.Facts]
variable (m : (ℓ : Loc nD τ sig) → Buf (Elt Ideal) ℓ) (ρ : Dev nD → PrngReg)

/-- The sixteen argument arrays of core `c`, as launched. -/
def args (c : Dev nD) : Cert.Spec.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

/-! ## The arguments at each boundary are the launched ones: no host operation and no region writes an argument -/

theorem W2_arg1 (c : Dev nD) : W2 m ρ c (Proc.devRef .tc main_arg1) = m ((c.tc : Thread nD τ).loc main_arg1) :=
  (W2_of_ne m ρ c main_arg1 (by decide)).trans ((Cert.KernelIdeal.HostA.h0_arg1 (W0 m ρ c)).trans rfl)
theorem W2_arg6 (c : Dev nD) : W2 m ρ c (Proc.devRef .tc main_arg6) = m ((c.tc : Thread nD τ).loc main_arg6) :=
  (W2_of_ne m ρ c main_arg6 (by decide)).trans ((Cert.KernelIdeal.HostA.h0_arg6 (W0 m ρ c)).trans rfl)
theorem W2_arg7 (c : Dev nD) : W2 m ρ c (Proc.devRef .tc main_arg7) = m ((c.tc : Thread nD τ).loc main_arg7) :=
  (W2_of_ne m ρ c main_arg7 (by decide)).trans ((Cert.KernelIdeal.HostA.h0_arg7 (W0 m ρ c)).trans rfl)
theorem W2_arg8 (c : Dev nD) : W2 m ρ c (Proc.devRef .tc main_arg8) = m ((c.tc : Thread nD τ).loc main_arg8) :=
  (W2_of_ne m ρ c main_arg8 (by decide)).trans ((Cert.KernelIdeal.HostA.h0_arg8 (W0 m ρ c)).trans rfl)
theorem W2_arg9 (c : Dev nD) : W2 m ρ c (Proc.devRef .tc main_arg9) = m ((c.tc : Thread nD τ).loc main_arg9) :=
  (W2_of_ne m ρ c main_arg9 (by decide)).trans ((Cert.KernelIdeal.HostA.h0_arg9 (W0 m ρ c)).trans rfl)
theorem W2_arg10' (c : Dev nD) : W2 m ρ c (Proc.devRef .tc main_arg10) = m ((c.tc : Thread nD τ).loc main_arg10) :=
  (W2_of_ne m ρ c main_arg10 (by decide)).trans ((Cert.KernelIdeal.HostA.h0_arg10 (W0 m ρ c)).trans rfl)
theorem W2_arg11' (c : Dev nD) : W2 m ρ c (Proc.devRef .tc main_arg11) = m ((c.tc : Thread nD τ).loc main_arg11) :=
  (W2_of_ne m ρ c main_arg11 (by decide)).trans ((Cert.KernelIdeal.HostA.h0_arg11 (W0 m ρ c)).trans rfl)
theorem W2_arg12' (c : Dev nD) : W2 m ρ c (Proc.devRef .tc main_arg12) = m ((c.tc : Thread nD τ).loc main_arg12) :=
  (W2_of_ne m ρ c main_arg12 (by decide)).trans ((Cert.KernelIdeal.HostA.h0_arg12 (W0 m ρ c)).trans rfl)
theorem W2_arg13' (c : Dev nD) : W2 m ρ c (Proc.devRef .tc main_arg13) = m ((c.tc : Thread nD τ).loc main_arg13) :=
  (W2_of_ne m ρ c main_arg13 (by decide)).trans ((Cert.KernelIdeal.HostA.h0_arg13 (W0 m ρ c)).trans rfl)
theorem W2_arg14' (c : Dev nD) : W2 m ρ c (Proc.devRef .tc main_arg14) = m ((c.tc : Thread nD τ).loc main_arg14) :=
  (W2_of_ne m ρ c main_arg14 (by decide)).trans ((Cert.KernelIdeal.HostA.h0_arg14 (W0 m ρ c)).trans rfl)
theorem W2_arg15' (c : Dev nD) : W2 m ρ c (Proc.devRef .tc main_arg15) = m ((c.tc : Thread nD τ).loc main_arg15) :=
  (W2_of_ne m ρ c main_arg15 (by decide)).trans ((Cert.KernelIdeal.HostA.h0_arg15 (W0 m ρ c)).trans rfl)
theorem W8_arg1 (c : Dev nD) : W8 m ρ c (Proc.devRef .tc main_arg1) = m ((c.tc : Thread nD τ).loc main_arg1) :=
  (W8_of_ne m ρ c main_arg1 (by decide)).trans ((Cert.KernelIdeal.Host1.h1_arg1 (W2 m ρ c)).trans (W2_arg1 m ρ c))
theorem W8_arg10 (c : Dev nD) : W8 m ρ c (Proc.devRef .tc main_arg10) = m ((c.tc : Thread nD τ).loc main_arg10) :=
  (W8_of_ne m ρ c main_arg10 (by decide)).trans ((Cert.KernelIdeal.Host1.h1_arg10 (W2 m ρ c)).trans (W2_arg10' m ρ c))
theorem W8_arg11 (c : Dev nD) : W8 m ρ c (Proc.devRef .tc main_arg11) = m ((c.tc : Thread nD τ).loc main_arg11) :=
  (W8_of_ne m ρ c main_arg11 (by decide)).trans ((Cert.KernelIdeal.Host1.h1_arg11 (W2 m ρ c)).trans (W2_arg11' m ρ c))
theorem W8_arg12 (c : Dev nD) : W8 m ρ c (Proc.devRef .tc main_arg12) = m ((c.tc : Thread nD τ).loc main_arg12) :=
  (W8_of_ne m ρ c main_arg12 (by decide)).trans ((Cert.KernelIdeal.Host1.h1_arg12 (W2 m ρ c)).trans (W2_arg12' m ρ c))
theorem W8_arg13 (c : Dev nD) : W8 m ρ c (Proc.devRef .tc main_arg13) = m ((c.tc : Thread nD τ).loc main_arg13) :=
  (W8_of_ne m ρ c main_arg13 (by decide)).trans ((Cert.KernelIdeal.Host1.h1_arg13 (W2 m ρ c)).trans (W2_arg13' m ρ c))
theorem W8_arg14 (c : Dev nD) : W8 m ρ c (Proc.devRef .tc main_arg14) = m ((c.tc : Thread nD τ).loc main_arg14) :=
  (W8_of_ne m ρ c main_arg14 (by decide)).trans ((Cert.KernelIdeal.Host1.h1_arg14 (W2 m ρ c)).trans (W2_arg14' m ρ c))
theorem W8_arg15 (c : Dev nD) : W8 m ρ c (Proc.devRef .tc main_arg15) = m ((c.tc : Thread nD τ).loc main_arg15) :=
  (W8_of_ne m ρ c main_arg15 (by decide)).trans ((Cert.KernelIdeal.Host1.h1_arg15 (W2 m ρ c)).trans (W2_arg15' m ρ c))
theorem W12_arg14 (c : Dev nD) : W12 m ρ c (Proc.devRef .tc main_arg14) = m ((c.tc : Thread nD τ).loc main_arg14) :=
  (W12_of_ne m ρ c main_arg14 (by decide)).trans ((Cert.KernelIdeal.Host2.h2_arg14 (W8 m ρ c)).trans (W8_arg14 m ρ c))
theorem W12_arg15 (c : Dev nD) : W12 m ρ c (Proc.devRef .tc main_arg15) = m ((c.tc : Thread nD τ).loc main_arg15) :=
  (W12_of_ne m ρ c main_arg15 (by decide)).trans ((Cert.KernelIdeal.Host2.h2_arg15 (W8 m ρ c)).trans (W8_arg15 m ρ c))

variable (hE : ∀ c : Dev nD, (args m c).InRange)
include hE

/-! ## The boundaries' contents, region by region -/

/-- The first region leaves the node features, one row per (graph, node). -/
theorem v5 (c : Dev nD) (r : Fin 320000) (o : Fin 32) :
    (W2 m ρ c (Proc.devRef .tc main_v5) : S320000x32.Idx → EReal) (ix2 r o) = Cert.Spec.H (args m c) (rb r) (rn r) o := by
  refine Eq.trans (congrFun (show (W2 m ρ c (Proc.devRef .tc main_v5) : S320000x32.Idx → EReal) = _ from
    (W2_arr m ρ c 5).trans (Cert.KernelIdeal.Region0.out (V1 m ρ) c)) (ix2 r o)) ?_
  show Cert.Spec.mlp2 (fun i : Fin 11 => (V1 m ρ c main_v0 : S320000x11.Idx → EReal) (ix2 r i))
      (fun (i : Fin 11) (c' : Fin 32) => (V1 m ρ c main_v1 : S11x32.Idx → EReal) (ix2 i c'))
      (fun c' : Fin 32 => (V1 m ρ c main_v2 : S1x32.Idx → EReal) (ix2 0 c'))
      (fun (c' : Fin 32) (o' : Fin 32) => (V1 m ρ c main_v3 : S32x32.Idx → EReal) (ix2 c' o'))
      (fun o' : Fin 32 => (V1 m ρ c main_v4 : S1x32.Idx → EReal) (ix2 0 o')) o
    = Cert.Spec.mlp2 (fun i => (args m c).x (ix3 (rb r) (rn r) i)) (fun i c' => (args m c).Wx1 (ix2 c' i))
      (fun c' => (args m c).bx1 (ix1 c')) (fun c' o' => (args m c).Wx2 (ix2 o' c')) (fun o' => (args m c).bx2 (ix1 o')) o
  congr 1
  · funext i; exact Cert.KernelIdeal.HostA.h0_v0 (W0 m ρ c) r i
  · funext i c'; exact Cert.KernelIdeal.HostA.h0_v1 (W0 m ρ c) i c'
  · funext c'; exact Cert.KernelIdeal.HostA.h0_v2 (W0 m ρ c) c'
  · funext c' o'; exact Cert.KernelIdeal.HostA.h0_v3 (W0 m ρ c) c' o'
  · funext o'; exact Cert.KernelIdeal.HostA.h0_v4 (W0 m ρ c) o'

/-- The second region leaves the edge messages, one row per (graph, edge). -/
theorem v22 (c : Dev nD) (r : Fin 2560000) (o : Fin 32) :
    (W8 m ρ c (Proc.devRef .tc main_v22) : S2560000x32.Idx → EReal) (ix2 r o) = Cert.Spec.M (args m c) (eb r) (ee r) o := by
  have hE2 : ∀ (r : Fin 2) (e : Fin 160000), ((W2 m ρ c (Proc.devRef .tc main_arg1) : S2x160000.Idx → BitVec 32) (ix2 r e)).toNat < 20000 := by
    intro r e; rw [W2_arg1 m ρ c]; exact hE c r e
  have hnode : ∀ (q : Fin 2) (e : Fin 160000), node (W2 m ρ c (Proc.devRef .tc main_arg1) : S2x160000.Idx → BitVec 32) q e = node (args m c).E q e := by
    intro q e; rw [W2_arg1 m ρ c]; rfl
  refine Eq.trans (congrFun (show (W8 m ρ c (Proc.devRef .tc main_v22) : S2560000x32.Idx → EReal) = _ from
    (W8_arr m ρ c 7).trans (Cert.KernelIdeal.Region1.out (V7 m ρ) c)) (ix2 r o)) ?_
  have e1 : (fun k : Fin 32 => (V7 m ρ c main_v10 : S2560000x32.Idx → EReal) (ix2 r k))
      = fun k => Cert.Spec.H (args m c) (eb r) (node (args m c).E 0 (ee r)) k := funext fun k =>
    (Cert.KernelIdeal.Host1.h1_v10 (W2 m ρ c) (Cert.Spec.H (args m c)) (v5 m ρ hE c) hE2 r k).trans (by rw [hnode])
  have e2 : (fun k : Fin 32 => (V7 m ρ c main_v14 : S2560000x32.Idx → EReal) (ix2 r k))
      = fun k => Cert.Spec.H (args m c) (eb r) (node (args m c).E 1 (ee r)) k := funext fun k =>
    (Cert.KernelIdeal.Host1.h1_v14 (W2 m ρ c) (Cert.Spec.H (args m c)) (v5 m ρ hE c) hE2 r k).trans (by rw [hnode])
  have e3 : (fun (k : Fin 32) (c' : Fin 32) => (V7 m ρ c main_v16 : S32x32.Idx → EReal) (ix2 k c'))
      = fun k c' => (args m c).We1 (ix2 c' (lo k)) := funext fun k => funext fun c' =>
    (Cert.KernelIdeal.Host1.h1_v16 (W2 m ρ c) k c').trans (by rw [W2_arg6 m ρ c]; rfl)
  have e4 : (fun (k : Fin 32) (c' : Fin 32) => (V7 m ρ c main_v18 : S32x32.Idx → EReal) (ix2 k c'))
      = fun k c' => (args m c).We1 (ix2 c' (hi k)) := funext fun k => funext fun c' =>
    (Cert.KernelIdeal.Host1.h1_v18 (W2 m ρ c) k c').trans (by rw [W2_arg6 m ρ c]; rfl)
  have e5 : (fun c' : Fin 32 => (V7 m ρ c main_v19 : S1x32.Idx → EReal) (ix2 0 c'))
      = fun c' => (args m c).be1 (ix1 c') := funext fun c' =>
    (Cert.KernelIdeal.Host1.h1_v19 (W2 m ρ c) c').trans (by rw [W2_arg7 m ρ c]; rfl)
  have e6 : (fun (c' : Fin 32) (o' : Fin 32) => (V7 m ρ c main_v20 : S32x32.Idx → EReal) (ix2 c' o'))
      = fun c' o' => (args m c).We2 (ix2 o' c') := funext fun c' => funext fun o' =>
    (Cert.KernelIdeal.Host1.h1_v20 (W2 m ρ c) c' o').trans (by rw [W2_arg8 m ρ c]; rfl)
  have e7 : (fun o' : Fin 32 => (V7 m ρ c main_v21 : S1x32.Idx → EReal) (ix2 0 o'))
      = fun o' => (args m c).be2 (ix1 o') := funext fun o' =>
    (Cert.KernelIdeal.Host1.h1_v21 (W2 m ρ c) o').trans (by rw [W2_arg9 m ρ c]; rfl)
  show Cert.Spec.mlp2pair (fun k : Fin 32 => (V7 m ρ c main_v10 : S2560000x32.Idx → EReal) (ix2 r k))
      (fun k : Fin 32 => (V7 m ρ c main_v14 : S2560000x32.Idx → EReal) (ix2 r k))
      (fun (k : Fin 32) (c' : Fin 32) => (V7 m ρ c main_v16 : S32x32.Idx → EReal) (ix2 k c'))
      (fun (k : Fin 32) (c' : Fin 32) => (V7 m ρ c main_v18 : S32x32.Idx → EReal) (ix2 k c'))
      (fun c' : Fin 32 => (V7 m ρ c main_v19 : S1x32.Idx → EReal) (ix2 0 c'))
      (fun (c' : Fin 32) (o' : Fin 32) => (V7 m ρ c main_v20 : S32x32.Idx → EReal) (ix2 c' o'))
      (fun o' : Fin 32 => (V7 m ρ c main_v21 : S1x32.Idx → EReal) (ix2 0 o')) o = _
  rw [e1, e2, e3, e4, e5, e6, e7]
  rfl

/-- The third region leaves the node outputs, one row per (graph, node). -/
theorem v63 (c : Dev nD) (r : Fin 320000) :
    (W12 m ρ c (Proc.devRef .tc main_v63) : S320000x1.Idx → EReal) (ix2 r 0) = Cert.Spec.V (args m c) (rb r) (rn r) := by
  have hE8 : ∀ (r : Fin 2) (e : Fin 160000), ((W8 m ρ c (Proc.devRef .tc main_arg1) : S2x160000.Idx → BitVec 32) (ix2 r e)).toNat < 20000 := by
    intro r e; rw [W8_arg1 m ρ c]; exact hE c r e
  refine Eq.trans (congrFun (show (W12 m ρ c (Proc.devRef .tc main_v63) : S320000x1.Idx → EReal) = _ from
    (W12_arr m ρ c 5).trans (Cert.KernelIdeal.Region2.out (V11 m ρ) c)) (ix2 r 0)) ?_
  have e1 : (fun k : Fin 32 => (V11 m ρ c main_v58 : S320000x32.Idx → EReal) (ix2 r k))
      = fun k => Cert.Spec.A (args m c) (rb r) (rn r) k := funext fun k => by
    refine (Cert.KernelIdeal.Host2.h2_v58 (W8 m ρ c) (Cert.Spec.M (args m c)) (v22 m ρ hE c) hE8 r k).trans ?_
    rw [W8_arg1 m ρ c]; rfl
  have e2 : (fun (k : Fin 32) (c' : Fin 32) => (V11 m ρ c main_v59 : S32x32.Idx → EReal) (ix2 k c'))
      = fun k c' => (args m c).Wv1 (ix2 c' k) := funext fun k => funext fun c' =>
    (Cert.KernelIdeal.Host2.h2_v59 (W8 m ρ c) k c').trans (by rw [W8_arg10 m ρ c]; rfl)
  have e3 : (fun c' : Fin 32 => (V11 m ρ c main_v60 : S1x32.Idx → EReal) (ix2 0 c'))
      = fun c' => (args m c).bv1 (ix1 c') := funext fun c' =>
    (Cert.KernelIdeal.Host2.h2_v60 (W8 m ρ c) c').trans (by rw [W8_arg11 m ρ c]; rfl)
  have e4 : (fun (c' : Fin 32) (o' : Fin 1) => (V11 m ρ c main_v61 : S32x1.Idx → EReal) (ix2 c' o'))
      = fun c' (_ : Fin 1) => (args m c).Wv2 (ix2 0 c') := funext fun c' => funext fun o' => by
    obtain rfl : o' = 0 := Subsingleton.elim _ _
    exact (Cert.KernelIdeal.Host2.h2_v61 (W8 m ρ c) c').trans (by rw [W8_arg12 m ρ c]; rfl)
  have e5 : (fun o' : Fin 1 => (V11 m ρ c main_v62 : S1x1.Idx → EReal) (ix2 0 o'))
      = fun (_ : Fin 1) => (args m c).bv2 (ix1 0) := funext fun o' => by
    obtain rfl : o' = 0 := Subsingleton.elim _ _
    exact (Cert.KernelIdeal.Host2.h2_v62 (W8 m ρ c)).trans (by rw [W8_arg13 m ρ c]; rfl)
  show Cert.Spec.mlp2 (fun k : Fin 32 => (V11 m ρ c main_v58 : S320000x32.Idx → EReal) (ix2 r k))
      (fun (k : Fin 32) (c' : Fin 32) => (V11 m ρ c main_v59 : S32x32.Idx → EReal) (ix2 k c'))
      (fun c' : Fin 32 => (V11 m ρ c main_v60 : S1x32.Idx → EReal) (ix2 0 c'))
      (fun (c' : Fin 32) (o' : Fin 1) => (V11 m ρ c main_v61 : S32x1.Idx → EReal) (ix2 c' o'))
      (fun o' : Fin 1 => (V11 m ρ c main_v62 : S1x1.Idx → EReal) (ix2 0 o')) 0 = _
  rw [e1, e2, e3, e4, e5]
  rfl

/-- The result buffer at the return. -/
theorem result (c : Dev nD) :
    (W13 m ρ c (Proc.devRef .tc main_v75) : S16x1.Idx → EReal) = Cert.Spec.Result (args m c) := by
  refine (Cert.KernelIdeal.HostA.h3_out (W12 m ρ c) (Cert.Spec.V (args m c)) (v63 m ρ hE c)).trans ?_
  rw [W12_arg14 m ρ c, W12_arg15 m ρ c]; rfl

end Cert.KernelIdeal.Value

end
-- ==== Proof.RSeg1.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Seg

open Idealize.ShloMosaic Idealize.ShloMosaic.TcCoe Idealize.ShloMosaic.StableHlo Idealize.SL.Sem
open Cert.ReferenceIdeal

variable {F : FTy → Type} [FloatOps F] [Cert.ReferenceIdeal.Facts]
open Cert.ReferenceIdeal.Facts₀ Cert.ReferenceIdeal.Facts

/-- @main's statements %0 … %9 as one straight line of operations, each called function's operations written out at its call over that call's buffers. -/
abbrev seg1 : List (HloOp τ sig (Elt F)) :=
  [ StableHlo.binary main_arg0 main_arg2 main_v0 ((fun l r => Host.dotGeneral dot_S16x20000x11_S32x11_S16x20000x32_2_1_01_0_n_n none l r) : (⟨S16x20000x11, .f32⟩ : BufTy).Contents (Elt F) → (⟨S32x11, .f32⟩ : BufTy).Contents (Elt F) → (⟨S16x20000x32, .f32⟩ : BufTy).Contents (Elt F)),
    StableHlo.unary main_arg3 main_v1 (broadcastInDim S1x1x32 ![2] bcast_S32_S1x1x32_2 : (⟨S32, .f32⟩ : BufTy).Contents (Elt F) → (⟨S1x1x32, .f32⟩ : BufTy).Contents (Elt F)),
    StableHlo.unary main_v1 main_v2 (broadcastInDim S16x20000x32 ![0, 1, 2] bcast_S1x1x32_S16x20000x32_0_1_2 : (⟨S1x1x32, .f32⟩ : BufTy).Contents (Elt F) → (⟨S16x20000x32, .f32⟩ : BufTy).Contents (Elt F)),
    StableHlo.binary main_v0 main_v2 main_v3 (addf : (⟨S16x20000x32, .f32⟩ : BufTy).Contents (Elt F) → (⟨S16x20000x32, .f32⟩ : BufTy).Contents (Elt F) → (⟨S16x20000x32, .f32⟩ : BufTy).Contents (Elt F)),
    StableHlo.TRef.nullary main_call0.cst (constant S_ .f32 0x00000000#32),
    StableHlo.TRef.unary main_call0.cst main_call0.v0 (broadcastInDim S16x20000x32 ![] bcast_S_S16x20000x32),
    StableHlo.TRef.binary (.of main_v3) main_call0.v0 main_call0.v1 maximumf,
    StableHlo.binary main_v4 main_arg4 main_v5 ((fun l r => Host.dotGeneral dot_S16x20000x32_S32x32_S16x20000x32_2_1_01_0_n_n none l r) : (⟨S16x20000x32, .f32⟩ : BufTy).Contents (Elt F) → (⟨S32x32, .f32⟩ : BufTy).Contents (Elt F) → (⟨S16x20000x32, .f32⟩ : BufTy).Contents (Elt F)),
    StableHlo.unary main_arg5 main_v6 (broadcastInDim S1x1x32 ![2] bcast_S32_S1x1x32_2 : (⟨S32, .f32⟩ : BufTy).Contents (Elt F) → (⟨S1x1x32, .f32⟩ : BufTy).Contents (Elt F)),
    StableHlo.unary main_v6 main_v7 (broadcastInDim S16x20000x32 ![0, 1, 2] bcast_S1x1x32_S16x20000x32_0_1_2 : (⟨S1x1x32, .f32⟩ : BufTy).Contents (Elt F) → (⟨S16x20000x32, .f32⟩ : BufTy).Contents (Elt F)),
    StableHlo.binary main_v5 main_v7 main_v8 (addf : (⟨S16x20000x32, .f32⟩ : BufTy).Contents (Elt F) → (⟨S16x20000x32, .f32⟩ : BufTy).Contents (Elt F) → (⟨S16x20000x32, .f32⟩ : BufTy).Contents (Elt F)),
    StableHlo.TRef.nullary main_call1.cst (constant S_ .f32 0x00000000#32),
    StableHlo.TRef.unary main_call1.cst main_call1.v0 (broadcastInDim S16x20000x32 ![] bcast_S_S16x20000x32),
    StableHlo.TRef.binary (.of main_v8) main_call1.v0 main_call1.v1 (cmpf .oge),
    StableHlo.TRef.nullary main_call1.cst_0 (constant S_ .f32 0x3C23D70A#32),
    StableHlo.TRef.unary main_call1.cst_0 main_call1.v2 (broadcastInDim S16x20000x32 ![] bcast_S_S16x20000x32),
    StableHlo.TRef.binary main_call1.v2 (.of main_v8) main_call1.v3 mulf,
    StableHlo.TRef.ternary main_call1.v1 (.of main_v8) main_call1.v3 main_call1.call0.v0 select ]

end Cert.ReferenceIdeal.Seg

end
-- ==== Proof.RSeg2.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Seg

open Idealize.ShloMosaic Idealize.ShloMosaic.TcCoe Idealize.ShloMosaic.StableHlo Idealize.SL.Sem
open Cert.ReferenceIdeal
open Cert.ReferenceIdeal.Facts₀ Cert.ReferenceIdeal.Facts

variable {F : FTy → Type} [FloatOps F] [Cert.ReferenceIdeal.Facts]

/-- @main's statements %10 … %38 as one straight line of operations, each called function's operations written out at its call over that call's buffers. -/
abbrev seg2 : List (HloOp τ sig (Elt F)) :=
  [ StableHlo.unary main_arg1 main_v10 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v10 main_v11 rfl shapeCasts_S1x160000_S160000,
    StableHlo.nullary main_c (constantI S_ 32 0#32),
    StableHlo.unary main_c main_v12 (broadcastInDim S160000 ![] bcast_S_S160000 : (⟨S_, .i32⟩ : BufTy).Contents (Elt F) → (⟨S160000, .i32⟩ : BufTy).Contents (Elt F)),
    StableHlo.binary main_v11 main_v12 main_v13 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 20000#32),
    StableHlo.unary main_c_0 main_v14 (broadcastInDim S160000 ![] bcast_S_S160000 : (⟨S_, .i32⟩ : BufTy).Contents (Elt F) → (⟨S160000, .i32⟩ : BufTy).Contents (Elt F)),
    StableHlo.binary main_v11 main_v14 main_v15 (addi : (⟨S160000, .i32⟩ : BufTy).Contents (Elt F) → (⟨S160000, .i32⟩ : BufTy).Contents (Elt F) → (⟨S160000, .i32⟩ : BufTy).Contents (Elt F)),
    StableHlo.ternary main_v13 main_v15 main_v11 main_v16 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v16 main_v17 (broadcastInDim S160000x1 ![0] bcast_S160000_S160000x1_0 : (⟨S160000, .i32⟩ : BufTy).Contents (Elt F) → (⟨S160000x1, .i32⟩ : BufTy).Contents (Elt F)),
    StableHlo.binary main_v9 main_v17 main_v18 ((fun x i => Host.gather gather_S16x20000x32_S160000x1_S16x160000x32_02_1_n_n_1_1_16132 x i) : (⟨S16x20000x32, .f32⟩ : BufTy).Contents (Elt F) → (⟨S160000x1, .i32⟩ : BufTy).Contents (Elt F) → (⟨S16x160000x32, .f32⟩ : BufTy).Contents (Elt F)),
    StableHlo.unary main_arg1 main_v19 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v19 main_v20 rfl shapeCasts_S1x160000_S160000,
    StableHlo.nullary main_c_1 (constantI S_ 32 0#32),
    StableHlo.unary main_c_1 main_v21 (broadcastInDim S160000 ![] bcast_S_S160000 : (⟨S_, .i32⟩ : BufTy).Contents (Elt F) → (⟨S160000, .i32⟩ : BufTy).Contents (Elt F)),
    StableHlo.binary main_v20 main_v21 main_v22 (cmpi .slt : (⟨S160000, .i32⟩ : BufTy).Contents (Elt F) → (⟨S160000, .i32⟩ : BufTy).Contents (Elt F) → (⟨S160000, .i1⟩ : BufTy).Contents (Elt F)),
    StableHlo.nullary main_c_2 (constantI S_ 32 20000#32),
    StableHlo.unary main_c_2 main_v23 (broadcastInDim S160000 ![] bcast_S_S160000 : (⟨S_, .i32⟩ : BufTy).Contents (Elt F) → (⟨S160000, .i32⟩ : BufTy).Contents (Elt F)),
    StableHlo.binary main_v20 main_v23 main_v24 (addi : (⟨S160000, .i32⟩ : BufTy).Contents (Elt F) → (⟨S160000, .i32⟩ : BufTy).Contents (Elt F) → (⟨S160000, .i32⟩ : BufTy).Contents (Elt F)),
    StableHlo.ternary main_v22 main_v24 main_v20 main_v25 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v25 main_v26 (broadcastInDim S160000x1 ![0] bcast_S160000_S160000x1_0 : (⟨S160000, .i32⟩ : BufTy).Contents (Elt F) → (⟨S160000x1, .i32⟩ : BufTy).Contents (Elt F)),
    StableHlo.binary main_v9 main_v26 main_v27 ((fun x i => Host.gather gather_S16x20000x32_S160000x1_S16x160000x32_02_1_n_n_1_1_16132 x i) : (⟨S16x20000x32, .f32⟩ : BufTy).Contents (Elt F) → (⟨S160000x1, .i32⟩ : BufTy).Contents (Elt F) → (⟨S16x160000x32, .f32⟩ : BufTy).Contents (Elt F)),
    StableHlo.binary main_v18 main_v27 main_v28 ((fun a b => concatenate S16x160000x64 2 [⟨S16x160000x32, a⟩, ⟨S16x160000x32, b⟩] concatenates_S16x160000x32_S16x160000x32_S16x160000x64_d2) : (⟨S16x160000x32, .f32⟩ : BufTy).Contents (Elt F) → (⟨S16x160000x32, .f32⟩ : BufTy).Contents (Elt F) → (⟨S16x160000x64, .f32⟩ : BufTy).Contents (Elt F)),
    StableHlo.binary main_v28 main_arg6 main_v29 ((fun l r => Host.dotGeneral dot_S16x160000x64_S32x64_S16x160000x32_2_1_01_0_n_n none l r) : (⟨S16x160000x64, .f32⟩ : BufTy).Contents (Elt F) → (⟨S32x64, .f32⟩ : BufTy).Contents (Elt F) → (⟨S16x160000x32, .f32⟩ : BufTy).Contents (Elt F)),
    StableHlo.unary main_arg7 main_v30 (broadcastInDim S1x1x32 ![2] bcast_S32_S1x1x32_2 : (⟨S32, .f32⟩ : BufTy).Contents (Elt F) → (⟨S1x1x32, .f32⟩ : BufTy).Contents (Elt F)),
    StableHlo.unary main_v30 main_v31 (broadcastInDim S16x160000x32 ![0, 1, 2] bcast_S1x1x32_S16x160000x32_0_1_2 : (⟨S1x1x32, .f32⟩ : BufTy).Contents (Elt F) → (⟨S16x160000x32, .f32⟩ : BufTy).Contents (Elt F)),
    StableHlo.binary main_v29 main_v31 main_v32 (addf : (⟨S16x160000x32, .f32⟩ : BufTy).Contents (Elt F) → (⟨S16x160000x32, .f32⟩ : BufTy).Contents (Elt F) → (⟨S16x160000x32, .f32⟩ : BufTy).Contents (Elt F)),
    StableHlo.TRef.nullary main_call2.cst (constant S_ .f32 0x00000000#32),
    StableHlo.TRef.unary main_call2.cst main_call2.v0 (broadcastInDim S16x160000x32 ![] bcast_S_S16x160000x32),
    StableHlo.TRef.binary (.of main_v32) main_call2.v0 main_call2.v1 maximumf,
    StableHlo.binary main_v33 main_arg8 main_v34 ((fun l r => Host.dotGeneral dot_S16x160000x32_S32x32_S16x160000x32_2_1_01_0_n_n none l r) : (⟨S16x160000x32, .f32⟩ : BufTy).Contents (Elt F) → (⟨S32x32, .f32⟩ : BufTy).Contents (Elt F) → (⟨S16x160000x32, .f32⟩ : BufTy).Contents (Elt F)),
    StableHlo.unary main_arg9 main_v35 (broadcastInDim S1x1x32 ![2] bcast_S32_S1x1x32_2 : (⟨S32, .f32⟩ : BufTy).Contents (Elt F) → (⟨S1x1x32, .f32⟩ : BufTy).Contents (Elt F)),
    StableHlo.unary main_v35 main_v36 (broadcastInDim S16x160000x32 ![0, 1, 2] bcast_S1x1x32_S16x160000x32_0_1_2 : (⟨S1x1x32, .f32⟩ : BufTy).Contents (Elt F) → (⟨S16x160000x32, .f32⟩ : BufTy).Contents (Elt F)),
    StableHlo.binary main_v34 main_v36 main_v37 (addf : (⟨S16x160000x32, .f32⟩ : BufTy).Contents (Elt F) → (⟨S16x160000x32, .f32⟩ : BufTy).Contents (Elt F) → (⟨S16x160000x32, .f32⟩ : BufTy).Contents (Elt F)),
    StableHlo.TRef.nullary main_call3.cst (constant S_ .f32 0x00000000#32),
    StableHlo.TRef.unary main_call3.cst main_call3.v0 (broadcastInDim S16x160000x32 ![] bcast_S_S16x160000x32),
    StableHlo.TRef.binary (.of main_v37) main_call3.v0 main_call3.v1 (cmpf .oge),
    StableHlo.TRef.nullary main_call3.cst_0 (constant S_ .f32 0x3C23D70A#32),
    StableHlo.TRef.unary main_call3.cst_0 main_call3.v2 (broadcastInDim S16x160000x32 ![] bcast_S_S16x160000x32),
    StableHlo.TRef.binary main_call3.v2 (.of main_v37) main_call3.v3 mulf,
    StableHlo.TRef.ternary main_call3.v1 (.of main_v37) main_call3.v3 main_call3.call0.v0 select ]

end Cert.ReferenceIdeal.Seg

end
-- ==== Proof.RSeg3.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Seg

open Idealize.ShloMosaic Idealize.ShloMosaic.TcCoe Idealize.ShloMosaic.StableHlo Idealize.SL.Sem
open Cert.ReferenceIdeal
open Cert.ReferenceIdeal.Facts₀ Cert.ReferenceIdeal.Facts

variable {F : FTy → Type} [FloatOps F] [Cert.ReferenceIdeal.Facts]

/-- @main's statements %39 … %52 as one straight line of operations, each called function's operations written out at its call over that call's buffers. -/
abbrev seg3 : List (HloOp τ sig (Elt F)) :=
  [ StableHlo.binary main_v38 main_v38 main_v39 ((fun a b => concatenate S16x320000x32 1 [⟨S16x160000x32, a⟩, ⟨S16x160000x32, b⟩] concatenates_S16x160000x32_S16x160000x32_S16x320000x32_d1) : (⟨S16x160000x32, .f32⟩ : BufTy).Contents (Elt F) → (⟨S16x160000x32, .f32⟩ : BufTy).Contents (Elt F) → (⟨S16x320000x32, .f32⟩ : BufTy).Contents (Elt F)),
    StableHlo.unary main_arg1 main_v40 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v40 main_v41 rfl shapeCasts_S1x160000_S160000,
    StableHlo.unary main_arg1 main_v42 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v42 main_v43 rfl shapeCasts_S1x160000_S160000,
    StableHlo.binary main_v41 main_v43 main_v44 ((fun a b => concatenate S320000 0 [⟨S160000, a⟩, ⟨S160000, b⟩] concatenates_S160000_S160000_S320000_d0) : (⟨S160000, .i32⟩ : BufTy).Contents (Elt F) → (⟨S160000, .i32⟩ : BufTy).Contents (Elt F) → (⟨S320000, .i32⟩ : BufTy).Contents (Elt F)),
    StableHlo.unary main_v39 main_v45 ((transpose S320000x16x32 [1, 0, 2] · transposes_S16x320000x32_S320000x16x32_1_0_2) : (⟨S16x320000x32, .f32⟩ : BufTy).Contents (Elt F) → (⟨S320000x16x32, .f32⟩ : BufTy).Contents (Elt F)),
    StableHlo.nullary main_cst (constant S_ .f32 0x00000000#32),
    StableHlo.unary main_cst main_v46 (broadcastInDim S20000x16x32 ![] bcast_S_S20000x16x32 : (⟨S_, .f32⟩ : BufTy).Contents (Elt F) → (⟨S20000x16x32, .f32⟩ : BufTy).Contents (Elt F)),
    StableHlo.unary main_v44 main_v47 (broadcastInDim S320000x1 ![0] bcast_S320000_S320000x1_0 : (⟨S320000, .i32⟩ : BufTy).Contents (Elt F) → (⟨S320000x1, .i32⟩ : BufTy).Contents (Elt F)),
    StableHlo.ternary main_v46 main_v47 main_v45 main_v48 ((fun x i u => Host.scatterAdd scatter_S20000x16x32_S320000x1_S320000x16x32_12_0_0_1 x i u) : (⟨S20000x16x32, .f32⟩ : BufTy).Contents (Elt F) → (⟨S320000x1, .i32⟩ : BufTy).Contents (Elt F) → (⟨S320000x16x32, .f32⟩ : BufTy).Contents (Elt F) → (⟨S20000x16x32, .f32⟩ : BufTy).Contents (Elt F)),
    StableHlo.nullary main_cst_3 (constant S_ .f32 0x3F800000#32),
    StableHlo.unary main_cst_3 main_v49 (broadcastInDim S320000 ![] bcast_S_S320000 : (⟨S_, .f32⟩ : BufTy).Contents (Elt F) → (⟨S320000, .f32⟩ : BufTy).Contents (Elt F)),
    StableHlo.nullary main_cst_4 (constant S_ .f32 0x00000000#32),
    StableHlo.unary main_cst_4 main_v50 (broadcastInDim S20000 ![] bcast_S_S20000 : (⟨S_, .f32⟩ : BufTy).Contents (Elt F) → (⟨S20000, .f32⟩ : BufTy).Contents (Elt F)),
    StableHlo.unary main_v44 main_v51 (broadcastInDim S320000x1 ![0] bcast_S320000_S320000x1_0 : (⟨S320000, .i32⟩ : BufTy).Contents (Elt F) → (⟨S320000x1, .i32⟩ : BufTy).Contents (Elt F)),
    StableHlo.ternary main_v50 main_v51 main_v49 main_v52 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)) ]

end Cert.ReferenceIdeal.Seg

end
-- ==== Proof.RSeg4.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Seg

open Idealize.ShloMosaic Idealize.ShloMosaic.TcCoe Idealize.ShloMosaic.StableHlo Idealize.SL.Sem
open Cert.ReferenceIdeal
open Cert.ReferenceIdeal.Facts₀ Cert.ReferenceIdeal.Facts

variable {F : FTy → Type} [FloatOps F] [Cert.ReferenceIdeal.Facts]

/-- @main's statements %53 … %62 as one straight line of operations, each called function's operations written out at its call over that call's buffers. -/
abbrev seg4 : List (HloOp τ sig (Elt F)) :=
  [ StableHlo.unary main_v52 main_v53 (broadcastInDim S20000x1x1 ![0] bcast_S20000_S20000x1x1_0 : (⟨S20000, .f32⟩ : BufTy).Contents (Elt F) → (⟨S20000x1x1, .f32⟩ : BufTy).Contents (Elt F)),
    StableHlo.nullary main_cst_5 (constant S_ .f32 0x00000000#32),
    StableHlo.unary main_cst_5 main_v54 (broadcastInDim S20000x1x1 ![] bcast_S_S20000x1x1 : (⟨S_, .f32⟩ : BufTy).Contents (Elt F) → (⟨S20000x1x1, .f32⟩ : BufTy).Contents (Elt F)),
    StableHlo.binary main_v53 main_v54 main_v55 (cmpf .ogt : (⟨S20000x1x1, .f32⟩ : BufTy).Contents (Elt F) → (⟨S20000x1x1, .f32⟩ : BufTy).Contents (Elt F) → (⟨S20000x1x1, .i1⟩ : BufTy).Contents (Elt F)),
    StableHlo.nullary main_cst_6 (constant S_ .f32 0x3F800000#32),
    StableHlo.unary main_cst_6 main_v56 (broadcastInDim S20000 ![] bcast_S_S20000 : (⟨S_, .f32⟩ : BufTy).Contents (Elt F) → (⟨S20000, .f32⟩ : BufTy).Contents (Elt F)),
    StableHlo.binary main_v52 main_v56 main_v57 (maximumf : (⟨S20000, .f32⟩ : BufTy).Contents (Elt F) → (⟨S20000, .f32⟩ : BufTy).Contents (Elt F) → (⟨S20000, .f32⟩ : BufTy).Contents (Elt F)),
    StableHlo.unary main_v57 main_v58 (broadcastInDim S20000x1x1 ![0] bcast_S20000_S20000x1x1_0 : (⟨S20000, .f32⟩ : BufTy).Contents (Elt F) → (⟨S20000x1x1, .f32⟩ : BufTy).Contents (Elt F)),
    StableHlo.unary main_v58 main_v59 (broadcastInDim S20000x16x32 ![0, 1, 2] bcast_S20000x1x1_S20000x16x32_0_1_2 : (⟨S20000x1x1, .f32⟩ : BufTy).Contents (Elt F) → (⟨S20000x16x32, .f32⟩ : BufTy).Contents (Elt F)),
    StableHlo.binary main_v48 main_v59 main_v60 (Host.divf : (⟨S20000x16x32, .f32⟩ : BufTy).Contents (Elt F) → (⟨S20000x16x32, .f32⟩ : BufTy).Contents (Elt F) → (⟨S20000x16x32, .f32⟩ : BufTy).Contents (Elt F)),
    StableHlo.nullary main_cst_7 (constant S_ .f32 0x00000000#32),
    StableHlo.TRef.unary (.of main_cst_7) main_call4.v0 id,
    StableHlo.TRef.unary (.of main_v55 : StableHlo.TRef sig ⟨S20000x1x1, .i1⟩) main_call4.v1 (broadcastInDim S20000x16x32 ![0, 1, 2] bcast_S20000x1x1_S20000x16x32_0_1_2),
    StableHlo.TRef.unary main_call4.v0 main_call4.v2 (broadcastInDim S20000x16x32 ![] bcast_S_S20000x16x32),
    StableHlo.TRef.ternary main_call4.v1 (.of main_v60) main_call4.v2 main_call4.v3 select,
    StableHlo.unary main_v61 main_v62 ((transpose S16x20000x32 [1, 0, 2] · transposes_S20000x16x32_S16x20000x32_1_0_2) : (⟨S20000x16x32, .f32⟩ : BufTy).Contents (Elt F) → (⟨S16x20000x32, .f32⟩ : BufTy).Contents (Elt F)) ]

end Cert.ReferenceIdeal.Seg

end
-- ==== Proof.RSeg5.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Seg

open Idealize.ShloMosaic Idealize.ShloMosaic.TcCoe Idealize.ShloMosaic.StableHlo Idealize.SL.Sem
open Cert.ReferenceIdeal

variable {F : FTy → Type} [FloatOps F] [Cert.ReferenceIdeal.Facts]
open Cert.ReferenceIdeal.Facts₀ Cert.ReferenceIdeal.Facts

/-- @main's statements %63 … %73 as one straight line of operations, each called function's operations written out at its call over that call's buffers. -/
abbrev seg5 : List (HloOp τ sig (Elt F)) :=
  [ StableHlo.binary main_v62 main_arg10 main_v63 ((fun l r => Host.dotGeneral dot_S16x20000x32_S32x32_S16x20000x32_2_1_01_0_n_n none l r) : (⟨S16x20000x32, .f32⟩ : BufTy).Contents (Elt F) → (⟨S32x32, .f32⟩ : BufTy).Contents (Elt F) → (⟨S16x20000x32, .f32⟩ : BufTy).Contents (Elt F)),
    StableHlo.unary main_arg11 main_v64 (broadcastInDim S1x1x32 ![2] bcast_S32_S1x1x32_2 : (⟨S32, .f32⟩ : BufTy).Contents (Elt F) → (⟨S1x1x32, .f32⟩ : BufTy).Contents (Elt F)),
    StableHlo.unary main_v64 main_v65 (broadcastInDim S16x20000x32 ![0, 1, 2] bcast_S1x1x32_S16x20000x32_0_1_2 : (⟨S1x1x32, .f32⟩ : BufTy).Contents (Elt F) → (⟨S16x20000x32, .f32⟩ : BufTy).Contents (Elt F)),
    StableHlo.binary main_v63 main_v65 main_v66 (addf : (⟨S16x20000x32, .f32⟩ : BufTy).Contents (Elt F) → (⟨S16x20000x32, .f32⟩ : BufTy).Contents (Elt F) → (⟨S16x20000x32, .f32⟩ : BufTy).Contents (Elt F)),
    StableHlo.TRef.nullary main_call5.cst (constant S_ .f32 0x00000000#32),
    StableHlo.TRef.unary main_call5.cst main_call5.v0 (broadcastInDim S16x20000x32 ![] bcast_S_S16x20000x32),
    StableHlo.TRef.binary (.of main_v66) main_call5.v0 main_call5.v1 maximumf,
    StableHlo.binary main_v67 main_arg12 main_v68 ((fun l r => Host.dotGeneral dot_S16x20000x32_S1x32_S16x20000x1_2_1_01_0_n_n none l r) : (⟨S16x20000x32, .f32⟩ : BufTy).Contents (Elt F) → (⟨S1x32, .f32⟩ : BufTy).Contents (Elt F) → (⟨S16x20000x1, .f32⟩ : BufTy).Contents (Elt F)),
    StableHlo.unary main_arg13 main_v69 (broadcastInDim S1x1x1 ![2] bcast_S1_S1x1x1_2 : (⟨S1, .f32⟩ : BufTy).Contents (Elt F) → (⟨S1x1x1, .f32⟩ : BufTy).Contents (Elt F)),
    StableHlo.unary main_v69 main_v70 (broadcastInDim S16x20000x1 ![0, 1, 2] bcast_S1x1x1_S16x20000x1_0_1_2 : (⟨S1x1x1, .f32⟩ : BufTy).Contents (Elt F) → (⟨S16x20000x1, .f32⟩ : BufTy).Contents (Elt F)),
    StableHlo.binary main_v68 main_v70 main_v71 (addf : (⟨S16x20000x1, .f32⟩ : BufTy).Contents (Elt F) → (⟨S16x20000x1, .f32⟩ : BufTy).Contents (Elt F) → (⟨S16x20000x1, .f32⟩ : BufTy).Contents (Elt F)),
    StableHlo.TRef.nullary main_call6.cst (constant S_ .f32 0x00000000#32),
    StableHlo.TRef.unary main_call6.cst main_call6.v0 (broadcastInDim S16x20000x1 ![] bcast_S_S16x20000x1),
    StableHlo.TRef.binary (.of main_v71) main_call6.v0 main_call6.v1 (cmpf .oge),
    StableHlo.TRef.nullary main_call6.cst_0 (constant S_ .f32 0x3C23D70A#32),
    StableHlo.TRef.unary main_call6.cst_0 main_call6.v2 (broadcastInDim S16x20000x1 ![] bcast_S_S16x20000x1),
    StableHlo.TRef.binary main_call6.v2 (.of main_v71) main_call6.v3 mulf,
    StableHlo.TRef.ternary main_call6.v1 (.of main_v71) main_call6.v3 main_call6.call0.v0 select,
    StableHlo.reshape main_v72 main_v73 rfl shapeCasts_S16x20000x1_S16x20000 ]

end Cert.ReferenceIdeal.Seg

end
-- ==== Proof.RSeg6.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Seg

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F] [Cert.ReferenceIdeal.Facts]

/-- @main's statements %74 … %83 as one straight line of operations, each called function's operations written out at its call over that call's buffers. -/
abbrev seg6 : List (HloOp τ sig (Elt F)) :=
  [
    -- %74 [16,1]: the product of %73 [16,20000] with the weight row, argument 14 [1,20000], the node axis of each summed out
    StableHlo.binary main_v73 main_arg14 main_v74 ((fun l r => Host.dotGeneral dot_S16x20000_S1x20000_S16x1_1_1_0_0_n_n none l r) : (⟨S16x20000, .f32⟩ : BufTy).Contents (Elt F) → (⟨S1x20000, .f32⟩ : BufTy).Contents (Elt F) → (⟨S16x1, .f32⟩ : BufTy).Contents (Elt F)),
    -- %75 [1,1]: the bias, argument 15 [1], laid along the last axis
    StableHlo.unary main_arg15 main_v75 (broadcastInDim S1x1 ![1] bcast_S1_S1x1_1 : (⟨S1, .f32⟩ : BufTy).Contents (Elt F) → (⟨S1x1, .f32⟩ : BufTy).Contents (Elt F)),
    -- %76 [16,1]: %75 repeated down the graph axis
    StableHlo.unary main_v75 main_v76 (broadcastInDim S16x1 ![0, 1] bcast_S1x1_S16x1_0_1 : (⟨S1x1, .f32⟩ : BufTy).Contents (Elt F) → (⟨S16x1, .f32⟩ : BufTy).Contents (Elt F)),
    -- %77 = %74 + %76
    StableHlo.binary main_v74 main_v76 main_v77 (addf : (⟨S16x1, .f32⟩ : BufTy).Contents (Elt F) → (⟨S16x1, .f32⟩ : BufTy).Contents (Elt F) → (⟨S16x1, .f32⟩ : BufTy).Contents (Elt F)),
    -- %78 = −%77
    StableHlo.unary main_v77 main_v78 (Host.negf : (⟨S16x1, .f32⟩ : BufTy).Contents (Elt F) → (⟨S16x1, .f32⟩ : BufTy).Contents (Elt F)),
    -- %79 = exp %78
    StableHlo.unary main_v78 main_v79 (Host.exp : (⟨S16x1, .f32⟩ : BufTy).Contents (Elt F) → (⟨S16x1, .f32⟩ : BufTy).Contents (Elt F)),
    -- the scalar 1
    StableHlo.nullary main_cst_8 (constant S_ .f32 0x3F800000#32),
    -- %80 [16,1]: the scalar 1 everywhere
    StableHlo.unary main_cst_8 main_v80 (broadcastInDim S16x1 ![] bcast_S_S16x1 : (⟨S_, .f32⟩ : BufTy).Contents (Elt F) → (⟨S16x1, .f32⟩ : BufTy).Contents (Elt F)),
    -- %81 = %80 + %79
    StableHlo.binary main_v80 main_v79 main_v81 (addf : (⟨S16x1, .f32⟩ : BufTy).Contents (Elt F) → (⟨S16x1, .f32⟩ : BufTy).Contents (Elt F) → (⟨S16x1, .f32⟩ : BufTy).Contents (Elt F)),
    -- the scalar 1 again
    StableHlo.nullary main_cst_9 (constant S_ .f32 0x3F800000#32),
    -- %82 [16,1]: the scalar 1 everywhere
    StableHlo.unary main_cst_9 main_v82 (broadcastInDim S16x1 ![] bcast_S_S16x1 : (⟨S_, .f32⟩ : BufTy).Contents (Elt F) → (⟨S16x1, .f32⟩ : BufTy).Contents (Elt F)),
    -- %83 = %82 / %81
    StableHlo.binary main_v82 main_v81 main_v83 (Host.divf : (⟨S16x1, .f32⟩ : BufTy).Contents (Elt F) → (⟨S16x1, .f32⟩ : BufTy).Contents (Elt F) → (⟨S16x1, .f32⟩ : BufTy).Contents (Elt F))
  ]

end Cert.ReferenceIdeal.Seg

end
-- ==== Proof.RRun.lean ====
/-
  The reference program's run. @main of the reference is a straight line of StableHLO operations once each
  call of a module-local function (@relu, @leaky_relu and the @_where it calls, their copies at the other
  shapes, @_where_3) is replaced by the callee's operations over that call's buffers, which is what a call
  means. The six segments of that line are the lists `Seg.seg1` … `Seg.seg6`; their concatenation `ops` is the
  whole of @main, so every weakly fair execution of @main on the TensorCores terminates and leaves each buffer
  at the fold of `ops` over the launch contents (`StableHlo.after`).
-/
import proofs.«401352_j13305808683173_1_alg».proof.ReferenceIdeal
import proofs.«401352_j13305808683173_1_alg».proof.Proof.RSeg1
import proofs.«401352_j13305808683173_1_alg».proof.Proof.RSeg2
import proofs.«401352_j13305808683173_1_alg».proof.Proof.RSeg3
import proofs.«401352_j13305808683173_1_alg».proof.Proof.RSeg4
import proofs.«401352_j13305808683173_1_alg».proof.Proof.RSeg5
import proofs.«401352_j13305808683173_1_alg».proof.Proof.RSeg6
import Idealize.ShloMosaic.Lib.StableHlo.Run
import Mathlib.Data.List.Basic

noncomputable section

namespace Cert.ReferenceIdeal.RefRun

open Idealize.ShloMosaic Idealize.ShloMosaic.TcCoe Idealize.SL.Sem Idealize.ShloMosaic.StableHlo
open Cert.ReferenceIdeal

variable {F : FTy → Type} [FloatOps F] [Cert.ReferenceIdeal.Facts]

/-- @main's operations in program order, each call replaced by its callee's operations: the six segments one
    after the other. -/
abbrev ops : List (HloOp τ sig (Elt F)) :=
  Seg.seg1 ++ (Seg.seg2 ++ (Seg.seg3 ++ (Seg.seg4 ++ (Seg.seg5 ++ Seg.seg6))))

set_option maxRecDepth 8192 in
/-- The first window of @main (statements %0 … %52) is the first three segments run in order. With the called
    functions' definitions unfolded at their calls (@relu, @leaky_relu and its @_where, and their copies at the
    edge shape) and sequencing reassociated, both sides are one chain of operation steps; they differ only in
    the window ending on its last step where the line of a list ends on a return, which is the same program. -/
theorem part0_eq (c : Dev nD) :
    main_part0 (F := F) c = seq (Seg.seg1 ++ (Seg.seg2 ++ Seg.seg3)) := by
  simp only [main_part0, fn_relu.body, fn_leaky_relu.body, fn_where.body, fn_relu_0.body, fn_leaky_relu_1.body,
    fn_where_2.body, Seg.seg1, Seg.seg2, Seg.seg3, List.cons_append, List.nil_append, seq, bind_assoc, pure_bind]
  rfl

set_option maxRecDepth 8192 in
/-- The second window of @main (statements %53 … %83) is the last three segments run in order: @_where_3, @relu
    and @leaky_relu_4 with its @_where_5 unfolded at their calls and sequencing reassociated, the two sides
    are the same chain of operation steps. -/
theorem part1_eq (c : Dev nD) :
    main_part1 (F := F) c = seq (Seg.seg4 ++ (Seg.seg5 ++ Seg.seg6)) := by
  simp only [main_part1, fn_where_3.body, fn_relu.body, fn_leaky_relu_4.body, fn_where_5.body,
    Seg.seg4, Seg.seg5, Seg.seg6, List.cons_append, List.nil_append, seq, bind_assoc, pure_bind]

/-- @main is its two windows in order, hence the whole line: two lines run one after the other are their
    concatenation run as one (`seq_append`), and concatenation is associative. -/
theorem main_eq (c : Dev nD) : main (F := F) c = seq ops := by
  have h : (ops : List (HloOp τ sig (Elt F)))
      = (Seg.seg1 ++ (Seg.seg2 ++ Seg.seg3)) ++ (Seg.seg4 ++ (Seg.seg5 ++ Seg.seg6)) := by
    simp only [ops, List.append_assoc]
  rw [h, seq_append]
  exact congrArg₂ (fun a b => a >>= fun _ => b) (part0_eq c) (part1_eq c)

/-- The signature scopes no TensorCore buffer and no semaphore: every buffer is a tensor value's, live for the
    whole of @main. -/
theorem scopedRefs_eq : (Finset.univ.filter fun b : Ref sig .tc => b.isScoped) = ∅ := by decide
theorem scopedSems_eq : (Finset.univ.filter fun sm : SemLoc sig => sm.isScoped .tc) = ∅ := by decide

/-- Every operation of a segment reads and writes TensorCore buffers only: each is one of the builders over
    TensorCore references, whose buffers are its operands' and its result's. -/
theorem seg1_sub : (Seg.seg1 : List (HloOp τ sig (Elt F))).Forall fun op => op.bufs ⊆ tcRefs τ sig := by
  simp only [Seg.seg1, List.Forall, nullary_bufs_sub, unary_bufs_sub, binary_bufs_sub, ternary_bufs_sub,
    reshape_bufs_sub, and_self]
theorem seg2_sub : (Seg.seg2 : List (HloOp τ sig (Elt F))).Forall fun op => op.bufs ⊆ tcRefs τ sig := by
  simp only [Seg.seg2, List.Forall, nullary_bufs_sub, unary_bufs_sub, binary_bufs_sub, ternary_bufs_sub,
    reshape_bufs_sub, and_self]
theorem seg3_sub : (Seg.seg3 : List (HloOp τ sig (Elt F))).Forall fun op => op.bufs ⊆ tcRefs τ sig := by
  simp only [Seg.seg3, List.Forall, nullary_bufs_sub, unary_bufs_sub, binary_bufs_sub, ternary_bufs_sub,
    reshape_bufs_sub, and_self]
theorem seg4_sub : (Seg.seg4 : List (HloOp τ sig (Elt F))).Forall fun op => op.bufs ⊆ tcRefs τ sig := by
  simp only [Seg.seg4, List.Forall, nullary_bufs_sub, unary_bufs_sub, binary_bufs_sub, ternary_bufs_sub,
    reshape_bufs_sub, and_self]
theorem seg5_sub : (Seg.seg5 : List (HloOp τ sig (Elt F))).Forall fun op => op.bufs ⊆ tcRefs τ sig := by
  simp only [Seg.seg5, List.Forall, nullary_bufs_sub, unary_bufs_sub, binary_bufs_sub, ternary_bufs_sub,
    reshape_bufs_sub, and_self]
theorem seg6_sub : (Seg.seg6 : List (HloOp τ sig (Elt F))).Forall fun op => op.bufs ⊆ tcRefs τ sig := by
  simp only [Seg.seg6, List.Forall, nullary_bufs_sub, unary_bufs_sub, binary_bufs_sub, ternary_bufs_sub,
    reshape_bufs_sub, and_self]

/-- So does every operation of the whole line: a property of all members of a concatenation is that property of
    all members of each part. -/
theorem ops_sub : (ops : List (HloOp τ sig (Elt F))).Forall fun op => op.bufs ⊆ tcRefs τ sig :=
  List.forall_append.mpr ⟨seg1_sub, List.forall_append.mpr ⟨seg2_sub, List.forall_append.mpr ⟨seg3_sub,
    List.forall_append.mpr ⟨seg4_sub, List.forall_append.mpr ⟨seg5_sub, seg6_sub⟩⟩⟩⟩⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.RStage1.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws
import proofs.«401352_j13305808683173_1_alg».proof.Proof.RSeg1

set_option maxRecDepth 16384

noncomputable section

open scoped BigOperators

namespace Cert.ReferenceIdeal.Stage1

open Idealize.ShloMosaic Idealize.ShloMosaic.TcCoe Idealize.ShloMosaic.ValueIdx Idealize.SL.Sem
open Cert.ReferenceIdeal

variable [Cert.ReferenceIdeal.Facts]
open Cert.ReferenceIdeal.Facts₀ Cert.ReferenceIdeal.Facts

/-! ## The two products and the bias broadcasts read at an index -/

/-- A [B, N, K] array times an [O, K] matrix, contracted over the last axis of each, read at (b, n, o): the sum over
    the contracted coordinate of the products of the entries. At the extended reals, where the host's product is the
    plain sum over the contraction index; that index, a one-axis multi-index, is re-indexed by its one coordinate. -/
theorem dotRows_apply {B N K O : Nat} {φ₁ φ₂ : FTy}
    (w : DotDims.WF ⟨3, ![B, N, K]⟩ ⟨2, ![O, K]⟩ ⟨3, ![B, N, O]⟩ [2] [1] [0, 1] [0] [] [])
    (prec : Option ContractPrecision) (A : FVec Ideal ⟨3, ![B, N, K]⟩ φ₁) (W : FVec Ideal ⟨2, ![O, K]⟩ φ₂)
    (b : Fin B) (n : Fin N) (o : Fin O) :
    Host.dotGeneral (⟨[2], [1], [0, 1], [0], [], [], w⟩ : DotDims _ _ _) prec A W (ix3 b n o)
      = ∑ k : Fin K, A (ix3 b n k) * W (ix2 o k) := by
  show FloatOps.dotGeneral _ prec _ A W (ix3 b n o) = _
  rw [Ideal.dotGeneral_apply,
    ← Equiv.sum_comp (contrEquiv1 (⟨[2], [1], [0, 1], [0], [], [], w⟩ : DotDims _ _ _) K rfl rfl).symm]
  refine Finset.sum_congr rfl fun k _ => ?_
  have ck := contrEquiv1_symm_val
    (⟨[2], [1], [0, 1], [0], [], [], w⟩ : DotDims ⟨3, ![B, N, K]⟩ ⟨2, ![O, K]⟩ ⟨3, ![B, N, O]⟩) K rfl rfl k
  have hl : (⟨[2], [1], [0, 1], [0], [], [], w⟩ : DotDims ⟨3, ![B, N, K]⟩ ⟨2, ![O, K]⟩ ⟨3, ![B, N, O]⟩).lhsIdx (ix3 b n o)
      ((contrEquiv1 _ K rfl rfl).symm k) = ix3 b n k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
  have hr : (⟨[2], [1], [0, 1], [0], [], [], w⟩ : DotDims ⟨3, ![B, N, K]⟩ ⟨2, ![O, K]⟩ ⟨3, ![B, N, O]⟩).rhsIdx (ix3 b n o)
      ((contrEquiv1 _ K rfl rfl).symm k) = ix2 o k := by
    funext ax; apply Fin.ext
    match ax with
    | ⟨0, _⟩ => simp [DotDims.rhsIdx]; rfl
    | ⟨1, _⟩ => simp [DotDims.rhsIdx]; exact ck
  rw [hl, hr]

/-- The first layer's product at (b, n, c): Σ_i x(b, n, i) · W1(c, i). -/
theorem dot1_apply (A : FVec Ideal S16x20000x11 .f32) (W : FVec Ideal S32x11 .f32) (b : Fin 16) (n : Fin 20000) (c : Fin 32) :
    Host.dotGeneral dot_S16x20000x11_S32x11_S16x20000x32_2_1_01_0_n_n none A W (ix3 b n c)
      = ∑ i : Fin 11, A (ix3 b n i) * W (ix2 c i) :=
  dotRows_apply dot_S16x20000x11_S32x11_S16x20000x32_2_1_01_0_n_n_wf none A W b n c

/-- The second layer's product at (b, n, o): Σ_c r(b, n, c) · W2(o, c). -/
theorem dot2_apply (A : FVec Ideal S16x20000x32 .f32) (W : FVec Ideal S32x32 .f32) (b : Fin 16) (n : Fin 20000) (o : Fin 32) :
    Host.dotGeneral dot_S16x20000x32_S32x32_S16x20000x32_2_1_01_0_n_n none A W (ix3 b n o)
      = ∑ c : Fin 32, A (ix3 b n c) * W (ix2 o c) :=
  dotRows_apply dot_S16x20000x32_S32x32_S16x20000x32_2_1_01_0_n_n_wf none A W b n o

/-- A bias vector broadcast along the last axis, first to [1, 1, 32] and then to the whole array, reads at (b, n, o)
    its entry o. -/
theorem bias_apply (v : FVec Ideal S32 .f32) (b : Fin 16) (n : Fin 20000) (o : Fin 32) :
    broadcastInDim S16x20000x32 ![0, 1, 2] bcast_S1x1x32_S16x20000x32_0_1_2 (broadcastInDim S1x1x32 ![2] bcast_S32_S1x1x32_2 v)
        (ix3 b n o) = v (ix1 o) := by
  rw [broadcastInDim_apply _ _ _ _ (ix3 (0 : Fin 1) (0 : Fin 1) o) (fun a => by
        match a with
        | ⟨0, _⟩ => rfl
        | ⟨1, _⟩ => rfl
        | ⟨2, _⟩ => rfl),
    broadcastInDim_apply _ _ _ _ (ix1 o) (fun a => by
        match a with
        | ⟨0, _⟩ => rfl)]

/-! ## The composed term -/

/-- The zero word broadcast to the whole array, and the slope word likewise. -/
def zeroV : FVec Ideal S16x20000x32 .f32 :=
  broadcastInDim S16x20000x32 ![] bcast_S_S16x20000x32 (constant (F := Ideal) S_ .f32 0x00000000#32)
def slopeV : FVec Ideal S16x20000x32 .f32 :=
  broadcastInDim S16x20000x32 ![] bcast_S_S16x20000x32 (constant (F := Ideal) S_ .f32 0x3C23D70A#32)

/-- The first layer before and after its ReLU, and the second layer before its leaky ReLU, as arrays. -/
def lin1 (x : FVec Ideal S16x20000x11 .f32) (W1 : FVec Ideal S32x11 .f32) (b1 : FVec Ideal S32 .f32) : FVec Ideal S16x20000x32 .f32 :=
  addf (Host.dotGeneral dot_S16x20000x11_S32x11_S16x20000x32_2_1_01_0_n_n none x W1)
    (broadcastInDim S16x20000x32 ![0, 1, 2] bcast_S1x1x32_S16x20000x32_0_1_2 (broadcastInDim S1x1x32 ![2] bcast_S32_S1x1x32_2 b1))
def act1 (x : FVec Ideal S16x20000x11 .f32) (W1 : FVec Ideal S32x11 .f32) (b1 : FVec Ideal S32 .f32) : FVec Ideal S16x20000x32 .f32 :=
  maximumf (lin1 x W1 b1) zeroV
def lin2 (x : FVec Ideal S16x20000x11 .f32) (W1 : FVec Ideal S32x11 .f32) (b1 : FVec Ideal S32 .f32)
    (W2 : FVec Ideal S32x32 .f32) (b2 : FVec Ideal S32 .f32) : FVec Ideal S16x20000x32 .f32 :=
  addf (Host.dotGeneral dot_S16x20000x32_S32x32_S16x20000x32_2_1_01_0_n_n none (act1 x W1 b1) W2)
    (broadcastInDim S16x20000x32 ![0, 1, 2] bcast_S1x1x32_S16x20000x32_0_1_2 (broadcastInDim S1x1x32 ![2] bcast_S32_S1x1x32_2 b2))
/-- What the ten statements leave in the buffer of %9, as one term over the five argument arrays. -/
def hTerm (x : FVec Ideal S16x20000x11 .f32) (W1 : FVec Ideal S32x11 .f32) (b1 : FVec Ideal S32 .f32)
    (W2 : FVec Ideal S32x32 .f32) (b2 : FVec Ideal S32 .f32) : FVec Ideal S16x20000x32 .f32 :=
  select (cmpf .oge (lin2 x W1 b1 W2 b2) zeroV) (lin2 x W1 b1 W2 b2) (mulf slopeV (lin2 x W1 b1 W2 b2))

theorem zeroV_apply (i : S16x20000x32.Idx) : zeroV i = Cert.Spec.zero := rfl
theorem slopeV_apply (i : S16x20000x32.Idx) : slopeV i = Cert.Spec.slope := rfl

theorem lin1_apply (x : FVec Ideal S16x20000x11 .f32) (W1 : FVec Ideal S32x11 .f32) (b1 : FVec Ideal S32 .f32)
    (b : Fin 16) (n : Fin 20000) (c : Fin 32) :
    lin1 x W1 b1 (ix3 b n c) = (∑ i : Fin 11, x (ix3 b n i) * W1 (ix2 c i)) + b1 (ix1 c) := by
  unfold lin1
  rw [addf_apply, dot1_apply, bias_apply]

theorem act1_apply (x : FVec Ideal S16x20000x11 .f32) (W1 : FVec Ideal S32x11 .f32) (b1 : FVec Ideal S32 .f32)
    (b : Fin 16) (n : Fin 20000) (c : Fin 32) :
    act1 x W1 b1 (ix3 b n c) = Cert.Spec.relu ((∑ i : Fin 11, x (ix3 b n i) * W1 (ix2 c i)) + b1 (ix1 c)) := by
  unfold act1
  rw [maximumf_apply, lin1_apply, zeroV_apply]
  rfl

theorem lin2_apply (x : FVec Ideal S16x20000x11 .f32) (W1 : FVec Ideal S32x11 .f32) (b1 : FVec Ideal S32 .f32)
    (W2 : FVec Ideal S32x32 .f32) (b2 : FVec Ideal S32 .f32) (b : Fin 16) (n : Fin 20000) (o : Fin 32) :
    lin2 x W1 b1 W2 b2 (ix3 b n o)
      = (∑ c : Fin 32, Cert.Spec.relu ((∑ i : Fin 11, x (ix3 b n i) * W1 (ix2 c i)) + b1 (ix1 c)) * W2 (ix2 o c)) + b2 (ix1 o) := by
  unfold lin2
  rw [addf_apply, dot2_apply, bias_apply]
  simp only [act1_apply]

theorem hTerm_apply (x : FVec Ideal S16x20000x11 .f32) (W1 : FVec Ideal S32x11 .f32) (b1 : FVec Ideal S32 .f32)
    (W2 : FVec Ideal S32x32 .f32) (b2 : FVec Ideal S32 .f32) (b : Fin 16) (n : Fin 20000) (o : Fin 32) :
    hTerm x W1 b1 W2 b2 (ix3 b n o) = Cert.Spec.Hval x W1 b1 W2 b2 b n o := by
  unfold hTerm
  rw [select_apply, cmpf_apply, mulf_apply, lin2_apply, zeroV_apply, slopeV_apply]
  rfl

variable (Vv : Valuation τ sig (Elt Ideal))

/-- The fold of the ten statements at the buffer of %9 is the composed term, by computation: each operation's result is
    its function of the operands' contents at its own buffer and what was there at every other. -/
theorem v9_eq : StableHlo.after (Seg.seg1 (F := Ideal)) Vv (Proc.devRef .tc main_v9)
    = hTerm (Vv (Proc.devRef .tc main_arg0)) (Vv (Proc.devRef .tc main_arg2)) (Vv (Proc.devRef .tc main_arg3))
        (Vv (Proc.devRef .tc main_arg4)) (Vv (Proc.devRef .tc main_arg5)) := by
  simp only [StableHlo.after_cons, StableHlo.after_nil]
  rfl

/-- The node features: after the first ten statements the buffer of %9 holds the first perceptron of every node's inputs. -/
theorem out (b : Fin 16) (n : Fin 20000) (o : Fin 32) :
    (StableHlo.after (Seg.seg1 (F := Ideal)) Vv (Proc.devRef .tc main_v9) : S16x20000x32.Idx → EReal) (ix3 b n o)
      = Cert.Spec.Hval (Vv (Proc.devRef .tc main_arg0) : S16x20000x11.Idx → EReal) (Vv (Proc.devRef .tc main_arg2) : S32x11.Idx → EReal) (Vv (Proc.devRef .tc main_arg3) : S32.Idx → EReal) (Vv (Proc.devRef .tc main_arg4) : S32x32.Idx → EReal) (Vv (Proc.devRef .tc main_arg5) : S32.Idx → EReal) b n o := by
  rw [v9_eq]
  exact hTerm_apply _ _ _ _ _ b n o

/-! ## No operation of this stretch writes an argument -/

theorem s1_arg0 : StableHlo.after (Seg.seg1 (F := Ideal)) Vv (Proc.devRef .tc main_arg0) = Vv (Proc.devRef .tc main_arg0) := by
  simp only [StableHlo.after_cons, StableHlo.after_nil]
  rfl
theorem s1_arg1 : StableHlo.after (Seg.seg1 (F := Ideal)) Vv (Proc.devRef .tc main_arg1) = Vv (Proc.devRef .tc main_arg1) := by
  simp only [StableHlo.after_cons, StableHlo.after_nil]
  rfl
theorem s1_arg2 : StableHlo.after (Seg.seg1 (F := Ideal)) Vv (Proc.devRef .tc main_arg2) = Vv (Proc.devRef .tc main_arg2) := by
  simp only [StableHlo.after_cons, StableHlo.after_nil]
  rfl
theorem s1_arg3 : StableHlo.after (Seg.seg1 (F := Ideal)) Vv (Proc.devRef .tc main_arg3) = Vv (Proc.devRef .tc main_arg3) := by
  simp only [StableHlo.after_cons, StableHlo.after_nil]
  rfl
theorem s1_arg4 : StableHlo.after (Seg.seg1 (F := Ideal)) Vv (Proc.devRef .tc main_arg4) = Vv (Proc.devRef .tc main_arg4) := by
  simp only [StableHlo.after_cons, StableHlo.after_nil]
  rfl
theorem s1_arg5 : StableHlo.after (Seg.seg1 (F := Ideal)) Vv (Proc.devRef .tc main_arg5) = Vv (Proc.devRef .tc main_arg5) := by
  simp only [StableHlo.after_cons, StableHlo.after_nil]
  rfl
theorem s1_arg6 : StableHlo.after (Seg.seg1 (F := Ideal)) Vv (Proc.devRef .tc main_arg6) = Vv (Proc.devRef .tc main_arg6) := by
  simp only [StableHlo.after_cons, StableHlo.after_nil]
  rfl
theorem s1_arg7 : StableHlo.after (Seg.seg1 (F := Ideal)) Vv (Proc.devRef .tc main_arg7) = Vv (Proc.devRef .tc main_arg7) := by
  simp only [StableHlo.after_cons, StableHlo.after_nil]
  rfl
theorem s1_arg8 : StableHlo.after (Seg.seg1 (F := Ideal)) Vv (Proc.devRef .tc main_arg8) = Vv (Proc.devRef .tc main_arg8) := by
  simp only [StableHlo.after_cons, StableHlo.after_nil]
  rfl
theorem s1_arg9 : StableHlo.after (Seg.seg1 (F := Ideal)) Vv (Proc.devRef .tc main_arg9) = Vv (Proc.devRef .tc main_arg9) := by
  simp only [StableHlo.after_cons, StableHlo.after_nil]
  rfl
theorem s1_arg10 : StableHlo.after (Seg.seg1 (F := Ideal)) Vv (Proc.devRef .tc main_arg10) = Vv (Proc.devRef .tc main_arg10) := by
  simp only [StableHlo.after_cons, StableHlo.after_nil]
  rfl
theorem s1_arg11 : StableHlo.after (Seg.seg1 (F := Ideal)) Vv (Proc.devRef .tc main_arg11) = Vv (Proc.devRef .tc main_arg11) := by
  simp only [StableHlo.after_cons, StableHlo.after_nil]
  rfl
theorem s1_arg12 : StableHlo.after (Seg.seg1 (F := Ideal)) Vv (Proc.devRef .tc main_arg12) = Vv (Proc.devRef .tc main_arg12) := by
  simp only [StableHlo.after_cons, StableHlo.after_nil]
  rfl
theorem s1_arg13 : StableHlo.after (Seg.seg1 (F := Ideal)) Vv (Proc.devRef .tc main_arg13) = Vv (Proc.devRef .tc main_arg13) := by
  simp only [StableHlo.after_cons, StableHlo.after_nil]
  rfl
theorem s1_arg14 : StableHlo.after (Seg.seg1 (F := Ideal)) Vv (Proc.devRef .tc main_arg14) = Vv (Proc.devRef .tc main_arg14) := by
  simp only [StableHlo.after_cons, StableHlo.after_nil]
  rfl
theorem s1_arg15 : StableHlo.after (Seg.seg1 (F := Ideal)) Vv (Proc.devRef .tc main_arg15) = Vv (Proc.devRef .tc main_arg15) := by
  simp only [StableHlo.after_cons, StableHlo.after_nil]
  rfl

end Cert.ReferenceIdeal.Stage1

end
-- ==== Proof.RStage2.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws
import proofs.«401352_j13305808683173_1_alg».proof.Proof.RSeg2
import Idealize.ShloMosaic.Lib.StableHlo.Predicate

set_option maxRecDepth 16384

noncomputable section

open scoped BigOperators

namespace Cert.ReferenceIdeal.Stage2

open Idealize.ShloMosaic Idealize.ShloMosaic.TcCoe Idealize.ShloMosaic.ValueIdx Idealize.SL.Sem
open Cert.ReferenceIdeal
open Cert.ReferenceIdeal.Facts₀ Cert.ReferenceIdeal.Facts

variable [Cert.ReferenceIdeal.Facts]

/-- One endpoint row of the edge list as a column of start indices: the row cut out and flattened, an index below zero
    moved up by the node count, then given a unit second axis. -/
private def startCol (E : IVec S2x160000 32) (off : Fin S2x160000.rank → Nat)
    (hs : S2x160000.Slices off S1x160000) : IVec S160000x1 32 :=
  broadcastInDim S160000x1 ![0] bcast_S160000_S160000x1_0
    (select
      (cmpi .slt (shapeCast S160000 (extractStridedSlice S1x160000 off E hs) shapeCasts_S1x160000_S160000)
        (broadcastInDim S160000 ![] bcast_S_S160000 (constantI S_ 32 0#32)))
      (addi (shapeCast S160000 (extractStridedSlice S1x160000 off E hs) shapeCasts_S1x160000_S160000)
        (broadcastInDim S160000 ![] bcast_S_S160000 (constantI S_ 32 20000#32)))
      (shapeCast S160000 (extractStridedSlice S1x160000 off E hs) shapeCasts_S1x160000_S160000))

/-- The node features looked up along one endpoint row. -/
private def look (h9 : FVec Ideal S16x20000x32 .f32) (E : IVec S2x160000 32)
    (off : Fin S2x160000.rank → Nat) (hs : S2x160000.Slices off S1x160000) : FVec Ideal S16x160000x32 .f32 :=
  Host.gather gather_S16x20000x32_S160000x1_S16x160000x32_02_1_n_n_1_1_16132 h9 (startCol E off hs)

/-- The two lookups side by side along the feature axis. -/
private def pairRows (h9 : FVec Ideal S16x20000x32 .f32) (E : IVec S2x160000 32) :
    FVec Ideal S16x160000x64 .f32 :=
  concatenate S16x160000x64 2 [⟨S16x160000x32, look h9 E ![0, 0] slices_S2x160000_S1x160000_0_0⟩,
    ⟨S16x160000x32, look h9 E ![1, 0] slices_S2x160000_S1x160000_1_0⟩] concatenates_S16x160000x32_S16x160000x32_S16x160000x64_d2

/-- A bias row spread over every (graph, edge). -/
private def biasAll (b : FVec Ideal S32 .f32) : FVec Ideal S16x160000x32 .f32 :=
  broadcastInDim S16x160000x32 ![0, 1, 2] bcast_S1x1x32_S16x160000x32_0_1_2 (broadcastInDim S1x1x32 ![2] bcast_S32_S1x1x32_2 b)

/-- A float word spread over every (graph, edge, feature). -/
private def wordAll (w : BitVec 32) : FVec Ideal S16x160000x32 .f32 :=
  broadcastInDim S16x160000x32 ![] bcast_S_S16x160000x32 (constant (F := Ideal) S_ .f32 w)

/-- The first layer: the paired rows against the first matrix, the bias, the ReLU. -/
private def layer1 (h9 : FVec Ideal S16x20000x32 .f32) (E : IVec S2x160000 32)
    (W1 : FVec Ideal S32x64 .f32) (b1 : FVec Ideal S32 .f32) :
    FVec Ideal S16x160000x32 .f32 :=
  maximumf (F := Ideal) (addf (F := Ideal) (Host.dotGeneral (F := Ideal) dot_S16x160000x64_S32x64_S16x160000x32_2_1_01_0_n_n none (pairRows h9 E) W1) (biasAll b1))
    (wordAll 0x00000000#32)

/-- The second layer before its activation. -/
private def pre2 (h9 : FVec Ideal S16x20000x32 .f32) (E : IVec S2x160000 32)
    (W1 : FVec Ideal S32x64 .f32) (b1 : FVec Ideal S32 .f32)
    (W2 : FVec Ideal S32x32 .f32) (b2 : FVec Ideal S32 .f32) :
    FVec Ideal S16x160000x32 .f32 :=
  addf (F := Ideal) (Host.dotGeneral (F := Ideal) dot_S16x160000x32_S32x32_S16x160000x32_2_1_01_0_n_n none (layer1 h9 E W1 b1) W2) (biasAll b2)

/-- The edge messages as one term over the argument arrays and the node features. -/
private def msg (h9 : FVec Ideal S16x20000x32 .f32) (E : IVec S2x160000 32)
    (W1 : FVec Ideal S32x64 .f32) (b1 : FVec Ideal S32 .f32)
    (W2 : FVec Ideal S32x32 .f32) (b2 : FVec Ideal S32 .f32) :
    FVec Ideal S16x160000x32 .f32 :=
  select (cmpf (F := Ideal) .oge (pre2 h9 E W1 b1 W2 b2) (wordAll 0x00000000#32)) (pre2 h9 E W1 b1 W2 b2)
    (mulf (F := Ideal) (wordAll 0x3C23D70A#32) (pre2 h9 E W1 b1 W2 b2))

open Idealize.ShloMosaic.StableHlo.Predicate in
/-- Under the range hypothesis a start-index column reads the edge word itself: the word is not negative, so the move up
    by the node count never happens. -/
private theorem startCol_apply (E : IVec S2x160000 32) (off : Fin S2x160000.rank → Nat) (hs : S2x160000.Slices off S1x160000)
    (r : Fin 2) (h0 : off 0 = r.val) (h1 : off 1 = 0) (e : Fin 160000) (hlt : (E (ix2 r e)).toNat < 20000) :
    startCol E off hs (ix2 e 0) = E (ix2 r e) := by
  have hrow : shapeCast S160000 (extractStridedSlice S1x160000 off E hs) shapeCasts_S1x160000_S160000 (ix1 e) = E (ix2 r e) := by
    rw [shapeCast_apply _ _ (ix1 e) (ix2 (0 : Fin 1) e) (by rw [Shape.rowMajor_val_two, Shape.rowMajor_val_one]; simp)]
    exact extractStridedSlice_apply off E hs _ (ix2 r e) (fun a => by
      match a with
      | ⟨0, _⟩ => show r.val = off 0 + 0; omega
      | ⟨1, _⟩ => show e.val = off 1 + e.val; omega)
  unfold startCol
  rw [broadcastInDim_apply _ _ _ (ix2 e 0) (ix1 e) (fun a => by match a with | ⟨0, _⟩ => rfl)]
  show Scalar.select (IntOp.cmpi .slt (shapeCast S160000 (extractStridedSlice S1x160000 off E hs) shapeCasts_S1x160000_S160000 (ix1 e)) 0#32) _
    (shapeCast S160000 (extractStridedSlice S1x160000 off E hs) shapeCasts_S1x160000_S160000 (ix1 e)) = _
  rw [hrow]
  have hc : IntOp.cmpi .slt (E (ix2 r e)) 0#32 = 0#1 :=
    eq_zero_of_ne_one (fun h => by have := (slt_iff_toNat (by omega) (by decide)).mp h; simp at this)
  rw [hc, select_zero]

/-- The lookup read at (graph, edge, feature): the node features at the node the edge's start index names, the index
    read as a signed integer and clamped into the node range. -/
private theorem gather_apply {α : Type} (x : S16x20000x32.Idx → α) (idx : IVec S160000x1 32) (b : Fin 16) (e : Fin 160000) (k : Fin 32) :
    Host.gather gather_S16x20000x32_S160000x1_S16x160000x32_02_1_n_n_1_1_16132 x idx (ix3 b e k)
      = x (ix3 b ⟨min (idx (ix2 e 0)).toInt.toNat 19999, by omega⟩ k) := by
  unfold Host.gather
  congr 1
  funext a
  refine Fin.ext ?_
  match a with
  | ⟨0, _⟩ =>
    show gather_S16x20000x32_S160000x1_S16x160000x32_02_1_n_n_1_1_16132.start (ix3 b e k) idx 0 + gather_S16x20000x32_S160000x1_S16x160000x32_02_1_n_n_1_1_16132.batchCoord (ix3 b e k) 0 + gather_S16x20000x32_S160000x1_S16x160000x32_02_1_n_n_1_1_16132.offCoord (ix3 b e k) 0 = b.val
    have hs : gather_S16x20000x32_S160000x1_S16x160000x32_02_1_n_n_1_1_16132.start (ix3 b e k) idx (0 : Fin 3) = 0 := by
      unfold GatherDims.start
      exact dif_neg (show ¬((0 : Fin 3) ∈ ([1] : List (Fin 3))) by decide)
    have ho : gather_S16x20000x32_S160000x1_S16x160000x32_02_1_n_n_1_1_16132.offCoord (ix3 b e k) (0 : Fin 3) = b.val := by
      unfold GatherDims.offCoord
      rw [dif_pos ((GatherDims.mem_sKept _ _).mpr ⟨show ¬((0 : Fin 3) ∈ ([1] : List (Fin 3))) by decide, List.not_mem_nil⟩)]
      rfl
    rw [GatherDims.batchCoord_eq_zero _ _ _ List.not_mem_nil, hs, ho]; omega
  | ⟨2, _⟩ =>
    show gather_S16x20000x32_S160000x1_S16x160000x32_02_1_n_n_1_1_16132.start (ix3 b e k) idx 2 + gather_S16x20000x32_S160000x1_S16x160000x32_02_1_n_n_1_1_16132.batchCoord (ix3 b e k) 2 + gather_S16x20000x32_S160000x1_S16x160000x32_02_1_n_n_1_1_16132.offCoord (ix3 b e k) 2 = k.val
    have hs : gather_S16x20000x32_S160000x1_S16x160000x32_02_1_n_n_1_1_16132.start (ix3 b e k) idx (2 : Fin 3) = 0 := by
      unfold GatherDims.start
      exact dif_neg (show ¬((2 : Fin 3) ∈ ([1] : List (Fin 3))) by decide)
    have ho : gather_S16x20000x32_S160000x1_S16x160000x32_02_1_n_n_1_1_16132.offCoord (ix3 b e k) (2 : Fin 3) = k.val := by
      unfold GatherDims.offCoord
      rw [dif_pos ((GatherDims.mem_sKept _ _).mpr ⟨show ¬((2 : Fin 3) ∈ ([1] : List (Fin 3))) by decide, List.not_mem_nil⟩)]
      rfl
    rw [GatherDims.batchCoord_eq_zero _ _ _ List.not_mem_nil, hs, ho]; omega
  | ⟨1, h1⟩ =>
    show gather_S16x20000x32_S160000x1_S16x160000x32_02_1_n_n_1_1_16132.start (ix3 b e k) idx 1
        + gather_S16x20000x32_S160000x1_S16x160000x32_02_1_n_n_1_1_16132.batchCoord (ix3 b e k) 1
        + gather_S16x20000x32_S160000x1_S16x160000x32_02_1_n_n_1_1_16132.offCoord (ix3 b e k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16x20000x32_S160000x1_S16x160000x32_02_1_n_n_1_1_16132.startIndexMap from List.mem_singleton.mpr rfl)]
    have hsi : gather_S16x20000x32_S160000x1_S16x160000x32_02_1_n_n_1_1_16132.siIdx (ix3 b e k)
        ⟨List.idxOf (1 : Fin 3) gather_S16x20000x32_S160000x1_S16x160000x32_02_1_n_n_1_1_16132.startIndexMap,
          List.idxOf_lt_length_iff.2 (List.mem_singleton.mpr rfl)⟩ = ix2 e 0 := by
      funext c; refine Fin.ext ?_
      match c with
      | ⟨0, _⟩ => rfl
      | ⟨1, _⟩ => rfl
    rw [hsi]
    rfl

/-- The joined rows read in their first half: endpoint 0's lookup. -/
private theorem pairRows_lo (h9 : FVec Ideal S16x20000x32 .f32) (E : IVec S2x160000 32) (b : Fin 16) (e : Fin 160000) (k : Fin 32) :
    pairRows h9 E (ix3 b e (Cert.Spec.lo k)) = look h9 E ![0, 0] slices_S2x160000_S1x160000_0_0 (ix3 b e k) := by
  unfold pairRows
  exact concatenate_pair_apply_left (t := S16x160000x64) (s₁ := S16x160000x32) (s₂ := S16x160000x32) (2 : Fin 3) _ _ _ (ix3 b e (Cert.Spec.lo k)) rfl (ix3 b e k)
    (fun c => by match c with | ⟨0, _⟩ => rfl | ⟨1, _⟩ => rfl | ⟨2, _⟩ => rfl)

/-- The joined rows read in their second half: endpoint 1's lookup. -/
private theorem pairRows_hi (h9 : FVec Ideal S16x20000x32 .f32) (E : IVec S2x160000 32) (b : Fin 16) (e : Fin 160000) (k : Fin 32) :
    pairRows h9 E (ix3 b e (Cert.Spec.hi k)) = look h9 E ![1, 0] slices_S2x160000_S1x160000_1_0 (ix3 b e k) := by
  unfold pairRows
  exact concatenate_pair_apply_right (t := S16x160000x64) (s₁ := S16x160000x32) (s₂ := S16x160000x32) (2 : Fin 3) _ _ _ (ix3 b e (Cert.Spec.hi k)) rfl rfl (ix3 b e k)
    (fun c hc => by
      match c, hc with
      | ⟨0, _⟩, _ => rfl
      | ⟨1, _⟩, _ => rfl
      | ⟨2, _⟩, hc => exact absurd rfl hc)
    (by show k.val + 32 = 32 + k.val; omega)

/-- A bias row spread over every (graph, edge) reads the row's entry. -/
private theorem biasAll_apply (v : FVec Ideal S32 .f32) (b : Fin 16) (e : Fin 160000) (o : Fin 32) : biasAll v (ix3 b e o) = v (ix1 o) := by
  unfold biasAll
  rw [broadcastInDim_apply _ _ _ (ix3 b e o) (ix3 (0 : Fin 1) (0 : Fin 1) o)
    (fun a => by match a with | ⟨0, _⟩ => rfl | ⟨1, _⟩ => rfl | ⟨2, _⟩ => rfl)]
  exact broadcastInDim_apply _ _ _ _ (ix1 o) (fun a => by match a with | ⟨0, _⟩ => rfl)

/-- A float word spread everywhere reads the extended real its bits denote. -/
private theorem wordAll_apply (w : BitVec 32) (j : S16x160000x32.Idx) : wordAll w j = Ideal.ofBits .f32 w := rfl

/-- The first product read at (graph, edge, column): the row of 64 paired features against that column's 64 weights. -/
private theorem dot1_apply (l : FVec Ideal S16x160000x64 .f32) (W : FVec Ideal S32x64 .f32) (b : Fin 16) (e : Fin 160000) (o : Fin 32) :
    Host.dotGeneral (F := Ideal) dot_S16x160000x64_S32x64_S16x160000x32_2_1_01_0_n_n none l W (ix3 b e o) = ∑ i : Fin 64, l (ix3 b e i) * W (ix2 o i) := by
  simp only [Host.dotGeneral]
  rw [Ideal.dotGeneral_apply, ← Equiv.sum_comp (contrEquiv1 dot_S16x160000x64_S32x64_S16x160000x32_2_1_01_0_n_n 64 rfl rfl).symm]
  refine Finset.sum_congr rfl fun i _ => ?_
  have hl : dot_S16x160000x64_S32x64_S16x160000x32_2_1_01_0_n_n.lhsIdx (ix3 b e o) ((contrEquiv1 dot_S16x160000x64_S32x64_S16x160000x32_2_1_01_0_n_n 64 rfl rfl).symm i) = ix3 b e i := by
    funext a; refine Fin.ext ?_
    match a with
    | ⟨0, _⟩ => rfl
    | ⟨1, _⟩ => rfl
    | ⟨2, _⟩ => rfl
  have hr : dot_S16x160000x64_S32x64_S16x160000x32_2_1_01_0_n_n.rhsIdx (ix3 b e o) ((contrEquiv1 dot_S16x160000x64_S32x64_S16x160000x32_2_1_01_0_n_n 64 rfl rfl).symm i) = ix2 o i := by
    funext a; refine Fin.ext ?_
    match a with
    | ⟨0, _⟩ => rfl
    | ⟨1, _⟩ => rfl
  rw [hl, hr]

/-- The second product read at (graph, edge, column): the row of 32 hidden features against that column's 32 weights. -/
private theorem dot2_apply (l : FVec Ideal S16x160000x32 .f32) (W : FVec Ideal S32x32 .f32) (b : Fin 16) (e : Fin 160000) (o : Fin 32) :
    Host.dotGeneral (F := Ideal) dot_S16x160000x32_S32x32_S16x160000x32_2_1_01_0_n_n none l W (ix3 b e o) = ∑ i : Fin 32, l (ix3 b e i) * W (ix2 o i) := by
  simp only [Host.dotGeneral]
  rw [Ideal.dotGeneral_apply, ← Equiv.sum_comp (contrEquiv1 dot_S16x160000x32_S32x32_S16x160000x32_2_1_01_0_n_n 32 rfl rfl).symm]
  refine Finset.sum_congr rfl fun i _ => ?_
  have hl : dot_S16x160000x32_S32x32_S16x160000x32_2_1_01_0_n_n.lhsIdx (ix3 b e o) ((contrEquiv1 dot_S16x160000x32_S32x32_S16x160000x32_2_1_01_0_n_n 32 rfl rfl).symm i) = ix3 b e i := by
    funext a; refine Fin.ext ?_
    match a with
    | ⟨0, _⟩ => rfl
    | ⟨1, _⟩ => rfl
    | ⟨2, _⟩ => rfl
  have hr : dot_S16x160000x32_S32x32_S16x160000x32_2_1_01_0_n_n.rhsIdx (ix3 b e o) ((contrEquiv1 dot_S16x160000x32_S32x32_S16x160000x32_2_1_01_0_n_n 32 rfl rfl).symm i) = ix2 o i := by
    funext a; refine Fin.ext ?_
    match a with
    | ⟨0, _⟩ => rfl
    | ⟨1, _⟩ => rfl
  rw [hl, hr]

/-- A sum over the 64-long feature axis is the sum over its first half plus the sum over its second half. -/
private theorem sum_halves (f : Fin 64 → EReal) :
    ∑ i : Fin 64, f i = (∑ i : Fin 32, f (Cert.Spec.lo i)) + ∑ i : Fin 32, f (Cert.Spec.hi i) :=
  Fin.sum_univ_add (a := 32) (b := 32) (f : Fin (32 + 32) → EReal)

open Idealize.ShloMosaic.StableHlo.Predicate in
/-- Under the range hypothesis a lookup reads the node features at the node the edge's endpoint names: the start index
    is the edge word, not negative and below the node count, so neither the signed read nor the clamp changes it. -/
private theorem look_apply (h9 : FVec Ideal S16x20000x32 .f32) (E : IVec S2x160000 32) (off : Fin S2x160000.rank → Nat)
    (hs : S2x160000.Slices off S1x160000) (r : Fin 2) (h0 : off 0 = r.val) (h1 : off 1 = 0) (b : Fin 16) (e : Fin 160000) (k : Fin 32)
    (hlt : (E (ix2 r e)).toNat < 20000) :
    look h9 E off hs (ix3 b e k) = h9 (ix3 b (Cert.Spec.node E r e) k) := by
  unfold look
  rw [gather_apply]
  refine congrArg (fun n => h9 (ix3 b n k)) (Fin.ext ?_)
  show min (startCol E off hs (ix2 e 0)).toInt.toNat 19999 = (E (ix2 r e)).toNat % 20000
  rw [startCol_apply E off hs r h0 h1 e hlt, toInt_eq_toNat_of_lt (by omega), Int.toNat_natCast]
  omega

/-- The first layer read at (graph, edge, hidden unit) under the range hypothesis: the ReLU of the two endpoints'
    features against the two halves of that unit's weights, plus its bias. -/
private theorem layer1_apply (h9 : FVec Ideal S16x20000x32 .f32) (E : IVec S2x160000 32) (W1 : FVec Ideal S32x64 .f32) (b1 : FVec Ideal S32 .f32)
    (hE : ∀ (r : Fin 2) (e : Fin 160000), (E (ix2 r e)).toNat < 20000) (b : Fin 16) (e : Fin 160000) (c : Fin 32) :
    layer1 h9 E W1 b1 (ix3 b e c)
      = Cert.Spec.relu (((∑ i : Fin 32, h9 (ix3 b (Cert.Spec.node E 0 e) i) * W1 (ix2 c (Cert.Spec.lo i)))
          + ∑ i : Fin 32, h9 (ix3 b (Cert.Spec.node E 1 e) i) * W1 (ix2 c (Cert.Spec.hi i))) + b1 (ix1 c)) := by
  unfold layer1
  rw [maximumf_apply, addf_apply, dot1_apply, biasAll_apply, sum_halves]
  simp only [pairRows_lo, pairRows_hi,
    fun k => look_apply h9 E ![0, 0] slices_S2x160000_S1x160000_0_0 0 rfl rfl b e k (hE 0 e),
    fun k => look_apply h9 E ![1, 0] slices_S2x160000_S1x160000_1_0 1 rfl rfl b e k (hE 1 e)]
  rfl

/-- The message read at (graph, edge, feature) under the range hypothesis: the edge perceptron on the two endpoints'
    feature rows. -/
private theorem msg_apply (h9 : FVec Ideal S16x20000x32 .f32) (E : IVec S2x160000 32) (W1 : FVec Ideal S32x64 .f32) (b1 : FVec Ideal S32 .f32)
    (W2 : FVec Ideal S32x32 .f32) (b2 : FVec Ideal S32 .f32)
    (hE : ∀ (r : Fin 2) (e : Fin 160000), (E (ix2 r e)).toNat < 20000) (b : Fin 16) (e : Fin 160000) (o : Fin 32) :
    msg h9 E W1 b1 W2 b2 (ix3 b e o)
      = Cert.Spec.mlp2pair (fun k => h9 (ix3 b (Cert.Spec.node E 0 e) k)) (fun k => h9 (ix3 b (Cert.Spec.node E 1 e) k))
          (fun k c => W1 (ix2 c (Cert.Spec.lo k))) (fun k c => W1 (ix2 c (Cert.Spec.hi k))) (fun c => b1 (ix1 c))
          (fun c o => W2 (ix2 o c)) (fun o => b2 (ix1 o)) o := by
  have hP : pre2 h9 E W1 b1 W2 b2 (ix3 b e o)
      = (∑ c : Fin 32, Cert.Spec.relu (((∑ i : Fin 32, h9 (ix3 b (Cert.Spec.node E 0 e) i) * W1 (ix2 c (Cert.Spec.lo i)))
          + ∑ i : Fin 32, h9 (ix3 b (Cert.Spec.node E 1 e) i) * W1 (ix2 c (Cert.Spec.hi i))) + b1 (ix1 c)) * W2 (ix2 o c)) + b2 (ix1 o) := by
    unfold pre2
    rw [addf_apply, dot2_apply, biasAll_apply]
    simp only [layer1_apply h9 E W1 b1 hE]
  unfold msg
  rw [select_apply, cmpf_apply, mulf_apply, wordAll_apply, wordAll_apply, hP]
  rfl

variable (Vv : Valuation τ sig (Elt Ideal))

attribute [local irreducible] Host.gather concatenate FloatOps.dotGeneral in
set_option maxHeartbeats 1000000 in
/-- The fold of the stretch at the message buffer is that term, by computation. -/
private theorem out_eq :
    StableHlo.after (Seg.seg2 (F := Ideal)) Vv (Proc.devRef .tc main_v38)
      = msg (Vv (Proc.devRef .tc main_v9)) (Vv (Proc.devRef .tc main_arg1)) (Vv (Proc.devRef .tc main_arg6))
          (Vv (Proc.devRef .tc main_arg7)) (Vv (Proc.devRef .tc main_arg8)) (Vv (Proc.devRef .tc main_arg9)) := by
  simp only [StableHlo.after_cons, StableHlo.after_nil]
  rfl

/-- The edge messages: the two endpoint lookups (an index below zero wraps once; an index past the end would be clamped — none is, by `hE`), joined along the feature axis and passed through the edge perceptron. -/
theorem out (h : Fin 16 → Fin 20000 → Fin 32 → EReal)
    (hv9 : ∀ (b : Fin 16) (n : Fin 20000) (o : Fin 32), (Vv (Proc.devRef .tc main_v9) : S16x20000x32.Idx → EReal) (ix3 b n o) = h b n o)
    (hE : ∀ (r : Fin 2) (e : Fin 160000), ((Vv (Proc.devRef .tc main_arg1) : S2x160000.Idx → BitVec 32) (ix2 r e)).toNat < 20000) (b : Fin 16) (e : Fin 160000) (o : Fin 32) :
    (StableHlo.after (Seg.seg2 (F := Ideal)) Vv (Proc.devRef .tc main_v38) : S16x160000x32.Idx → EReal) (ix3 b e o)
      = Cert.Spec.Mval h (Vv (Proc.devRef .tc main_arg1) : S2x160000.Idx → BitVec 32) (Vv (Proc.devRef .tc main_arg6) : S32x64.Idx → EReal) (Vv (Proc.devRef .tc main_arg7) : S32.Idx → EReal) (Vv (Proc.devRef .tc main_arg8) : S32x32.Idx → EReal) (Vv (Proc.devRef .tc main_arg9) : S32.Idx → EReal) b e o := by
  rw [out_eq, msg_apply _ _ _ _ _ _ hE]
  unfold Cert.Spec.Mval
  simp only [hv9]

/-! ## No operation of this stretch writes an argument -/

theorem s2_arg0 : StableHlo.after (Seg.seg2 (F := Ideal)) Vv (Proc.devRef .tc main_arg0) = Vv (Proc.devRef .tc main_arg0) := by
  simp only [StableHlo.after_cons, StableHlo.after_nil]; rfl
theorem s2_arg1 : StableHlo.after (Seg.seg2 (F := Ideal)) Vv (Proc.devRef .tc main_arg1) = Vv (Proc.devRef .tc main_arg1) := by
  simp only [StableHlo.after_cons, StableHlo.after_nil]; rfl
theorem s2_arg2 : StableHlo.after (Seg.seg2 (F := Ideal)) Vv (Proc.devRef .tc main_arg2) = Vv (Proc.devRef .tc main_arg2) := by
  simp only [StableHlo.after_cons, StableHlo.after_nil]; rfl
theorem s2_arg3 : StableHlo.after (Seg.seg2 (F := Ideal)) Vv (Proc.devRef .tc main_arg3) = Vv (Proc.devRef .tc main_arg3) := by
  simp only [StableHlo.after_cons, StableHlo.after_nil]; rfl
theorem s2_arg4 : StableHlo.after (Seg.seg2 (F := Ideal)) Vv (Proc.devRef .tc main_arg4) = Vv (Proc.devRef .tc main_arg4) := by
  simp only [StableHlo.after_cons, StableHlo.after_nil]; rfl
theorem s2_arg5 : StableHlo.after (Seg.seg2 (F := Ideal)) Vv (Proc.devRef .tc main_arg5) = Vv (Proc.devRef .tc main_arg5) := by
  simp only [StableHlo.after_cons, StableHlo.after_nil]; rfl
theorem s2_arg6 : StableHlo.after (Seg.seg2 (F := Ideal)) Vv (Proc.devRef .tc main_arg6) = Vv (Proc.devRef .tc main_arg6) := by
  simp only [StableHlo.after_cons, StableHlo.after_nil]; rfl
theorem s2_arg7 : StableHlo.after (Seg.seg2 (F := Ideal)) Vv (Proc.devRef .tc main_arg7) = Vv (Proc.devRef .tc main_arg7) := by
  simp only [StableHlo.after_cons, StableHlo.after_nil]; rfl
theorem s2_arg8 : StableHlo.after (Seg.seg2 (F := Ideal)) Vv (Proc.devRef .tc main_arg8) = Vv (Proc.devRef .tc main_arg8) := by
  simp only [StableHlo.after_cons, StableHlo.after_nil]; rfl
theorem s2_arg9 : StableHlo.after (Seg.seg2 (F := Ideal)) Vv (Proc.devRef .tc main_arg9) = Vv (Proc.devRef .tc main_arg9) := by
  simp only [StableHlo.after_cons, StableHlo.after_nil]; rfl
theorem s2_arg10 : StableHlo.after (Seg.seg2 (F := Ideal)) Vv (Proc.devRef .tc main_arg10) = Vv (Proc.devRef .tc main_arg10) := by
  simp only [StableHlo.after_cons, StableHlo.after_nil]; rfl
theorem s2_arg11 : StableHlo.after (Seg.seg2 (F := Ideal)) Vv (Proc.devRef .tc main_arg11) = Vv (Proc.devRef .tc main_arg11) := by
  simp only [StableHlo.after_cons, StableHlo.after_nil]; rfl
theorem s2_arg12 : StableHlo.after (Seg.seg2 (F := Ideal)) Vv (Proc.devRef .tc main_arg12) = Vv (Proc.devRef .tc main_arg12) := by
  simp only [StableHlo.after_cons, StableHlo.after_nil]; rfl
theorem s2_arg13 : StableHlo.after (Seg.seg2 (F := Ideal)) Vv (Proc.devRef .tc main_arg13) = Vv (Proc.devRef .tc main_arg13) := by
  simp only [StableHlo.after_cons, StableHlo.after_nil]; rfl
theorem s2_arg14 : StableHlo.after (Seg.seg2 (F := Ideal)) Vv (Proc.devRef .tc main_arg14) = Vv (Proc.devRef .tc main_arg14) := by
  simp only [StableHlo.after_cons, StableHlo.after_nil]; rfl
theorem s2_arg15 : StableHlo.after (Seg.seg2 (F := Ideal)) Vv (Proc.devRef .tc main_arg15) = Vv (Proc.devRef .tc main_arg15) := by
  simp only [StableHlo.after_cons, StableHlo.after_nil]; rfl

end Cert.ReferenceIdeal.Stage2

end
-- ==== Proof.RScatter.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.ScatterRead

open Idealize.ShloMosaic Idealize.ShloMosaic.TcCoe Idealize.ShloMosaic.ValueIdx Idealize.SL.Sem
open Cert.ReferenceIdeal

variable [Cert.ReferenceIdeal.Facts]

/-! ## An accumulating scatter of rows read at one element: the element it started from plus the updates of the rows
    whose index word, read signed, names that row (a word naming no row lands nowhere) -/

/-! ### Sums over an index set by coordinates -/

/-- A rank-1 index set is its one coordinate's range … -/
private def idxEquiv1 {n0 : Nat} : (⟨1, ![n0]⟩ : Shape).Idx ≃ Fin n0 where
  toFun i := i 0
  invFun a := ix1 a
  left_inv i := (eq_ix1 i).symm
  right_inv _ := rfl

/-- … so a sum over it is the sum over the coordinate. -/
private theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### The row scatter's dimension numbers: update `(e, b, o)` lands at `(idx[e, 0], b, o)`

    The operand's axis 0 is the scattered one (its start is the index word of row `e`, read signed; the window
    coordinate there is 0), and the axes 1 and 2 are window axes (start 0, window coordinate the update's own). -/

local notation "D3" => scatter_S20000x16x32_S320000x1_S320000x16x32_12_0_0_1

/-- Update `j` reads its start index at `[j₀, 0]` of the index array. -/
private theorem siIdx3 (j : S320000x16x32.Idx) (c : Fin (D3).scatterDimsToOperandDims.length) :
    (D3).siIdx j c = ix2 (j 0) 0 := by
  funext b
  match b with
  | ⟨0, _⟩ => rfl
  | ⟨1, _⟩ => exact Fin.ext (Nat.lt_one_iff.mp (Fin.isLt _))

private theorem start3_0 (j : S320000x16x32.Idx) (idx : IVec S320000x1 32) :
    (D3).start j idx 0 = (idx (ix2 (j 0) 0)).toInt := by
  unfold ScatterDims.start
  have h0 : (0 : Fin 3) ∈ (D3).scatterDimsToOperandDims := show (0 : Fin 3) ∈ [(0 : Fin 3)] by decide
  rw [dif_pos h0, siIdx3]
  rfl

private theorem start3_1 (j : S320000x16x32.Idx) (idx : IVec S320000x1 32) :
    (D3).start j idx 1 = 0 := by
  unfold ScatterDims.start
  have h1 : ¬ (1 : Fin 3) ∈ (D3).scatterDimsToOperandDims := show ¬ (1 : Fin 3) ∈ [(0 : Fin 3)] by decide
  rw [dif_neg h1]

private theorem start3_2 (j : S320000x16x32.Idx) (idx : IVec S320000x1 32) :
    (D3).start j idx 2 = 0 := by
  unfold ScatterDims.start
  have h2 : ¬ (2 : Fin 3) ∈ (D3).scatterDimsToOperandDims := show ¬ (2 : Fin 3) ∈ [(0 : Fin 3)] by decide
  rw [dif_neg h2]

private theorem window3_0 (j : S320000x16x32.Idx) : (D3).window j 0 = 0 := by
  unfold ScatterDims.window
  have h0 : ¬ (0 : Fin 3) ∈ (D3).sKept := show ¬ (0 : Fin 3) ∈ S20000x16x32.kept [(0 : Fin 3)] by decide
  rw [dif_neg h0]

private theorem window3_1 (j : S320000x16x32.Idx) : (D3).window j 1 = (j 1).val := by
  unfold ScatterDims.window
  have h1 : (1 : Fin 3) ∈ (D3).sKept := show (1 : Fin 3) ∈ S20000x16x32.kept [(0 : Fin 3)] by decide
  rw [dif_pos h1]
  rfl

private theorem window3_2 (j : S320000x16x32.Idx) : (D3).window j 2 = (j 2).val := by
  unfold ScatterDims.window
  have h2 : (2 : Fin 3) ∈ (D3).sKept := show (2 : Fin 3) ∈ S20000x16x32.kept [(0 : Fin 3)] by decide
  rw [dif_pos h2]
  rfl

/-- Update `j` lands on element `(n, b, o)` exactly when its row's index word, read signed, is `n` and its two
    window coordinates are `b` and `o`. (A word that is negative or at least 20000 names no row: the update is
    dropped, and then it equals no `n` either.) -/
private theorem resultIdx3_iff (j : S320000x16x32.Idx) (idx : IVec S320000x1 32) (n : Fin 20000) (b : Fin 16) (o : Fin 32) :
    (D3).resultIdx? j idx = some (ix3 n b o) ↔ ((idx (ix2 (j 0) 0)).toInt = (n.val : Int) ∧ j 1 = b ∧ j 2 = o) := by
  unfold ScatterDims.resultIdx?
  constructor
  · intro h
    split at h
    · rename_i H
      have h' := Option.some.inj h
      have e0 := congrArg (fun f => (f 0).val) h'
      have e1 := congrArg (fun f => (f 1).val) h'
      have e2 := congrArg (fun f => (f 2).val) h'
      have H0 := H 0
      simp only [start3_0, start3_1, start3_2, window3_0, window3_1, window3_2] at e0 e1 e2 H0
      refine ⟨?_, Fin.ext ?_, Fin.ext ?_⟩
      · change ((idx (ix2 (j 0) 0)).toInt + ((0 : Nat) : Int)).toNat = n.val at e0
        omega
      · change ((0 : Int) + ((j 1).val : Int)).toNat = b.val at e1
        omega
      · change ((0 : Int) + ((j 2).val : Int)).toNat = o.val at e2
        omega
    · exact absurd h (by simp)
  · rintro ⟨h0, h1, h2⟩
    have hn := n.isLt
    have hb : (j 1).val < 16 := (j 1).isLt
    have ho : (j 2).val < 32 := (j 2).isLt
    have H : ∀ a, 0 ≤ (D3).start j idx a + (D3).window j a ∧
        (D3).start j idx a + (D3).window j a < S20000x16x32.size a := by
      intro a
      match a with
      | ⟨0, _⟩ =>
        show 0 ≤ (D3).start j idx 0 + (((D3).window j 0 : Nat) : Int) ∧
          (D3).start j idx 0 + (((D3).window j 0 : Nat) : Int) < ((20000 : Nat) : Int)
        rw [start3_0, window3_0, h0]; omega
      | ⟨1, _⟩ =>
        show 0 ≤ (D3).start j idx 1 + (((D3).window j 1 : Nat) : Int) ∧
          (D3).start j idx 1 + (((D3).window j 1 : Nat) : Int) < ((16 : Nat) : Int)
        rw [start3_1, window3_1]; omega
      | ⟨2, _⟩ =>
        show 0 ≤ (D3).start j idx 2 + (((D3).window j 2 : Nat) : Int) ∧
          (D3).start j idx 2 + (((D3).window j 2 : Nat) : Int) < ((32 : Nat) : Int)
        rw [start3_2, window3_2]; omega
    rw [dif_pos H]
    refine congrArg some (funext fun a => Fin.ext ?_)
    match a with
    | ⟨0, _⟩ =>
      show ((D3).start j idx 0 + (((D3).window j 0 : Nat) : Int)).toNat = n.val
      rw [start3_0, window3_0, h0]; omega
    | ⟨1, _⟩ =>
      show ((D3).start j idx 1 + (((D3).window j 1 : Nat) : Int)).toNat = b.val
      rw [start3_1, window3_1, ← h1]; omega
    | ⟨2, _⟩ =>
      show ((D3).start j idx 2 + (((D3).window j 2 : Nat) : Int)).toNat = o.val
      rw [start3_2, window3_2, ← h2]; omega

/-- The sum of the updates landing on `(n, b, o)`, taken over all update indices `(e, b', o')`, keeps of each row `e`
    only the term `b' = b`, `o' = o`, and that one only when the row's index word names `n`. -/
theorem scatter3_apply (x : S20000x16x32.Idx → EReal) (idx : IVec S320000x1 32) (upd : S320000x16x32.Idx → EReal)
    (n : Fin 20000) (b : Fin 16) (o : Fin 32) :
    (Host.scatterAdd (F := Ideal) (φ := .f32) scatter_S20000x16x32_S320000x1_S320000x16x32_12_0_0_1 x idx upd : S20000x16x32.Idx → EReal) (ix3 n b o)
      = x (ix3 n b o) + ∑ e : Fin 320000, if (idx (ix2 e 0)).toInt = (n.val : Int) then upd (ix3 e b o) else 0 := by
  show Ideal.hostScatterAdd (D3) x idx upd (ix3 n b o) = _
  unfold Ideal.hostScatterAdd
  refine congrArg (x (ix3 n b o) + ·) ?_
  rw [Finset.sum_filter, sum_idx3]
  refine Finset.sum_congr rfl fun e _ => ?_
  by_cases he : (idx (ix2 e 0)).toInt = (n.val : Int)
  · rw [if_pos he, Finset.sum_eq_single b, Finset.sum_eq_single o]
    · rw [if_pos ((resultIdx3_iff _ idx n b o).2 ⟨he, rfl, rfl⟩)]
    · intro o' _ ho'
      rw [if_neg]
      intro h
      exact ho' ((resultIdx3_iff _ idx n b o).1 h).2.2
    · intro h; exact absurd (Finset.mem_univ _) h
    · intro b' _ hb'
      refine Finset.sum_eq_zero fun o' _ => ?_
      rw [if_neg]
      intro h
      exact hb' ((resultIdx3_iff _ idx n b o).1 h).2.1
    · intro h; exact absurd (Finset.mem_univ _) h
  · rw [if_neg he]
    refine Finset.sum_eq_zero fun b' _ => Finset.sum_eq_zero fun o' _ => ?_
    rw [if_neg]
    intro h
    exact he ((resultIdx3_iff _ idx n b o).1 h).1

/-! ### The scalar scatter's dimension numbers: update `e` lands at `idx[e, 0]`

    No window axes: the operand's one axis is the scattered one, its start the index word of `e` read signed. -/

local notation "D1" => scatter_S20000_S320000x1_S320000_n_0_0_1

/-- Update `j` reads its start index at `[j₀, 0]` of the index array. -/
private theorem siIdx1 (j : S320000.Idx) (c : Fin (D1).scatterDimsToOperandDims.length) :
    (D1).siIdx j c = ix2 (j 0) 0 := by
  funext b
  match b with
  | ⟨0, _⟩ => rfl
  | ⟨1, _⟩ => exact Fin.ext (Nat.lt_one_iff.mp (Fin.isLt _))

private theorem start1_0 (j : S320000.Idx) (idx : IVec S320000x1 32) :
    (D1).start j idx 0 = (idx (ix2 (j 0) 0)).toInt := by
  unfold ScatterDims.start
  have h0 : (0 : Fin 1) ∈ (D1).scatterDimsToOperandDims := show (0 : Fin 1) ∈ [(0 : Fin 1)] by decide
  rw [dif_pos h0, siIdx1]
  rfl

private theorem window1_0 (j : S320000.Idx) : (D1).window j 0 = 0 := by
  unfold ScatterDims.window
  have h0 : ¬ (0 : Fin 1) ∈ (D1).sKept := show ¬ (0 : Fin 1) ∈ S20000.kept [(0 : Fin 1)] by decide
  rw [dif_neg h0]

/-- Update `j` lands on element `n` exactly when its index word, read signed, is `n`. -/
private theorem resultIdx1_iff (j : S320000.Idx) (idx : IVec S320000x1 32) (n : Fin 20000) :
    (D1).resultIdx? j idx = some (ix1 n) ↔ (idx (ix2 (j 0) 0)).toInt = (n.val : Int) := by
  unfold ScatterDims.resultIdx?
  constructor
  · intro h
    split at h
    · rename_i H
      have e0 := congrArg (fun f => (f 0).val) (Option.some.inj h)
      have H0 := H 0
      simp only [start1_0, window1_0] at e0 H0
      change ((idx (ix2 (j 0) 0)).toInt + ((0 : Nat) : Int)).toNat = n.val at e0
      omega
    · exact absurd h (by simp)
  · intro h0
    have hn := n.isLt
    have H : ∀ a, 0 ≤ (D1).start j idx a + (D1).window j a ∧
        (D1).start j idx a + (D1).window j a < S20000.size a := by
      intro a
      match a with
      | ⟨0, _⟩ =>
        show 0 ≤ (D1).start j idx 0 + (((D1).window j 0 : Nat) : Int) ∧
          (D1).start j idx 0 + (((D1).window j 0 : Nat) : Int) < ((20000 : Nat) : Int)
        rw [start1_0, window1_0, h0]; omega
    rw [dif_pos H]
    refine congrArg some (funext fun a => Fin.ext ?_)
    match a with
    | ⟨0, _⟩ =>
      show ((D1).start j idx 0 + (((D1).window j 0 : Nat) : Int)).toNat = n.val
      rw [start1_0, window1_0, h0]; omega

theorem scatter1_apply (x : S20000.Idx → EReal) (idx : IVec S320000x1 32) (upd : S320000.Idx → EReal) (n : Fin 20000) :
    (Host.scatterAdd (F := Ideal) (φ := .f32) scatter_S20000_S320000x1_S320000_n_0_0_1 x idx upd : S20000.Idx → EReal) (ix1 n)
      = x (ix1 n) + ∑ e : Fin 320000, if (idx (ix2 e 0)).toInt = (n.val : Int) then upd (ix1 e) else 0 := by
  show Ideal.hostScatterAdd (D1) x idx upd (ix1 n) = _
  unfold Ideal.hostScatterAdd
  refine congrArg (x (ix1 n) + ·) ?_
  rw [Finset.sum_filter, sum_idx1]
  refine Finset.sum_congr rfl fun e _ => ?_
  by_cases he : (idx (ix2 e 0)).toInt = (n.val : Int)
  · rw [if_pos he, if_pos ((resultIdx1_iff _ idx n).2 he)]
  · rw [if_neg he, if_neg]
    intro h
    exact he ((resultIdx1_iff _ idx n).1 h)

end Cert.ReferenceIdeal.ScatterRead

end
-- ==== Proof.RStage3.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.StableHlo.Predicate
import proofs.«401352_j13305808683173_1_alg».proof.Proof.RSeg3
import proofs.«401352_j13305808683173_1_alg».proof.Proof.RScatter

set_option maxRecDepth 16384

noncomputable section

open scoped BigOperators

namespace Cert.ReferenceIdeal.Stage3

open Idealize.ShloMosaic Idealize.ShloMosaic.TcCoe Idealize.ShloMosaic.ValueIdx Idealize.SL.Sem
open Cert.ReferenceIdeal
open Cert.ReferenceIdeal.Facts₀ Cert.ReferenceIdeal.Facts

variable [Cert.ReferenceIdeal.Facts]
variable (Vv : Valuation τ sig (Elt Ideal))

/-- The scatter's index column: endpoint row 1 followed by endpoint row 0 of the edge list, each row flattened,
    as a [320000, 1] column. -/
def idxCol (E : S2x160000.Idx → BitVec 32) : IVec S320000x1 32 :=
  broadcastInDim S320000x1 ![0] bcast_S320000_S320000x1_0
    (concatenate S320000 0
      [⟨S160000, shapeCast S160000 (extractStridedSlice S1x160000 ![1, 0] E slices_S2x160000_S1x160000_1_0) shapeCasts_S1x160000_S160000⟩,
       ⟨S160000, shapeCast S160000 (extractStridedSlice S1x160000 ![0, 0] E slices_S2x160000_S1x160000_0_0) shapeCasts_S1x160000_S160000⟩]
      concatenates_S160000_S160000_S320000_d0)

/-- The scatter's updates: the messages listed twice along the edge axis, edge-major. -/
def updRows (m : S16x160000x32.Idx → EReal) : S320000x16x32.Idx → EReal :=
  transpose S320000x16x32 [1, 0, 2]
    (concatenate S16x320000x32 1 [⟨S16x160000x32, m⟩, ⟨S16x160000x32, m⟩] concatenates_S16x160000x32_S16x160000x32_S16x320000x32_d1)
    transposes_S16x320000x32_S320000x16x32_1_0_2

attribute [local irreducible] Host.scatterAdd concatenate in
/-- The buffer of %48 after the stretch: zeros with the doubled messages added in at the rows the index column names. -/
theorem v48_eq :
    StableHlo.after (Seg.seg3 (F := Ideal)) Vv (Proc.devRef .tc main_v48)
      = (Host.scatterAdd (F := Ideal) (φ := .f32) scatter_S20000x16x32_S320000x1_S320000x16x32_12_0_0_1
          (broadcastInDim S20000x16x32 ![] bcast_S_S20000x16x32 (constant (F := Ideal) S_ .f32 0x00000000#32))
          (idxCol (Vv (Proc.devRef .tc main_arg1) : S2x160000.Idx → BitVec 32))
          (updRows (Vv (Proc.devRef .tc main_v38) : S16x160000x32.Idx → EReal)) : S20000x16x32.Idx → EReal) := by
  simp only [StableHlo.after_cons, StableHlo.after_nil]
  rfl

attribute [local irreducible] Host.scatterAdd concatenate in
/-- The buffer of %52 after the stretch: zeros with a one added in at the row each entry of the index column names. -/
theorem v52_eq :
    StableHlo.after (Seg.seg3 (F := Ideal)) Vv (Proc.devRef .tc main_v52)
      = (Host.scatterAdd (F := Ideal) (φ := .f32) scatter_S20000_S320000x1_S320000_n_0_0_1
          (broadcastInDim S20000 ![] bcast_S_S20000 (constant (F := Ideal) S_ .f32 0x00000000#32))
          (idxCol (Vv (Proc.devRef .tc main_arg1) : S2x160000.Idx → BitVec 32))
          (broadcastInDim S320000 ![] bcast_S_S320000 (constant (F := Ideal) S_ .f32 0x3F800000#32)) : S20000.Idx → EReal) := by
  simp only [StableHlo.after_cons, StableHlo.after_nil]
  rfl

/-! ## The index column and the update rows, read on each half of the doubled edge axis -/

/-- Position e of the first half of the index column is endpoint 1 of edge e. -/
theorem idxCol_lo (E : S2x160000.Idx → BitVec 32) (e : Fin 160000) (he : e.val < 320000) :
    idxCol E (ix2 (⟨e.val, he⟩ : Fin 320000) 0) = E (ix2 1 e) := by
  unfold idxCol
  refine (broadcastInDim_apply _ _ _ (ix2 (⟨e.val, he⟩ : Fin 320000) 0) (ix1 (⟨e.val, he⟩ : Fin 320000)) (fun a => ?_)).trans ?_
  · match a with
    | ⟨0, _⟩ => rfl
  refine (concatenate_pair_apply_left (t := S320000) (s₁ := S160000) (s₂ := S160000) (0 : Fin 1) _ _ concatenates_S160000_S160000_S320000_d0
    (ix1 (⟨e.val, he⟩ : Fin 320000)) rfl (ix1 e) (fun b => ?_)).trans ?_
  · match b with
    | ⟨0, _⟩ => rfl
  refine (shapeCast_apply _ _ (ix1 e) (ix2 (0 : Fin 1) e) ?_).trans ?_
  · rw [Shape.rowMajor_val_two, Shape.rowMajor_val_one]
    show (0 : Nat) * 160000 + e.val = e.val
    omega
  refine extractStridedSlice_apply _ _ _ (ix2 (0 : Fin 1) e) (ix2 (1 : Fin 2) e) (fun a => ?_)
  match a with
  | ⟨0, _⟩ => rfl
  | ⟨1, _⟩ => show e.val = 0 + e.val; omega

/-- Position 160000 + e of the index column is endpoint 0 of edge e. -/
theorem idxCol_hi (E : S2x160000.Idx → BitVec 32) (e : Fin 160000) (he : 160000 + e.val < 320000) :
    idxCol E (ix2 (⟨160000 + e.val, he⟩ : Fin 320000) 0) = E (ix2 0 e) := by
  unfold idxCol
  refine (broadcastInDim_apply _ _ _ (ix2 (⟨160000 + e.val, he⟩ : Fin 320000) 0) (ix1 (⟨160000 + e.val, he⟩ : Fin 320000)) (fun a => ?_)).trans ?_
  · match a with
    | ⟨0, _⟩ => rfl
  refine (concatenate_pair_apply_right (t := S320000) (s₁ := S160000) (s₂ := S160000) (0 : Fin 1) _ _ concatenates_S160000_S160000_S320000_d0
    (ix1 (⟨160000 + e.val, he⟩ : Fin 320000)) rfl rfl (ix1 e) (fun b hb => ?_) ?_).trans ?_
  · match b with
    | ⟨0, _⟩ => exact absurd rfl hb
  · show e.val + 160000 = 160000 + e.val
    omega
  refine (shapeCast_apply _ _ (ix1 e) (ix2 (0 : Fin 1) e) ?_).trans ?_
  · rw [Shape.rowMajor_val_two, Shape.rowMajor_val_one]
    show (0 : Nat) * 160000 + e.val = e.val
    omega
  refine extractStridedSlice_apply _ _ _ (ix2 (0 : Fin 1) e) (ix2 (0 : Fin 2) e) (fun a => ?_)
  match a with
  | ⟨0, _⟩ => rfl
  | ⟨1, _⟩ => show e.val = 0 + e.val; omega

/-- Row e of the first half of the update rows is edge e's message. -/
theorem updRows_lo (m : S16x160000x32.Idx → EReal) (e : Fin 160000) (he : e.val < 320000) (b : Fin 16) (o : Fin 32) :
    updRows m (ix3 (⟨e.val, he⟩ : Fin 320000) b o) = m (ix3 b e o) := by
  unfold updRows
  refine (transpose_apply _ _ _ (ix3 (⟨e.val, he⟩ : Fin 320000) b o) (ix3 b (⟨e.val, he⟩ : Fin 320000) o) (fun a => ?_)).trans ?_
  · match a with
    | ⟨0, _⟩ => rfl
    | ⟨1, _⟩ => rfl
    | ⟨2, _⟩ => rfl
  refine concatenate_pair_apply_left (t := S16x320000x32) (s₁ := S16x160000x32) (s₂ := S16x160000x32) (1 : Fin 3) _ _ concatenates_S16x160000x32_S16x160000x32_S16x320000x32_d1
    (ix3 b (⟨e.val, he⟩ : Fin 320000) o) rfl (ix3 b e o) (fun a => ?_)
  match a with
  | ⟨0, _⟩ => rfl
  | ⟨1, _⟩ => rfl
  | ⟨2, _⟩ => rfl

/-- Row 160000 + e of the update rows is edge e's message again. -/
theorem updRows_hi (m : S16x160000x32.Idx → EReal) (e : Fin 160000) (he : 160000 + e.val < 320000) (b : Fin 16) (o : Fin 32) :
    updRows m (ix3 (⟨160000 + e.val, he⟩ : Fin 320000) b o) = m (ix3 b e o) := by
  unfold updRows
  refine (transpose_apply _ _ _ (ix3 (⟨160000 + e.val, he⟩ : Fin 320000) b o) (ix3 b (⟨160000 + e.val, he⟩ : Fin 320000) o) (fun a => ?_)).trans ?_
  · match a with
    | ⟨0, _⟩ => rfl
    | ⟨1, _⟩ => rfl
    | ⟨2, _⟩ => rfl
  refine concatenate_pair_apply_right (t := S16x320000x32) (s₁ := S16x160000x32) (s₂ := S16x160000x32) (1 : Fin 3) _ _ concatenates_S16x160000x32_S16x160000x32_S16x320000x32_d1
    (ix3 b (⟨160000 + e.val, he⟩ : Fin 320000) o) rfl rfl (ix3 b e o) (fun a ha => ?_) ?_
  · match a with
    | ⟨0, _⟩ => rfl
    | ⟨1, _⟩ => exact absurd rfl ha
    | ⟨2, _⟩ => rfl
  · show e.val + 160000 = 160000 + e.val
    omega

/-! ## The sum over the doubled edge axis, and a word naming a node -/

/-- A sum over the doubled edge axis is the sum over its first half plus the sum over its second half. -/
theorem sum_halves {M : Type} [AddCommMonoid M] (f : Fin 320000 → M) :
    ∑ e : Fin 320000, f e
      = (∑ e : Fin 160000, f ⟨e.val, by have := e.isLt; omega⟩)
        + ∑ e : Fin 160000, f ⟨160000 + e.val, by have := e.isLt; omega⟩ :=
  Fin.sum_univ_add (a := 160000) (b := 160000) (f : Fin (160000 + 160000) → M)

/-- A word below the node count, read signed, is the number n exactly when the node it names is n. -/
theorem word_eq_iff (w : BitVec 32) (hw : w.toNat < 20000) (n : Fin 20000) :
    (w.toInt = (n.val : Int)) ↔ ((⟨w.toNat % 20000, Nat.mod_lt _ (by norm_num)⟩ : Fin 20000) = n) := by
  rw [StableHlo.Predicate.toInt_eq_toNat_of_lt (by omega)]
  constructor
  · intro h
    apply Fin.ext
    show w.toNat % 20000 = n.val
    have h2 : w.toNat = n.val := by exact_mod_cast h
    omega
  · intro h
    have h1 : w.toNat % 20000 = n.val := congrArg Fin.val h
    have h2 : w.toNat = n.val := by omega
    exact_mod_cast h2

/-- The message sums: the messages listed twice (once per endpoint) are scattered by the endpoint list 1 followed by the endpoint list 0. -/
theorem sums (mm : Fin 16 → Fin 160000 → Fin 32 → EReal)
    (hv38 : ∀ (b : Fin 16) (e : Fin 160000) (o : Fin 32), (Vv (Proc.devRef .tc main_v38) : S16x160000x32.Idx → EReal) (ix3 b e o) = mm b e o)
    (hE : ∀ (r : Fin 2) (e : Fin 160000), ((Vv (Proc.devRef .tc main_arg1) : S2x160000.Idx → BitVec 32) (ix2 r e)).toNat < 20000) (n : Fin 20000) (b : Fin 16) (o : Fin 32) :
    (StableHlo.after (Seg.seg3 (F := Ideal)) Vv (Proc.devRef .tc main_v48) : S20000x16x32.Idx → EReal) (ix3 n b o) = Cert.Spec.Sval mm (Vv (Proc.devRef .tc main_arg1) : S2x160000.Idx → BitVec 32) n b o := by
  rw [v48_eq, ScatterRead.scatter3_apply]
  -- the scatter starts from zeros
  have hz : (broadcastInDim S20000x16x32 ![] bcast_S_S20000x16x32 (constant (F := Ideal) S_ .f32 0x00000000#32) : S20000x16x32.Idx → EReal) (ix3 n b o) = 0 :=
    Ideal.ofBits_zero_f32
  rw [hz, zero_add, sum_halves]
  unfold Cert.Spec.Sval
  refine congrArg₂ (· + ·) ?_ ?_
  · refine Finset.sum_congr rfl (fun e _ => ?_)
    rw [idxCol_lo, updRows_lo, hv38]
    exact if_congr (word_eq_iff _ (hE 1 e) n) rfl rfl
  · refine Finset.sum_congr rfl (fun e _ => ?_)
    rw [idxCol_hi, updRows_hi, hv38]
    exact if_congr (word_eq_iff _ (hE 0 e) n) rfl rfl

/-- The endpoint counts. -/
theorem counts (hE : ∀ (r : Fin 2) (e : Fin 160000), ((Vv (Proc.devRef .tc main_arg1) : S2x160000.Idx → BitVec 32) (ix2 r e)).toNat < 20000) (n : Fin 20000) :
    (StableHlo.after (Seg.seg3 (F := Ideal)) Vv (Proc.devRef .tc main_v52) : S20000.Idx → EReal) (ix1 n) = Cert.Spec.Cval (Vv (Proc.devRef .tc main_arg1) : S2x160000.Idx → BitVec 32) n := by
  rw [v52_eq, ScatterRead.scatter1_apply]
  -- the scatter starts from zeros
  have hz : (broadcastInDim S20000 ![] bcast_S_S20000 (constant (F := Ideal) S_ .f32 0x00000000#32) : S20000.Idx → EReal) (ix1 n) = 0 :=
    Ideal.ofBits_zero_f32
  rw [hz, zero_add, sum_halves]
  unfold Cert.Spec.Cval
  refine congrArg₂ (· + ·) ?_ ?_
  · refine Finset.sum_congr rfl (fun e _ => ?_)
    rw [idxCol_lo]
    exact if_congr (word_eq_iff _ (hE 1 e) n) rfl rfl
  · refine Finset.sum_congr rfl (fun e _ => ?_)
    rw [idxCol_hi]
    exact if_congr (word_eq_iff _ (hE 0 e) n) rfl rfl

/-! ## No operation of this stretch writes an argument -/

theorem s3_arg0 : StableHlo.after (Seg.seg3 (F := Ideal)) Vv (Proc.devRef .tc main_arg0) = Vv (Proc.devRef .tc main_arg0) := by
  simp only [StableHlo.after_cons, StableHlo.after_nil]; rfl
theorem s3_arg1 : StableHlo.after (Seg.seg3 (F := Ideal)) Vv (Proc.devRef .tc main_arg1) = Vv (Proc.devRef .tc main_arg1) := by
  simp only [StableHlo.after_cons, StableHlo.after_nil]; rfl
theorem s3_arg2 : StableHlo.after (Seg.seg3 (F := Ideal)) Vv (Proc.devRef .tc main_arg2) = Vv (Proc.devRef .tc main_arg2) := by
  simp only [StableHlo.after_cons, StableHlo.after_nil]; rfl
theorem s3_arg3 : StableHlo.after (Seg.seg3 (F := Ideal)) Vv (Proc.devRef .tc main_arg3) = Vv (Proc.devRef .tc main_arg3) := by
  simp only [StableHlo.after_cons, StableHlo.after_nil]; rfl
theorem s3_arg4 : StableHlo.after (Seg.seg3 (F := Ideal)) Vv (Proc.devRef .tc main_arg4) = Vv (Proc.devRef .tc main_arg4) := by
  simp only [StableHlo.after_cons, StableHlo.after_nil]; rfl
theorem s3_arg5 : StableHlo.after (Seg.seg3 (F := Ideal)) Vv (Proc.devRef .tc main_arg5) = Vv (Proc.devRef .tc main_arg5) := by
  simp only [StableHlo.after_cons, StableHlo.after_nil]; rfl
theorem s3_arg6 : StableHlo.after (Seg.seg3 (F := Ideal)) Vv (Proc.devRef .tc main_arg6) = Vv (Proc.devRef .tc main_arg6) := by
  simp only [StableHlo.after_cons, StableHlo.after_nil]; rfl
theorem s3_arg7 : StableHlo.after (Seg.seg3 (F := Ideal)) Vv (Proc.devRef .tc main_arg7) = Vv (Proc.devRef .tc main_arg7) := by
  simp only [StableHlo.after_cons, StableHlo.after_nil]; rfl
theorem s3_arg8 : StableHlo.after (Seg.seg3 (F := Ideal)) Vv (Proc.devRef .tc main_arg8) = Vv (Proc.devRef .tc main_arg8) := by
  simp only [StableHlo.after_cons, StableHlo.after_nil]; rfl
theorem s3_arg9 : StableHlo.after (Seg.seg3 (F := Ideal)) Vv (Proc.devRef .tc main_arg9) = Vv (Proc.devRef .tc main_arg9) := by
  simp only [StableHlo.after_cons, StableHlo.after_nil]; rfl
theorem s3_arg10 : StableHlo.after (Seg.seg3 (F := Ideal)) Vv (Proc.devRef .tc main_arg10) = Vv (Proc.devRef .tc main_arg10) := by
  simp only [StableHlo.after_cons, StableHlo.after_nil]; rfl
theorem s3_arg11 : StableHlo.after (Seg.seg3 (F := Ideal)) Vv (Proc.devRef .tc main_arg11) = Vv (Proc.devRef .tc main_arg11) := by
  simp only [StableHlo.after_cons, StableHlo.after_nil]; rfl
theorem s3_arg12 : StableHlo.after (Seg.seg3 (F := Ideal)) Vv (Proc.devRef .tc main_arg12) = Vv (Proc.devRef .tc main_arg12) := by
  simp only [StableHlo.after_cons, StableHlo.after_nil]; rfl
theorem s3_arg13 : StableHlo.after (Seg.seg3 (F := Ideal)) Vv (Proc.devRef .tc main_arg13) = Vv (Proc.devRef .tc main_arg13) := by
  simp only [StableHlo.after_cons, StableHlo.after_nil]; rfl
theorem s3_arg14 : StableHlo.after (Seg.seg3 (F := Ideal)) Vv (Proc.devRef .tc main_arg14) = Vv (Proc.devRef .tc main_arg14) := by
  simp only [StableHlo.after_cons, StableHlo.after_nil]; rfl
theorem s3_arg15 : StableHlo.after (Seg.seg3 (F := Ideal)) Vv (Proc.devRef .tc main_arg15) = Vv (Proc.devRef .tc main_arg15) := by
  simp only [StableHlo.after_cons, StableHlo.after_nil]; rfl

end Cert.ReferenceIdeal.Stage3

end
-- ==== Proof.RStage4.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws
import proofs.«401352_j13305808683173_1_alg».proof.Proof.RSeg4

set_option maxRecDepth 16384

noncomputable section

open scoped BigOperators

namespace Cert.ReferenceIdeal.Stage4

open Idealize.ShloMosaic Idealize.ShloMosaic.TcCoe Idealize.ShloMosaic.ValueIdx Idealize.SL.Sem
open Cert.ReferenceIdeal
open Cert.ReferenceIdeal.Facts₀ Cert.ReferenceIdeal.Facts

variable [Cert.ReferenceIdeal.Facts]
variable (Vv : Valuation τ sig (Elt Ideal))

section Reads
variable {α : Type}

/-- A [20000,1,1] array broadcast along its own three axes to [20000,16,32], read at (n, b, k), is the array at (n, 0, 0). -/
theorem bc3_apply (x : S20000x1x1.Idx → α) (n : Fin 20000) (b : Fin 16) (k : Fin 32) :
    broadcastInDim S20000x16x32 ![0, 1, 2] bcast_S20000x1x1_S20000x16x32_0_1_2 x (ix3 n b k) = x (ix3 n 0 0) :=
  broadcastInDim_apply _ _ _ (ix3 n b k) (ix3 n 0 0) (fun a => by
    match a with
    | ⟨0, _⟩ => rfl
    | ⟨1, _⟩ => rfl
    | ⟨2, _⟩ => rfl)

/-- A [20000] array broadcast along axis 0 to [20000,1,1], read at (n, 0, 0), is the array at n. -/
theorem bc1_apply (x : S20000.Idx → α) (n : Fin 20000) :
    broadcastInDim S20000x1x1 ![0] bcast_S20000_S20000x1x1_0 x (ix3 n 0 0) = x (ix1 n) :=
  broadcastInDim_apply _ _ _ (ix3 n 0 0) (ix1 n) (fun a => by
    match a with
    | ⟨0, _⟩ => rfl)

end Reads

/-- The buffer of %62 after the stretch, as one term over the buffers of %48 and %52: the quotient of the sums by the
    counts raised to at least one, kept where the count is positive and zero elsewhere, the first two axes exchanged. -/
theorem v62_eq :
    StableHlo.after (Seg.seg4 (F := Ideal)) Vv (Proc.devRef .tc main_v62)
      = (transpose S16x20000x32 [1, 0, 2]
          (select
            (broadcastInDim S20000x16x32 ![0, 1, 2] bcast_S20000x1x1_S20000x16x32_0_1_2
              (cmpf .ogt (broadcastInDim S20000x1x1 ![0] bcast_S20000_S20000x1x1_0 (Vv (Proc.devRef .tc main_v52) : S20000.Idx → EReal))
                 (broadcastInDim S20000x1x1 ![] bcast_S_S20000x1x1 (constant (F := Ideal) S_ .f32 0x00000000#32))))
            (Host.divf (F := Ideal) (φ := .f32) (Vv (Proc.devRef .tc main_v48) : S20000x16x32.Idx → EReal)
              (broadcastInDim S20000x16x32 ![0, 1, 2] bcast_S20000x1x1_S20000x16x32_0_1_2
                (broadcastInDim S20000x1x1 ![0] bcast_S20000_S20000x1x1_0
                  (maximumf (F := Ideal) (φ := .f32) (Vv (Proc.devRef .tc main_v52) : S20000.Idx → EReal)
                    (broadcastInDim S20000 ![] bcast_S_S20000 (constant (F := Ideal) S_ .f32 0x3F800000#32))))))
            (broadcastInDim S20000x16x32 ![] bcast_S_S20000x16x32 (constant (F := Ideal) S_ .f32 0x00000000#32)))
          transposes_S20000x16x32_S16x20000x32_1_0_2 : S16x20000x32.Idx → EReal) := by
  simp only [StableHlo.after_cons, StableHlo.after_nil]
  rfl

/-- The mean messages, node-major turned graph-major. -/
theorem out (S : Fin 20000 → Fin 16 → Fin 32 → EReal) (C : Fin 20000 → EReal)
    (hv48 : ∀ (n : Fin 20000) (b : Fin 16) (o : Fin 32), (Vv (Proc.devRef .tc main_v48) : S20000x16x32.Idx → EReal) (ix3 n b o) = S n b o)
    (hv52 : ∀ n : Fin 20000, (Vv (Proc.devRef .tc main_v52) : S20000.Idx → EReal) (ix1 n) = C n)
    (b : Fin 16) (n : Fin 20000) (k : Fin 32) :
    (StableHlo.after (Seg.seg4 (F := Ideal)) Vv (Proc.devRef .tc main_v62) : S16x20000x32.Idx → EReal) (ix3 b n k) = Cert.Spec.Aval S C b n k := by
  rw [v62_eq]
  -- the transpose reads (n, b, k)
  refine (transpose_apply _ _ _ (ix3 b n k) (ix3 n b k) (fun a => ?_)).trans ?_
  · match a with
    | ⟨0, _⟩ => rfl
    | ⟨1, _⟩ => rfl
    | ⟨2, _⟩ => rfl
  -- the select, the comparison, the quotient and the maximum are elementwise; the broadcasts read (n,0,0), then n
  rw [select_apply, bc3_apply, cmpf_apply, bc1_apply, hv52]
  show Scalar.select (Ideal.cmp .ogt (C n) Cert.Spec.zero)
      (Ideal.div ((Vv (Proc.devRef .tc main_v48) : S20000x16x32.Idx → EReal) (ix3 n b k))
        (broadcastInDim S20000x16x32 ![0, 1, 2] bcast_S20000x1x1_S20000x16x32_0_1_2
          (broadcastInDim S20000x1x1 ![0] bcast_S20000_S20000x1x1_0
            (maximumf (F := Ideal) (φ := .f32) (Vv (Proc.devRef .tc main_v52) : S20000.Idx → EReal)
              (broadcastInDim S20000 ![] bcast_S_S20000 (constant (F := Ideal) S_ .f32 0x3F800000#32)))) (ix3 n b k)))
      Cert.Spec.zero = _
  rw [bc3_apply, bc1_apply, maximumf_apply, hv52, hv48]
  rfl

/-! ## No operation of this stretch writes an argument -/

theorem s4_arg0 : StableHlo.after (Seg.seg4 (F := Ideal)) Vv (Proc.devRef .tc main_arg0) = Vv (Proc.devRef .tc main_arg0) := by
  simp only [StableHlo.after_cons, StableHlo.after_nil]; rfl
theorem s4_arg1 : StableHlo.after (Seg.seg4 (F := Ideal)) Vv (Proc.devRef .tc main_arg1) = Vv (Proc.devRef .tc main_arg1) := by
  simp only [StableHlo.after_cons, StableHlo.after_nil]; rfl
theorem s4_arg2 : StableHlo.after (Seg.seg4 (F := Ideal)) Vv (Proc.devRef .tc main_arg2) = Vv (Proc.devRef .tc main_arg2) := by
  simp only [StableHlo.after_cons, StableHlo.after_nil]; rfl
theorem s4_arg3 : StableHlo.after (Seg.seg4 (F := Ideal)) Vv (Proc.devRef .tc main_arg3) = Vv (Proc.devRef .tc main_arg3) := by
  simp only [StableHlo.after_cons, StableHlo.after_nil]; rfl
theorem s4_arg4 : StableHlo.after (Seg.seg4 (F := Ideal)) Vv (Proc.devRef .tc main_arg4) = Vv (Proc.devRef .tc main_arg4) := by
  simp only [StableHlo.after_cons, StableHlo.after_nil]; rfl
theorem s4_arg5 : StableHlo.after (Seg.seg4 (F := Ideal)) Vv (Proc.devRef .tc main_arg5) = Vv (Proc.devRef .tc main_arg5) := by
  simp only [StableHlo.after_cons, StableHlo.after_nil]; rfl
theorem s4_arg6 : StableHlo.after (Seg.seg4 (F := Ideal)) Vv (Proc.devRef .tc main_arg6) = Vv (Proc.devRef .tc main_arg6) := by
  simp only [StableHlo.after_cons, StableHlo.after_nil]; rfl
theorem s4_arg7 : StableHlo.after (Seg.seg4 (F := Ideal)) Vv (Proc.devRef .tc main_arg7) = Vv (Proc.devRef .tc main_arg7) := by
  simp only [StableHlo.after_cons, StableHlo.after_nil]; rfl
theorem s4_arg8 : StableHlo.after (Seg.seg4 (F := Ideal)) Vv (Proc.devRef .tc main_arg8) = Vv (Proc.devRef .tc main_arg8) := by
  simp only [StableHlo.after_cons, StableHlo.after_nil]; rfl
theorem s4_arg9 : StableHlo.after (Seg.seg4 (F := Ideal)) Vv (Proc.devRef .tc main_arg9) = Vv (Proc.devRef .tc main_arg9) := by
  simp only [StableHlo.after_cons, StableHlo.after_nil]; rfl
theorem s4_arg10 : StableHlo.after (Seg.seg4 (F := Ideal)) Vv (Proc.devRef .tc main_arg10) = Vv (Proc.devRef .tc main_arg10) := by
  simp only [StableHlo.after_cons, StableHlo.after_nil]; rfl
theorem s4_arg11 : StableHlo.after (Seg.seg4 (F := Ideal)) Vv (Proc.devRef .tc main_arg11) = Vv (Proc.devRef .tc main_arg11) := by
  simp only [StableHlo.after_cons, StableHlo.after_nil]; rfl
theorem s4_arg12 : StableHlo.after (Seg.seg4 (F := Ideal)) Vv (Proc.devRef .tc main_arg12) = Vv (Proc.devRef .tc main_arg12) := by
  simp only [StableHlo.after_cons, StableHlo.after_nil]; rfl
theorem s4_arg13 : StableHlo.after (Seg.seg4 (F := Ideal)) Vv (Proc.devRef .tc main_arg13) = Vv (Proc.devRef .tc main_arg13) := by
  simp only [StableHlo.after_cons, StableHlo.after_nil]; rfl
theorem s4_arg14 : StableHlo.after (Seg.seg4 (F := Ideal)) Vv (Proc.devRef .tc main_arg14) = Vv (Proc.devRef .tc main_arg14) := by
  simp only [StableHlo.after_cons, StableHlo.after_nil]; rfl
theorem s4_arg15 : StableHlo.after (Seg.seg4 (F := Ideal)) Vv (Proc.devRef .tc main_arg15) = Vv (Proc.devRef .tc main_arg15) := by
  simp only [StableHlo.after_cons, StableHlo.after_nil]; rfl

end Cert.ReferenceIdeal.Stage4

end
-- ==== Proof.RStage5.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws
import proofs.«401352_j13305808683173_1_alg».proof.Proof.RSeg5

set_option maxRecDepth 16384

noncomputable section

open scoped BigOperators

namespace Cert.ReferenceIdeal.Stage5

open Idealize.ShloMosaic Idealize.ShloMosaic.TcCoe Idealize.ShloMosaic.ValueIdx Idealize.SL.Sem
open Cert.ReferenceIdeal

variable [Cert.ReferenceIdeal.Facts]
open Cert.ReferenceIdeal.Facts₀ Cert.ReferenceIdeal.Facts

/-! ## The two products, the bias broadcasts and the dropped unit axis read at an index -/

/-- A [B, N, K] array times an [O, K] matrix, contracted over the last axis of each, read at (b, n, o): the sum over
    the contracted coordinate of the products of the entries. At the extended reals, where the host's product is the
    plain sum over the contraction index; that index, a one-axis multi-index, is re-indexed by its one coordinate. -/
theorem dotRows_apply {B N K O : Nat} {φ₁ φ₂ : FTy}
    (w : DotDims.WF ⟨3, ![B, N, K]⟩ ⟨2, ![O, K]⟩ ⟨3, ![B, N, O]⟩ [2] [1] [0, 1] [0] [] [])
    (prec : Option ContractPrecision) (A : FVec Ideal ⟨3, ![B, N, K]⟩ φ₁) (W : FVec Ideal ⟨2, ![O, K]⟩ φ₂)
    (b : Fin B) (n : Fin N) (o : Fin O) :
    Host.dotGeneral (⟨[2], [1], [0, 1], [0], [], [], w⟩ : DotDims _ _ _) prec A W (ix3 b n o)
      = ∑ k : Fin K, A (ix3 b n k) * W (ix2 o k) := by
  show FloatOps.dotGeneral _ prec _ A W (ix3 b n o) = _
  rw [Ideal.dotGeneral_apply,
    ← Equiv.sum_comp (contrEquiv1 (⟨[2], [1], [0, 1], [0], [], [], w⟩ : DotDims _ _ _) K rfl rfl).symm]
  refine Finset.sum_congr rfl fun k _ => ?_
  have ck := contrEquiv1_symm_val
    (⟨[2], [1], [0, 1], [0], [], [], w⟩ : DotDims ⟨3, ![B, N, K]⟩ ⟨2, ![O, K]⟩ ⟨3, ![B, N, O]⟩) K rfl rfl k
  have hl : (⟨[2], [1], [0, 1], [0], [], [], w⟩ : DotDims ⟨3, ![B, N, K]⟩ ⟨2, ![O, K]⟩ ⟨3, ![B, N, O]⟩).lhsIdx (ix3 b n o)
      ((contrEquiv1 _ K rfl rfl).symm k) = ix3 b n k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
  have hr : (⟨[2], [1], [0, 1], [0], [], [], w⟩ : DotDims ⟨3, ![B, N, K]⟩ ⟨2, ![O, K]⟩ ⟨3, ![B, N, O]⟩).rhsIdx (ix3 b n o)
      ((contrEquiv1 _ K rfl rfl).symm k) = ix2 o k := by
    funext ax; apply Fin.ext
    match ax with
    | ⟨0, _⟩ => simp [DotDims.rhsIdx]; rfl
    | ⟨1, _⟩ => simp [DotDims.rhsIdx]; exact ck
  rw [hl, hr]

/-- The first layer's product at (b, n, c): Σ_i a(b, n, i) · W1(c, i). -/
theorem dot1_apply (A : FVec Ideal S16x20000x32 .f32) (W : FVec Ideal S32x32 .f32) (b : Fin 16) (n : Fin 20000) (c : Fin 32) :
    Host.dotGeneral dot_S16x20000x32_S32x32_S16x20000x32_2_1_01_0_n_n none A W (ix3 b n c)
      = ∑ i : Fin 32, A (ix3 b n i) * W (ix2 c i) :=
  dotRows_apply dot_S16x20000x32_S32x32_S16x20000x32_2_1_01_0_n_n_wf none A W b n c

/-- The second layer's product, onto its one output column, at (b, n, 0): Σ_c r(b, n, c) · W2(0, c). -/
theorem dot2_apply (A : FVec Ideal S16x20000x32 .f32) (W : FVec Ideal S1x32 .f32) (b : Fin 16) (n : Fin 20000) (o : Fin 1) :
    Host.dotGeneral dot_S16x20000x32_S1x32_S16x20000x1_2_1_01_0_n_n none A W (ix3 b n o)
      = ∑ c : Fin 32, A (ix3 b n c) * W (ix2 o c) :=
  dotRows_apply dot_S16x20000x32_S1x32_S16x20000x1_2_1_01_0_n_n_wf none A W b n o

/-- A bias vector broadcast along the last axis, first to [1, 1, 32] and then to the whole array, reads at (b, n, o)
    its entry o. -/
theorem bias_apply (v : FVec Ideal S32 .f32) (b : Fin 16) (n : Fin 20000) (o : Fin 32) :
    broadcastInDim S16x20000x32 ![0, 1, 2] bcast_S1x1x32_S16x20000x32_0_1_2 (broadcastInDim S1x1x32 ![2] bcast_S32_S1x1x32_2 v)
        (ix3 b n o) = v (ix1 o) := by
  rw [broadcastInDim_apply _ _ _ _ (ix3 (0 : Fin 1) (0 : Fin 1) o) (fun a => by
        match a with
        | ⟨0, _⟩ => rfl
        | ⟨1, _⟩ => rfl
        | ⟨2, _⟩ => rfl),
    broadcastInDim_apply _ _ _ _ (ix1 o) (fun a => by
        match a with
        | ⟨0, _⟩ => rfl)]

/-- The one-entry bias broadcast to [1, 1, 1] and then to the whole one-column array reads its entry everywhere. -/
theorem bias1_apply (v : FVec Ideal S1 .f32) (b : Fin 16) (n : Fin 20000) (o : Fin 1) :
    broadcastInDim S16x20000x1 ![0, 1, 2] bcast_S1x1x1_S16x20000x1_0_1_2 (broadcastInDim S1x1x1 ![2] bcast_S1_S1x1x1_2 v)
        (ix3 b n o) = v (ix1 0) := by
  rw [broadcastInDim_apply _ _ _ _ (ix3 (0 : Fin 1) (0 : Fin 1) (0 : Fin 1)) (fun a => by
        match a with
        | ⟨0, _⟩ => rfl
        | ⟨1, _⟩ => rfl
        | ⟨2, _⟩ => rfl),
    broadcastInDim_apply _ _ _ _ (ix1 (0 : Fin 1)) (fun a => by
        match a with
        | ⟨0, _⟩ => rfl)]

/-- A [16, 20000, 1] array reshaped to [16, 20000] reads at (b, n) the operand at (b, n, 0): the two indices have the
    same row-major position. -/
theorem dropCol_apply {α : Type} (x : S16x20000x1.Idx → α) (h : S16x20000x1.ShapeCasts S16x20000) (b : Fin 16) (n : Fin 20000) :
    shapeCast S16x20000 x h (ix2 b n) = x (ix3 b n (0 : Fin 1)) :=
  shapeCast_apply x h _ _ (by
    rw [Shape.rowMajor_val_three, Shape.rowMajor_val_two]
    show (b.val * 20000 + n.val) * 1 + 0 = b.val * 20000 + n.val
    rw [Nat.mul_one, Nat.add_zero])

/-! ## The composed term -/

/-- The zero word broadcast to the hidden layer's array; the zero and the slope words broadcast to the one-column array. -/
def zeroV : FVec Ideal S16x20000x32 .f32 :=
  broadcastInDim S16x20000x32 ![] bcast_S_S16x20000x32 (constant (F := Ideal) S_ .f32 0x00000000#32)
def zeroC : FVec Ideal S16x20000x1 .f32 :=
  broadcastInDim S16x20000x1 ![] bcast_S_S16x20000x1 (constant (F := Ideal) S_ .f32 0x00000000#32)
def slopeC : FVec Ideal S16x20000x1 .f32 :=
  broadcastInDim S16x20000x1 ![] bcast_S_S16x20000x1 (constant (F := Ideal) S_ .f32 0x3C23D70A#32)

/-- The first layer before and after its ReLU, the second layer before and after its leaky ReLU, as arrays. -/
def lin1 (a : FVec Ideal S16x20000x32 .f32) (W1 : FVec Ideal S32x32 .f32) (b1 : FVec Ideal S32 .f32) : FVec Ideal S16x20000x32 .f32 :=
  addf (Host.dotGeneral dot_S16x20000x32_S32x32_S16x20000x32_2_1_01_0_n_n none a W1)
    (broadcastInDim S16x20000x32 ![0, 1, 2] bcast_S1x1x32_S16x20000x32_0_1_2 (broadcastInDim S1x1x32 ![2] bcast_S32_S1x1x32_2 b1))
def act1 (a : FVec Ideal S16x20000x32 .f32) (W1 : FVec Ideal S32x32 .f32) (b1 : FVec Ideal S32 .f32) : FVec Ideal S16x20000x32 .f32 :=
  maximumf (lin1 a W1 b1) zeroV
def lin2 (a : FVec Ideal S16x20000x32 .f32) (W1 : FVec Ideal S32x32 .f32) (b1 : FVec Ideal S32 .f32)
    (W2 : FVec Ideal S1x32 .f32) (b2 : FVec Ideal S1 .f32) : FVec Ideal S16x20000x1 .f32 :=
  addf (Host.dotGeneral dot_S16x20000x32_S1x32_S16x20000x1_2_1_01_0_n_n none (act1 a W1 b1) W2)
    (broadcastInDim S16x20000x1 ![0, 1, 2] bcast_S1x1x1_S16x20000x1_0_1_2 (broadcastInDim S1x1x1 ![2] bcast_S1_S1x1x1_2 b2))
def act2 (a : FVec Ideal S16x20000x32 .f32) (W1 : FVec Ideal S32x32 .f32) (b1 : FVec Ideal S32 .f32)
    (W2 : FVec Ideal S1x32 .f32) (b2 : FVec Ideal S1 .f32) : FVec Ideal S16x20000x1 .f32 :=
  select (cmpf .oge (lin2 a W1 b1 W2 b2) zeroC) (lin2 a W1 b1 W2 b2) (mulf slopeC (lin2 a W1 b1 W2 b2))
/-- What the eleven statements leave in the buffer of %73, as one term over the buffer of %62 and the four argument arrays. -/
def vTerm (a : FVec Ideal S16x20000x32 .f32) (W1 : FVec Ideal S32x32 .f32) (b1 : FVec Ideal S32 .f32)
    (W2 : FVec Ideal S1x32 .f32) (b2 : FVec Ideal S1 .f32) : FVec Ideal S16x20000 .f32 :=
  shapeCast S16x20000 (act2 a W1 b1 W2 b2) shapeCasts_S16x20000x1_S16x20000

theorem zeroV_apply (i : S16x20000x32.Idx) : zeroV i = Cert.Spec.zero := rfl
theorem zeroC_apply (i : S16x20000x1.Idx) : zeroC i = Cert.Spec.zero := rfl
theorem slopeC_apply (i : S16x20000x1.Idx) : slopeC i = Cert.Spec.slope := rfl

theorem lin1_apply (a : FVec Ideal S16x20000x32 .f32) (W1 : FVec Ideal S32x32 .f32) (b1 : FVec Ideal S32 .f32)
    (b : Fin 16) (n : Fin 20000) (c : Fin 32) :
    lin1 a W1 b1 (ix3 b n c) = (∑ i : Fin 32, a (ix3 b n i) * W1 (ix2 c i)) + b1 (ix1 c) := by
  unfold lin1
  rw [addf_apply, dot1_apply, bias_apply]

theorem act1_apply (a : FVec Ideal S16x20000x32 .f32) (W1 : FVec Ideal S32x32 .f32) (b1 : FVec Ideal S32 .f32)
    (b : Fin 16) (n : Fin 20000) (c : Fin 32) :
    act1 a W1 b1 (ix3 b n c) = Cert.Spec.relu ((∑ i : Fin 32, a (ix3 b n i) * W1 (ix2 c i)) + b1 (ix1 c)) := by
  unfold act1
  rw [maximumf_apply, lin1_apply, zeroV_apply]
  rfl

theorem lin2_apply (a : FVec Ideal S16x20000x32 .f32) (W1 : FVec Ideal S32x32 .f32) (b1 : FVec Ideal S32 .f32)
    (W2 : FVec Ideal S1x32 .f32) (b2 : FVec Ideal S1 .f32) (b : Fin 16) (n : Fin 20000) (o : Fin 1) :
    lin2 a W1 b1 W2 b2 (ix3 b n o)
      = (∑ c : Fin 32, Cert.Spec.relu ((∑ i : Fin 32, a (ix3 b n i) * W1 (ix2 c i)) + b1 (ix1 c)) * W2 (ix2 o c)) + b2 (ix1 0) := by
  unfold lin2
  rw [addf_apply, dot2_apply, bias1_apply]
  simp only [act1_apply]

theorem vTerm_apply (a : FVec Ideal S16x20000x32 .f32) (W1 : FVec Ideal S32x32 .f32) (b1 : FVec Ideal S32 .f32)
    (W2 : FVec Ideal S1x32 .f32) (b2 : FVec Ideal S1 .f32) (b : Fin 16) (n : Fin 20000) :
    vTerm a W1 b1 W2 b2 (ix2 b n) = Cert.Spec.Vval (fun b n k => a (ix3 b n k)) W1 b1 W2 b2 b n := by
  unfold vTerm
  rw [dropCol_apply]
  unfold act2
  rw [select_apply, cmpf_apply, mulf_apply, lin2_apply, zeroC_apply, slopeC_apply]
  rfl

variable (Vv : Valuation τ sig (Elt Ideal))

/-- The fold of the eleven statements at the buffer of %73 is the composed term, by computation: each operation's
    result is its function of the operands' contents at its own buffer and what was there at every other. -/
theorem v73_eq : StableHlo.after (Seg.seg5 (F := Ideal)) Vv (Proc.devRef .tc main_v73)
    = vTerm (Vv (Proc.devRef .tc main_v62)) (Vv (Proc.devRef .tc main_arg10)) (Vv (Proc.devRef .tc main_arg11))
        (Vv (Proc.devRef .tc main_arg12)) (Vv (Proc.devRef .tc main_arg13)) := by
  simp only [StableHlo.after_cons, StableHlo.after_nil]
  rfl

/-- The node outputs: the third perceptron, its one output column dropped. -/
theorem out (a : Fin 16 → Fin 20000 → Fin 32 → EReal)
    (hv62 : ∀ (b : Fin 16) (n : Fin 20000) (k : Fin 32), (Vv (Proc.devRef .tc main_v62) : S16x20000x32.Idx → EReal) (ix3 b n k) = a b n k)
    (b : Fin 16) (n : Fin 20000) :
    (StableHlo.after (Seg.seg5 (F := Ideal)) Vv (Proc.devRef .tc main_v73) : S16x20000.Idx → EReal) (ix2 b n)
      = Cert.Spec.Vval a (Vv (Proc.devRef .tc main_arg10) : S32x32.Idx → EReal) (Vv (Proc.devRef .tc main_arg11) : S32.Idx → EReal) (Vv (Proc.devRef .tc main_arg12) : S1x32.Idx → EReal) (Vv (Proc.devRef .tc main_arg13) : S1.Idx → EReal) b n := by
  have ha : (fun (b : Fin 16) (n : Fin 20000) (k : Fin 32) => (Vv (Proc.devRef .tc main_v62) : S16x20000x32.Idx → EReal) (ix3 b n k)) = a :=
    funext fun b => funext fun n => funext fun k => hv62 b n k
  rw [v73_eq, ← ha]
  exact vTerm_apply _ _ _ _ _ b n

/-! ## No operation of this stretch writes an argument -/

theorem s5_arg0 : StableHlo.after (Seg.seg5 (F := Ideal)) Vv (Proc.devRef .tc main_arg0) = Vv (Proc.devRef .tc main_arg0) := by
  simp only [StableHlo.after_cons, StableHlo.after_nil]
  rfl
theorem s5_arg1 : StableHlo.after (Seg.seg5 (F := Ideal)) Vv (Proc.devRef .tc main_arg1) = Vv (Proc.devRef .tc main_arg1) := by
  simp only [StableHlo.after_cons, StableHlo.after_nil]
  rfl
theorem s5_arg2 : StableHlo.after (Seg.seg5 (F := Ideal)) Vv (Proc.devRef .tc main_arg2) = Vv (Proc.devRef .tc main_arg2) := by
  simp only [StableHlo.after_cons, StableHlo.after_nil]
  rfl
theorem s5_arg3 : StableHlo.after (Seg.seg5 (F := Ideal)) Vv (Proc.devRef .tc main_arg3) = Vv (Proc.devRef .tc main_arg3) := by
  simp only [StableHlo.after_cons, StableHlo.after_nil]
  rfl
theorem s5_arg4 : StableHlo.after (Seg.seg5 (F := Ideal)) Vv (Proc.devRef .tc main_arg4) = Vv (Proc.devRef .tc main_arg4) := by
  simp only [StableHlo.after_cons, StableHlo.after_nil]
  rfl
theorem s5_arg5 : StableHlo.after (Seg.seg5 (F := Ideal)) Vv (Proc.devRef .tc main_arg5) = Vv (Proc.devRef .tc main_arg5) := by
  simp only [StableHlo.after_cons, StableHlo.after_nil]
  rfl
theorem s5_arg6 : StableHlo.after (Seg.seg5 (F := Ideal)) Vv (Proc.devRef .tc main_arg6) = Vv (Proc.devRef .tc main_arg6) := by
  simp only [StableHlo.after_cons, StableHlo.after_nil]
  rfl
theorem s5_arg7 : StableHlo.after (Seg.seg5 (F := Ideal)) Vv (Proc.devRef .tc main_arg7) = Vv (Proc.devRef .tc main_arg7) := by
  simp only [StableHlo.after_cons, StableHlo.after_nil]
  rfl
theorem s5_arg8 : StableHlo.after (Seg.seg5 (F := Ideal)) Vv (Proc.devRef .tc main_arg8) = Vv (Proc.devRef .tc main_arg8) := by
  simp only [StableHlo.after_cons, StableHlo.after_nil]
  rfl
theorem s5_arg9 : StableHlo.after (Seg.seg5 (F := Ideal)) Vv (Proc.devRef .tc main_arg9) = Vv (Proc.devRef .tc main_arg9) := by
  simp only [StableHlo.after_cons, StableHlo.after_nil]
  rfl
theorem s5_arg10 : StableHlo.after (Seg.seg5 (F := Ideal)) Vv (Proc.devRef .tc main_arg10) = Vv (Proc.devRef .tc main_arg10) := by
  simp only [StableHlo.after_cons, StableHlo.after_nil]
  rfl
theorem s5_arg11 : StableHlo.after (Seg.seg5 (F := Ideal)) Vv (Proc.devRef .tc main_arg11) = Vv (Proc.devRef .tc main_arg11) := by
  simp only [StableHlo.after_cons, StableHlo.after_nil]
  rfl
theorem s5_arg12 : StableHlo.after (Seg.seg5 (F := Ideal)) Vv (Proc.devRef .tc main_arg12) = Vv (Proc.devRef .tc main_arg12) := by
  simp only [StableHlo.after_cons, StableHlo.after_nil]
  rfl
theorem s5_arg13 : StableHlo.after (Seg.seg5 (F := Ideal)) Vv (Proc.devRef .tc main_arg13) = Vv (Proc.devRef .tc main_arg13) := by
  simp only [StableHlo.after_cons, StableHlo.after_nil]
  rfl
theorem s5_arg14 : StableHlo.after (Seg.seg5 (F := Ideal)) Vv (Proc.devRef .tc main_arg14) = Vv (Proc.devRef .tc main_arg14) := by
  simp only [StableHlo.after_cons, StableHlo.after_nil]
  rfl
theorem s5_arg15 : StableHlo.after (Seg.seg5 (F := Ideal)) Vv (Proc.devRef .tc main_arg15) = Vv (Proc.devRef .tc main_arg15) := by
  simp only [StableHlo.after_cons, StableHlo.after_nil]
  rfl

end Cert.ReferenceIdeal.Stage5

end
-- ==== Proof.RStage6.lean ====
import proofs.«401352_j13305808683173_1_alg».proof.ReferenceIdeal
import proofs.«401352_j13305808683173_1_alg».proof.Proof.Spec
import Idealize.ShloMosaic.Lib.StableHlo.Run
import Idealize.ShloMosaic.Lib.ValueIdx
import Idealize.ShloMosaic.Lib.Pipeline.Value
import Idealize.ShloMosaic.PureOps.Ideal.Laws
import proofs.«401352_j13305808683173_1_alg».proof.Proof.RSeg6

set_option maxRecDepth 16384

noncomputable section

open scoped BigOperators

namespace Cert.ReferenceIdeal.Stage6

open Idealize.ShloMosaic Idealize.ShloMosaic.TcCoe Idealize.ShloMosaic.ValueIdx Idealize.SL.Sem
open Cert.ReferenceIdeal

variable [Cert.ReferenceIdeal.Facts]
variable (Vv : Valuation τ sig (Elt Ideal))

/-! ## The weighted sum over the nodes

The product contracts axis 1 of the left operand [16, 20000] with axis 1 of the right operand [1, 20000]; the result's axes
are the left operand's axis 0 and the right operand's axis 0. The four lemmas below read the operand indices of the product
at a result index and a contraction index, one axis at a time. -/

private theorem lhs_axis0 (i : S16x1.Idx) (q : dot_S16x20000_S1x20000_S16x1_1_1_0_0_n_n.contr.Idx) :
    (dot_S16x20000_S1x20000_S16x1_1_1_0_0_n_n.lhsIdx i q 0).val = (i 0).val := by
  unfold DotDims.lhsIdx
  rw [dif_neg (show ¬(0 : Fin S16x20000.rank) ∈ dot_S16x20000_S1x20000_S16x1_1_1_0_0_n_n.lhsBatch from List.not_mem_nil),
    dif_pos (show (0 : Fin S16x20000.rank) ∈ dot_S16x20000_S1x20000_S16x1_1_1_0_0_n_n.lhsNonContracting from List.mem_singleton.mpr rfl)]
  rfl

private theorem lhs_axis1 (i : S16x1.Idx) (q : dot_S16x20000_S1x20000_S16x1_1_1_0_0_n_n.contr.Idx) :
    (dot_S16x20000_S1x20000_S16x1_1_1_0_0_n_n.lhsIdx i q 1).val = (q ⟨0, Nat.lt_of_lt_of_eq Nat.one_pos (rfl : 1 = dot_S16x20000_S1x20000_S16x1_1_1_0_0_n_n.contr.rank)⟩).val :=
  dot_S16x20000_S1x20000_S16x1_1_1_0_0_n_n.lhsIdx_val_of_single rfl i q

private theorem rhs_axis0 (i : S16x1.Idx) (q : dot_S16x20000_S1x20000_S16x1_1_1_0_0_n_n.contr.Idx) :
    (dot_S16x20000_S1x20000_S16x1_1_1_0_0_n_n.rhsIdx i q 0).val = (i 1).val := by
  unfold DotDims.rhsIdx
  rw [dif_neg (show ¬(0 : Fin S1x20000.rank) ∈ dot_S16x20000_S1x20000_S16x1_1_1_0_0_n_n.rhsBatch from List.not_mem_nil),
    dif_pos (show (0 : Fin S1x20000.rank) ∈ dot_S16x20000_S1x20000_S16x1_1_1_0_0_n_n.rhsNonContracting from List.mem_singleton.mpr rfl)]
  rfl

private theorem rhs_axis1 (i : S16x1.Idx) (q : dot_S16x20000_S1x20000_S16x1_1_1_0_0_n_n.contr.Idx) :
    (dot_S16x20000_S1x20000_S16x1_1_1_0_0_n_n.rhsIdx i q 1).val = (q ⟨0, Nat.lt_of_lt_of_eq Nat.one_pos (rfl : 1 = dot_S16x20000_S1x20000_S16x1_1_1_0_0_n_n.contr.rank)⟩).val :=
  dot_S16x20000_S1x20000_S16x1_1_1_0_0_n_n.rhsIdx_val_of_single rfl i q

/-- The product at graph `b`: Σ_n x[b, n] · w[0, n]. -/
private theorem dot_at (x : S16x20000.Idx → EReal) (w : S1x20000.Idx → EReal) (b : Fin 16) :
    Host.dotGeneral (F := Ideal) (φ₁ := .f32) (φ₂ := .f32) dot_S16x20000_S1x20000_S16x1_1_1_0_0_n_n none x w (ix2 b 0)
      = ∑ n : Fin 20000, x (ix2 b n) * w (ix2 0 n) := by
  simp only [Host.dotGeneral]
  rw [Ideal.dotGeneral_apply,
    ← Equiv.sum_comp (contrEquiv1 dot_S16x20000_S1x20000_S16x1_1_1_0_0_n_n 20000 rfl rfl).symm]
  refine Finset.sum_congr rfl fun n _ => ?_
  have hn := contrEquiv1_symm_val dot_S16x20000_S1x20000_S16x1_1_1_0_0_n_n 20000 rfl rfl n
  have hl : dot_S16x20000_S1x20000_S16x1_1_1_0_0_n_n.lhsIdx (ix2 b 0)
      ((contrEquiv1 dot_S16x20000_S1x20000_S16x1_1_1_0_0_n_n 20000 rfl rfl).symm n) = ix2 b n :=
    funext fun a => Fin.ext (by
      match a with
      | ⟨0, _⟩ => exact lhs_axis0 _ _
      | ⟨1, _⟩ => exact (lhs_axis1 _ _).trans hn)
  have hr : dot_S16x20000_S1x20000_S16x1_1_1_0_0_n_n.rhsIdx (ix2 b 0)
      ((contrEquiv1 dot_S16x20000_S1x20000_S16x1_1_1_0_0_n_n 20000 rfl rfl).symm n) = ix2 0 n :=
    funext fun a => Fin.ext (by
      match a with
      | ⟨0, _⟩ => exact rhs_axis0 _ _
      | ⟨1, _⟩ => exact (rhs_axis1 _ _).trans hn)
  rw [hl, hr]

/-! ## The two kinds of repeated operand -/

/-- A scalar repeated over [16, 1] reads the scalar everywhere. -/
private theorem scalar_everywhere {α : Type} (h : S_.BroadcastsInDim S16x1 (![] : Fin 0 → Fin S16x1.rank)) (x : S_.Idx → α) (j : S16x1.Idx) :
    broadcastInDim S16x1 ![] h x j = x ix0 :=
  broadcastInDim_apply _ h x j ix0 (fun a => a.elim0)

/-- The one-element bias laid along the last axis and repeated down the graph axis reads its one element everywhere. -/
private theorem bias_everywhere {α : Type} (h1 : S1.BroadcastsInDim S1x1 (![1] : Fin 1 → Fin S1x1.rank))
    (h2 : S1x1.BroadcastsInDim S16x1 (![0, 1] : Fin 2 → Fin S16x1.rank)) (x : S1.Idx → α) (j : S16x1.Idx) :
    broadcastInDim S16x1 ![0, 1] h2 (broadcastInDim S1x1 ![1] h1 x) j = x (ix1 0) := by
  rw [broadcastInDim_apply _ h2 _ j (ix2 0 0) (fun a => by match a with | ⟨0, _⟩ => rfl | ⟨1, _⟩ => rfl)]
  exact broadcastInDim_apply _ h1 x _ (ix1 0) (fun a => by match a with | ⟨0, _⟩ => rfl)

/-- The graph outputs: the weighted sum over the nodes, the bias, the logistic function. -/
theorem out (v : Fin 16 → Fin 20000 → EReal)
    (hv73 : ∀ (b : Fin 16) (n : Fin 20000), (Vv (Proc.devRef .tc main_v73) : S16x20000.Idx → EReal) (ix2 b n) = v b n) :
    (StableHlo.after (Seg.seg6 (F := Ideal)) Vv (Proc.devRef .tc main_v83) : S16x1.Idx → EReal)
      = fun j => Cert.Spec.Oval v (Vv (Proc.devRef .tc main_arg14) : S1x20000.Idx → EReal) (Vv (Proc.devRef .tc main_arg15) : S1.Idx → EReal) (j 0) := by
  after_results
  funext j
  obtain ⟨b, c, rfl⟩ : ∃ (b : Fin 16) (c : Fin 1), j = ix2 b c := ⟨j 0, j 1, eq_ix2 j⟩
  obtain rfl : c = 0 := Subsingleton.elim _ _
  unfold Cert.Spec.Oval
  simp only [Host.divf, Host.exp, Host.negf, Ideal.hostDivf_def, Ideal.hostUnary_exp_def, Ideal.hostNegf_def, addf_apply,
    dot_at, hv73]
  rw [scalar_everywhere, bias_everywhere]
  rfl

/-! ## No operation of this stretch writes an argument -/

theorem s6_arg0 : StableHlo.after (Seg.seg6 (F := Ideal)) Vv (Proc.devRef .tc main_arg0) = Vv (Proc.devRef .tc main_arg0) := by
  after_results
theorem s6_arg1 : StableHlo.after (Seg.seg6 (F := Ideal)) Vv (Proc.devRef .tc main_arg1) = Vv (Proc.devRef .tc main_arg1) := by
  after_results
theorem s6_arg2 : StableHlo.after (Seg.seg6 (F := Ideal)) Vv (Proc.devRef .tc main_arg2) = Vv (Proc.devRef .tc main_arg2) := by
  after_results
theorem s6_arg3 : StableHlo.after (Seg.seg6 (F := Ideal)) Vv (Proc.devRef .tc main_arg3) = Vv (Proc.devRef .tc main_arg3) := by
  after_results
theorem s6_arg4 : StableHlo.after (Seg.seg6 (F := Ideal)) Vv (Proc.devRef .tc main_arg4) = Vv (Proc.devRef .tc main_arg4) := by
  after_results
theorem s6_arg5 : StableHlo.after (Seg.seg6 (F := Ideal)) Vv (Proc.devRef .tc main_arg5) = Vv (Proc.devRef .tc main_arg5) := by
  after_results
theorem s6_arg6 : StableHlo.after (Seg.seg6 (F := Ideal)) Vv (Proc.devRef .tc main_arg6) = Vv (Proc.devRef .tc main_arg6) := by
  after_results
theorem s6_arg7 : StableHlo.after (Seg.seg6 (F := Ideal)) Vv (Proc.devRef .tc main_arg7) = Vv (Proc.devRef .tc main_arg7) := by
  after_results
theorem s6_arg8 : StableHlo.after (Seg.seg6 (F := Ideal)) Vv (Proc.devRef .tc main_arg8) = Vv (Proc.devRef .tc main_arg8) := by
  after_results
theorem s6_arg9 : StableHlo.after (Seg.seg6 (F := Ideal)) Vv (Proc.devRef .tc main_arg9) = Vv (Proc.devRef .tc main_arg9) := by
  after_results
theorem s6_arg10 : StableHlo.after (Seg.seg6 (F := Ideal)) Vv (Proc.devRef .tc main_arg10) = Vv (Proc.devRef .tc main_arg10) := by
  after_results
theorem s6_arg11 : StableHlo.after (Seg.seg6 (F := Ideal)) Vv (Proc.devRef .tc main_arg11) = Vv (Proc.devRef .tc main_arg11) := by
  after_results
theorem s6_arg12 : StableHlo.after (Seg.seg6 (F := Ideal)) Vv (Proc.devRef .tc main_arg12) = Vv (Proc.devRef .tc main_arg12) := by
  after_results
theorem s6_arg13 : StableHlo.after (Seg.seg6 (F := Ideal)) Vv (Proc.devRef .tc main_arg13) = Vv (Proc.devRef .tc main_arg13) := by
  after_results
theorem s6_arg14 : StableHlo.after (Seg.seg6 (F := Ideal)) Vv (Proc.devRef .tc main_arg14) = Vv (Proc.devRef .tc main_arg14) := by
  after_results
theorem s6_arg15 : StableHlo.after (Seg.seg6 (F := Ideal)) Vv (Proc.devRef .tc main_arg15) = Vv (Proc.devRef .tc main_arg15) := by
  after_results

end Cert.ReferenceIdeal.Stage6

end
-- ==== Proof.RValue.lean ====
/-
  The reference program's result as a function of its arguments: its six stretches of host operations composed along
  the buffer contents between them. The result buffer ends at `Spec.Result` of the argument arrays whenever every edge
  endpoint names a node, and no operation writes an argument.
-/
import proofs.«401352_j13305808683173_1_alg».proof.Proof.RStage1
import proofs.«401352_j13305808683173_1_alg».proof.Proof.RStage2
import proofs.«401352_j13305808683173_1_alg».proof.Proof.RStage3
import proofs.«401352_j13305808683173_1_alg».proof.Proof.RStage4
import proofs.«401352_j13305808683173_1_alg».proof.Proof.RStage5
import proofs.«401352_j13305808683173_1_alg».proof.Proof.RStage6
import proofs.«401352_j13305808683173_1_alg».proof.Proof.Spec
import Idealize.ShloMosaic.Lib.Pipeline.Frame

set_option maxRecDepth 16384

noncomputable section

namespace Cert.ReferenceIdeal.Value

open Idealize.ShloMosaic Idealize.ShloMosaic.TcCoe Idealize.ShloMosaic.ValueIdx Idealize.SL.Sem
open Cert.ReferenceIdeal
open Cert.Spec (node)

variable [Cert.ReferenceIdeal.Facts]
variable (m : (ℓ : Loc nD τ sig) → Buf (Elt Ideal) ℓ)

/-- The sixteen argument arrays of core `c`, as launched. -/
def args (c : Dev nD) : Cert.Spec.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

/-- The whole line of operations, stretch after stretch. -/
abbrev ops : List (HloOp τ sig (Elt Ideal)) :=
  Seg.seg1 ++ (Seg.seg2 ++ (Seg.seg3 ++ (Seg.seg4 ++ (Seg.seg5 ++ Seg.seg6))))

/-- The buffer contents at launch and after each stretch. -/
abbrev U0 (c : Dev nD) : Valuation τ sig (Elt Ideal) := StableHlo.launchContents m c
abbrev U1 (c : Dev nD) : Valuation τ sig (Elt Ideal) := StableHlo.after (Seg.seg1 (F := Ideal)) (U0 m c)
abbrev U2 (c : Dev nD) : Valuation τ sig (Elt Ideal) := StableHlo.after (Seg.seg2 (F := Ideal)) (U1 m c)
abbrev U3 (c : Dev nD) : Valuation τ sig (Elt Ideal) := StableHlo.after (Seg.seg3 (F := Ideal)) (U2 m c)
abbrev U4 (c : Dev nD) : Valuation τ sig (Elt Ideal) := StableHlo.after (Seg.seg4 (F := Ideal)) (U3 m c)
abbrev U5 (c : Dev nD) : Valuation τ sig (Elt Ideal) := StableHlo.after (Seg.seg5 (F := Ideal)) (U4 m c)
abbrev U6 (c : Dev nD) : Valuation τ sig (Elt Ideal) := StableHlo.after (Seg.seg6 (F := Ideal)) (U5 m c)

theorem after_ops (c : Dev nD) : StableHlo.after ops (U0 m c) = U6 m c := by
  simp only [ops, StableHlo.after_append]

/-! ## The arguments after each stretch are the launched ones: no operation writes an argument -/

theorem U1_arg0 (c : Dev nD) : U1 m c (Proc.devRef .tc main_arg0) = m ((c.tc : Thread nD τ).loc main_arg0) :=
  (Cert.ReferenceIdeal.Stage1.s1_arg0 (U0 m c)).trans rfl
theorem U1_arg1 (c : Dev nD) : U1 m c (Proc.devRef .tc main_arg1) = m ((c.tc : Thread nD τ).loc main_arg1) :=
  (Cert.ReferenceIdeal.Stage1.s1_arg1 (U0 m c)).trans rfl
theorem U1_arg2 (c : Dev nD) : U1 m c (Proc.devRef .tc main_arg2) = m ((c.tc : Thread nD τ).loc main_arg2) :=
  (Cert.ReferenceIdeal.Stage1.s1_arg2 (U0 m c)).trans rfl
theorem U1_arg3 (c : Dev nD) : U1 m c (Proc.devRef .tc main_arg3) = m ((c.tc : Thread nD τ).loc main_arg3) :=
  (Cert.ReferenceIdeal.Stage1.s1_arg3 (U0 m c)).trans rfl
theorem U1_arg4 (c : Dev nD) : U1 m c (Proc.devRef .tc main_arg4) = m ((c.tc : Thread nD τ).loc main_arg4) :=
  (Cert.ReferenceIdeal.Stage1.s1_arg4 (U0 m c)).trans rfl
theorem U1_arg5 (c : Dev nD) : U1 m c (Proc.devRef .tc main_arg5) = m ((c.tc : Thread nD τ).loc main_arg5) :=
  (Cert.ReferenceIdeal.Stage1.s1_arg5 (U0 m c)).trans rfl
theorem U1_arg6 (c : Dev nD) : U1 m c (Proc.devRef .tc main_arg6) = m ((c.tc : Thread nD τ).loc main_arg6) :=
  (Cert.ReferenceIdeal.Stage1.s1_arg6 (U0 m c)).trans rfl
theorem U1_arg7 (c : Dev nD) : U1 m c (Proc.devRef .tc main_arg7) = m ((c.tc : Thread nD τ).loc main_arg7) :=
  (Cert.ReferenceIdeal.Stage1.s1_arg7 (U0 m c)).trans rfl
theorem U1_arg8 (c : Dev nD) : U1 m c (Proc.devRef .tc main_arg8) = m ((c.tc : Thread nD τ).loc main_arg8) :=
  (Cert.ReferenceIdeal.Stage1.s1_arg8 (U0 m c)).trans rfl
theorem U1_arg9 (c : Dev nD) : U1 m c (Proc.devRef .tc main_arg9) = m ((c.tc : Thread nD τ).loc main_arg9) :=
  (Cert.ReferenceIdeal.Stage1.s1_arg9 (U0 m c)).trans rfl
theorem U1_arg10 (c : Dev nD) : U1 m c (Proc.devRef .tc main_arg10) = m ((c.tc : Thread nD τ).loc main_arg10) :=
  (Cert.ReferenceIdeal.Stage1.s1_arg10 (U0 m c)).trans rfl
theorem U1_arg11 (c : Dev nD) : U1 m c (Proc.devRef .tc main_arg11) = m ((c.tc : Thread nD τ).loc main_arg11) :=
  (Cert.ReferenceIdeal.Stage1.s1_arg11 (U0 m c)).trans rfl
theorem U1_arg12 (c : Dev nD) : U1 m c (Proc.devRef .tc main_arg12) = m ((c.tc : Thread nD τ).loc main_arg12) :=
  (Cert.ReferenceIdeal.Stage1.s1_arg12 (U0 m c)).trans rfl
theorem U1_arg13 (c : Dev nD) : U1 m c (Proc.devRef .tc main_arg13) = m ((c.tc : Thread nD τ).loc main_arg13) :=
  (Cert.ReferenceIdeal.Stage1.s1_arg13 (U0 m c)).trans rfl
theorem U1_arg14 (c : Dev nD) : U1 m c (Proc.devRef .tc main_arg14) = m ((c.tc : Thread nD τ).loc main_arg14) :=
  (Cert.ReferenceIdeal.Stage1.s1_arg14 (U0 m c)).trans rfl
theorem U1_arg15 (c : Dev nD) : U1 m c (Proc.devRef .tc main_arg15) = m ((c.tc : Thread nD τ).loc main_arg15) :=
  (Cert.ReferenceIdeal.Stage1.s1_arg15 (U0 m c)).trans rfl
theorem U2_arg0 (c : Dev nD) : U2 m c (Proc.devRef .tc main_arg0) = m ((c.tc : Thread nD τ).loc main_arg0) :=
  (Cert.ReferenceIdeal.Stage2.s2_arg0 (U1 m c)).trans (U1_arg0 m c)
theorem U2_arg1 (c : Dev nD) : U2 m c (Proc.devRef .tc main_arg1) = m ((c.tc : Thread nD τ).loc main_arg1) :=
  (Cert.ReferenceIdeal.Stage2.s2_arg1 (U1 m c)).trans (U1_arg1 m c)
theorem U2_arg2 (c : Dev nD) : U2 m c (Proc.devRef .tc main_arg2) = m ((c.tc : Thread nD τ).loc main_arg2) :=
  (Cert.ReferenceIdeal.Stage2.s2_arg2 (U1 m c)).trans (U1_arg2 m c)
theorem U2_arg3 (c : Dev nD) : U2 m c (Proc.devRef .tc main_arg3) = m ((c.tc : Thread nD τ).loc main_arg3) :=
  (Cert.ReferenceIdeal.Stage2.s2_arg3 (U1 m c)).trans (U1_arg3 m c)
theorem U2_arg4 (c : Dev nD) : U2 m c (Proc.devRef .tc main_arg4) = m ((c.tc : Thread nD τ).loc main_arg4) :=
  (Cert.ReferenceIdeal.Stage2.s2_arg4 (U1 m c)).trans (U1_arg4 m c)
theorem U2_arg5 (c : Dev nD) : U2 m c (Proc.devRef .tc main_arg5) = m ((c.tc : Thread nD τ).loc main_arg5) :=
  (Cert.ReferenceIdeal.Stage2.s2_arg5 (U1 m c)).trans (U1_arg5 m c)
theorem U2_arg6 (c : Dev nD) : U2 m c (Proc.devRef .tc main_arg6) = m ((c.tc : Thread nD τ).loc main_arg6) :=
  (Cert.ReferenceIdeal.Stage2.s2_arg6 (U1 m c)).trans (U1_arg6 m c)
theorem U2_arg7 (c : Dev nD) : U2 m c (Proc.devRef .tc main_arg7) = m ((c.tc : Thread nD τ).loc main_arg7) :=
  (Cert.ReferenceIdeal.Stage2.s2_arg7 (U1 m c)).trans (U1_arg7 m c)
theorem U2_arg8 (c : Dev nD) : U2 m c (Proc.devRef .tc main_arg8) = m ((c.tc : Thread nD τ).loc main_arg8) :=
  (Cert.ReferenceIdeal.Stage2.s2_arg8 (U1 m c)).trans (U1_arg8 m c)
theorem U2_arg9 (c : Dev nD) : U2 m c (Proc.devRef .tc main_arg9) = m ((c.tc : Thread nD τ).loc main_arg9) :=
  (Cert.ReferenceIdeal.Stage2.s2_arg9 (U1 m c)).trans (U1_arg9 m c)
theorem U2_arg10 (c : Dev nD) : U2 m c (Proc.devRef .tc main_arg10) = m ((c.tc : Thread nD τ).loc main_arg10) :=
  (Cert.ReferenceIdeal.Stage2.s2_arg10 (U1 m c)).trans (U1_arg10 m c)
theorem U2_arg11 (c : Dev nD) : U2 m c (Proc.devRef .tc main_arg11) = m ((c.tc : Thread nD τ).loc main_arg11) :=
  (Cert.ReferenceIdeal.Stage2.s2_arg11 (U1 m c)).trans (U1_arg11 m c)
theorem U2_arg12 (c : Dev nD) : U2 m c (Proc.devRef .tc main_arg12) = m ((c.tc : Thread nD τ).loc main_arg12) :=
  (Cert.ReferenceIdeal.Stage2.s2_arg12 (U1 m c)).trans (U1_arg12 m c)
theorem U2_arg13 (c : Dev nD) : U2 m c (Proc.devRef .tc main_arg13) = m ((c.tc : Thread nD τ).loc main_arg13) :=
  (Cert.ReferenceIdeal.Stage2.s2_arg13 (U1 m c)).trans (U1_arg13 m c)
theorem U2_arg14 (c : Dev nD) : U2 m c (Proc.devRef .tc main_arg14) = m ((c.tc : Thread nD τ).loc main_arg14) :=
  (Cert.ReferenceIdeal.Stage2.s2_arg14 (U1 m c)).trans (U1_arg14 m c)
theorem U2_arg15 (c : Dev nD) : U2 m c (Proc.devRef .tc main_arg15) = m ((c.tc : Thread nD τ).loc main_arg15) :=
  (Cert.ReferenceIdeal.Stage2.s2_arg15 (U1 m c)).trans (U1_arg15 m c)
theorem U3_arg0 (c : Dev nD) : U3 m c (Proc.devRef .tc main_arg0) = m ((c.tc : Thread nD τ).loc main_arg0) :=
  (Cert.ReferenceIdeal.Stage3.s3_arg0 (U2 m c)).trans (U2_arg0 m c)
theorem U3_arg1 (c : Dev nD) : U3 m c (Proc.devRef .tc main_arg1) = m ((c.tc : Thread nD τ).loc main_arg1) :=
  (Cert.ReferenceIdeal.Stage3.s3_arg1 (U2 m c)).trans (U2_arg1 m c)
theorem U3_arg2 (c : Dev nD) : U3 m c (Proc.devRef .tc main_arg2) = m ((c.tc : Thread nD τ).loc main_arg2) :=
  (Cert.ReferenceIdeal.Stage3.s3_arg2 (U2 m c)).trans (U2_arg2 m c)
theorem U3_arg3 (c : Dev nD) : U3 m c (Proc.devRef .tc main_arg3) = m ((c.tc : Thread nD τ).loc main_arg3) :=
  (Cert.ReferenceIdeal.Stage3.s3_arg3 (U2 m c)).trans (U2_arg3 m c)
theorem U3_arg4 (c : Dev nD) : U3 m c (Proc.devRef .tc main_arg4) = m ((c.tc : Thread nD τ).loc main_arg4) :=
  (Cert.ReferenceIdeal.Stage3.s3_arg4 (U2 m c)).trans (U2_arg4 m c)
theorem U3_arg5 (c : Dev nD) : U3 m c (Proc.devRef .tc main_arg5) = m ((c.tc : Thread nD τ).loc main_arg5) :=
  (Cert.ReferenceIdeal.Stage3.s3_arg5 (U2 m c)).trans (U2_arg5 m c)
theorem U3_arg6 (c : Dev nD) : U3 m c (Proc.devRef .tc main_arg6) = m ((c.tc : Thread nD τ).loc main_arg6) :=
  (Cert.ReferenceIdeal.Stage3.s3_arg6 (U2 m c)).trans (U2_arg6 m c)
theorem U3_arg7 (c : Dev nD) : U3 m c (Proc.devRef .tc main_arg7) = m ((c.tc : Thread nD τ).loc main_arg7) :=
  (Cert.ReferenceIdeal.Stage3.s3_arg7 (U2 m c)).trans (U2_arg7 m c)
theorem U3_arg8 (c : Dev nD) : U3 m c (Proc.devRef .tc main_arg8) = m ((c.tc : Thread nD τ).loc main_arg8) :=
  (Cert.ReferenceIdeal.Stage3.s3_arg8 (U2 m c)).trans (U2_arg8 m c)
theorem U3_arg9 (c : Dev nD) : U3 m c (Proc.devRef .tc main_arg9) = m ((c.tc : Thread nD τ).loc main_arg9) :=
  (Cert.ReferenceIdeal.Stage3.s3_arg9 (U2 m c)).trans (U2_arg9 m c)
theorem U3_arg10 (c : Dev nD) : U3 m c (Proc.devRef .tc main_arg10) = m ((c.tc : Thread nD τ).loc main_arg10) :=
  (Cert.ReferenceIdeal.Stage3.s3_arg10 (U2 m c)).trans (U2_arg10 m c)
theorem U3_arg11 (c : Dev nD) : U3 m c (Proc.devRef .tc main_arg11) = m ((c.tc : Thread nD τ).loc main_arg11) :=
  (Cert.ReferenceIdeal.Stage3.s3_arg11 (U2 m c)).trans (U2_arg11 m c)
theorem U3_arg12 (c : Dev nD) : U3 m c (Proc.devRef .tc main_arg12) = m ((c.tc : Thread nD τ).loc main_arg12) :=
  (Cert.ReferenceIdeal.Stage3.s3_arg12 (U2 m c)).trans (U2_arg12 m c)
theorem U3_arg13 (c : Dev nD) : U3 m c (Proc.devRef .tc main_arg13) = m ((c.tc : Thread nD τ).loc main_arg13) :=
  (Cert.ReferenceIdeal.Stage3.s3_arg13 (U2 m c)).trans (U2_arg13 m c)
theorem U3_arg14 (c : Dev nD) : U3 m c (Proc.devRef .tc main_arg14) = m ((c.tc : Thread nD τ).loc main_arg14) :=
  (Cert.ReferenceIdeal.Stage3.s3_arg14 (U2 m c)).trans (U2_arg14 m c)
theorem U3_arg15 (c : Dev nD) : U3 m c (Proc.devRef .tc main_arg15) = m ((c.tc : Thread nD τ).loc main_arg15) :=
  (Cert.ReferenceIdeal.Stage3.s3_arg15 (U2 m c)).trans (U2_arg15 m c)
theorem U4_arg0 (c : Dev nD) : U4 m c (Proc.devRef .tc main_arg0) = m ((c.tc : Thread nD τ).loc main_arg0) :=
  (Cert.ReferenceIdeal.Stage4.s4_arg0 (U3 m c)).trans (U3_arg0 m c)
theorem U4_arg1 (c : Dev nD) : U4 m c (Proc.devRef .tc main_arg1) = m ((c.tc : Thread nD τ).loc main_arg1) :=
  (Cert.ReferenceIdeal.Stage4.s4_arg1 (U3 m c)).trans (U3_arg1 m c)
theorem U4_arg2 (c : Dev nD) : U4 m c (Proc.devRef .tc main_arg2) = m ((c.tc : Thread nD τ).loc main_arg2) :=
  (Cert.ReferenceIdeal.Stage4.s4_arg2 (U3 m c)).trans (U3_arg2 m c)
theorem U4_arg3 (c : Dev nD) : U4 m c (Proc.devRef .tc main_arg3) = m ((c.tc : Thread nD τ).loc main_arg3) :=
  (Cert.ReferenceIdeal.Stage4.s4_arg3 (U3 m c)).trans (U3_arg3 m c)
theorem U4_arg4 (c : Dev nD) : U4 m c (Proc.devRef .tc main_arg4) = m ((c.tc : Thread nD τ).loc main_arg4) :=
  (Cert.ReferenceIdeal.Stage4.s4_arg4 (U3 m c)).trans (U3_arg4 m c)
theorem U4_arg5 (c : Dev nD) : U4 m c (Proc.devRef .tc main_arg5) = m ((c.tc : Thread nD τ).loc main_arg5) :=
  (Cert.ReferenceIdeal.Stage4.s4_arg5 (U3 m c)).trans (U3_arg5 m c)
theorem U4_arg6 (c : Dev nD) : U4 m c (Proc.devRef .tc main_arg6) = m ((c.tc : Thread nD τ).loc main_arg6) :=
  (Cert.ReferenceIdeal.Stage4.s4_arg6 (U3 m c)).trans (U3_arg6 m c)
theorem U4_arg7 (c : Dev nD) : U4 m c (Proc.devRef .tc main_arg7) = m ((c.tc : Thread nD τ).loc main_arg7) :=
  (Cert.ReferenceIdeal.Stage4.s4_arg7 (U3 m c)).trans (U3_arg7 m c)
theorem U4_arg8 (c : Dev nD) : U4 m c (Proc.devRef .tc main_arg8) = m ((c.tc : Thread nD τ).loc main_arg8) :=
  (Cert.ReferenceIdeal.Stage4.s4_arg8 (U3 m c)).trans (U3_arg8 m c)
theorem U4_arg9 (c : Dev nD) : U4 m c (Proc.devRef .tc main_arg9) = m ((c.tc : Thread nD τ).loc main_arg9) :=
  (Cert.ReferenceIdeal.Stage4.s4_arg9 (U3 m c)).trans (U3_arg9 m c)
theorem U4_arg10 (c : Dev nD) : U4 m c (Proc.devRef .tc main_arg10) = m ((c.tc : Thread nD τ).loc main_arg10) :=
  (Cert.ReferenceIdeal.Stage4.s4_arg10 (U3 m c)).trans (U3_arg10 m c)
theorem U4_arg11 (c : Dev nD) : U4 m c (Proc.devRef .tc main_arg11) = m ((c.tc : Thread nD τ).loc main_arg11) :=
  (Cert.ReferenceIdeal.Stage4.s4_arg11 (U3 m c)).trans (U3_arg11 m c)
theorem U4_arg12 (c : Dev nD) : U4 m c (Proc.devRef .tc main_arg12) = m ((c.tc : Thread nD τ).loc main_arg12) :=
  (Cert.ReferenceIdeal.Stage4.s4_arg12 (U3 m c)).trans (U3_arg12 m c)
theorem U4_arg13 (c : Dev nD) : U4 m c (Proc.devRef .tc main_arg13) = m ((c.tc : Thread nD τ).loc main_arg13) :=
  (Cert.ReferenceIdeal.Stage4.s4_arg13 (U3 m c)).trans (U3_arg13 m c)
theorem U4_arg14 (c : Dev nD) : U4 m c (Proc.devRef .tc main_arg14) = m ((c.tc : Thread nD τ).loc main_arg14) :=
  (Cert.ReferenceIdeal.Stage4.s4_arg14 (U3 m c)).trans (U3_arg14 m c)
theorem U4_arg15 (c : Dev nD) : U4 m c (Proc.devRef .tc main_arg15) = m ((c.tc : Thread nD τ).loc main_arg15) :=
  (Cert.ReferenceIdeal.Stage4.s4_arg15 (U3 m c)).trans (U3_arg15 m c)
theorem U5_arg0 (c : Dev nD) : U5 m c (Proc.devRef .tc main_arg0) = m ((c.tc : Thread nD τ).loc main_arg0) :=
  (Cert.ReferenceIdeal.Stage5.s5_arg0 (U4 m c)).trans (U4_arg0 m c)
theorem U5_arg1 (c : Dev nD) : U5 m c (Proc.devRef .tc main_arg1) = m ((c.tc : Thread nD τ).loc main_arg1) :=
  (Cert.ReferenceIdeal.Stage5.s5_arg1 (U4 m c)).trans (U4_arg1 m c)
theorem U5_arg2 (c : Dev nD) : U5 m c (Proc.devRef .tc main_arg2) = m ((c.tc : Thread nD τ).loc main_arg2) :=
  (Cert.ReferenceIdeal.Stage5.s5_arg2 (U4 m c)).trans (U4_arg2 m c)
theorem U5_arg3 (c : Dev nD) : U5 m c (Proc.devRef .tc main_arg3) = m ((c.tc : Thread nD τ).loc main_arg3) :=
  (Cert.ReferenceIdeal.Stage5.s5_arg3 (U4 m c)).trans (U4_arg3 m c)
theorem U5_arg4 (c : Dev nD) : U5 m c (Proc.devRef .tc main_arg4) = m ((c.tc : Thread nD τ).loc main_arg4) :=
  (Cert.ReferenceIdeal.Stage5.s5_arg4 (U4 m c)).trans (U4_arg4 m c)
theorem U5_arg5 (c : Dev nD) : U5 m c (Proc.devRef .tc main_arg5) = m ((c.tc : Thread nD τ).loc main_arg5) :=
  (Cert.ReferenceIdeal.Stage5.s5_arg5 (U4 m c)).trans (U4_arg5 m c)
theorem U5_arg6 (c : Dev nD) : U5 m c (Proc.devRef .tc main_arg6) = m ((c.tc : Thread nD τ).loc main_arg6) :=
  (Cert.ReferenceIdeal.Stage5.s5_arg6 (U4 m c)).trans (U4_arg6 m c)
theorem U5_arg7 (c : Dev nD) : U5 m c (Proc.devRef .tc main_arg7) = m ((c.tc : Thread nD τ).loc main_arg7) :=
  (Cert.ReferenceIdeal.Stage5.s5_arg7 (U4 m c)).trans (U4_arg7 m c)
theorem U5_arg8 (c : Dev nD) : U5 m c (Proc.devRef .tc main_arg8) = m ((c.tc : Thread nD τ).loc main_arg8) :=
  (Cert.ReferenceIdeal.Stage5.s5_arg8 (U4 m c)).trans (U4_arg8 m c)
theorem U5_arg9 (c : Dev nD) : U5 m c (Proc.devRef .tc main_arg9) = m ((c.tc : Thread nD τ).loc main_arg9) :=
  (Cert.ReferenceIdeal.Stage5.s5_arg9 (U4 m c)).trans (U4_arg9 m c)
theorem U5_arg10 (c : Dev nD) : U5 m c (Proc.devRef .tc main_arg10) = m ((c.tc : Thread nD τ).loc main_arg10) :=
  (Cert.ReferenceIdeal.Stage5.s5_arg10 (U4 m c)).trans (U4_arg10 m c)
theorem U5_arg11 (c : Dev nD) : U5 m c (Proc.devRef .tc main_arg11) = m ((c.tc : Thread nD τ).loc main_arg11) :=
  (Cert.ReferenceIdeal.Stage5.s5_arg11 (U4 m c)).trans (U4_arg11 m c)
theorem U5_arg12 (c : Dev nD) : U5 m c (Proc.devRef .tc main_arg12) = m ((c.tc : Thread nD τ).loc main_arg12) :=
  (Cert.ReferenceIdeal.Stage5.s5_arg12 (U4 m c)).trans (U4_arg12 m c)
theorem U5_arg13 (c : Dev nD) : U5 m c (Proc.devRef .tc main_arg13) = m ((c.tc : Thread nD τ).loc main_arg13) :=
  (Cert.ReferenceIdeal.Stage5.s5_arg13 (U4 m c)).trans (U4_arg13 m c)
theorem U5_arg14 (c : Dev nD) : U5 m c (Proc.devRef .tc main_arg14) = m ((c.tc : Thread nD τ).loc main_arg14) :=
  (Cert.ReferenceIdeal.Stage5.s5_arg14 (U4 m c)).trans (U4_arg14 m c)
theorem U5_arg15 (c : Dev nD) : U5 m c (Proc.devRef .tc main_arg15) = m ((c.tc : Thread nD τ).loc main_arg15) :=
  (Cert.ReferenceIdeal.Stage5.s5_arg15 (U4 m c)).trans (U4_arg15 m c)
theorem U6_arg0 (c : Dev nD) : U6 m c (Proc.devRef .tc main_arg0) = m ((c.tc : Thread nD τ).loc main_arg0) :=
  (Cert.ReferenceIdeal.Stage6.s6_arg0 (U5 m c)).trans (U5_arg0 m c)
theorem U6_arg1 (c : Dev nD) : U6 m c (Proc.devRef .tc main_arg1) = m ((c.tc : Thread nD τ).loc main_arg1) :=
  (Cert.ReferenceIdeal.Stage6.s6_arg1 (U5 m c)).trans (U5_arg1 m c)
theorem U6_arg2 (c : Dev nD) : U6 m c (Proc.devRef .tc main_arg2) = m ((c.tc : Thread nD τ).loc main_arg2) :=
  (Cert.ReferenceIdeal.Stage6.s6_arg2 (U5 m c)).trans (U5_arg2 m c)
theorem U6_arg3 (c : Dev nD) : U6 m c (Proc.devRef .tc main_arg3) = m ((c.tc : Thread nD τ).loc main_arg3) :=
  (Cert.ReferenceIdeal.Stage6.s6_arg3 (U5 m c)).trans (U5_arg3 m c)
theorem U6_arg4 (c : Dev nD) : U6 m c (Proc.devRef .tc main_arg4) = m ((c.tc : Thread nD τ).loc main_arg4) :=
  (Cert.ReferenceIdeal.Stage6.s6_arg4 (U5 m c)).trans (U5_arg4 m c)
theorem U6_arg5 (c : Dev nD) : U6 m c (Proc.devRef .tc main_arg5) = m ((c.tc : Thread nD τ).loc main_arg5) :=
  (Cert.ReferenceIdeal.Stage6.s6_arg5 (U5 m c)).trans (U5_arg5 m c)
theorem U6_arg6 (c : Dev nD) : U6 m c (Proc.devRef .tc main_arg6) = m ((c.tc : Thread nD τ).loc main_arg6) :=
  (Cert.ReferenceIdeal.Stage6.s6_arg6 (U5 m c)).trans (U5_arg6 m c)
theorem U6_arg7 (c : Dev nD) : U6 m c (Proc.devRef .tc main_arg7) = m ((c.tc : Thread nD τ).loc main_arg7) :=
  (Cert.ReferenceIdeal.Stage6.s6_arg7 (U5 m c)).trans (U5_arg7 m c)
theorem U6_arg8 (c : Dev nD) : U6 m c (Proc.devRef .tc main_arg8) = m ((c.tc : Thread nD τ).loc main_arg8) :=
  (Cert.ReferenceIdeal.Stage6.s6_arg8 (U5 m c)).trans (U5_arg8 m c)
theorem U6_arg9 (c : Dev nD) : U6 m c (Proc.devRef .tc main_arg9) = m ((c.tc : Thread nD τ).loc main_arg9) :=
  (Cert.ReferenceIdeal.Stage6.s6_arg9 (U5 m c)).trans (U5_arg9 m c)
theorem U6_arg10 (c : Dev nD) : U6 m c (Proc.devRef .tc main_arg10) = m ((c.tc : Thread nD τ).loc main_arg10) :=
  (Cert.ReferenceIdeal.Stage6.s6_arg10 (U5 m c)).trans (U5_arg10 m c)
theorem U6_arg11 (c : Dev nD) : U6 m c (Proc.devRef .tc main_arg11) = m ((c.tc : Thread nD τ).loc main_arg11) :=
  (Cert.ReferenceIdeal.Stage6.s6_arg11 (U5 m c)).trans (U5_arg11 m c)
theorem U6_arg12 (c : Dev nD) : U6 m c (Proc.devRef .tc main_arg12) = m ((c.tc : Thread nD τ).loc main_arg12) :=
  (Cert.ReferenceIdeal.Stage6.s6_arg12 (U5 m c)).trans (U5_arg12 m c)
theorem U6_arg13 (c : Dev nD) : U6 m c (Proc.devRef .tc main_arg13) = m ((c.tc : Thread nD τ).loc main_arg13) :=
  (Cert.ReferenceIdeal.Stage6.s6_arg13 (U5 m c)).trans (U5_arg13 m c)
theorem U6_arg14 (c : Dev nD) : U6 m c (Proc.devRef .tc main_arg14) = m ((c.tc : Thread nD τ).loc main_arg14) :=
  (Cert.ReferenceIdeal.Stage6.s6_arg14 (U5 m c)).trans (U5_arg14 m c)
theorem U6_arg15 (c : Dev nD) : U6 m c (Proc.devRef .tc main_arg15) = m ((c.tc : Thread nD τ).loc main_arg15) :=
  (Cert.ReferenceIdeal.Stage6.s6_arg15 (U5 m c)).trans (U5_arg15 m c)

variable (hE : ∀ c : Dev nD, (args m c).InRange)
include hE

/-! ## The buffers' contents, stretch by stretch -/

theorem r9 (c : Dev nD) (b : Fin 16) (n : Fin 20000) (o : Fin 32) :
    (U1 m c (Proc.devRef .tc main_v9) : S16x20000x32.Idx → EReal) (ix3 b n o) = Cert.Spec.H (args m c) b n o :=
  (Cert.ReferenceIdeal.Stage1.out (U0 m c) b n o).trans rfl

theorem r38 (c : Dev nD) (b : Fin 16) (e : Fin 160000) (o : Fin 32) :
    (U2 m c (Proc.devRef .tc main_v38) : S16x160000x32.Idx → EReal) (ix3 b e o) = Cert.Spec.M (args m c) b e o := by
  have hE1 : ∀ (r : Fin 2) (e : Fin 160000), ((U1 m c (Proc.devRef .tc main_arg1) : S2x160000.Idx → BitVec 32) (ix2 r e)).toNat < 20000 := by
    intro r e; rw [U1_arg1 m c]; exact hE c r e
  refine (Cert.ReferenceIdeal.Stage2.out (U1 m c) (Cert.Spec.H (args m c)) (r9 m hE c) hE1 b e o).trans ?_
  rw [U1_arg1 m c, U1_arg6 m c, U1_arg7 m c, U1_arg8 m c, U1_arg9 m c]; rfl

theorem r48 (c : Dev nD) (n : Fin 20000) (b : Fin 16) (o : Fin 32) :
    (U3 m c (Proc.devRef .tc main_v48) : S20000x16x32.Idx → EReal) (ix3 n b o) = Cert.Spec.S (args m c) n b o := by
  have hE2 : ∀ (r : Fin 2) (e : Fin 160000), ((U2 m c (Proc.devRef .tc main_arg1) : S2x160000.Idx → BitVec 32) (ix2 r e)).toNat < 20000 := by
    intro r e; rw [U2_arg1 m c]; exact hE c r e
  refine (Cert.ReferenceIdeal.Stage3.sums (U2 m c) (Cert.Spec.M (args m c)) (r38 m hE c) hE2 n b o).trans ?_
  rw [U2_arg1 m c]; rfl

theorem r52 (c : Dev nD) (n : Fin 20000) :
    (U3 m c (Proc.devRef .tc main_v52) : S20000.Idx → EReal) (ix1 n) = Cert.Spec.C (args m c) n := by
  have hE2 : ∀ (r : Fin 2) (e : Fin 160000), ((U2 m c (Proc.devRef .tc main_arg1) : S2x160000.Idx → BitVec 32) (ix2 r e)).toNat < 20000 := by
    intro r e; rw [U2_arg1 m c]; exact hE c r e
  refine (Cert.ReferenceIdeal.Stage3.counts (U2 m c) hE2 n).trans ?_
  rw [U2_arg1 m c]; rfl

theorem r62 (c : Dev nD) (b : Fin 16) (n : Fin 20000) (k : Fin 32) :
    (U4 m c (Proc.devRef .tc main_v62) : S16x20000x32.Idx → EReal) (ix3 b n k) = Cert.Spec.A (args m c) b n k :=
  Cert.ReferenceIdeal.Stage4.out (U3 m c) (Cert.Spec.S (args m c)) (Cert.Spec.C (args m c)) (r48 m hE c) (r52 m hE c) b n k

theorem r73 (c : Dev nD) (b : Fin 16) (n : Fin 20000) :
    (U5 m c (Proc.devRef .tc main_v73) : S16x20000.Idx → EReal) (ix2 b n) = Cert.Spec.V (args m c) b n := by
  refine (Cert.ReferenceIdeal.Stage5.out (U4 m c) (Cert.Spec.A (args m c)) (r62 m hE c) b n).trans ?_
  rw [U4_arg10 m c, U4_arg11 m c, U4_arg12 m c, U4_arg13 m c]; rfl

/-- The result buffer at the return. -/
theorem result (c : Dev nD) :
    (StableHlo.after ops (U0 m c) (Proc.devRef .tc main_v83) : S16x1.Idx → EReal) = Cert.Spec.Result (args m c) := by
  rw [after_ops m c]
  refine (Cert.ReferenceIdeal.Stage6.out (U5 m c) (Cert.Spec.V (args m c)) (r73 m hE c)).trans ?_
  rw [U5_arg14 m c, U5_arg15 m c]; rfl

omit hE in
/-- Every argument buffer at the return is as launched. -/
theorem arg_kept (c : Dev nD) :
    StableHlo.after ops (U0 m c) (Proc.devRef .tc main_arg0) = m ((c.tc : Thread nD τ).loc main_arg0)
    ∧ StableHlo.after ops (U0 m c) (Proc.devRef .tc main_arg1) = m ((c.tc : Thread nD τ).loc main_arg1)
    ∧ StableHlo.after ops (U0 m c) (Proc.devRef .tc main_arg2) = m ((c.tc : Thread nD τ).loc main_arg2)
    ∧ StableHlo.after ops (U0 m c) (Proc.devRef .tc main_arg3) = m ((c.tc : Thread nD τ).loc main_arg3)
    ∧ StableHlo.after ops (U0 m c) (Proc.devRef .tc main_arg4) = m ((c.tc : Thread nD τ).loc main_arg4)
    ∧ StableHlo.after ops (U0 m c) (Proc.devRef .tc main_arg5) = m ((c.tc : Thread nD τ).loc main_arg5)
    ∧ StableHlo.after ops (U0 m c) (Proc.devRef .tc main_arg6) = m ((c.tc : Thread nD τ).loc main_arg6)
    ∧ StableHlo.after ops (U0 m c) (Proc.devRef .tc main_arg7) = m ((c.tc : Thread nD τ).loc main_arg7)
    ∧ StableHlo.after ops (U0 m c) (Proc.devRef .tc main_arg8) = m ((c.tc : Thread nD τ).loc main_arg8)
    ∧ StableHlo.after ops (U0 m c) (Proc.devRef .tc main_arg9) = m ((c.tc : Thread nD τ).loc main_arg9)
    ∧ StableHlo.after ops (U0 m c) (Proc.devRef .tc main_arg10) = m ((c.tc : Thread nD τ).loc main_arg10)
    ∧ StableHlo.after ops (U0 m c) (Proc.devRef .tc main_arg11) = m ((c.tc : Thread nD τ).loc main_arg11)
    ∧ StableHlo.after ops (U0 m c) (Proc.devRef .tc main_arg12) = m ((c.tc : Thread nD τ).loc main_arg12)
    ∧ StableHlo.after ops (U0 m c) (Proc.devRef .tc main_arg13) = m ((c.tc : Thread nD τ).loc main_arg13)
    ∧ StableHlo.after ops (U0 m c) (Proc.devRef .tc main_arg14) = m ((c.tc : Thread nD τ).loc main_arg14)
    ∧ StableHlo.after ops (U0 m c) (Proc.devRef .tc main_arg15) = m ((c.tc : Thread nD τ).loc main_arg15) := by
  rw [after_ops m c]
  exact ⟨U6_arg0 m c, U6_arg1 m c, U6_arg2 m c, U6_arg3 m c, U6_arg4 m c, U6_arg5 m c, U6_arg6 m c, U6_arg7 m c, U6_arg8 m c, U6_arg9 m c, U6_arg10 m c, U6_arg11 m c, U6_arg12 m c, U6_arg13 m c, U6_arg14 m c, U6_arg15 m c⟩

end Cert.ReferenceIdeal.Value

end
-- ==== Proof.PreRange.lean ====
import proofs.«401352_j13305808683173_1_alg».proof.Pre_finite_inputs
import proofs.«401352_j13305808683173_1_alg».proof.Proof.Gen.Pre_finite_inputs
import proofs.«401352_j13305808683173_1_alg».proof.Proof.Spec
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx
open Cert.Pre_finite_inputs

variable [Cert.Pre_finite_inputs.Facts]

/-- The scalar shape has one index. -/
private instance : Subsingleton S_.Idx := ⟨fun a b => funext fun d => d.elim0⟩

/-- A 32-bit word that reads, signed, at least the word 0 and below the word 20000 is, as a natural number, below 20000:
    a nonnegative signed reading is the unsigned one. -/
private theorem toNat_lt_of_signed (w : BitVec 32) (h0 : (0#32 : BitVec 32).toInt ≤ w.toInt)
    (h1 : w.toInt < (20000#32 : BitVec 32).toInt) : w.toNat < 20000 := by
  have e0 : (0#32 : BitVec 32).toInt = 0 := by decide
  have e1 : (20000#32 : BitVec 32).toInt = 20000 := by decide
  rw [e0] at h0
  rw [e1, BitVec.toInt_eq_toNat_of_lt (BitVec.toInt_pos_iff.mp h0)] at h1
  omega

/-- The predicate's last stretch is a conjunction whose last two conjuncts say: every word of the edge list is, signed,
    at least 0, and every word is, signed, below 20000. Whatever the earlier conjuncts are, the conjunction being 1
    bounds every word. -/
private theorem of_last_part (a1 : IVec S2x160000 32) (a15 : FVec Ideal S1 .f32) (x y : IVec S_ 1)
    (h : fn_part4 (F := Ideal) a1 a15 x y ix0 = 1#1) (r : Fin 2) (e : Fin 160000) : (a1 (ix2 r e)).toNat < 20000 := by
  dsimp only [fn_part4] at h
  have h' : IntOp.andi _ _ = 1#1 := h
  obtain ⟨h77, hlt⟩ := IntOp.andi_eq_one.1 h'
  have h77' : IntOp.andi _ _ = 1#1 := h77
  obtain ⟨-, hge⟩ := IntOp.andi_eq_one.1 h77'
  have hge1 : IntOp.cmpi .sge (a1 (ix2 r e)) 0#32 = 1#1 := Host.reduce_andi_all _ _ _ _ ix0 hge (ix2 r e)
  have hlt1 : IntOp.cmpi .slt (a1 (ix2 r e)) 20000#32 = 1#1 := Host.reduce_andi_all _ _ _ _ ix0 hlt (ix2 r e)
  exact toNat_lt_of_signed _ (IntOp.cmpi_sge.1 hge1) (IntOp.cmpi_slt.1 hlt1)

/-- The precondition's last two conjuncts, read off the printed predicate: every word of the edge list, read signed, is at
    least 0 and below 20000, so as a natural number it is below 20000. -/
theorem inRange (a0 : FVec Ideal S16x20000x11 .f32) (a1 : IVec S2x160000 32) (a2 : FVec Ideal S32x11 .f32) (a3 : FVec Ideal S32 .f32)
    (a4 : FVec Ideal S32x32 .f32) (a5 : FVec Ideal S32 .f32) (a6 : FVec Ideal S32x64 .f32) (a7 : FVec Ideal S32 .f32)
    (a8 : FVec Ideal S32x32 .f32) (a9 : FVec Ideal S32 .f32) (a10 : FVec Ideal S32x32 .f32) (a11 : FVec Ideal S32 .f32)
    (a12 : FVec Ideal S1x32 .f32) (a13 : FVec Ideal S1 .f32) (a14 : FVec Ideal S1x20000 .f32) (a15 : FVec Ideal S1 .f32)
    (h : Cert.Pre_finite_inputs.fn (F := Ideal) a0 a1 a2 a3 a4 a5 a6 a7 a8 a9 a10 a11 a12 a13 a14 a15 = fun _ => 1#1)
    (r : Fin 2) (e : Fin 160000) : (a1 (ix2 r e)).toNat < 20000 := by
  have h0 : fn_part4 (F := Ideal) a1 a15 _ _ ix0 = 1#1 := congrFun h ix0
  exact of_last_part a1 a15 _ _ h0 r e

end Cert.PreRange

end
-- ==== Proof.Claims.lean ====
/-
  The five claims. The two kernel programs' frames are the generated ones; the reference's frame is its run with the
  result dropped; nothing was rewritten by the idealization, so `preserves` asks nothing; and for `algebraic` both
  programs, run from memories that agree on the arguments, end with the result buffer at `Spec.Result` of those
  arguments — the precondition's range conjunct on the edge list is what makes the kernel program's guarded lookup and
  the reference's clamped one the same lookup.
-/
import proofs.«401352_j13305808683173_1_alg».proof.Defs
import proofs.«401352_j13305808683173_1_alg».proof.Proof.Gen.Kernel.Frame
import proofs.«401352_j13305808683173_1_alg».proof.Proof.Gen.KernelIdeal.Frame
import proofs.«401352_j13305808683173_1_alg».proof.Proof.Gen.ReferenceIdeal
import proofs.«401352_j13305808683173_1_alg».proof.Proof.Gen.Pre_finite_inputs
import proofs.«401352_j13305808683173_1_alg».proof.Proof.KRun
import proofs.«401352_j13305808683173_1_alg».proof.Proof.KValue
import proofs.«401352_j13305808683173_1_alg».proof.Proof.RRun
import proofs.«401352_j13305808683173_1_alg».proof.Proof.RValue
import proofs.«401352_j13305808683173_1_alg».proof.Proof.PreRange

set_option maxRecDepth 16384

noncomputable section

namespace Cert.Proof.Claims

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference runs and keeps its arguments: its run, every buffer at the operations' fold, read at the arguments. -/
theorem frame_ri : Cert.frame_ReferenceIdeal := fun m ρ _ =>
  (θ_run Cert.ReferenceIdeal.defs _ _).mono (fun r h c => by
    obtain ⟨k0, k1, k2, k3, k4, k5, k6, k7, k8, k9, k10, k11, k12, k13, k14, k15⟩ := Cert.ReferenceIdeal.Value.arg_kept m c
    exact ⟨(h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12, (h c Cert.ReferenceIdeal.main_arg13).trans k13, (h c Cert.ReferenceIdeal.main_arg14).trans k14, (h c Cert.ReferenceIdeal.main_arg15).trans k15⟩)
    (Cert.ReferenceIdeal.RefRun.run_main (F := Ideal) m ρ)

/-- Under the precondition every word of the edge list names a node. -/
theorem inRange (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.Value.args m c).InRange :=
  fun r e => Cert.PreRange.inRange _ _ _ _ _ _ _ _ _ _ _ _ _ _ _ _ (hpre c) r e

theorem algebraic : Cert.algebraic_KernelIdeal_ReferenceIdeal := by
  intro m ρ m' ρ' hpre hagree
  have hE : ∀ c, (Cert.KernelIdeal.Value.args m c).InRange := inRange m hpre
  have hargs : ∀ c, Cert.ReferenceIdeal.Value.args m' c = Cert.KernelIdeal.Value.args m c := by
    intro c
    obtain ⟨a0, a1, a2, a3, a4, a5, a6, a7, a8, a9, a10, a11, a12, a13, a14, a15⟩ := hagree c
    unfold Cert.ReferenceIdeal.Value.args Cert.KernelIdeal.Value.args
    rw [a0, a1, a2, a3, a4, a5, a6, a7, a8, a9, a10, a11, a12, a13, a14, a15]
  have hE' : ∀ c, (Cert.ReferenceIdeal.Value.args m' c).InRange := fun c => (hargs c) ▸ hE c
  refine ⟨fun c => Cert.Spec.Result (Cert.KernelIdeal.Value.args m c), ?_, ?_⟩
  · exact (θ_run Cert.KernelIdeal.defs _ _).mono
      (fun r h c => ⟨(h c).1.trans (Cert.KernelIdeal.Value.result m ρ hE c), (h c).2⟩)
      (Cert.KernelIdeal.RunValue.run_value (F := Ideal) m ρ)
  · refine (θ_run Cert.ReferenceIdeal.defs _ _).mono (fun r h c => ?_)
      (Cert.ReferenceIdeal.RefRun.run_main (F := Ideal) m' ρ')
    obtain ⟨k0, k1, k2, k3, k4, k5, k6, k7, k8, k9, k10, k11, k12, k13, k14, k15⟩ := Cert.ReferenceIdeal.Value.arg_kept m' c
    exact ⟨(h c Cert.ReferenceIdeal.main_v83).trans
        ((Cert.ReferenceIdeal.Value.result m' hE' c).trans (congrArg Cert.Spec.Result (hargs c))),
      (h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12, (h c Cert.ReferenceIdeal.main_arg13).trans k13, (h c Cert.ReferenceIdeal.main_arg14).trans k14, (h c Cert.ReferenceIdeal.main_arg15).trans k15⟩

end Cert.Proof.Claims

end
-- ==== Proof.lean ====
/-
  The proof of `Cert.Claim`: a three-stage graph network whose dense stages run as kernels (the node perceptron, the edge
  perceptron, the node-output perceptron) against its jnp reference, equal over the extended reals under the precondition
  that every float input is finite and every word of the edge list names a node.
  Proof/Spec.lean states the common mathematics; Proof/KValue.lean shows the kernel program returns it (the regions'
  closed forms in Proof/KRegion*.lean, the host operations between them in Proof/KHost*.lean), Proof/RValue.lean that the
  reference does (its stretches in Proof/RStage*.lean over its run, Proof/RRun.lean); Proof/Claims.lean assembles the
  five claims behind the witnesses of the programs' stated facts.
-/
import proofs.«401352_j13305808683173_1_alg».proof.Defs
import proofs.«401352_j13305808683173_1_alg».proof.Proof.Gen.Kernel
import proofs.«401352_j13305808683173_1_alg».proof.Proof.Gen.KernelIdeal
import proofs.«401352_j13305808683173_1_alg».proof.Proof.Gen.ReferenceIdeal
import proofs.«401352_j13305808683173_1_alg».proof.Proof.Gen.Pre_finite_inputs
import proofs.«401352_j13305808683173_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, trivial, Cert.Proof.Claims.algebraic⟩

end Cert.Proof

end
